-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S4x500000 : Shape := ⟨2, ![4, 500000]⟩
abbrev S100000x128 : Shape := ⟨2, ![100000, 128]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S100000 : S_.BroadcastsInDim S100000 (![] : Fin 0 → Fin S100000.rank)
  reducesTo_S100000_S_d0 : S100000.ReducesTo [0] S_
  bcast_S_S4x500000 : S_.BroadcastsInDim S4x500000 (![] : Fin 0 → Fin S4x500000.rank)
  reducesTo_S4x500000_S_d0_1 : S4x500000.ReducesTo [0, 1] S_

variable [Facts]

def fn_part2 {F : FTy → Type} [FloatOps F] (main_arg1 : IVec S4x500000 32) (main_v31 : IVec S_ 1) (main_v32 : IVec S4x500000 32) : IVec S_ 1 :=
  let main_v33 : IVec S4x500000 1 := cmpi .sge main_arg1 main_v32
  let main_c_13 : IVec S_ 1 := constantI S_ 1 1#1
  let main_v34 : IVec S_ 1 := (fun x v => Host.reduce IntOp.andi x v reducesTo_S4x500000_S_d0_1 h_S_) main_v33 main_c_13
  let main_v35 : IVec S_ 1 := andi main_v31 main_v34
  let main_c_14 : IVec S_ 32 := constantI S_ 32 100000#32
  let main_v36 : IVec S4x500000 32 := broadcastInDim S4x500000 ![] bcast_S_S4x500000 main_c_14
  let main_v37 : IVec S4x500000 1 := cmpi .slt main_arg1 main_v36
  let main_c_15 : IVec S_ 1 := constantI S_ 1 1#1
  let main_v38 : IVec S_ 1 := (fun x v => Host.reduce IntOp.andi x v reducesTo_S4x500000_S_d0_1 h_S_) main_v37 main_c_15
  let main_v39 : IVec S_ 1 := andi main_v35 main_v38
  main_v39

def fn_part1 {F : FTy → Type} [FloatOps F] (main_arg0 : IVec S100000 32) (main_arg1 : IVec S4x500000 32) (main_arg7 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg0 main_v24
  let main_c_9 : IVec S_ 1 := constantI S_ 1 1#1
  let main_v26 : IVec S_ 1 := (fun x v => Host.reduce IntOp.andi x v reducesTo_S100000_S_d0 h_S_) main_v25 main_c_9
  let main_v27 : IVec S_ 1 := andi main_v23 main_v26
  let main_c_10 : IVec S_ 32 := constantI S_ 32 100000#32
  let main_v28 : IVec S100000 32 := broadcastInDim S100000 ![] bcast_S_S100000 main_c_10
  let main_v29 : IVec S100000 1 := cmpi .slt main_arg0 main_v28
  let main_c_11 : IVec S_ 1 := constantI S_ 1 1#1
  let main_v30 : IVec S_ 1 := (fun x v => Host.reduce IntOp.andi x v reducesTo_S100000_S_d0 h_S_) main_v29 main_c_11
  let main_v31 : IVec S_ 1 := andi main_v27 main_v30
  let main_c_12 : IVec S_ 32 := constantI S_ 32 0#32
  let main_v32 : IVec S4x500000 32 := broadcastInDim S4x500000 ![] bcast_S_S4x500000 main_c_12
  fn_part2 (F := F) main_arg1 main_v31 main_v32

def fn {F : FTy → Type} [FloatOps F] (main_arg0 : IVec S100000 32) (main_arg1 : IVec S4x500000 32) (main_arg2 : IVec S4x500000 32) (main_arg3 : FVec F S100000x128 .f32) (main_arg4 : FVec F S4x128x128 .f32) (main_arg5 : FVec F S4x128 .f32) (main_arg6 : FVec F S4x128x128 .f32) (main_arg7 : FVec F S4x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg6
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg0 main_arg1 main_arg7 main_v13 main_v16
-- ==== Kernel.lean ====
abbrev S100000 : Shape := ⟨1, ![100000]⟩
abbrev S4x500000 : Shape := ⟨2, ![4, 500000]⟩
abbrev S100000x128 : Shape := ⟨2, ![100000, 128]⟩
abbrev S4x128x128 : Shape := ⟨3, ![4, 128, 128]⟩
abbrev S4x128 : Shape := ⟨2, ![4, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S500000 : Shape := ⟨1, ![500000]⟩
abbrev S1x500000 : Shape := ⟨2, ![1, 500000]⟩
abbrev S500000x1 : Shape := ⟨2, ![500000, 1]⟩
abbrev S4x100000x128 : Shape := ⟨3, ![4, 100000, 128]⟩
abbrev S2000x128 : Shape := ⟨2, ![2000, 128]⟩
abbrev S4x2000x128 : Shape := ⟨3, ![4, 2000, 128]⟩
abbrev S1x128x128 : Shape := ⟨3, ![1, 128, 128]⟩
abbrev S128x128 : Shape := ⟨2, ![128, 128]⟩
abbrev S1x2000x128 : Shape := ⟨3, ![1, 2000, 128]⟩
abbrev S1x100000x128 : Shape := ⟨3, ![1, 100000, 128]⟩
abbrev S500000x128 : Shape := ⟨2, ![500000, 128]⟩
abbrev S128 : Shape := ⟨1, ![128]⟩
abbrev S1x128 : Shape := ⟨2, ![1, 128]⟩

abbrev nBuf : Space → Nat
  | .hbm => 619
  | .vmem => 32
  | .smem => 0
  | _ => 0

abbrev hbmTy0_0 (i : Nat) : BufTy := match i % 128 with
  | 0 => ⟨S100000, .i32⟩
  | 1 => ⟨S4x500000, .i32⟩
  | 2 => ⟨S4x500000, .i32⟩
  | 3 => ⟨S100000x128, .f32⟩
  | 4 => ⟨S4x128x128, .f32⟩
  | 5 => ⟨S4x128, .f32⟩
  | 6 => ⟨S4x128x128, .f32⟩
  | 7 => ⟨S4x128, .f32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S1, .i32⟩
  | 17 => ⟨S_, .i32⟩
  | 18 => ⟨S100000x1, .i32⟩
  | 19 => ⟨S100000x1, .i1⟩
  | 20 => ⟨S1x1, .i32⟩
  | 21 => ⟨S100000x1, .i32⟩
  | 22 => ⟨S100000x1, .i1⟩
  | 23 => ⟨S100000x1, .i1⟩
  | 24 => ⟨S_, .i1⟩
  | 25 => ⟨S100000, .i1⟩
  | 26 => ⟨S100000x128, .f32⟩
  | 27 => ⟨S100000x128, .i1⟩
  | 28 => ⟨S_, .f32⟩
  | 29 => ⟨S100000x128, .f32⟩
  | 30 => ⟨S100000x128, .f32⟩
  | 31 => ⟨S_, .f32⟩
  | 32 => ⟨S500000, .f32⟩
  | 33 => ⟨S1x500000, .i32⟩
  | 34 => ⟨S500000, .i32⟩
  | 35 => ⟨S_, .f32⟩
  | 36 => ⟨S100000, .f32⟩
  | 37 => ⟨S500000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S1x500000, .i32⟩
  | 44 => ⟨S500000, .i32⟩
  | 45 => ⟨S_, .f32⟩
  | 46 => ⟨S100000, .f32⟩
  | 47 => ⟨S500000x1, .i32⟩
  | 48 => ⟨S100000, .f32⟩
  | 49 => ⟨S_, .f32⟩
  | 50 => ⟨S_, .f32⟩
  | 51 => ⟨S100000, .f32⟩
  | 52 => ⟨S100000, .f32⟩
  | 53 => ⟨S100000, .f32⟩
  | 54 => ⟨S100000, .f32⟩
  | 55 => ⟨S1x500000, .i32⟩
  | 56 => ⟨S500000, .i32⟩
  | 57 => ⟨S_, .f32⟩
  | 58 => ⟨S100000, .f32⟩
  | 59 => ⟨S500000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S1x500000, .i32⟩
  | 66 => ⟨S500000, .i32⟩
  | 67 => ⟨S_, .f32⟩
  | 68 => ⟨S100000, .f32⟩
  | 69 => ⟨S500000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S100000, .f32⟩
  | 76 => ⟨S100000, .f32⟩
  | 77 => ⟨S1x500000, .i32⟩
  | 78 => ⟨S500000, .i32⟩
  | 79 => ⟨S_, .f32⟩
  | 80 => ⟨S100000, .f32⟩
  | 81 => ⟨S500000x1, .i32⟩
  | 82 => ⟨S100000, .f32⟩
  | 83 => ⟨S_, .f32⟩
  | 84 => ⟨S_, .f32⟩
  | 85 => ⟨S100000, .f32⟩
  | 86 => ⟨S100000, .f32⟩
  | 87 => ⟨S1x500000, .i32⟩
  | 88 => ⟨S500000, .i32⟩
  | 89 => ⟨S_, .f32⟩
  | 90 => ⟨S100000, .f32⟩
  | 91 => ⟨S500000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S100000, .f32⟩
  | 98 => ⟨S100000, .f32⟩
  | 99 => ⟨S1x500000, .i32⟩
  | 100 => ⟨S500000, .i32⟩
  | 101 => ⟨S_, .f32⟩
  | 102 => ⟨S100000, .f32⟩
  | 103 => ⟨S500000x1, .i32⟩
  | 104 => ⟨S100000, .f32⟩
  | 105 => ⟨S_, .f32⟩
  | 106 => ⟨S_, .f32⟩
  | 107 => ⟨S100000, .f32⟩
  | 108 => ⟨S100000, .f32⟩
  | 109 => ⟨S1x500000, .i32⟩
  | 110 => ⟨S500000, .i32⟩
  | 111 => ⟨S_, .f32⟩
  | 112 => ⟨S100000, .f32⟩
  | 113 => ⟨S500000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000, .f32⟩
  | 120 => ⟨S100000, .f32⟩
  | 121 => ⟨S4x100000x128, .f32⟩
  | 122 => ⟨S1x100000x128, .f32⟩
  | 123 => ⟨S100000x128, .f32⟩
  | 124 => ⟨S1x500000, .i32⟩
  | 125 => ⟨S500000, .i32⟩
  | 126 => ⟨S1x500000, .i32⟩
  | 127 => ⟨S500000, .i32⟩
  | _ => ⟨S100000, .i32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S1, .i32⟩
  | 9 => ⟨S_, .i32⟩
  | 10 => ⟨S500000x1, .i32⟩
  | 11 => ⟨S500000x1, .i1⟩
  | 12 => ⟨S1x1, .i32⟩
  | 13 => ⟨S500000x1, .i32⟩
  | 14 => ⟨S500000x1, .i1⟩
  | 15 => ⟨S500000x1, .i1⟩
  | 16 => ⟨S_, .i1⟩
  | 17 => ⟨S500000, .i1⟩
  | 18 => ⟨S500000x128, .f32⟩
  | 19 => ⟨S500000x128, .i1⟩
  | 20 => ⟨S_, .f32⟩
  | 21 => ⟨S500000x128, .f32⟩
  | 22 => ⟨S500000x128, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S1, .i32⟩
  | 32 => ⟨S_, .i32⟩
  | 33 => ⟨S500000x1, .i32⟩
  | 34 => ⟨S500000x1, .i1⟩
  | 35 => ⟨S1x1, .i32⟩
  | 36 => ⟨S500000x1, .i32⟩
  | 37 => ⟨S500000x1, .i1⟩
  | 38 => ⟨S500000x1, .i1⟩
  | 39 => ⟨S_, .i1⟩
  | 40 => ⟨S500000, .i1⟩
  | 41 => ⟨S500000, .f32⟩
  | 42 => ⟨S_, .f32⟩
  | 43 => ⟨S500000, .f32⟩
  | 44 => ⟨S500000, .f32⟩
  | 45 => ⟨S500000x1, .f32⟩
  | 46 => ⟨S500000x128, .f32⟩
  | 47 => ⟨S500000x128, .f32⟩
  | 48 => ⟨S_, .f32⟩
  | 49 => ⟨S100000x128, .f32⟩
  | 50 => ⟨S500000x1, .i32⟩
  | 51 => ⟨S100000x128, .f32⟩
  | 52 => ⟨S100000x1, .f32⟩
  | 53 => ⟨S100000x128, .f32⟩
  | 54 => ⟨S100000x128, .f32⟩
  | 55 => ⟨S1x100000x128, .f32⟩
  | 56 => ⟨S100000x128, .f32⟩
  | 57 => ⟨S1x500000, .i32⟩
  | 58 => ⟨S500000, .i32⟩
  | 59 => ⟨S1x500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S1, .i32⟩
  | 70 => ⟨S_, .i32⟩
  | 71 => ⟨S500000x1, .i32⟩
  | 72 => ⟨S500000x1, .i1⟩
  | 73 => ⟨S1x1, .i32⟩
  | 74 => ⟨S500000x1, .i32⟩
  | 75 => ⟨S500000x1, .i1⟩
  | 76 => ⟨S500000x1, .i1⟩
  | 77 => ⟨S_, .i1⟩
  | 78 => ⟨S500000, .i1⟩
  | 79 => ⟨S500000x128, .f32⟩
  | 80 => ⟨S500000x128, .i1⟩
  | 81 => ⟨S_, .f32⟩
  | 82 => ⟨S500000x128, .f32⟩
  | 83 => ⟨S500000x128, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S1, .i32⟩
  | 93 => ⟨S_, .i32⟩
  | 94 => ⟨S500000x1, .i32⟩
  | 95 => ⟨S500000x1, .i1⟩
  | 96 => ⟨S1x1, .i32⟩
  | 97 => ⟨S500000x1, .i32⟩
  | 98 => ⟨S500000x1, .i1⟩
  | 99 => ⟨S500000x1, .i1⟩
  | 100 => ⟨S_, .i1⟩
  | 101 => ⟨S500000, .i1⟩
  | 102 => ⟨S500000, .f32⟩
  | 103 => ⟨S_, .f32⟩
  | 104 => ⟨S500000, .f32⟩
  | 105 => ⟨S500000, .f32⟩
  | 106 => ⟨S500000x1, .f32⟩
  | 107 => ⟨S500000x128, .f32⟩
  | 108 => ⟨S500000x128, .f32⟩
  | 109 => ⟨S_, .f32⟩
  | 110 => ⟨S100000x128, .f32⟩
  | 111 => ⟨S500000x1, .i32⟩
  | 112 => ⟨S100000x128, .f32⟩
  | 113 => ⟨S100000x1, .f32⟩
  | 114 => ⟨S100000x128, .f32⟩
  | 115 => ⟨S100000x128, .f32⟩
  | 116 => ⟨S1x100000x128, .f32⟩
  | 117 => ⟨S100000x128, .f32⟩
  | 118 => ⟨S1x500000, .i32⟩
  | 119 => ⟨S500000, .i32⟩
  | 120 => ⟨S1x500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000, .i32⟩

abbrev hbmTy0_2 (i : Nat) : BufTy := match i % 128 with
  | 0 => ⟨S500000, .i32⟩
  | 1 => ⟨S500000x1, .i32⟩
  | 2 => ⟨S1, .i32⟩
  | 3 => ⟨S_, .i32⟩
  | 4 => ⟨S500000x1, .i32⟩
  | 5 => ⟨S500000x1, .i1⟩
  | 6 => ⟨S1x1, .i32⟩
  | 7 => ⟨S500000x1, .i32⟩
  | 8 => ⟨S500000x1, .i1⟩
  | 9 => ⟨S500000x1, .i1⟩
  | 10 => ⟨S_, .i1⟩
  | 11 => ⟨S500000, .i1⟩
  | 12 => ⟨S500000x128, .f32⟩
  | 13 => ⟨S500000x128, .i1⟩
  | 14 => ⟨S_, .f32⟩
  | 15 => ⟨S500000x128, .f32⟩
  | 16 => ⟨S500000x128, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S1, .i32⟩
  | 26 => ⟨S_, .i32⟩
  | 27 => ⟨S500000x1, .i32⟩
  | 28 => ⟨S500000x1, .i1⟩
  | 29 => ⟨S1x1, .i32⟩
  | 30 => ⟨S500000x1, .i32⟩
  | 31 => ⟨S500000x1, .i1⟩
  | 32 => ⟨S500000x1, .i1⟩
  | 33 => ⟨S_, .i1⟩
  | 34 => ⟨S500000, .i1⟩
  | 35 => ⟨S500000, .f32⟩
  | 36 => ⟨S_, .f32⟩
  | 37 => ⟨S500000, .f32⟩
  | 38 => ⟨S500000, .f32⟩
  | 39 => ⟨S500000x1, .f32⟩
  | 40 => ⟨S500000x128, .f32⟩
  | 41 => ⟨S500000x128, .f32⟩
  | 42 => ⟨S_, .f32⟩
  | 43 => ⟨S100000x128, .f32⟩
  | 44 => ⟨S500000x1, .i32⟩
  | 45 => ⟨S100000x128, .f32⟩
  | 46 => ⟨S100000x1, .f32⟩
  | 47 => ⟨S100000x128, .f32⟩
  | 48 => ⟨S100000x128, .f32⟩
  | 49 => ⟨S1x100000x128, .f32⟩
  | 50 => ⟨S100000x128, .f32⟩
  | 51 => ⟨S1x500000, .i32⟩
  | 52 => ⟨S500000, .i32⟩
  | 53 => ⟨S1x500000, .i32⟩
  | 54 => ⟨S500000, .i32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S1, .i32⟩
  | 64 => ⟨S_, .i32⟩
  | 65 => ⟨S500000x1, .i32⟩
  | 66 => ⟨S500000x1, .i1⟩
  | 67 => ⟨S1x1, .i32⟩
  | 68 => ⟨S500000x1, .i32⟩
  | 69 => ⟨S500000x1, .i1⟩
  | 70 => ⟨S500000x1, .i1⟩
  | 71 => ⟨S_, .i1⟩
  | 72 => ⟨S500000, .i1⟩
  | 73 => ⟨S500000x128, .f32⟩
  | 74 => ⟨S500000x128, .i1⟩
  | 75 => ⟨S_, .f32⟩
  | 76 => ⟨S500000x128, .f32⟩
  | 77 => ⟨S500000x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S1, .i32⟩
  | 87 => ⟨S_, .i32⟩
  | 88 => ⟨S500000x1, .i32⟩
  | 89 => ⟨S500000x1, .i1⟩
  | 90 => ⟨S1x1, .i32⟩
  | 91 => ⟨S500000x1, .i32⟩
  | 92 => ⟨S500000x1, .i1⟩
  | 93 => ⟨S500000x1, .i1⟩
  | 94 => ⟨S_, .i1⟩
  | 95 => ⟨S500000, .i1⟩
  | 96 => ⟨S500000, .f32⟩
  | 97 => ⟨S_, .f32⟩
  | 98 => ⟨S500000, .f32⟩
  | 99 => ⟨S500000, .f32⟩
  | 100 => ⟨S500000x1, .f32⟩
  | 101 => ⟨S500000x128, .f32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S100000x1, .f32⟩
  | 108 => ⟨S100000x128, .f32⟩
  | 109 => ⟨S100000x128, .f32⟩
  | 110 => ⟨S_, .f32⟩
  | 111 => ⟨S128, .f32⟩
  | 112 => ⟨S1x128, .f32⟩
  | 113 => ⟨S100000x128, .f32⟩
  | 114 => ⟨S4x100000x128, .f32⟩
  | 115 => ⟨S1x100000x128, .f32⟩
  | 116 => ⟨S100000x128, .f32⟩
  | 117 => ⟨S1x500000, .i32⟩
  | 118 => ⟨S500000, .i32⟩
  | 119 => ⟨S1x500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000, .i32⟩

abbrev hbmTy0_3 (i : Nat) : BufTy := match i % 128 with
  | 0 => ⟨S500000x1, .i32⟩
  | 1 => ⟨S1, .i32⟩
  | 2 => ⟨S_, .i32⟩
  | 3 => ⟨S500000x1, .i32⟩
  | 4 => ⟨S500000x1, .i1⟩
  | 5 => ⟨S1x1, .i32⟩
  | 6 => ⟨S500000x1, .i32⟩
  | 7 => ⟨S500000x1, .i1⟩
  | 8 => ⟨S500000x1, .i1⟩
  | 9 => ⟨S_, .i1⟩
  | 10 => ⟨S500000, .i1⟩
  | 11 => ⟨S500000x128, .f32⟩
  | 12 => ⟨S500000x128, .i1⟩
  | 13 => ⟨S_, .f32⟩
  | 14 => ⟨S500000x128, .f32⟩
  | 15 => ⟨S500000x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S1, .i32⟩
  | 25 => ⟨S_, .i32⟩
  | 26 => ⟨S500000x1, .i32⟩
  | 27 => ⟨S500000x1, .i1⟩
  | 28 => ⟨S1x1, .i32⟩
  | 29 => ⟨S500000x1, .i32⟩
  | 30 => ⟨S500000x1, .i1⟩
  | 31 => ⟨S500000x1, .i1⟩
  | 32 => ⟨S_, .i1⟩
  | 33 => ⟨S500000, .i1⟩
  | 34 => ⟨S500000, .f32⟩
  | 35 => ⟨S_, .f32⟩
  | 36 => ⟨S500000, .f32⟩
  | 37 => ⟨S500000, .f32⟩
  | 38 => ⟨S500000x1, .f32⟩
  | 39 => ⟨S500000x128, .f32⟩
  | 40 => ⟨S500000x128, .f32⟩
  | 41 => ⟨S_, .f32⟩
  | 42 => ⟨S100000x128, .f32⟩
  | 43 => ⟨S500000x1, .i32⟩
  | 44 => ⟨S100000x128, .f32⟩
  | 45 => ⟨S100000x1, .f32⟩
  | 46 => ⟨S100000x128, .f32⟩
  | 47 => ⟨S100000x128, .f32⟩
  | 48 => ⟨S1x100000x128, .f32⟩
  | 49 => ⟨S100000x128, .f32⟩
  | 50 => ⟨S1x500000, .i32⟩
  | 51 => ⟨S500000, .i32⟩
  | 52 => ⟨S1x500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S1, .i32⟩
  | 63 => ⟨S_, .i32⟩
  | 64 => ⟨S500000x1, .i32⟩
  | 65 => ⟨S500000x1, .i1⟩
  | 66 => ⟨S1x1, .i32⟩
  | 67 => ⟨S500000x1, .i32⟩
  | 68 => ⟨S500000x1, .i1⟩
  | 69 => ⟨S500000x1, .i1⟩
  | 70 => ⟨S_, .i1⟩
  | 71 => ⟨S500000, .i1⟩
  | 72 => ⟨S500000x128, .f32⟩
  | 73 => ⟨S500000x128, .i1⟩
  | 74 => ⟨S_, .f32⟩
  | 75 => ⟨S500000x128, .f32⟩
  | 76 => ⟨S500000x128, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S1, .i32⟩
  | 86 => ⟨S_, .i32⟩
  | 87 => ⟨S500000x1, .i32⟩
  | 88 => ⟨S500000x1, .i1⟩
  | 89 => ⟨S1x1, .i32⟩
  | 90 => ⟨S500000x1, .i32⟩
  | 91 => ⟨S500000x1, .i1⟩
  | 92 => ⟨S500000x1, .i1⟩
  | 93 => ⟨S_, .i1⟩
  | 94 => ⟨S500000, .i1⟩
  | 95 => ⟨S500000, .f32⟩
  | 96 => ⟨S_, .f32⟩
  | 97 => ⟨S500000, .f32⟩
  | 98 => ⟨S500000, .f32⟩
  | 99 => ⟨S500000x1, .f32⟩
  | 100 => ⟨S500000x128, .f32⟩
  | 101 => ⟨S500000x128, .f32⟩
  | 102 => ⟨S_, .f32⟩
  | 103 => ⟨S100000x128, .f32⟩
  | 104 => ⟨S500000x1, .i32⟩
  | 105 => ⟨S100000x128, .f32⟩
  | 106 => ⟨S100000x1, .f32⟩
  | 107 => ⟨S100000x128, .f32⟩
  | 108 => ⟨S100000x128, .f32⟩
  | 109 => ⟨S1x100000x128, .f32⟩
  | 110 => ⟨S100000x128, .f32⟩
  | 111 => ⟨S1x500000, .i32⟩
  | 112 => ⟨S500000, .i32⟩
  | 113 => ⟨S1x500000, .i32⟩
  | 114 => ⟨S500000, .i32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S1, .i32⟩
  | 124 => ⟨S_, .i32⟩
  | 125 => ⟨S500000x1, .i32⟩
  | 126 => ⟨S500000x1, .i1⟩
  | 127 => ⟨S1x1, .i32⟩
  | _ => ⟨S100000, .i32⟩

abbrev hbmTy0_4 (i : Nat) : BufTy := match i % 128 with
  | 0 => ⟨S500000x1, .i32⟩
  | 1 => ⟨S500000x1, .i1⟩
  | 2 => ⟨S500000x1, .i1⟩
  | 3 => ⟨S_, .i1⟩
  | 4 => ⟨S500000, .i1⟩
  | 5 => ⟨S500000x128, .f32⟩
  | 6 => ⟨S500000x128, .i1⟩
  | 7 => ⟨S_, .f32⟩
  | 8 => ⟨S500000x128, .f32⟩
  | 9 => ⟨S500000x128, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S1, .i32⟩
  | 19 => ⟨S_, .i32⟩
  | 20 => ⟨S500000x1, .i32⟩
  | 21 => ⟨S500000x1, .i1⟩
  | 22 => ⟨S1x1, .i32⟩
  | 23 => ⟨S500000x1, .i32⟩
  | 24 => ⟨S500000x1, .i1⟩
  | 25 => ⟨S500000x1, .i1⟩
  | 26 => ⟨S_, .i1⟩
  | 27 => ⟨S500000, .i1⟩
  | 28 => ⟨S500000, .f32⟩
  | 29 => ⟨S_, .f32⟩
  | 30 => ⟨S500000, .f32⟩
  | 31 => ⟨S500000, .f32⟩
  | 32 => ⟨S500000x1, .f32⟩
  | 33 => ⟨S500000x128, .f32⟩
  | 34 => ⟨S500000x128, .f32⟩
  | 35 => ⟨S_, .f32⟩
  | 36 => ⟨S100000x128, .f32⟩
  | 37 => ⟨S500000x1, .i32⟩
  | 38 => ⟨S100000x128, .f32⟩
  | 39 => ⟨S100000x1, .f32⟩
  | 40 => ⟨S100000x128, .f32⟩
  | 41 => ⟨S100000x128, .f32⟩
  | 42 => ⟨S1x100000x128, .f32⟩
  | 43 => ⟨S100000x128, .f32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S1, .i32⟩
  | 57 => ⟨S_, .i32⟩
  | 58 => ⟨S500000x1, .i32⟩
  | 59 => ⟨S500000x1, .i1⟩
  | 60 => ⟨S1x1, .i32⟩
  | 61 => ⟨S500000x1, .i32⟩
  | 62 => ⟨S500000x1, .i1⟩
  | 63 => ⟨S500000x1, .i1⟩
  | 64 => ⟨S_, .i1⟩
  | 65 => ⟨S500000, .i1⟩
  | 66 => ⟨S500000x128, .f32⟩
  | 67 => ⟨S500000x128, .i1⟩
  | 68 => ⟨S_, .f32⟩
  | 69 => ⟨S500000x128, .f32⟩
  | 70 => ⟨S500000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S1, .i32⟩
  | 80 => ⟨S_, .i32⟩
  | 81 => ⟨S500000x1, .i32⟩
  | 82 => ⟨S500000x1, .i1⟩
  | 83 => ⟨S1x1, .i32⟩
  | 84 => ⟨S500000x1, .i32⟩
  | 85 => ⟨S500000x1, .i1⟩
  | 86 => ⟨S500000x1, .i1⟩
  | 87 => ⟨S_, .i1⟩
  | 88 => ⟨S500000, .i1⟩
  | 89 => ⟨S500000, .f32⟩
  | 90 => ⟨S_, .f32⟩
  | 91 => ⟨S500000, .f32⟩
  | 92 => ⟨S500000, .f32⟩
  | 93 => ⟨S500000x1, .f32⟩
  | 94 => ⟨S500000x128, .f32⟩
  | 95 => ⟨S500000x128, .f32⟩
  | 96 => ⟨S_, .f32⟩
  | 97 => ⟨S100000x128, .f32⟩
  | 98 => ⟨S500000x1, .i32⟩
  | 99 => ⟨S100000x128, .f32⟩
  | 100 => ⟨S100000x1, .f32⟩
  | 101 => ⟨S100000x128, .f32⟩
  | 102 => ⟨S100000x128, .f32⟩
  | 103 => ⟨S_, .f32⟩
  | 104 => ⟨S128, .f32⟩
  | 105 => ⟨S1x128, .f32⟩
  | 106 => ⟨S100000x128, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S4x128x128, .f32⟩
  | .local _ .vmem, ⟨3, _⟩ => ⟨S4x2000x128, .f32⟩
  | .local _ .vmem, ⟨4, _⟩ => ⟨S4x2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S4x128x128, .f32⟩
  | .local _ .vmem, ⟨19, _⟩ => ⟨S4x2000x128, .f32⟩
  | .local _ .vmem, ⟨20, _⟩ => ⟨S4x2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_2 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_4 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_5 : Ref sig .tc := ⟨.hbm, 61, rfl⟩
abbrev main_call3_v0 : Ref sig .tc := ⟨.hbm, 62, rfl⟩
abbrev main_call3_v1 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_6 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_7 : Ref sig .tc := ⟨.hbm, 71, rfl⟩
abbrev main_call4_v0 : Ref sig .tc := ⟨.hbm, 72, rfl⟩
abbrev main_call4_v1 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_8 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_9 : Ref sig .tc := ⟨.hbm, 83, rfl⟩
abbrev main_call5_v0 : Ref sig .tc := ⟨.hbm, 84, rfl⟩
abbrev main_call5_v1 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_10 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_11 : Ref sig .tc := ⟨.hbm, 93, rfl⟩
abbrev main_call6_v0 : Ref sig .tc := ⟨.hbm, 94, rfl⟩
abbrev main_call6_v1 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_12 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_13 : Ref sig .tc := ⟨.hbm, 105, rfl⟩
abbrev main_call7_v0 : Ref sig .tc := ⟨.hbm, 106, rfl⟩
abbrev main_call7_v1 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_14 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_15 : Ref sig .tc := ⟨.hbm, 115, rfl⟩
abbrev main_call8_v0 : Ref sig .tc := ⟨.hbm, 116, rfl⟩
abbrev main_call8_v1 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_call9_c : Ref sig .tc := ⟨.hbm, 128, rfl⟩
abbrev main_call9_v0 : Ref sig .tc := ⟨.hbm, 129, rfl⟩
abbrev main_call9_v1 : Ref sig .tc := ⟨.hbm, 130, rfl⟩
abbrev main_call9_c_0 : Ref sig .tc := ⟨.hbm, 131, rfl⟩
abbrev main_call9_v2 : Ref sig .tc := ⟨.hbm, 132, rfl⟩
abbrev main_call9_v3 : Ref sig .tc := ⟨.hbm, 133, rfl⟩
abbrev main_call9_v4 : Ref sig .tc := ⟨.hbm, 134, rfl⟩
abbrev main_call9_v5 : Ref sig .tc := ⟨.hbm, 135, rfl⟩
abbrev main_call9_c_1 : Ref sig .tc := ⟨.hbm, 136, rfl⟩
abbrev main_call9_c_2 : Ref sig .tc := ⟨.hbm, 137, rfl⟩
abbrev main_call9_v6 : Ref sig .tc := ⟨.hbm, 138, rfl⟩
abbrev main_call9_v7 : Ref sig .tc := ⟨.hbm, 139, rfl⟩
abbrev main_call9_v8 : Ref sig .tc := ⟨.hbm, 140, rfl⟩
abbrev main_call9_v9 : Ref sig .tc := ⟨.hbm, 141, rfl⟩
abbrev main_call9_v10 : Ref sig .tc := ⟨.hbm, 142, rfl⟩
abbrev main_call9_v11 : Ref sig .tc := ⟨.hbm, 143, rfl⟩
abbrev main_call9_c_3 : Ref sig .tc := ⟨.hbm, 144, rfl⟩
abbrev main_call9_v12 : Ref sig .tc := ⟨.hbm, 145, rfl⟩
abbrev main_call9_v13 : Ref sig .tc := ⟨.hbm, 146, rfl⟩
abbrev main_call9_v14 : Ref sig .tc := ⟨.hbm, 147, rfl⟩
abbrev main_call9_cst : Ref sig .tc := ⟨.hbm, 148, rfl⟩
abbrev main_call9_v15 : Ref sig .tc := ⟨.hbm, 149, rfl⟩
abbrev main_v65 : Ref sig .tc := ⟨.hbm, 150, rfl⟩
abbrev main_call10_c : Ref sig .tc := ⟨.hbm, 151, rfl⟩
abbrev main_call10_v0 : Ref sig .tc := ⟨.hbm, 152, rfl⟩
abbrev main_call10_v1 : Ref sig .tc := ⟨.hbm, 153, rfl⟩
abbrev main_call10_c_0 : Ref sig .tc := ⟨.hbm, 154, rfl⟩
abbrev main_call10_v2 : Ref sig .tc := ⟨.hbm, 155, rfl⟩
abbrev main_call10_v3 : Ref sig .tc := ⟨.hbm, 156, rfl⟩
abbrev main_call10_v4 : Ref sig .tc := ⟨.hbm, 157, rfl⟩
abbrev main_call10_v5 : Ref sig .tc := ⟨.hbm, 158, rfl⟩
abbrev main_call10_c_1 : Ref sig .tc := ⟨.hbm, 159, rfl⟩
abbrev main_call10_c_2 : Ref sig .tc := ⟨.hbm, 160, rfl⟩
abbrev main_call10_v6 : Ref sig .tc := ⟨.hbm, 161, rfl⟩
abbrev main_call10_v7 : Ref sig .tc := ⟨.hbm, 162, rfl⟩
abbrev main_call10_v8 : Ref sig .tc := ⟨.hbm, 163, rfl⟩
abbrev main_call10_v9 : Ref sig .tc := ⟨.hbm, 164, rfl⟩
abbrev main_call10_v10 : Ref sig .tc := ⟨.hbm, 165, rfl⟩
abbrev main_call10_v11 : Ref sig .tc := ⟨.hbm, 166, rfl⟩
abbrev main_call10_c_3 : Ref sig .tc := ⟨.hbm, 167, rfl⟩
abbrev main_call10_v12 : Ref sig .tc := ⟨.hbm, 168, rfl⟩
abbrev main_call10_v13 : Ref sig .tc := ⟨.hbm, 169, rfl⟩
abbrev main_call10_cst : Ref sig .tc := ⟨.hbm, 170, rfl⟩
abbrev main_call10_v14 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_cst_16 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_call11_c : Ref sig .tc := ⟨.hbm, 189, rfl⟩
abbrev main_call11_v0 : Ref sig .tc := ⟨.hbm, 190, rfl⟩
abbrev main_call11_v1 : Ref sig .tc := ⟨.hbm, 191, rfl⟩
abbrev main_call11_c_0 : Ref sig .tc := ⟨.hbm, 192, rfl⟩
abbrev main_call11_v2 : Ref sig .tc := ⟨.hbm, 193, rfl⟩
abbrev main_call11_v3 : Ref sig .tc := ⟨.hbm, 194, rfl⟩
abbrev main_call11_v4 : Ref sig .tc := ⟨.hbm, 195, rfl⟩
abbrev main_call11_v5 : Ref sig .tc := ⟨.hbm, 196, rfl⟩
abbrev main_call11_c_1 : Ref sig .tc := ⟨.hbm, 197, rfl⟩
abbrev main_call11_c_2 : Ref sig .tc := ⟨.hbm, 198, rfl⟩
abbrev main_call11_v6 : Ref sig .tc := ⟨.hbm, 199, rfl⟩
abbrev main_call11_v7 : Ref sig .tc := ⟨.hbm, 200, rfl⟩
abbrev main_call11_v8 : Ref sig .tc := ⟨.hbm, 201, rfl⟩
abbrev main_call11_v9 : Ref sig .tc := ⟨.hbm, 202, rfl⟩
abbrev main_call11_v10 : Ref sig .tc := ⟨.hbm, 203, rfl⟩
abbrev main_call11_v11 : Ref sig .tc := ⟨.hbm, 204, rfl⟩
abbrev main_call11_c_3 : Ref sig .tc := ⟨.hbm, 205, rfl⟩
abbrev main_call11_v12 : Ref sig .tc := ⟨.hbm, 206, rfl⟩
abbrev main_call11_v13 : Ref sig .tc := ⟨.hbm, 207, rfl⟩
abbrev main_call11_v14 : Ref sig .tc := ⟨.hbm, 208, rfl⟩
abbrev main_call11_cst : Ref sig .tc := ⟨.hbm, 209, rfl⟩
abbrev main_call11_v15 : Ref sig .tc := ⟨.hbm, 210, rfl⟩
abbrev main_v82 : Ref sig .tc := ⟨.hbm, 211, rfl⟩
abbrev main_call12_c : Ref sig .tc := ⟨.hbm, 212, rfl⟩
abbrev main_call12_v0 : Ref sig .tc := ⟨.hbm, 213, rfl⟩
abbrev main_call12_v1 : Ref sig .tc := ⟨.hbm, 214, rfl⟩
abbrev main_call12_c_0 : Ref sig .tc := ⟨.hbm, 215, rfl⟩
abbrev main_call12_v2 : Ref sig .tc := ⟨.hbm, 216, rfl⟩
abbrev main_call12_v3 : Ref sig .tc := ⟨.hbm, 217, rfl⟩
abbrev main_call12_v4 : Ref sig .tc := ⟨.hbm, 218, rfl⟩
abbrev main_call12_v5 : Ref sig .tc := ⟨.hbm, 219, rfl⟩
abbrev main_call12_c_1 : Ref sig .tc := ⟨.hbm, 220, rfl⟩
abbrev main_call12_c_2 : Ref sig .tc := ⟨.hbm, 221, rfl⟩
abbrev main_call12_v6 : Ref sig .tc := ⟨.hbm, 222, rfl⟩
abbrev main_call12_v7 : Ref sig .tc := ⟨.hbm, 223, rfl⟩
abbrev main_call12_v8 : Ref sig .tc := ⟨.hbm, 224, rfl⟩
abbrev main_call12_v9 : Ref sig .tc := ⟨.hbm, 225, rfl⟩
abbrev main_call12_v10 : Ref sig .tc := ⟨.hbm, 226, rfl⟩
abbrev main_call12_v11 : Ref sig .tc := ⟨.hbm, 227, rfl⟩
abbrev main_call12_c_3 : Ref sig .tc := ⟨.hbm, 228, rfl⟩
abbrev main_call12_v12 : Ref sig .tc := ⟨.hbm, 229, rfl⟩
abbrev main_call12_v13 : Ref sig .tc := ⟨.hbm, 230, rfl⟩
abbrev main_call12_cst : Ref sig .tc := ⟨.hbm, 231, rfl⟩
abbrev main_call12_v14 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_cst_17 : Ref sig .tc := ⟨.hbm, 237, rfl⟩
abbrev main_v87 : Ref sig .tc := ⟨.hbm, 238, rfl⟩
abbrev main_v88 : Ref sig .tc := ⟨.hbm, 239, rfl⟩
abbrev main_v89 : Ref sig .tc := ⟨.hbm, 240, rfl⟩
abbrev main_v90 : Ref sig .tc := ⟨.hbm, 241, rfl⟩
abbrev main_v91 : Ref sig .tc := ⟨.hbm, 242, rfl⟩
abbrev main_v92 : Ref sig .tc := ⟨.hbm, 243, rfl⟩
abbrev main_v93 : Ref sig .tc := ⟨.hbm, 244, rfl⟩
abbrev main_v94 : Ref sig .tc := ⟨.hbm, 245, rfl⟩
abbrev main_v95 : Ref sig .tc := ⟨.hbm, 246, rfl⟩
abbrev main_v96 : Ref sig .tc := ⟨.hbm, 247, rfl⟩
abbrev main_v97 : Ref sig .tc := ⟨.hbm, 248, rfl⟩
abbrev main_v98 : Ref sig .tc := ⟨.hbm, 249, rfl⟩
abbrev main_call13_c : Ref sig .tc := ⟨.hbm, 250, rfl⟩
abbrev main_call13_v0 : Ref sig .tc := ⟨.hbm, 251, rfl⟩
abbrev main_call13_v1 : Ref sig .tc := ⟨.hbm, 252, rfl⟩
abbrev main_call13_c_0 : Ref sig .tc := ⟨.hbm, 253, rfl⟩
abbrev main_call13_v2 : Ref sig .tc := ⟨.hbm, 254, rfl⟩
abbrev main_call13_v3 : Ref sig .tc := ⟨.hbm, 255, rfl⟩
abbrev main_call13_v4 : Ref sig .tc := ⟨.hbm, 256, rfl⟩
abbrev main_call13_v5 : Ref sig .tc := ⟨.hbm, 257, rfl⟩
abbrev main_call13_c_1 : Ref sig .tc := ⟨.hbm, 258, rfl⟩
abbrev main_call13_c_2 : Ref sig .tc := ⟨.hbm, 259, rfl⟩
abbrev main_call13_v6 : Ref sig .tc := ⟨.hbm, 260, rfl⟩
abbrev main_call13_v7 : Ref sig .tc := ⟨.hbm, 261, rfl⟩
abbrev main_call13_v8 : Ref sig .tc := ⟨.hbm, 262, rfl⟩
abbrev main_call13_v9 : Ref sig .tc := ⟨.hbm, 263, rfl⟩
abbrev main_call13_v10 : Ref sig .tc := ⟨.hbm, 264, rfl⟩
abbrev main_call13_v11 : Ref sig .tc := ⟨.hbm, 265, rfl⟩
abbrev main_call13_c_3 : Ref sig .tc := ⟨.hbm, 266, rfl⟩
abbrev main_call13_v12 : Ref sig .tc := ⟨.hbm, 267, rfl⟩
abbrev main_call13_v13 : Ref sig .tc := ⟨.hbm, 268, rfl⟩
abbrev main_call13_v14 : Ref sig .tc := ⟨.hbm, 269, rfl⟩
abbrev main_call13_cst : Ref sig .tc := ⟨.hbm, 270, rfl⟩
abbrev main_call13_v15 : Ref sig .tc := ⟨.hbm, 271, rfl⟩
abbrev main_v99 : Ref sig .tc := ⟨.hbm, 272, rfl⟩
abbrev main_call14_c : Ref sig .tc := ⟨.hbm, 273, rfl⟩
abbrev main_call14_v0 : Ref sig .tc := ⟨.hbm, 274, rfl⟩
abbrev main_call14_v1 : Ref sig .tc := ⟨.hbm, 275, rfl⟩
abbrev main_call14_c_0 : Ref sig .tc := ⟨.hbm, 276, rfl⟩
abbrev main_call14_v2 : Ref sig .tc := ⟨.hbm, 277, rfl⟩
abbrev main_call14_v3 : Ref sig .tc := ⟨.hbm, 278, rfl⟩
abbrev main_call14_v4 : Ref sig .tc := ⟨.hbm, 279, rfl⟩
abbrev main_call14_v5 : Ref sig .tc := ⟨.hbm, 280, rfl⟩
abbrev main_call14_c_1 : Ref sig .tc := ⟨.hbm, 281, rfl⟩
abbrev main_call14_c_2 : Ref sig .tc := ⟨.hbm, 282, rfl⟩
abbrev main_call14_v6 : Ref sig .tc := ⟨.hbm, 283, rfl⟩
abbrev main_call14_v7 : Ref sig .tc := ⟨.hbm, 284, rfl⟩
abbrev main_call14_v8 : Ref sig .tc := ⟨.hbm, 285, rfl⟩
abbrev main_call14_v9 : Ref sig .tc := ⟨.hbm, 286, rfl⟩
abbrev main_call14_v10 : Ref sig .tc := ⟨.hbm, 287, rfl⟩
abbrev main_call14_v11 : Ref sig .tc := ⟨.hbm, 288, rfl⟩
abbrev main_call14_c_3 : Ref sig .tc := ⟨.hbm, 289, rfl⟩
abbrev main_call14_v12 : Ref sig .tc := ⟨.hbm, 290, rfl⟩
abbrev main_call14_v13 : Ref sig .tc := ⟨.hbm, 291, rfl⟩
abbrev main_call14_cst : Ref sig .tc := ⟨.hbm, 292, rfl⟩
abbrev main_call14_v14 : Ref sig .tc := ⟨.hbm, 293, rfl⟩
abbrev main_v100 : Ref sig .tc := ⟨.hbm, 294, rfl⟩
abbrev main_v101 : Ref sig .tc := ⟨.hbm, 295, rfl⟩
abbrev main_v102 : Ref sig .tc := ⟨.hbm, 296, rfl⟩
abbrev main_v103 : Ref sig .tc := ⟨.hbm, 297, rfl⟩
abbrev main_cst_18 : Ref sig .tc := ⟨.hbm, 298, rfl⟩
abbrev main_v104 : Ref sig .tc := ⟨.hbm, 299, rfl⟩
abbrev main_v105 : Ref sig .tc := ⟨.hbm, 300, rfl⟩
abbrev main_v106 : Ref sig .tc := ⟨.hbm, 301, rfl⟩
abbrev main_v107 : Ref sig .tc := ⟨.hbm, 302, rfl⟩
abbrev main_v108 : Ref sig .tc := ⟨.hbm, 303, rfl⟩
abbrev main_v109 : Ref sig .tc := ⟨.hbm, 304, rfl⟩
abbrev main_v110 : Ref sig .tc := ⟨.hbm, 305, rfl⟩
abbrev main_v111 : Ref sig .tc := ⟨.hbm, 306, rfl⟩
abbrev main_v112 : Ref sig .tc := ⟨.hbm, 307, rfl⟩
abbrev main_v113 : Ref sig .tc := ⟨.hbm, 308, rfl⟩
abbrev main_v114 : Ref sig .tc := ⟨.hbm, 309, rfl⟩
abbrev main_v115 : Ref sig .tc := ⟨.hbm, 310, rfl⟩
abbrev main_call15_c : Ref sig .tc := ⟨.hbm, 311, rfl⟩
abbrev main_call15_v0 : Ref sig .tc := ⟨.hbm, 312, rfl⟩
abbrev main_call15_v1 : Ref sig .tc := ⟨.hbm, 313, rfl⟩
abbrev main_call15_c_0 : Ref sig .tc := ⟨.hbm, 314, rfl⟩
abbrev main_call15_v2 : Ref sig .tc := ⟨.hbm, 315, rfl⟩
abbrev main_call15_v3 : Ref sig .tc := ⟨.hbm, 316, rfl⟩
abbrev main_call15_v4 : Ref sig .tc := ⟨.hbm, 317, rfl⟩
abbrev main_call15_v5 : Ref sig .tc := ⟨.hbm, 318, rfl⟩
abbrev main_call15_c_1 : Ref sig .tc := ⟨.hbm, 319, rfl⟩
abbrev main_call15_c_2 : Ref sig .tc := ⟨.hbm, 320, rfl⟩
abbrev main_call15_v6 : Ref sig .tc := ⟨.hbm, 321, rfl⟩
abbrev main_call15_v7 : Ref sig .tc := ⟨.hbm, 322, rfl⟩
abbrev main_call15_v8 : Ref sig .tc := ⟨.hbm, 323, rfl⟩
abbrev main_call15_v9 : Ref sig .tc := ⟨.hbm, 324, rfl⟩
abbrev main_call15_v10 : Ref sig .tc := ⟨.hbm, 325, rfl⟩
abbrev main_call15_v11 : Ref sig .tc := ⟨.hbm, 326, rfl⟩
abbrev main_call15_c_3 : Ref sig .tc := ⟨.hbm, 327, rfl⟩
abbrev main_call15_v12 : Ref sig .tc := ⟨.hbm, 328, rfl⟩
abbrev main_call15_v13 : Ref sig .tc := ⟨.hbm, 329, rfl⟩
abbrev main_call15_v14 : Ref sig .tc := ⟨.hbm, 330, rfl⟩
abbrev main_call15_cst : Ref sig .tc := ⟨.hbm, 331, rfl⟩
abbrev main_call15_v15 : Ref sig .tc := ⟨.hbm, 332, rfl⟩
abbrev main_v116 : Ref sig .tc := ⟨.hbm, 333, rfl⟩
abbrev main_call16_c : Ref sig .tc := ⟨.hbm, 334, rfl⟩
abbrev main_call16_v0 : Ref sig .tc := ⟨.hbm, 335, rfl⟩
abbrev main_call16_v1 : Ref sig .tc := ⟨.hbm, 336, rfl⟩
abbrev main_call16_c_0 : Ref sig .tc := ⟨.hbm, 337, rfl⟩
abbrev main_call16_v2 : Ref sig .tc := ⟨.hbm, 338, rfl⟩
abbrev main_call16_v3 : Ref sig .tc := ⟨.hbm, 339, rfl⟩
abbrev main_call16_v4 : Ref sig .tc := ⟨.hbm, 340, rfl⟩
abbrev main_call16_v5 : Ref sig .tc := ⟨.hbm, 341, rfl⟩
abbrev main_call16_c_1 : Ref sig .tc := ⟨.hbm, 342, rfl⟩
abbrev main_call16_c_2 : Ref sig .tc := ⟨.hbm, 343, rfl⟩
abbrev main_call16_v6 : Ref sig .tc := ⟨.hbm, 344, rfl⟩
abbrev main_call16_v7 : Ref sig .tc := ⟨.hbm, 345, rfl⟩
abbrev main_call16_v8 : Ref sig .tc := ⟨.hbm, 346, rfl⟩
abbrev main_call16_v9 : Ref sig .tc := ⟨.hbm, 347, rfl⟩
abbrev main_call16_v10 : Ref sig .tc := ⟨.hbm, 348, rfl⟩
abbrev main_call16_v11 : Ref sig .tc := ⟨.hbm, 349, rfl⟩
abbrev main_call16_c_3 : Ref sig .tc := ⟨.hbm, 350, rfl⟩
abbrev main_call16_v12 : Ref sig .tc := ⟨.hbm, 351, rfl⟩
abbrev main_call16_v13 : Ref sig .tc := ⟨.hbm, 352, rfl⟩
abbrev main_call16_cst : Ref sig .tc := ⟨.hbm, 353, rfl⟩
abbrev main_call16_v14 : Ref sig .tc := ⟨.hbm, 354, rfl⟩
abbrev main_v117 : Ref sig .tc := ⟨.hbm, 355, rfl⟩
abbrev main_v118 : Ref sig .tc := ⟨.hbm, 356, rfl⟩
abbrev main_v119 : Ref sig .tc := ⟨.hbm, 357, rfl⟩
abbrev main_v120 : Ref sig .tc := ⟨.hbm, 358, rfl⟩
abbrev main_cst_19 : Ref sig .tc := ⟨.hbm, 359, rfl⟩
abbrev main_v121 : Ref sig .tc := ⟨.hbm, 360, rfl⟩
abbrev main_v122 : Ref sig .tc := ⟨.hbm, 361, rfl⟩
abbrev main_v123 : Ref sig .tc := ⟨.hbm, 362, rfl⟩
abbrev main_v124 : Ref sig .tc := ⟨.hbm, 363, rfl⟩
abbrev main_v125 : Ref sig .tc := ⟨.hbm, 364, rfl⟩
abbrev main_v126 : Ref sig .tc := ⟨.hbm, 365, rfl⟩
abbrev main_cst_20 : Ref sig .tc := ⟨.hbm, 366, rfl⟩
abbrev main_v127 : Ref sig .tc := ⟨.hbm, 367, rfl⟩
abbrev main_v128 : Ref sig .tc := ⟨.hbm, 368, rfl⟩
abbrev main_v129 : Ref sig .tc := ⟨.hbm, 369, rfl⟩
abbrev main_v130 : Ref sig .tc := ⟨.hbm, 370, rfl⟩
abbrev main_v131 : Ref sig .tc := ⟨.hbm, 371, rfl⟩
abbrev main_v132 : Ref sig .tc := ⟨.hbm, 372, rfl⟩
abbrev main_v133 : Ref sig .tc := ⟨.hbm, 373, rfl⟩
abbrev main_v134 : Ref sig .tc := ⟨.hbm, 374, rfl⟩
abbrev main_v135 : Ref sig .tc := ⟨.hbm, 375, rfl⟩
abbrev main_v136 : Ref sig .tc := ⟨.hbm, 376, rfl⟩
abbrev main_call17_c : Ref sig .tc := ⟨.hbm, 377, rfl⟩
abbrev main_call17_v0 : Ref sig .tc := ⟨.hbm, 378, rfl⟩
abbrev main_call17_v1 : Ref sig .tc := ⟨.hbm, 379, rfl⟩
abbrev main_call17_c_0 : Ref sig .tc := ⟨.hbm, 380, rfl⟩
abbrev main_call17_v2 : Ref sig .tc := ⟨.hbm, 381, rfl⟩
abbrev main_call17_v3 : Ref sig .tc := ⟨.hbm, 382, rfl⟩
abbrev main_call17_v4 : Ref sig .tc := ⟨.hbm, 383, rfl⟩
abbrev main_call17_v5 : Ref sig .tc := ⟨.hbm, 384, rfl⟩
abbrev main_call17_c_1 : Ref sig .tc := ⟨.hbm, 385, rfl⟩
abbrev main_call17_c_2 : Ref sig .tc := ⟨.hbm, 386, rfl⟩
abbrev main_call17_v6 : Ref sig .tc := ⟨.hbm, 387, rfl⟩
abbrev main_call17_v7 : Ref sig .tc := ⟨.hbm, 388, rfl⟩
abbrev main_call17_v8 : Ref sig .tc := ⟨.hbm, 389, rfl⟩
abbrev main_call17_v9 : Ref sig .tc := ⟨.hbm, 390, rfl⟩
abbrev main_call17_v10 : Ref sig .tc := ⟨.hbm, 391, rfl⟩
abbrev main_call17_v11 : Ref sig .tc := ⟨.hbm, 392, rfl⟩
abbrev main_call17_c_3 : Ref sig .tc := ⟨.hbm, 393, rfl⟩
abbrev main_call17_v12 : Ref sig .tc := ⟨.hbm, 394, rfl⟩
abbrev main_call17_v13 : Ref sig .tc := ⟨.hbm, 395, rfl⟩
abbrev main_call17_v14 : Ref sig .tc := ⟨.hbm, 396, rfl⟩
abbrev main_call17_cst : Ref sig .tc := ⟨.hbm, 397, rfl⟩
abbrev main_call17_v15 : Ref sig .tc := ⟨.hbm, 398, rfl⟩
abbrev main_v137 : Ref sig .tc := ⟨.hbm, 399, rfl⟩
abbrev main_call18_c : Ref sig .tc := ⟨.hbm, 400, rfl⟩
abbrev main_call18_v0 : Ref sig .tc := ⟨.hbm, 401, rfl⟩
abbrev main_call18_v1 : Ref sig .tc := ⟨.hbm, 402, rfl⟩
abbrev main_call18_c_0 : Ref sig .tc := ⟨.hbm, 403, rfl⟩
abbrev main_call18_v2 : Ref sig .tc := ⟨.hbm, 404, rfl⟩
abbrev main_call18_v3 : Ref sig .tc := ⟨.hbm, 405, rfl⟩
abbrev main_call18_v4 : Ref sig .tc := ⟨.hbm, 406, rfl⟩
abbrev main_call18_v5 : Ref sig .tc := ⟨.hbm, 407, rfl⟩
abbrev main_call18_c_1 : Ref sig .tc := ⟨.hbm, 408, rfl⟩
abbrev main_call18_c_2 : Ref sig .tc := ⟨.hbm, 409, rfl⟩
abbrev main_call18_v6 : Ref sig .tc := ⟨.hbm, 410, rfl⟩
abbrev main_call18_v7 : Ref sig .tc := ⟨.hbm, 411, rfl⟩
abbrev main_call18_v8 : Ref sig .tc := ⟨.hbm, 412, rfl⟩
abbrev main_call18_v9 : Ref sig .tc := ⟨.hbm, 413, rfl⟩
abbrev main_call18_v10 : Ref sig .tc := ⟨.hbm, 414, rfl⟩
abbrev main_call18_v11 : Ref sig .tc := ⟨.hbm, 415, rfl⟩
abbrev main_call18_c_3 : Ref sig .tc := ⟨.hbm, 416, rfl⟩
abbrev main_call18_v12 : Ref sig .tc := ⟨.hbm, 417, rfl⟩
abbrev main_call18_v13 : Ref sig .tc := ⟨.hbm, 418, rfl⟩
abbrev main_call18_cst : Ref sig .tc := ⟨.hbm, 419, rfl⟩
abbrev main_call18_v14 : Ref sig .tc := ⟨.hbm, 420, rfl⟩
abbrev main_v138 : Ref sig .tc := ⟨.hbm, 421, rfl⟩
abbrev main_v139 : Ref sig .tc := ⟨.hbm, 422, rfl⟩
abbrev main_v140 : Ref sig .tc := ⟨.hbm, 423, rfl⟩
abbrev main_v141 : Ref sig .tc := ⟨.hbm, 424, rfl⟩
abbrev main_cst_21 : Ref sig .tc := ⟨.hbm, 425, rfl⟩
abbrev main_v142 : Ref sig .tc := ⟨.hbm, 426, rfl⟩
abbrev main_v143 : Ref sig .tc := ⟨.hbm, 427, rfl⟩
abbrev main_v144 : Ref sig .tc := ⟨.hbm, 428, rfl⟩
abbrev main_v145 : Ref sig .tc := ⟨.hbm, 429, rfl⟩
abbrev main_v146 : Ref sig .tc := ⟨.hbm, 430, rfl⟩
abbrev main_v147 : Ref sig .tc := ⟨.hbm, 431, rfl⟩
abbrev main_v148 : Ref sig .tc := ⟨.hbm, 432, rfl⟩
abbrev main_v149 : Ref sig .tc := ⟨.hbm, 433, rfl⟩
abbrev main_v150 : Ref sig .tc := ⟨.hbm, 434, rfl⟩
abbrev main_v151 : Ref sig .tc := ⟨.hbm, 435, rfl⟩
abbrev main_v152 : Ref sig .tc := ⟨.hbm, 436, rfl⟩
abbrev main_v153 : Ref sig .tc := ⟨.hbm, 437, rfl⟩
abbrev main_call19_c : Ref sig .tc := ⟨.hbm, 438, rfl⟩
abbrev main_call19_v0 : Ref sig .tc := ⟨.hbm, 439, rfl⟩
abbrev main_call19_v1 : Ref sig .tc := ⟨.hbm, 440, rfl⟩
abbrev main_call19_c_0 : Ref sig .tc := ⟨.hbm, 441, rfl⟩
abbrev main_call19_v2 : Ref sig .tc := ⟨.hbm, 442, rfl⟩
abbrev main_call19_v3 : Ref sig .tc := ⟨.hbm, 443, rfl⟩
abbrev main_call19_v4 : Ref sig .tc := ⟨.hbm, 444, rfl⟩
abbrev main_call19_v5 : Ref sig .tc := ⟨.hbm, 445, rfl⟩
abbrev main_call19_c_1 : Ref sig .tc := ⟨.hbm, 446, rfl⟩
abbrev main_call19_c_2 : Ref sig .tc := ⟨.hbm, 447, rfl⟩
abbrev main_call19_v6 : Ref sig .tc := ⟨.hbm, 448, rfl⟩
abbrev main_call19_v7 : Ref sig .tc := ⟨.hbm, 449, rfl⟩
abbrev main_call19_v8 : Ref sig .tc := ⟨.hbm, 450, rfl⟩
abbrev main_call19_v9 : Ref sig .tc := ⟨.hbm, 451, rfl⟩
abbrev main_call19_v10 : Ref sig .tc := ⟨.hbm, 452, rfl⟩
abbrev main_call19_v11 : Ref sig .tc := ⟨.hbm, 453, rfl⟩
abbrev main_call19_c_3 : Ref sig .tc := ⟨.hbm, 454, rfl⟩
abbrev main_call19_v12 : Ref sig .tc := ⟨.hbm, 455, rfl⟩
abbrev main_call19_v13 : Ref sig .tc := ⟨.hbm, 456, rfl⟩
abbrev main_call19_v14 : Ref sig .tc := ⟨.hbm, 457, rfl⟩
abbrev main_call19_cst : Ref sig .tc := ⟨.hbm, 458, rfl⟩
abbrev main_call19_v15 : Ref sig .tc := ⟨.hbm, 459, rfl⟩
abbrev main_v154 : Ref sig .tc := ⟨.hbm, 460, rfl⟩
abbrev main_call20_c : Ref sig .tc := ⟨.hbm, 461, rfl⟩
abbrev main_call20_v0 : Ref sig .tc := ⟨.hbm, 462, rfl⟩
abbrev main_call20_v1 : Ref sig .tc := ⟨.hbm, 463, rfl⟩
abbrev main_call20_c_0 : Ref sig .tc := ⟨.hbm, 464, rfl⟩
abbrev main_call20_v2 : Ref sig .tc := ⟨.hbm, 465, rfl⟩
abbrev main_call20_v3 : Ref sig .tc := ⟨.hbm, 466, rfl⟩
abbrev main_call20_v4 : Ref sig .tc := ⟨.hbm, 467, rfl⟩
abbrev main_call20_v5 : Ref sig .tc := ⟨.hbm, 468, rfl⟩
abbrev main_call20_c_1 : Ref sig .tc := ⟨.hbm, 469, rfl⟩
abbrev main_call20_c_2 : Ref sig .tc := ⟨.hbm, 470, rfl⟩
abbrev main_call20_v6 : Ref sig .tc := ⟨.hbm, 471, rfl⟩
abbrev main_call20_v7 : Ref sig .tc := ⟨.hbm, 472, rfl⟩
abbrev main_call20_v8 : Ref sig .tc := ⟨.hbm, 473, rfl⟩
abbrev main_call20_v9 : Ref sig .tc := ⟨.hbm, 474, rfl⟩
abbrev main_call20_v10 : Ref sig .tc := ⟨.hbm, 475, rfl⟩
abbrev main_call20_v11 : Ref sig .tc := ⟨.hbm, 476, rfl⟩
abbrev main_call20_c_3 : Ref sig .tc := ⟨.hbm, 477, rfl⟩
abbrev main_call20_v12 : Ref sig .tc := ⟨.hbm, 478, rfl⟩
abbrev main_call20_v13 : Ref sig .tc := ⟨.hbm, 479, rfl⟩
abbrev main_call20_cst : Ref sig .tc := ⟨.hbm, 480, rfl⟩
abbrev main_call20_v14 : Ref sig .tc := ⟨.hbm, 481, rfl⟩
abbrev main_v155 : Ref sig .tc := ⟨.hbm, 482, rfl⟩
abbrev main_v156 : Ref sig .tc := ⟨.hbm, 483, rfl⟩
abbrev main_v157 : Ref sig .tc := ⟨.hbm, 484, rfl⟩
abbrev main_v158 : Ref sig .tc := ⟨.hbm, 485, rfl⟩
abbrev main_cst_22 : Ref sig .tc := ⟨.hbm, 486, rfl⟩
abbrev main_v159 : Ref sig .tc := ⟨.hbm, 487, rfl⟩
abbrev main_v160 : Ref sig .tc := ⟨.hbm, 488, rfl⟩
abbrev main_v161 : Ref sig .tc := ⟨.hbm, 489, rfl⟩
abbrev main_v162 : Ref sig .tc := ⟨.hbm, 490, rfl⟩
abbrev main_v163 : Ref sig .tc := ⟨.hbm, 491, rfl⟩
abbrev main_v164 : Ref sig .tc := ⟨.hbm, 492, rfl⟩
abbrev main_v165 : Ref sig .tc := ⟨.hbm, 493, rfl⟩
abbrev main_v166 : Ref sig .tc := ⟨.hbm, 494, rfl⟩
abbrev main_v167 : Ref sig .tc := ⟨.hbm, 495, rfl⟩
abbrev main_v168 : Ref sig .tc := ⟨.hbm, 496, rfl⟩
abbrev main_v169 : Ref sig .tc := ⟨.hbm, 497, rfl⟩
abbrev main_v170 : Ref sig .tc := ⟨.hbm, 498, rfl⟩
abbrev main_call21_c : Ref sig .tc := ⟨.hbm, 499, rfl⟩
abbrev main_call21_v0 : Ref sig .tc := ⟨.hbm, 500, rfl⟩
abbrev main_call21_v1 : Ref sig .tc := ⟨.hbm, 501, rfl⟩
abbrev main_call21_c_0 : Ref sig .tc := ⟨.hbm, 502, rfl⟩
abbrev main_call21_v2 : Ref sig .tc := ⟨.hbm, 503, rfl⟩
abbrev main_call21_v3 : Ref sig .tc := ⟨.hbm, 504, rfl⟩
abbrev main_call21_v4 : Ref sig .tc := ⟨.hbm, 505, rfl⟩
abbrev main_call21_v5 : Ref sig .tc := ⟨.hbm, 506, rfl⟩
abbrev main_call21_c_1 : Ref sig .tc := ⟨.hbm, 507, rfl⟩
abbrev main_call21_c_2 : Ref sig .tc := ⟨.hbm, 508, rfl⟩
abbrev main_call21_v6 : Ref sig .tc := ⟨.hbm, 509, rfl⟩
abbrev main_call21_v7 : Ref sig .tc := ⟨.hbm, 510, rfl⟩
abbrev main_call21_v8 : Ref sig .tc := ⟨.hbm, 511, rfl⟩
abbrev main_call21_v9 : Ref sig .tc := ⟨.hbm, 512, rfl⟩
abbrev main_call21_v10 : Ref sig .tc := ⟨.hbm, 513, rfl⟩
abbrev main_call21_v11 : Ref sig .tc := ⟨.hbm, 514, rfl⟩
abbrev main_call21_c_3 : Ref sig .tc := ⟨.hbm, 515, rfl⟩
abbrev main_call21_v12 : Ref sig .tc := ⟨.hbm, 516, rfl⟩
abbrev main_call21_v13 : Ref sig .tc := ⟨.hbm, 517, rfl⟩
abbrev main_call21_v14 : Ref sig .tc := ⟨.hbm, 518, rfl⟩
abbrev main_call21_cst : Ref sig .tc := ⟨.hbm, 519, rfl⟩
abbrev main_call21_v15 : Ref sig .tc := ⟨.hbm, 520, rfl⟩
abbrev main_v171 : Ref sig .tc := ⟨.hbm, 521, rfl⟩
abbrev main_call22_c : Ref sig .tc := ⟨.hbm, 522, rfl⟩
abbrev main_call22_v0 : Ref sig .tc := ⟨.hbm, 523, rfl⟩
abbrev main_call22_v1 : Ref sig .tc := ⟨.hbm, 524, rfl⟩
abbrev main_call22_c_0 : Ref sig .tc := ⟨.hbm, 525, rfl⟩
abbrev main_call22_v2 : Ref sig .tc := ⟨.hbm, 526, rfl⟩
abbrev main_call22_v3 : Ref sig .tc := ⟨.hbm, 527, rfl⟩
abbrev main_call22_v4 : Ref sig .tc := ⟨.hbm, 528, rfl⟩
abbrev main_call22_v5 : Ref sig .tc := ⟨.hbm, 529, rfl⟩
abbrev main_call22_c_1 : Ref sig .tc := ⟨.hbm, 530, rfl⟩
abbrev main_call22_c_2 : Ref sig .tc := ⟨.hbm, 531, rfl⟩
abbrev main_call22_v6 : Ref sig .tc := ⟨.hbm, 532, rfl⟩
abbrev main_call22_v7 : Ref sig .tc := ⟨.hbm, 533, rfl⟩
abbrev main_call22_v8 : Ref sig .tc := ⟨.hbm, 534, rfl⟩
abbrev main_call22_v9 : Ref sig .tc := ⟨.hbm, 535, rfl⟩
abbrev main_call22_v10 : Ref sig .tc := ⟨.hbm, 536, rfl⟩
abbrev main_call22_v11 : Ref sig .tc := ⟨.hbm, 537, rfl⟩
abbrev main_call22_c_3 : Ref sig .tc := ⟨.hbm, 538, rfl⟩
abbrev main_call22_v12 : Ref sig .tc := ⟨.hbm, 539, rfl⟩
abbrev main_call22_v13 : Ref sig .tc := ⟨.hbm, 540, rfl⟩
abbrev main_call22_cst : Ref sig .tc := ⟨.hbm, 541, rfl⟩
abbrev main_call22_v14 : Ref sig .tc := ⟨.hbm, 542, rfl⟩
abbrev main_v172 : Ref sig .tc := ⟨.hbm, 543, rfl⟩
abbrev main_v173 : Ref sig .tc := ⟨.hbm, 544, rfl⟩
abbrev main_v174 : Ref sig .tc := ⟨.hbm, 545, rfl⟩
abbrev main_v175 : Ref sig .tc := ⟨.hbm, 546, rfl⟩
abbrev main_cst_23 : Ref sig .tc := ⟨.hbm, 547, rfl⟩
abbrev main_v176 : Ref sig .tc := ⟨.hbm, 548, rfl⟩
abbrev main_v177 : Ref sig .tc := ⟨.hbm, 549, rfl⟩
abbrev main_v178 : Ref sig .tc := ⟨.hbm, 550, rfl⟩
abbrev main_v179 : Ref sig .tc := ⟨.hbm, 551, rfl⟩
abbrev main_v180 : Ref sig .tc := ⟨.hbm, 552, rfl⟩
abbrev main_v181 : Ref sig .tc := ⟨.hbm, 553, rfl⟩
abbrev main_v182 : Ref sig .tc := ⟨.hbm, 554, rfl⟩
abbrev main_v183 : Ref sig .tc := ⟨.hbm, 555, rfl⟩
abbrev main_v184 : Ref sig .tc := ⟨.hbm, 556, rfl⟩
abbrev main_v185 : Ref sig .tc := ⟨.hbm, 557, rfl⟩
abbrev main_v186 : Ref sig .tc := ⟨.hbm, 558, rfl⟩
abbrev main_v187 : Ref sig .tc := ⟨.hbm, 559, rfl⟩
abbrev main_call23_c : Ref sig .tc := ⟨.hbm, 560, rfl⟩
abbrev main_call23_v0 : Ref sig .tc := ⟨.hbm, 561, rfl⟩
abbrev main_call23_v1 : Ref sig .tc := ⟨.hbm, 562, rfl⟩
abbrev main_call23_c_0 : Ref sig .tc := ⟨.hbm, 563, rfl⟩
abbrev main_call23_v2 : Ref sig .tc := ⟨.hbm, 564, rfl⟩
abbrev main_call23_v3 : Ref sig .tc := ⟨.hbm, 565, rfl⟩
abbrev main_call23_v4 : Ref sig .tc := ⟨.hbm, 566, rfl⟩
abbrev main_call23_v5 : Ref sig .tc := ⟨.hbm, 567, rfl⟩
abbrev main_call23_c_1 : Ref sig .tc := ⟨.hbm, 568, rfl⟩
abbrev main_call23_c_2 : Ref sig .tc := ⟨.hbm, 569, rfl⟩
abbrev main_call23_v6 : Ref sig .tc := ⟨.hbm, 570, rfl⟩
abbrev main_call23_v7 : Ref sig .tc := ⟨.hbm, 571, rfl⟩
abbrev main_call23_v8 : Ref sig .tc := ⟨.hbm, 572, rfl⟩
abbrev main_call23_v9 : Ref sig .tc := ⟨.hbm, 573, rfl⟩
abbrev main_call23_v10 : Ref sig .tc := ⟨.hbm, 574, rfl⟩
abbrev main_call23_v11 : Ref sig .tc := ⟨.hbm, 575, rfl⟩
abbrev main_call23_c_3 : Ref sig .tc := ⟨.hbm, 576, rfl⟩
abbrev main_call23_v12 : Ref sig .tc := ⟨.hbm, 577, rfl⟩
abbrev main_call23_v13 : Ref sig .tc := ⟨.hbm, 578, rfl⟩
abbrev main_call23_v14 : Ref sig .tc := ⟨.hbm, 579, rfl⟩
abbrev main_call23_cst : Ref sig .tc := ⟨.hbm, 580, rfl⟩
abbrev main_call23_v15 : Ref sig .tc := ⟨.hbm, 581, rfl⟩
abbrev main_v188 : Ref sig .tc := ⟨.hbm, 582, rfl⟩
abbrev main_call24_c : Ref sig .tc := ⟨.hbm, 583, rfl⟩
abbrev main_call24_v0 : Ref sig .tc := ⟨.hbm, 584, rfl⟩
abbrev main_call24_v1 : Ref sig .tc := ⟨.hbm, 585, rfl⟩
abbrev main_call24_c_0 : Ref sig .tc := ⟨.hbm, 586, rfl⟩
abbrev main_call24_v2 : Ref sig .tc := ⟨.hbm, 587, rfl⟩
abbrev main_call24_v3 : Ref sig .tc := ⟨.hbm, 588, rfl⟩
abbrev main_call24_v4 : Ref sig .tc := ⟨.hbm, 589, rfl⟩
abbrev main_call24_v5 : Ref sig .tc := ⟨.hbm, 590, rfl⟩
abbrev main_call24_c_1 : Ref sig .tc := ⟨.hbm, 591, rfl⟩
abbrev main_call24_c_2 : Ref sig .tc := ⟨.hbm, 592, rfl⟩
abbrev main_call24_v6 : Ref sig .tc := ⟨.hbm, 593, rfl⟩
abbrev main_call24_v7 : Ref sig .tc := ⟨.hbm, 594, rfl⟩
abbrev main_call24_v8 : Ref sig .tc := ⟨.hbm, 595, rfl⟩
abbrev main_call24_v9 : Ref sig .tc := ⟨.hbm, 596, rfl⟩
abbrev main_call24_v10 : Ref sig .tc := ⟨.hbm, 597, rfl⟩
abbrev main_call24_v11 : Ref sig .tc := ⟨.hbm, 598, rfl⟩
abbrev main_call24_c_3 : Ref sig .tc := ⟨.hbm, 599, rfl⟩
abbrev main_call24_v12 : Ref sig .tc := ⟨.hbm, 600, rfl⟩
abbrev main_call24_v13 : Ref sig .tc := ⟨.hbm, 601, rfl⟩
abbrev main_call24_cst : Ref sig .tc := ⟨.hbm, 602, rfl⟩
abbrev main_call24_v14 : Ref sig .tc := ⟨.hbm, 603, rfl⟩
abbrev main_v189 : Ref sig .tc := ⟨.hbm, 604, rfl⟩
abbrev main_v190 : Ref sig .tc := ⟨.hbm, 605, rfl⟩
abbrev main_v191 : Ref sig .tc := ⟨.hbm, 606, rfl⟩
abbrev main_v192 : Ref sig .tc := ⟨.hbm, 607, rfl⟩
abbrev main_cst_24 : Ref sig .tc := ⟨.hbm, 608, rfl⟩
abbrev main_v193 : Ref sig .tc := ⟨.hbm, 609, rfl⟩
abbrev main_v194 : Ref sig .tc := ⟨.hbm, 610, rfl⟩
abbrev main_v195 : Ref sig .tc := ⟨.hbm, 611, rfl⟩
abbrev main_v196 : Ref sig .tc := ⟨.hbm, 612, rfl⟩
abbrev main_v197 : Ref sig .tc := ⟨.hbm, 613, rfl⟩
abbrev main_v198 : Ref sig .tc := ⟨.hbm, 614, rfl⟩
abbrev main_cst_25 : Ref sig .tc := ⟨.hbm, 615, rfl⟩
abbrev main_v199 : Ref sig .tc := ⟨.hbm, 616, rfl⟩
abbrev main_v200 : Ref sig .tc := ⟨.hbm, 617, rfl⟩
abbrev main_v201 : Ref sig .tc := ⟨.hbm, 618, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S500000 : S_.BroadcastsInDim S500000 (![] : Fin 0 → Fin S500000.rank)
  slices_S4x500000_S1x500000_0_0 : S4x500000.Slices ![0, 0] S1x500000
  shapeCasts_S1x500000_S500000 : S1x500000.ShapeCasts S500000
  bcast_S500000_S500000x1_0 : S500000.BroadcastsInDim S500000x1 (![0] : Fin 1 → Fin S500000x1.rank)
  slices_S4x500000_S1x500000_1_0 : S4x500000.Slices ![1, 0] S1x500000
  slices_S4x500000_S1x500000_2_0 : S4x500000.Slices ![2, 0] S1x500000
  slices_S4x500000_S1x500000_3_0 : S4x500000.Slices ![3, 0] S1x500000
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S4x128x128_S1x128x128_1_0_0 : ∀ a, (![1, 0, 0] : Fin 3 → Nat) a + S1x128x128.size a ≤ S4x128x128.size a
  inb_S4x2000x128_S1x2000x128_1_0_0 : ∀ a, (![1, 0, 0] : Fin 3 → Nat) a + S1x2000x128.size a ≤ S4x2000x128.size a
  inb_S4x128x128_S1x128x128_2_0_0 : ∀ a, (![2, 0, 0] : Fin 3 → Nat) a + S1x128x128.size a ≤ S4x128x128.size a
  inb_S4x2000x128_S1x2000x128_2_0_0 : ∀ a, (![2, 0, 0] : Fin 3 → Nat) a + S1x2000x128.size a ≤ S4x2000x128.size a
  inb_S4x128x128_S1x128x128_3_0_0 : ∀ a, (![3, 0, 0] : Fin 3 → Nat) a + S1x128x128.size a ≤ S4x128x128.size a
  inb_S4x2000x128_S1x2000x128_3_0_0 : ∀ a, (![3, 0, 0] : Fin 3 → Nat) a + S1x2000x128.size a ≤ S4x2000x128.size a
  slices_S4x100000x128_S1x100000x128_0_0_0 : S4x100000x128.Slices ![0, 0, 0] S1x100000x128
  shapeCasts_S1x100000x128_S100000x128 : S1x100000x128.ShapeCasts S100000x128
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bcast_S100000x1_S100000x128_0_1 : S100000x1.BroadcastsInDim S100000x128 (![0, 1] : Fin 2 → Fin S100000x128.rank)
  slices_S4x100000x128_S1x100000x128_1_0_0 : S4x100000x128.Slices ![1, 0, 0] S1x100000x128
  slices_S4x100000x128_S1x100000x128_2_0_0 : S4x100000x128.Slices ![2, 0, 0] S1x100000x128
  slices_S4x100000x128_S1x100000x128_3_0_0 : S4x100000x128.Slices ![3, 0, 0] S1x100000x128
  reducesTo_S4x128_S128_d0 : S4x128.ReducesTo [0] S128
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S100000x1_S100000x128_1_0_n_n_0_1_1128_wf : GatherDims.WF S100000x128 S100000x1 S100000x128 [1] [0] [] [0] [] 1 ![1, 128]
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  gather_S100000x128_S500000x1_S500000x128_1_0_n_n_0_1_1128_wf : GatherDims.WF S100000x128 S500000x1 S500000x128 [1] [0] [] [0] [] 1 ![1, 128]
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .f32 = 32 ∨ (Rect.block (s := S4x128x128) S4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2000x128.size a ≤ S4x100000x128.size a
  hwx0_2 : ∀ i : grid0.Coords, EltTy.bits .f32 = 32 ∨ (Rect.block (s := S4x100000x128) S4x2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128x128.size a ≤ S4x128x128.size a
  hwx2_1 : ∀ i : grid2.Coords, EltTy.bits .f32 = 32 ∨ (Rect.block (s := S4x128x128) S4x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x2000x128.size a ≤ S4x100000x128.size a
  hwx2_2 : ∀ i : grid2.Coords, EltTy.bits .f32 = 32 ∨ (Rect.block (s := S4x100000x128) S4x2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S4x2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v75) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v109) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v126) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v128) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v129) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v129) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S4x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v130) S4x2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v147) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v164) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v181) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v198) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v200) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v201) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000 : Shape := ⟨1, ![100000]⟩
abbrev S4x500000 : Shape := ⟨2, ![4, 500000]⟩
abbrev S100000x128 : Shape := ⟨2, ![100000, 128]⟩
abbrev S4x128x128 : Shape := ⟨3, ![4, 128, 128]⟩
abbrev S4x128 : Shape := ⟨2, ![4, 128]⟩
abbrev S_ : Shape := ⟨0, ![]⟩
abbrev S100000x1 : Shape := ⟨2, ![100000, 1]⟩
abbrev S1x500000 : Shape := ⟨2, ![1, 500000]⟩
abbrev S500000 : Shape := ⟨1, ![500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500000x1 : Shape := ⟨2, ![500000, 1]⟩
abbrev S500000x128 : Shape := ⟨2, ![500000, 128]⟩

abbrev nBuf : Space → Nat
  | .hbm => 438
  | .vmem => 0
  | .smem => 0
  | _ => 0

abbrev hbmTy0_0 (i : Nat) : BufTy := match i % 128 with
  | 0 => ⟨S100000, .i32⟩
  | 1 => ⟨S4x500000, .i32⟩
  | 2 => ⟨S4x500000, .i32⟩
  | 3 => ⟨S100000x128, .f32⟩
  | 4 => ⟨S4x128x128, .f32⟩
  | 5 => ⟨S4x128, .f32⟩
  | 6 => ⟨S4x128x128, .f32⟩
  | 7 => ⟨S4x128, .f32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x128, .f32⟩
  | 17 => ⟨S1x500000, .i32⟩
  | 18 => ⟨S500000, .i32⟩
  | 19 => ⟨S1x500000, .i32⟩
  | 20 => ⟨S500000, .i32⟩
  | 21 => ⟨S1x128x128, .f32⟩
  | 22 => ⟨S128x128, .f32⟩
  | 23 => ⟨S1x128, .f32⟩
  | 24 => ⟨S128, .f32⟩
  | 25 => ⟨S_, .f32⟩
  | 26 => ⟨S500000, .f32⟩
  | 27 => ⟨S_, .f32⟩
  | 28 => ⟨S100000, .f32⟩
  | 29 => ⟨S500000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S500000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .f32⟩
  | 57 => ⟨S100000x128, .f32⟩
  | 58 => ⟨S500000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x500000, .i32⟩
  | 72 => ⟨S500000, .i32⟩
  | 73 => ⟨S1x500000, .i32⟩
  | 74 => ⟨S500000, .i32⟩
  | 75 => ⟨S1x128x128, .f32⟩
  | 76 => ⟨S128x128, .f32⟩
  | 77 => ⟨S1x128, .f32⟩
  | 78 => ⟨S128, .f32⟩
  | 79 => ⟨S_, .f32⟩
  | 80 => ⟨S500000, .f32⟩
  | 81 => ⟨S_, .f32⟩
  | 82 => ⟨S100000, .f32⟩
  | 83 => ⟨S500000x1, .i32⟩
  | 84 => ⟨S100000, .f32⟩
  | 85 => ⟨S_, .f32⟩
  | 86 => ⟨S_, .f32⟩
  | 87 => ⟨S100000, .f32⟩
  | 88 => ⟨S100000, .f32⟩
  | 89 => ⟨S_, .f32⟩
  | 90 => ⟨S100000, .f32⟩
  | 91 => ⟨S500000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S_, .f32⟩
  | 111 => ⟨S100000x128, .f32⟩
  | 112 => ⟨S500000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S1x500000, .i32⟩
  | 124 => ⟨S500000, .i32⟩
  | 125 => ⟨S1x500000, .i32⟩
  | 126 => ⟨S500000, .i32⟩
  | 127 => ⟨S1x128x128, .f32⟩
  | _ => ⟨S100000, .i32⟩

abbrev hbmTy0_1 (i : Nat) : BufTy := match i % 128 with
  | 0 => ⟨S128x128, .f32⟩
  | 1 => ⟨S1x128, .f32⟩
  | 2 => ⟨S128, .f32⟩
  | 3 => ⟨S_, .f32⟩
  | 4 => ⟨S500000, .f32⟩
  | 5 => ⟨S_, .f32⟩
  | 6 => ⟨S100000, .f32⟩
  | 7 => ⟨S500000x1, .i32⟩
  | 8 => ⟨S100000, .f32⟩
  | 9 => ⟨S_, .f32⟩
  | 10 => ⟨S_, .f32⟩
  | 11 => ⟨S100000, .f32⟩
  | 12 => ⟨S100000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S_, .f32⟩
  | 35 => ⟨S100000x128, .f32⟩
  | 36 => ⟨S500000x1, .i32⟩
  | 37 => ⟨S100000x128, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S1x500000, .i32⟩
  | 48 => ⟨S500000, .i32⟩
  | 49 => ⟨S1x500000, .i32⟩
  | 50 => ⟨S500000, .i32⟩
  | 51 => ⟨S1x128x128, .f32⟩
  | 52 => ⟨S128x128, .f32⟩
  | 53 => ⟨S1x128, .f32⟩
  | 54 => ⟨S128, .f32⟩
  | 55 => ⟨S_, .f32⟩
  | 56 => ⟨S500000, .f32⟩
  | 57 => ⟨S_, .f32⟩
  | 58 => ⟨S100000, .f32⟩
  | 59 => ⟨S500000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S_, .f32⟩
  | 66 => ⟨S100000, .f32⟩
  | 67 => ⟨S500000x1, .i32⟩
  | 68 => ⟨S100000, .f32⟩
  | 69 => ⟨S_, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x128, .f32⟩
  | 86 => ⟨S_, .f32⟩
  | 87 => ⟨S100000x128, .f32⟩
  | 88 => ⟨S500000x1, .i32⟩
  | 89 => ⟨S100000x128, .f32⟩
  | 90 => ⟨S100000, .f32⟩
  | 91 => ⟨S100000x1, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S100000x128, .f32⟩
  | 100 => ⟨S1x500000, .i32⟩
  | 101 => ⟨S500000, .i32⟩
  | 102 => ⟨S1x500000, .i32⟩
  | 103 => ⟨S500000, .i32⟩
  | 104 => ⟨S1x128x128, .f32⟩
  | 105 => ⟨S128x128, .f32⟩
  | 106 => ⟨S1x128, .f32⟩
  | 107 => ⟨S128, .f32⟩
  | 108 => ⟨S_, .f32⟩
  | 109 => ⟨S500000, .f32⟩
  | 110 => ⟨S_, .f32⟩
  | 111 => ⟨S100000, .f32⟩
  | 112 => ⟨S500000x1, .i32⟩
  | 113 => ⟨S100000, .f32⟩
  | 114 => ⟨S_, .f32⟩
  | 115 => ⟨S_, .f32⟩
  | 116 => ⟨S100000, .f32⟩
  | 117 => ⟨S100000, .f32⟩
  | 118 => ⟨S_, .f32⟩
  | 119 => ⟨S100000, .f32⟩
  | 120 => ⟨S500000x1, .i32⟩
  | 121 => ⟨S100000, .f32⟩
  | 122 => ⟨S_, .f32⟩
  | 123 => ⟨S_, .f32⟩
  | 124 => ⟨S100000, .f32⟩
  | 125 => ⟨S100000, .f32⟩
  | 126 => ⟨S100000, .f32⟩
  | 127 => ⟨S100000x1, .f32⟩
  | _ => ⟨S100000, .i32⟩

abbrev hbmTy0_2 (i : Nat) : BufTy := match i % 128 with
  | 0 => ⟨S100000x128, .f32⟩
  | 1 => ⟨S100000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000x128, .f32⟩
  | 11 => ⟨S_, .f32⟩
  | 12 => ⟨S100000x128, .f32⟩
  | 13 => ⟨S500000x1, .i32⟩
  | 14 => ⟨S100000x128, .f32⟩
  | 15 => ⟨S100000, .f32⟩
  | 16 => ⟨S100000x1, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S1x500000, .i32⟩
  | 27 => ⟨S500000, .i32⟩
  | 28 => ⟨S1x500000, .i32⟩
  | 29 => ⟨S500000, .i32⟩
  | 30 => ⟨S1x128x128, .f32⟩
  | 31 => ⟨S128x128, .f32⟩
  | 32 => ⟨S1x128, .f32⟩
  | 33 => ⟨S128, .f32⟩
  | 34 => ⟨S_, .f32⟩
  | 35 => ⟨S500000, .f32⟩
  | 36 => ⟨S_, .f32⟩
  | 37 => ⟨S100000, .f32⟩
  | 38 => ⟨S500000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S500000x1, .i32⟩
  | 47 => ⟨S100000, .f32⟩
  | 48 => ⟨S_, .f32⟩
  | 49 => ⟨S_, .f32⟩
  | 50 => ⟨S100000, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S_, .f32⟩
  | 66 => ⟨S100000x128, .f32⟩
  | 67 => ⟨S500000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S1x500000, .i32⟩
  | 79 => ⟨S500000, .i32⟩
  | 80 => ⟨S1x500000, .i32⟩
  | 81 => ⟨S500000, .i32⟩
  | 82 => ⟨S1x128x128, .f32⟩
  | 83 => ⟨S128x128, .f32⟩
  | 84 => ⟨S1x128, .f32⟩
  | 85 => ⟨S128, .f32⟩
  | 86 => ⟨S_, .f32⟩
  | 87 => ⟨S500000, .f32⟩
  | 88 => ⟨S_, .f32⟩
  | 89 => ⟨S100000, .f32⟩
  | 90 => ⟨S500000x1, .i32⟩
  | 91 => ⟨S100000, .f32⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S500000x1, .i32⟩
  | 99 => ⟨S100000, .f32⟩
  | 100 => ⟨S_, .f32⟩
  | 101 => ⟨S_, .f32⟩
  | 102 => ⟨S100000, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000, .i32⟩

abbrev hbmTy0_3 (i : Nat) : BufTy := match i % 128 with
  | 0 => ⟨S100000x128, .f32⟩
  | 1 => ⟨S100000x128, .f32⟩
  | 2 => ⟨S1x500000, .i32⟩
  | 3 => ⟨S500000, .i32⟩
  | 4 => ⟨S1x500000, .i32⟩
  | 5 => ⟨S500000, .i32⟩
  | 6 => ⟨S1x128x128, .f32⟩
  | 7 => ⟨S128x128, .f32⟩
  | 8 => ⟨S1x128, .f32⟩
  | 9 => ⟨S128, .f32⟩
  | 10 => ⟨S_, .f32⟩
  | 11 => ⟨S500000, .f32⟩
  | 12 => ⟨S_, .f32⟩
  | 13 => ⟨S100000, .f32⟩
  | 14 => ⟨S500000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S500000x1, .i32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S100000x128, .f32⟩
  | 43 => ⟨S500000x1, .i32⟩
  | 44 => ⟨S100000x128, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S100000x128, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_call3_v0 : Ref sig .tc := ⟨.hbm, 94, rfl⟩
abbrev main_call3_v1 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_call4_v0 : Ref sig .tc := ⟨.hbm, 138, rfl⟩
abbrev main_call4_v1 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_21 : Ref sig .tc := ⟨.hbm, 145, rfl⟩
abbrev main_call5_v0 : Ref sig .tc := ⟨.hbm, 146, rfl⟩
abbrev main_call5_v1 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_22 : Ref sig .tc := ⟨.hbm, 153, rfl⟩
abbrev main_v109 : Ref sig .tc := ⟨.hbm, 154, rfl⟩
abbrev main_v110 : Ref sig .tc := ⟨.hbm, 155, rfl⟩
abbrev main_c_23 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_24 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_25 : Ref sig .tc := ⟨.hbm, 183, rfl⟩
abbrev main_v136 : Ref sig .tc := ⟨.hbm, 184, rfl⟩
abbrev main_cst_26 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_27 : Ref sig .tc := ⟨.hbm, 189, rfl⟩
abbrev main_call6_v0 : Ref sig .tc := ⟨.hbm, 190, rfl⟩
abbrev main_call6_v1 : Ref sig .tc := ⟨.hbm, 191, rfl⟩
abbrev main_v140 : Ref sig .tc := ⟨.hbm, 192, rfl⟩
abbrev main_cst_28 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_29 : Ref sig .tc := ⟨.hbm, 197, rfl⟩
abbrev main_call7_v0 : Ref sig .tc := ⟨.hbm, 198, rfl⟩
abbrev main_call7_v1 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_30 : Ref sig .tc := ⟨.hbm, 205, rfl⟩
abbrev main_v149 : Ref sig .tc := ⟨.hbm, 206, rfl⟩
abbrev main_v150 : Ref sig .tc := ⟨.hbm, 207, rfl⟩
abbrev main_c_31 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_32 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_33 : Ref sig .tc := ⟨.hbm, 236, rfl⟩
abbrev main_v177 : Ref sig .tc := ⟨.hbm, 237, rfl⟩
abbrev main_cst_34 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_35 : Ref sig .tc := ⟨.hbm, 242, rfl⟩
abbrev main_call8_v0 : Ref sig .tc := ⟨.hbm, 243, rfl⟩
abbrev main_call8_v1 : Ref sig .tc := ⟨.hbm, 244, rfl⟩
abbrev main_v181 : Ref sig .tc := ⟨.hbm, 245, rfl⟩
abbrev main_cst_36 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_37 : Ref sig .tc := ⟨.hbm, 250, rfl⟩
abbrev main_call9_v0 : Ref sig .tc := ⟨.hbm, 251, rfl⟩
abbrev main_call9_v1 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_c_38 : Ref sig .tc := ⟨.hbm, 258, rfl⟩
abbrev main_v190 : Ref sig .tc := ⟨.hbm, 259, rfl⟩
abbrev main_v191 : Ref sig .tc := ⟨.hbm, 260, rfl⟩
abbrev main_c_39 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_40 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_41 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_cst_42 : Ref sig .tc := ⟨.hbm, 290, rfl⟩
abbrev main_v218 : Ref sig .tc := ⟨.hbm, 291, rfl⟩
abbrev main_cst_43 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_44 : Ref sig .tc := ⟨.hbm, 296, rfl⟩
abbrev main_call10_v0 : Ref sig .tc := ⟨.hbm, 297, rfl⟩
abbrev main_call10_v1 : Ref sig .tc := ⟨.hbm, 298, rfl⟩
abbrev main_v222 : Ref sig .tc := ⟨.hbm, 299, rfl⟩
abbrev main_cst_45 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_cst_46 : Ref sig .tc := ⟨.hbm, 304, rfl⟩
abbrev main_call11_v0 : Ref sig .tc := ⟨.hbm, 305, rfl⟩
abbrev main_call11_v1 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_c_47 : Ref sig .tc := ⟨.hbm, 312, rfl⟩
abbrev main_v231 : Ref sig .tc := ⟨.hbm, 313, rfl⟩
abbrev main_v232 : Ref sig .tc := ⟨.hbm, 314, rfl⟩
abbrev main_c_48 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_cst_49 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_cst_50 : Ref sig .tc := ⟨.hbm, 342, rfl⟩
abbrev main_v258 : Ref sig .tc := ⟨.hbm, 343, rfl⟩
abbrev main_cst_51 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_cst_52 : Ref sig .tc := ⟨.hbm, 348, rfl⟩
abbrev main_call12_v0 : Ref sig .tc := ⟨.hbm, 349, rfl⟩
abbrev main_call12_v1 : Ref sig .tc := ⟨.hbm, 350, rfl⟩
abbrev main_v262 : Ref sig .tc := ⟨.hbm, 351, rfl⟩
abbrev main_cst_53 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_cst_54 : Ref sig .tc := ⟨.hbm, 356, rfl⟩
abbrev main_call13_v0 : Ref sig .tc := ⟨.hbm, 357, rfl⟩
abbrev main_call13_v1 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_c_55 : Ref sig .tc := ⟨.hbm, 364, rfl⟩
abbrev main_v271 : Ref sig .tc := ⟨.hbm, 365, rfl⟩
abbrev main_v272 : Ref sig .tc := ⟨.hbm, 366, rfl⟩
abbrev main_c_56 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_cst_57 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_cst_58 : Ref sig .tc := ⟨.hbm, 394, rfl⟩
abbrev main_v298 : Ref sig .tc := ⟨.hbm, 395, rfl⟩
abbrev main_cst_59 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_cst_60 : Ref sig .tc := ⟨.hbm, 400, rfl⟩
abbrev main_call14_v0 : Ref sig .tc := ⟨.hbm, 401, rfl⟩
abbrev main_call14_v1 : Ref sig .tc := ⟨.hbm, 402, rfl⟩
abbrev main_v302 : Ref sig .tc := ⟨.hbm, 403, rfl⟩
abbrev main_cst_61 : Ref sig .tc := ⟨.hbm, 404, rfl⟩
abbrev main_v303 : Ref sig .tc := ⟨.hbm, 405, rfl⟩
abbrev main_v304 : Ref sig .tc := ⟨.hbm, 406, rfl⟩
abbrev main_v305 : Ref sig .tc := ⟨.hbm, 407, rfl⟩
abbrev main_cst_62 : Ref sig .tc := ⟨.hbm, 408, rfl⟩
abbrev main_call15_v0 : Ref sig .tc := ⟨.hbm, 409, rfl⟩
abbrev main_call15_v1 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_c_63 : Ref sig .tc := ⟨.hbm, 416, rfl⟩
abbrev main_v311 : Ref sig .tc := ⟨.hbm, 417, rfl⟩
abbrev main_v312 : Ref sig .tc := ⟨.hbm, 418, rfl⟩
abbrev main_c_64 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_cst_65 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_v328 : Ref sig .tc := ⟨.hbm, 436, rfl⟩
abbrev main_v329 : Ref sig .tc := ⟨.hbm, 437, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S4x500000_S1x500000_0_0 : S4x500000.Slices ![0, 0] S1x500000
  shapeCasts_S1x500000_S500000 : S1x500000.ShapeCasts S500000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S500000 : S_.BroadcastsInDim S500000 (![] : Fin 0 → Fin S500000.rank)
  bcast_S500000_S500000x1_0 : S500000.BroadcastsInDim S500000x1 (![0] : Fin 1 → Fin S500000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x500000_S1x500000_1_0 : S4x500000.Slices ![1, 0] S1x500000
  slices_S4x128x128_S1x128x128_1_0_0 : S4x128x128.Slices ![1, 0, 0] S1x128x128
  slices_S4x128_S1x128_1_0 : S4x128.Slices ![1, 0] S1x128
  slices_S4x500000_S1x500000_2_0 : S4x500000.Slices ![2, 0] S1x500000
  slices_S4x128x128_S1x128x128_2_0_0 : S4x128x128.Slices ![2, 0, 0] S1x128x128
  slices_S4x128_S1x128_2_0 : S4x128.Slices ![2, 0] S1x128
  slices_S4x500000_S1x500000_3_0 : S4x500000.Slices ![3, 0] S1x500000
  slices_S4x128x128_S1x128x128_3_0_0 : S4x128x128.Slices ![3, 0, 0] S1x128x128
  slices_S4x128_S1x128_3_0 : S4x128.Slices ![3, 0] S1x128
  gather_S100000x128_S100000x1_S100000x128_1_0_n_n_0_1_1128_wf : GatherDims.WF S100000x128 S100000x1 S100000x128 [1] [0] [] [0] [] 1 ![1, 128]
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  A two-layer relational graph convolution over 100000 nodes, 4 relations of 500000 edges each, and 128 features, as a
  function of its inputs, one element at a time, written in two arrangements.

  Per relation r an edge e carries the features of its source node, scaled by the source's out-degree factor, to its
  destination node; a node sums what arrives and scales the sum by its own in-degree factor. A degree factor is the
  reciprocal square root of the larger of 1 and the number of edges with that end at the node. A layer then multiplies
  by the relation's 128 by 128 weight, adds the relation's bias and sums over the relations; the first layer ends in
  tanh.

  `layerK` multiplies by the weight FIRST (at the source node) and aggregates afterwards; `layerR` aggregates first and
  multiplies afterwards. Over real numbers the two agree because a finite sum commutes with a product by a constant.
-/
import Idealize.ShloMosaic.PureOps.Ideal
import Idealize.ShloMosaic.Lib.ValueIdx
import Mathlib.Algebra.BigOperators.Group.Finset.Basic
import Mathlib.Data.Fintype.BigOperators

noncomputable section

open scoped BigOperators

namespace Cert.Spec

open Idealize.ShloMosaic Idealize.ShloMosaic.ValueIdx

/-- An array of extended reals read at coordinates (the result is typed as an extended real, so sums and products
    of reads elaborate whatever buffer the array came from). -/
abbrev rd1 {n0 : Nat} (f : (⟨1, ![n0]⟩ : Shape).Idx → EReal) (a : Fin n0) : EReal := f (ix1 a)
abbrev rd2 {n0 n1 : Nat} (f : (⟨2, ![n0, n1]⟩ : Shape).Idx → EReal) (a : Fin n0) (b : Fin n1) : EReal := f (ix2 a b)
abbrev rd3 {n0 n1 n2 : Nat} (f : (⟨3, ![n0, n1, n2]⟩ : Shape).Idx → EReal) (a : Fin n0) (b : Fin n1) (c : Fin n2) : EReal :=
  f (ix3 a b c)
/-- An array of 32-bit words read at coordinates. -/
abbrev wd1 {n0 : Nat} (f : (⟨1, ![n0]⟩ : Shape).Idx → BitVec 32) (a : Fin n0) : BitVec 32 := f (ix1 a)
abbrev wd2 {n0 n1 : Nat} (f : (⟨2, ![n0, n1]⟩ : Shape).Idx → BitVec 32) (a : Fin n0) (b : Fin n1) : BitVec 32 := f (ix2 a b)

/-- The eight inputs, by coordinates: node ids as 32-bit words, features as extended reals. -/
structure Inputs where
  inp : Fin 100000 → BitVec 32
  src : Fin 4 → Fin 500000 → BitVec 32
  dst : Fin 4 → Fin 500000 → BitVec 32
  emb : Fin 100000 → Fin 128 → EReal
  W1 : Fin 4 → Fin 128 → Fin 128 → EReal
  b1 : Fin 4 → Fin 128 → EReal
  W2 : Fin 4 → Fin 128 → Fin 128 → EReal
  b2 : Fin 4 → Fin 128 → EReal

/-- The inputs read off the eight argument arrays. -/
def Inputs.of (a0 : (⟨1, ![100000]⟩ : Shape).Idx → BitVec 32) (a1 a2 : (⟨2, ![4, 500000]⟩ : Shape).Idx → BitVec 32)
    (a3 : (⟨2, ![100000, 128]⟩ : Shape).Idx → EReal) (a4 : (⟨3, ![4, 128, 128]⟩ : Shape).Idx → EReal)
    (a5 : (⟨2, ![4, 128]⟩ : Shape).Idx → EReal) (a6 : (⟨3, ![4, 128, 128]⟩ : Shape).Idx → EReal)
    (a7 : (⟨2, ![4, 128]⟩ : Shape).Idx → EReal) : Inputs where
  inp := wd1 a0
  src := wd2 a1
  dst := wd2 a2
  emb := rd2 a3
  W1 := rd3 a4
  b1 := rd2 a5
  W2 := rd3 a6
  b2 := rd2 a7

/-- A word is a node id when, read signed, it lies in [0, 100000). -/
def IsNode (w : BitVec 32) : Prop := 0 ≤ w.toInt ∧ w.toInt < 100000

/-- The node a word addresses (total; it is the word's signed value when the word is a node id). -/
def node (w : BitVec 32) : Fin 100000 := ⟨w.toInt.toNat % 100000, Nat.mod_lt _ (by decide)⟩

theorem toInt_eq_node {w : BitVec 32} (h : IsNode w) : w.toInt = ((node w).val : Int) := by
  obtain ⟨h0, h1⟩ := h
  show w.toInt = ((w.toInt.toNat % 100000 : Nat) : Int)
  omega

/-- Every index input addresses a node; every feature, weight and bias is a real number. -/
structure Inputs.Good (I : Inputs) : Prop where
  inp : ∀ n, IsNode (I.inp n)
  src : ∀ r e, IsNode (I.src r e)
  emb : ∀ n k, ∃ x : ℝ, I.emb n k = (x : EReal)
  W1 : ∀ r k j, ∃ x : ℝ, I.W1 r k j = (x : EReal)
  b1 : ∀ r j, ∃ x : ℝ, I.b1 r j = (x : EReal)
  W2 : ∀ r k j, ∃ x : ℝ, I.W2 r k j = (x : EReal)
  b2 : ∀ r j, ∃ x : ℝ, I.b2 r j = (x : EReal)

/-- The float 1.0. -/
def one : EReal := Ideal.ofBits .f32 0x3F800000#32

/-- Edge e of a column of ids ends at node n. -/
def Hits (ids : Fin 500000 → BitVec 32) (e : Fin 500000) (n : Fin 100000) : Prop := (ids e).toInt = (n.val : Int)

instance (ids : Fin 500000 → BitVec 32) (e : Fin 500000) (n : Fin 100000) : Decidable (Hits ids e n) := by
  unfold Hits; infer_instance

/-- The degree factor of node n for a column of ids: 1 / sqrt (max 1 (the number of edges that end at n)). -/
def deg (ids : Fin 500000 → BitVec 32) (n : Fin 100000) : EReal :=
  Ideal.rsqrt (max one (∑ e : Fin 500000, if Hits ids e n then one else 0))

/-- Features times a weight: row i of x against column j of w. -/
def xw (x : Fin 100000 → Fin 128 → EReal) (w : Fin 128 → Fin 128 → EReal) (i : Fin 100000) (j : Fin 128) : EReal :=
  ∑ k : Fin 128, x i k * w k j

/-- What arrives at node n in column j when every edge e carries `z (source of e) j` scaled by the source's factor
    `go`, the sum scaled by n's own factor `gi`. -/
def aggG (z : Fin 100000 → Fin 128 → EReal) (go gi : Fin 100000 → EReal) (s d : Fin 500000 → BitVec 32)
    (n : Fin 100000) (j : Fin 128) : EReal :=
  (∑ e : Fin 500000, if Hits d e n then z (node (s e)) j * go (node (s e)) else 0) * gi n

/-- The same with the degree factors of the two id columns themselves. -/
def agg (z : Fin 100000 → Fin 128 → EReal) (s d : Fin 500000 → BitVec 32) (n : Fin 100000) (j : Fin 128) : EReal :=
  aggG z (deg s) (deg d) s d n j

/-- One layer, the weight applied at the source before the aggregation. -/
def layerK (x : Fin 100000 → Fin 128 → EReal) (W : Fin 4 → Fin 128 → Fin 128 → EReal) (b : Fin 4 → Fin 128 → EReal)
    (s d : Fin 4 → Fin 500000 → BitVec 32) (n : Fin 100000) (j : Fin 128) : EReal :=
  (∑ r : Fin 4, agg (xw x (W r)) (s r) (d r) n j) + ∑ r : Fin 4, b r j

/-- One layer, the aggregation before the weight. -/
def layerR (x : Fin 100000 → Fin 128 → EReal) (W : Fin 4 → Fin 128 → Fin 128 → EReal) (b : Fin 4 → Fin 128 → EReal)
    (s d : Fin 4 → Fin 500000 → BitVec 32) (n : Fin 100000) (j : Fin 128) : EReal :=
  ∑ r : Fin 4, ((∑ k : Fin 128, agg x (s r) (d r) n k * W r k j) + b r j)

/-- The looked-up node features. -/
def feat (I : Inputs) (n : Fin 100000) (k : Fin 128) : EReal := I.emb (node (I.inp n)) k

/-- The hidden features, weight first. -/
def hidK (I : Inputs) (n : Fin 100000) (j : Fin 128) : EReal := Ideal.tanh (layerK (feat I) I.W1 I.b1 I.src I.dst n j)
/-- The result, weight first. -/
def outK (I : Inputs) (n : Fin 100000) (j : Fin 128) : EReal := layerK (hidK I) I.W2 I.b2 I.src I.dst n j

/-- The hidden features, aggregation first. -/
def hidR (I : Inputs) (n : Fin 100000) (j : Fin 128) : EReal := Ideal.tanh (layerR (feat I) I.W1 I.b1 I.src I.dst n j)
/-- The result, aggregation first. -/
def outR (I : Inputs) (n : Fin 100000) (j : Fin 128) : EReal := layerR (hidR I) I.W2 I.b2 I.src I.dst n j

end Cert.Spec

end
-- ==== Proof.KXw.lean ====
/-
The two weight regions: each output row block is the input rows times the four weights, so the whole output array, element (r, i, j), is the sum over k of feature (i, k) times weight (r, k, j).
-/
import proofs.«420714_j25331717112057_2_alg».proof.Proof.Gen.KernelIdeal.Frame
import proofs.«420714_j25331717112057_2_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Xw

/-! ## The block product at an index

Both weight regions multiply a [2000, 128] block by a [128, 128] matrix, contracting the block's second axis with the
matrix's first. The four lemmas below read the operands' indices axis by axis; `mm_apply` is the product at (p, q). -/

theorem lhs_dd_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dd_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dd_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dd_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, read at an index: row p of the left block against column q of the right. -/
theorem mm_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dd_0 _ _
    | ⟨1, _⟩ => exact (lhs_dd_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dd_0 _ _).trans hk
    | ⟨1, _⟩ => exact rhs_dd_1 _ _)
  rw [el, er]

/-- The payload of one relation's store, read at an index: the format changes are the identity on extended reals and
    the shape casts only add or drop a leading unit axis, so entry (u, p, q) is row p of the feature block against
    column q of the loaded weight. -/
theorem pay3_apply (x0 : Vec Ideal S2000x128 .f32) (w : Vec Ideal S1x128x128 .f32) (u : Fin 1) (p : Fin 2000) (q : Fin 128) :
    k0_pay3 x0 w (ix3 u p q) = ∑ k : Fin 128, Spec.rd2 x0 p k * Spec.rd3 w (0 : Fin 1) k q := by
  unfold k0_pay3 k0_pay2
  refine (shapeCast_ab_1ab_apply _ _ u p q).trans ?_
  refine (mm_apply _ _ p q).trans ?_
  refine Finset.sum_congr rfl fun k _ => ?_
  rw [truncf_apply, truncf_apply, shapeCast_self, shapeCast_1ab_ab_apply]

theorem hz2 : (![0, 0] : Fin 2 → Nat) = fun _ => 0 := funext fun a => by fin_cases a <;> rfl

/-! ## What one grid point leaves, and the whole array -/

/-- What one grid point leaves in the output block, as a function of the two input blocks: entry (r, p, q) is row p of
    the feature block against column q of weight r. -/
def blockXW (x0 : S2000x128.Idx → EReal) (x1 : S4x128x128.Idx → EReal) : S4x2000x128.Idx → EReal :=
  fun y => ∑ k : Fin 128, x0 (ix2 (⟨(y 1).val, (y 1).isLt⟩ : Fin 2000) k)
    * x1 (ix3 (⟨(y 0).val, (y 0).isLt⟩ : Fin 4) k (⟨(y 2).val, (y 2).isLt⟩ : Fin 128))

/-- One store's payload is its slab of `blockXW`: the weight is loaded at the relation's offset on the leading axis and
    the product stored at the same offset. -/
theorem piece_apply (x0 : Vec Ideal S2000x128 .f32) (x1 : Vec Ideal S4x128x128 .f32)
    (offw : Fin 3 → ℕ) (inbw : ∀ a, offw a + S1x128x128.size a ≤ S4x128x128.size a)
    (offo : Fin 3 → ℕ) (inbo : ∀ a, offo a + S1x2000x128.size a ≤ S4x2000x128.size a)
    (h0 : offw 0 = offo 0) (h1 : offw 1 = 0) (h2 : offw 2 = 0) (g1 : offo 1 = 0) (g2 : offo 2 = 0)
    (x : S1x2000x128.Idx) :
    k0_pay3 (View.ld x0 r0_0) (View.ld x1 (Rect.unit (s := S4x128x128) offw S1x128x128.size inbw)) x
      = blockXW x0 x1 ((Rect.unit (s := S4x2000x128) offo S1x2000x128.size inbo).emb x) := by
  obtain ⟨u, p, q, rfl⟩ : ∃ (u : Fin 1) (p : Fin 2000) (q : Fin 128), x = ix3 u p q := ⟨x 0, x 1, x 2, eq_ix3 x⟩
  have hu : u.val = 0 := by omega
  refine (pay3_apply _ _ u p q).trans ?_
  unfold blockXW
  refine Finset.sum_congr rfl fun k _ => ?_
  rw [View.ld_unit_zero (S := S2000x128) hz2]
  refine congrArg₂ (· * ·) ?_ ?_
  · refine congrArg x0 (funext fun a => Fin.ext ?_)
    match a with
    | ⟨0, _⟩ => show p.val = offo 1 + 1 * p.val; omega
    | ⟨1, _⟩ => rfl
  · show x1 ((Rect.unit (s := S4x128x128) offw S1x128x128.size inbw).idx (ix3 (0 : Fin 1) k q)) = _
    refine congrArg x1 (funext fun a => Fin.ext ?_)
    match a with
    | ⟨0, _⟩ => show offw 0 + 1 * 0 = offo 0 + 1 * u.val; omega
    | ⟨1, _⟩ => show offw 1 + 1 * k.val = k.val; omega
    | ⟨2, _⟩ => show offw 2 + 1 * q.val = offo 2 + 1 * q.val; omega

/-- The whole output array as a function of the whole feature array and the weights: entry (r, i, j) is row i of the
    features against column j of weight r. -/
def XW (X : S100000x128.Idx → EReal) (Wt : S4x128x128.Idx → EReal) : S4x100000x128.Idx → EReal :=
  fun y => ∑ k : Fin 128, X (ix2 (⟨(y 1).val, (y 1).isLt⟩ : Fin 100000) k)
    * Wt (ix3 (⟨(y 0).val, (y 0).isLt⟩ : Fin 4) k (⟨(y 2).val, (y 2).isLt⟩ : Fin 128))

theorem XW_apply (X : S100000x128.Idx → EReal) (Wt : S4x128x128.Idx → EReal) (r : Fin 4) (i : Fin 100000) (j : Fin 128) :
    XW X Wt (ix3 r i j) = ∑ k : Fin 128, Spec.rd2 X i k * Spec.rd3 Wt r k j := rfl

/-! ## Region 0 -/

/-- The four stores together leave `blockXW` of the two input blocks. -/
theorem out0_2_eq (x0 : Vec Ideal S2000x128 .f32) (x1 : Vec Ideal S4x128x128 .f32) : out0_2 x0 x1 = blockXW x0 x1 := by
  funext y
  unfold out0_2
  refine View.canon_apply_of_pieces (Val := Elt Ideal) (e := .f32) (blockXW x0 x1) _ ?_ y (cover0_2 _ _ _ _ y)
  intro pc hpc
  simp only [List.mem_cons, List.not_mem_nil, or_false] at hpc
  rcases hpc with rfl | rfl | rfl | rfl
  · intro x; exact piece_apply x0 x1 ![3, 0, 0] inb_S4x128x128_S1x128x128_3_0_0 ![3, 0, 0] inb_S4x2000x128_S1x2000x128_3_0_0 rfl rfl rfl rfl rfl x
  · intro x; exact piece_apply x0 x1 ![2, 0, 0] inb_S4x128x128_S1x128x128_2_0_0 ![2, 0, 0] inb_S4x2000x128_S1x2000x128_2_0_0 rfl rfl rfl rfl rfl x
  · intro x; exact piece_apply x0 x1 ![1, 0, 0] inb_S4x128x128_S1x128x128_1_0_0 ![1, 0, 0] inb_S4x2000x128_S1x2000x128_1_0_0 rfl rfl rfl rfl rfl x
  · intro x; exact piece_apply x0 x1 ![0, 0, 0] inb_S4x128x128_S1x128x128_0_0_0 ![0, 0, 0] inb_S4x2000x128_S1x2000x128_0_0_0 rfl rfl rfl rfl rfl x

/-- The block index maps over the grid: point t takes row block t of the features, all of the weights, and row block t
    of the output. -/
theorem idx_facts0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- What point t writes back is block t of `XW` of the feature array and the weights as the region finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (XW (V c main_v0) (V c main_arg4)) := by
  show (cfg0.win 2).cut (grid0.coords t) ((dat0 V c).after 2 t) = _
  rw [after0_2, out0_2_eq]
  obtain ⟨e00, e01, e10, e11, e12, e20, e21, e22⟩ := idx_facts0 t
  funext j
  show blockXW (iblk0 V c 0 t) (iblk0 V c 1 t) ((cfg0.win 2).xinj (grid0.coords t) j)
    = XW (V c main_v0) (V c main_arg4) (((cfg0.win 2).blk t).view.emb j)
  unfold blockXW XW
  refine Finset.sum_congr rfl fun k _ => ?_
  refine congrArg₂ (· * ·) ?_ ?_
  · show V c main_v0 (((cfg0.win 0).blk t).view.emb _) = V c main_v0 _
    refine congrArg _ (funext fun a => Fin.ext ?_)
    match a with
    | ⟨0, _⟩ => show win0_0.index t (0 : Fin 2) * 2000 + 1 * (j 1).val = win0_2.index t (1 : Fin 3) * 2000 + 1 * (j 1).val; omega
    | ⟨1, _⟩ => show win0_0.index t (1 : Fin 2) * 128 + 1 * k.val = k.val; omega
  · show V c main_arg4 (((cfg0.win 1).blk t).view.emb _) = V c main_arg4 _
    refine congrArg _ (funext fun a => Fin.ext ?_)
    match a with
    | ⟨0, _⟩ => show win0_1.index t (0 : Fin 3) * 4 + 1 * (j 0).val = win0_2.index t (0 : Fin 3) * 4 + 1 * (j 0).val; omega
    | ⟨1, _⟩ => show win0_1.index t (1 : Fin 3) * 128 + 1 * k.val = k.val; omega
    | ⟨2, _⟩ => show win0_1.index t (2 : Fin 3) * 128 + 1 * (j 2).val = win0_2.index t (2 : Fin 3) * 128 + 1 * (j 2).val; omega

/-- An index of the output array is in point t's block iff each coordinate is in the block's range on its axis. -/
theorem mem_blk0 (t : Fin cfg0.N) (i : S4x100000x128.Idx) :
    i ∈ ((cfg0.win 2).blk t).view.set ↔ ∀ a : Fin 3, win0_2.index t a * S4x2000x128.size a ≤ (i a).val
      ∧ (i a).val < win0_2.index t a * S4x2000x128.size a + S4x2000x128.size a := by
  show i ∈ ((View.whole main_v58).slice (win0_2.rect t)).set ↔ _
  rw [View.set_slice_whole, Rect.mem_set_unit]
  exact Iff.rfl

/-- Row i of the output lies in the block of point i / 2000. -/
theorem cover0 (i : S4x100000x128.Idx) :
    ∃ t : Fin cfg0.N, (cfg0.win 2).flush t = true ∧ i ∈ ((cfg0.win 2).blk t).view.set := by
  have hi0 : (i 0).val < 4 := (i 0).isLt
  have hi1 : (i 1).val < 100000 := (i 1).isLt
  have hi2 : (i 2).val < 128 := (i 2).isLt
  obtain ⟨t, ht⟩ : ∃ t : Fin cfg0.N, t.val = (i 1).val / 2000 :=
    ⟨⟨(i 1).val / 2000, lt_of_lt_of_eq (by omega) N_0.symm⟩, rfl⟩
  obtain ⟨-, -, -, -, -, e20, e21, e22⟩ := idx_facts0 t
  refine ⟨t, flush0_2 t, ?_⟩
  rw [mem_blk0]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 128 ≤ (i 2).val ∧ (i 2).val < win0_2.index t (2 : Fin 3) * 128 + 128; omega

/-- So the output array ends holding `XW` of the feature array and the weights as the region finds them. -/
theorem arr0_eq (V : (c : Dev nD) → (b : Ref sig .tc) → Buf (Elt Ideal) ((c : Thread nD τ).loc b)) (c : Dev nD) :
    (dat0 (F := Ideal) V c).arrAt 2 cfg0.N = XW (V c main_v0) (V c main_arg4) :=
  (dat0 V c).arrAt_eq_of_cover 2 _ (fun t _ => flushed0_eq V c t) cover0

/-! ## Region 2 -/

/-- The four stores together leave `blockXW` of the two input blocks. -/
theorem out2_2_eq (x0 : Vec Ideal S2000x128 .f32) (x1 : Vec Ideal S4x128x128 .f32) : out2_2 x0 x1 = blockXW x0 x1 := by
  funext y
  unfold out2_2
  refine View.canon_apply_of_pieces (Val := Elt Ideal) (e := .f32) (blockXW x0 x1) _ ?_ y (cover2_2 _ _ _ _ y)
  intro pc hpc
  simp only [List.mem_cons, List.not_mem_nil, or_false] at hpc
  rcases hpc with rfl | rfl | rfl | rfl
  · intro x; exact piece_apply x0 x1 ![3, 0, 0] inb_S4x128x128_S1x128x128_3_0_0 ![3, 0, 0] inb_S4x2000x128_S1x2000x128_3_0_0 rfl rfl rfl rfl rfl x
  · intro x; exact piece_apply x0 x1 ![2, 0, 0] inb_S4x128x128_S1x128x128_2_0_0 ![2, 0, 0] inb_S4x2000x128_S1x2000x128_2_0_0 rfl rfl rfl rfl rfl x
  · intro x; exact piece_apply x0 x1 ![1, 0, 0] inb_S4x128x128_S1x128x128_1_0_0 ![1, 0, 0] inb_S4x2000x128_S1x2000x128_1_0_0 rfl rfl rfl rfl rfl x
  · intro x; exact piece_apply x0 x1 ![0, 0, 0] inb_S4x128x128_S1x128x128_0_0_0 ![0, 0, 0] inb_S4x2000x128_S1x2000x128_0_0_0 rfl rfl rfl rfl rfl x

/-- The block index maps over the grid: point t takes row block t of the features, all of the weights, and row block t
    of the output. -/
theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = t.val ∧ win2_2.index t (2 : Fin 3) = 0 :=
  (by decide +kernel : ∀ t : Fin grid2.N, _)

/-- What point t writes back is block t of `XW` of the feature array and the weights as the region finds them. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (XW (V c main_v129) (V c main_arg6)) := by
  show (cfg2.win 2).cut (grid2.coords t) ((dat2 V c).after 2 t) = _
  rw [after2_2, out2_2_eq]
  obtain ⟨e00, e01, e10, e11, e12, e20, e21, e22⟩ := idx_facts2 t
  funext j
  show blockXW (iblk2 V c 0 t) (iblk2 V c 1 t) ((cfg2.win 2).xinj (grid2.coords t) j)
    = XW (V c main_v129) (V c main_arg6) (((cfg2.win 2).blk t).view.emb j)
  unfold blockXW XW
  refine Finset.sum_congr rfl fun k _ => ?_
  refine congrArg₂ (· * ·) ?_ ?_
  · show V c main_v129 (((cfg2.win 0).blk t).view.emb _) = V c main_v129 _
    refine congrArg _ (funext fun a => Fin.ext ?_)
    match a with
    | ⟨0, _⟩ => show win2_0.index t (0 : Fin 2) * 2000 + 1 * (j 1).val = win2_2.index t (1 : Fin 3) * 2000 + 1 * (j 1).val; omega
    | ⟨1, _⟩ => show win2_0.index t (1 : Fin 2) * 128 + 1 * k.val = k.val; omega
  · show V c main_arg6 (((cfg2.win 1).blk t).view.emb _) = V c main_arg6 _
    refine congrArg _ (funext fun a => Fin.ext ?_)
    match a with
    | ⟨0, _⟩ => show win2_1.index t (0 : Fin 3) * 4 + 1 * (j 0).val = win2_2.index t (0 : Fin 3) * 4 + 1 * (j 0).val; omega
    | ⟨1, _⟩ => show win2_1.index t (1 : Fin 3) * 128 + 1 * k.val = k.val; omega
    | ⟨2, _⟩ => show win2_1.index t (2 : Fin 3) * 128 + 1 * (j 2).val = win2_2.index t (2 : Fin 3) * 128 + 1 * (j 2).val; omega

/-- An index of the output array is in point t's block iff each coordinate is in the block's range on its axis. -/
theorem mem_blk2 (t : Fin cfg2.N) (i : S4x100000x128.Idx) :
    i ∈ ((cfg2.win 2).blk t).view.set ↔ ∀ a : Fin 3, win2_2.index t a * S4x2000x128.size a ≤ (i a).val
      ∧ (i a).val < win2_2.index t a * S4x2000x128.size a + S4x2000x128.size a := by
  show i ∈ ((View.whole main_v130).slice (win2_2.rect t)).set ↔ _
  rw [View.set_slice_whole, Rect.mem_set_unit]
  exact Iff.rfl

/-- Row i of the output lies in the block of point i / 2000. -/
theorem cover2 (i : S4x100000x128.Idx) :
    ∃ t : Fin cfg2.N, (cfg2.win 2).flush t = true ∧ i ∈ ((cfg2.win 2).blk t).view.set := by
  have hi0 : (i 0).val < 4 := (i 0).isLt
  have hi1 : (i 1).val < 100000 := (i 1).isLt
  have hi2 : (i 2).val < 128 := (i 2).isLt
  obtain ⟨t, ht⟩ : ∃ t : Fin cfg2.N, t.val = (i 1).val / 2000 :=
    ⟨⟨(i 1).val / 2000, lt_of_lt_of_eq (by omega) N_2.symm⟩, rfl⟩
  obtain ⟨-, -, -, -, -, e20, e21, e22⟩ := idx_facts2 t
  refine ⟨t, flush2_2 t, ?_⟩
  rw [mem_blk2]
  intro a
  match a with
  | ⟨0, _⟩ => show win2_2.index t (0 : Fin 3) * 4 ≤ (i 0).val ∧ (i 0).val < win2_2.index t (0 : Fin 3) * 4 + 4; omega
  | ⟨1, _⟩ => show win2_2.index t (1 : Fin 3) * 2000 ≤ (i 1).val ∧ (i 1).val < win2_2.index t (1 : Fin 3) * 2000 + 2000; omega
  | ⟨2, _⟩ => show win2_2.index t (2 : Fin 3) * 128 ≤ (i 2).val ∧ (i 2).val < win2_2.index t (2 : Fin 3) * 128 + 128; omega

/-- So the output array ends holding `XW` of the feature array and the weights as the region finds them. -/
theorem arr2_eq (V : (c : Dev nD) → (b : Ref sig .tc) → Buf (Elt Ideal) ((c : Thread nD τ).loc b)) (c : Dev nD) :
    (dat2 (F := Ideal) V c).arrAt 2 cfg2.N = XW (V c main_v129) (V c main_arg6) :=
  (dat2 V c).arrAt_eq_of_cover 2 _ (fun t _ => flushed2_eq V c t) cover2

end Xw

open Xw

variable (m : (ℓ : Loc nD τ sig) → Buf (Elt Ideal) ℓ) (ρ : Dev nD → PrngReg)

/-- After the first weight region: element (r, i, j) of its output is row i of the features against column j of weight r. -/
theorem xw_L1 (c : Dev nD) (r : Fin 4) (i : Fin 100000) (j : Fin 128) :
    Spec.rd3 (Gen.W19 m ρ c (Proc.devRef .tc main_v58)) r i j = ∑ k : Fin 128, Spec.rd2 (Gen.W18 m ρ c (Proc.devRef .tc main_v0)) i k * Spec.rd3 (Gen.W18 m ρ c (Proc.devRef .tc main_arg4)) r k j := by
  have e : Gen.W19 m ρ c (Proc.devRef .tc main_v58) = (dat0 (V18 m ρ) c).arrAt 2 cfg0.N := W19_arr m ρ c 2
  rw [e, arr0_eq (V18 m ρ) c]
  exact XW_apply _ _ r i j

/-- After the second weight region, the same of the hidden features and the second weights. -/
theorem xw_L2 (c : Dev nD) (r : Fin 4) (i : Fin 100000) (j : Fin 128) :
    Spec.rd3 (Gen.W34 m ρ c (Proc.devRef .tc main_v130)) r i j = ∑ k : Fin 128, Spec.rd2 (Gen.W33 m ρ c (Proc.devRef .tc main_v129)) i k * Spec.rd3 (Gen.W33 m ρ c (Proc.devRef .tc main_arg6)) r k j := by
  have e : Gen.W34 m ρ c (Proc.devRef .tc main_v130) = (dat2 (V33 m ρ) c).arrAt 2 cfg2.N := W34_arr m ρ c 2
  rw [e, arr2_eq (V33 m ρ) c]
  exact XW_apply _ _ r i j

end Cert.KernelIdeal.KV

end
-- ==== Proof.KRed.lean ====
/-
The two combining regions: each output element is the sum of the four relations' aggregates at that element plus the bias row's entry of that column; the first one ends in tanh.

Each region runs over 50 grid points. At point t the four aggregate windows and the output window hold rows 2000 t .. 2000 t + 1999 of their
arrays (all 128 columns) and the bias window holds the whole 1 by 128 bias row. The body adds the four blocks left to right, adds the bias row
broadcast over the 2000 rows, applies tanh in the first region only, and stores the block. So what point t writes back is block t of ONE
function of the five arrays, the 50 blocks cover the output array, and the array after the region is that function.
-/
import proofs.«420714_j25331717112057_2_alg».proof.Proof.Gen.KernelIdeal.Frame
import proofs.«420714_j25331717112057_2_alg».proof.Proof.Spec
import Idealize.ShloMosaic.Lib.Pipeline.Value
import Idealize.ShloMosaic.Lib.ValueLayout

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

/-! ## The two bodies at an element -/

/-- The first region's body at element (p, q) of the block: the four blocks' entries summed left to right, the bias row's
    entry of column q added, then tanh. The body's shape casts are to the same shape, so they are the identity. -/
private theorem payTanh_apply (x0 x1 x2 x3 : FVec Ideal S2000x128 .f32) (x4 : FVec Ideal S1x128 .f32) (p : Fin 2000) (q : Fin 128) :
    k1_pay1 (F := Ideal) x0 x1 x2 x3 x4 (ix2 p q)
      = Ideal.tanh ((((x0 (ix2 p q) + x1 (ix2 p q)) + x2 (ix2 p q)) + x3 (ix2 p q)) + x4 (ix2 (0 : Fin 1) q)) := by
  unfold k1_pay1
  simp only [shapeCast_self]
  refine congrArg Ideal.tanh ?_
  refine congrArg (fun z => (((x0 (ix2 p q) + x1 (ix2 p q)) + x2 (ix2 p q)) + x3 (ix2 p q)) + z) ?_
  exact broadcastTo_1b_ab_apply x4 broadcasts_S1x128_S2000x128 p q

/-- The second region's body at element (p, q): the same sum, no tanh. -/
private theorem payPlain_apply (x0 x1 x2 x3 : FVec Ideal S2000x128 .f32) (x4 : FVec Ideal S1x128 .f32) (p : Fin 2000) (q : Fin 128) :
    k3_pay1 (F := Ideal) x0 x1 x2 x3 x4 (ix2 p q)
      = (((x0 (ix2 p q) + x1 (ix2 p q)) + x2 (ix2 p q)) + x3 (ix2 p q)) + x4 (ix2 (0 : Fin 1) q) := by
  unfold k3_pay1
  simp only [shapeCast_self]
  refine congrArg (fun z => (((x0 (ix2 p q) + x1 (ix2 p q)) + x2 (ix2 p q)) + x3 (ix2 p q)) + z) ?_
  exact broadcastTo_1b_ab_apply x4 broadcasts_S1x128_S2000x128 p q

/-! ## The two regions' results as functions of the five arrays -/

/-- The first region's result: at row n, column j, tanh of the four arrays' entries summed left to right plus the bias
    row's entry of column j. -/
private def sumTanh (a0 a1 a2 a3 : S100000x128.Idx → EReal) (b : S1x128.Idx → EReal) : S100000x128.Idx → EReal :=
  fun i => Ideal.tanh ((((a0 i + a1 i) + a2 i) + a3 i) + b (ix2 (0 : Fin 1) (⟨(i 1).val, idx2_lt1 i⟩ : Fin 128)))

/-- The second region's result: the same sum, no tanh. -/
private def sumPlain (a0 a1 a2 a3 : S100000x128.Idx → EReal) (b : S1x128.Idx → EReal) : S100000x128.Idx → EReal :=
  fun i => (((a0 i + a1 i) + a2 i) + a3 i) + b (ix2 (0 : Fin 1) (⟨(i 1).val, idx2_lt1 i⟩ : Fin 128))

/-- The zero offsets of a load or store of a whole block. -/
private theorem zeros2 : (![0, 0] : Fin 2 → Nat) = fun _ => 0 := funext fun a => by fin_cases a <;> rfl

/-! ## The first combining region -/

/-- The printed index maps over the 50 grid points: the four aggregate windows and the output window sit at block (t, 0),
    the bias window at block (0, 0). -/
private theorem idxL1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- A grid point of the first region is below 50. -/
private theorem ltL1 (t : Fin cfg1.N) : t.val < 50 := lt_of_lt_of_eq t.isLt N_1

section RegionL1
variable (V : (c : Dev nD) → (b : Ref sig .tc) → Buf (Elt Ideal) ((c : Thread nD τ).loc b))

/-- The first relation's block at point t, at (p, q), is its array at row 2000 t + p, column q. -/
private theorem blkL1_0 (c : Dev nD) (t : Fin cfg1.N) (p : Fin 2000) (q : Fin 128) (r : Fin 100000)
    (hr : r.val = t.val * 2000 + p.val) :
    (iblk1 V c 0 t : FVec Ideal S2000x128 .f32) (ix2 p q) = Spec.rd2 (V c main_v75) r q := by
  show V c main_v75 (((cfg1.win 0).blk t).view.emb (ix2 p q)) = V c main_v75 (ix2 r q)
  refine congrArg (V c main_v75) (funext fun a => Fin.ext ?_)
  obtain ⟨e0, e1⟩ := (idxL1 t).1
  match a with
  | ⟨0, _⟩ => show win1_0.index t (0 : Fin 2) * 2000 + 1 * p.val = r.val; omega
  | ⟨1, _⟩ => show win1_0.index t (1 : Fin 2) * 128 + 1 * q.val = q.val; omega

/-- The second relation's block likewise. -/
private theorem blkL1_1 (c : Dev nD) (t : Fin cfg1.N) (p : Fin 2000) (q : Fin 128) (r : Fin 100000)
    (hr : r.val = t.val * 2000 + p.val) :
    (iblk1 V c 1 t : FVec Ideal S2000x128 .f32) (ix2 p q) = Spec.rd2 (V c main_v92) r q := by
  show V c main_v92 (((cfg1.win 1).blk t).view.emb (ix2 p q)) = V c main_v92 (ix2 r q)
  refine congrArg (V c main_v92) (funext fun a => Fin.ext ?_)
  obtain ⟨e0, e1⟩ := (idxL1 t).2.1
  match a with
  | ⟨0, _⟩ => show win1_1.index t (0 : Fin 2) * 2000 + 1 * p.val = r.val; omega
  | ⟨1, _⟩ => show win1_1.index t (1 : Fin 2) * 128 + 1 * q.val = q.val; omega

/-- The third relation's block likewise. -/
private theorem blkL1_2 (c : Dev nD) (t : Fin cfg1.N) (p : Fin 2000) (q : Fin 128) (r : Fin 100000)
    (hr : r.val = t.val * 2000 + p.val) :
    (iblk1 V c 2 t : FVec Ideal S2000x128 .f32) (ix2 p q) = Spec.rd2 (V c main_v109) r q := by
  show V c main_v109 (((cfg1.win 2).blk t).view.emb (ix2 p q)) = V c main_v109 (ix2 r q)
  refine congrArg (V c main_v109) (funext fun a => Fin.ext ?_)
  obtain ⟨e0, e1⟩ := (idxL1 t).2.2.1
  match a with
  | ⟨0, _⟩ => show win1_2.index t (0 : Fin 2) * 2000 + 1 * p.val = r.val; omega
  | ⟨1, _⟩ => show win1_2.index t (1 : Fin 2) * 128 + 1 * q.val = q.val; omega

/-- The fourth relation's block likewise. -/
private theorem blkL1_3 (c : Dev nD) (t : Fin cfg1.N) (p : Fin 2000) (q : Fin 128) (r : Fin 100000)
    (hr : r.val = t.val * 2000 + p.val) :
    (iblk1 V c 3 t : FVec Ideal S2000x128 .f32) (ix2 p q) = Spec.rd2 (V c main_v126) r q := by
  show V c main_v126 (((cfg1.win 3).blk t).view.emb (ix2 p q)) = V c main_v126 (ix2 r q)
  refine congrArg (V c main_v126) (funext fun a => Fin.ext ?_)
  obtain ⟨e0, e1⟩ := (idxL1 t).2.2.2.1
  match a with
  | ⟨0, _⟩ => show win1_3.index t (0 : Fin 2) * 2000 + 1 * p.val = r.val; omega
  | ⟨1, _⟩ => show win1_3.index t (1 : Fin 2) * 128 + 1 * q.val = q.val; omega

/-- The bias window's block at every point, at (0, q), is the bias row at column q. -/
private theorem blkL1_4 (c : Dev nD) (t : Fin cfg1.N) (q : Fin 128) :
    (iblk1 V c 4 t : FVec Ideal S1x128 .f32) (ix2 (0 : Fin 1) q) = Spec.rd2 (V c main_v128) 0 q := by
  show V c main_v128 (((cfg1.win 4).blk t).view.emb (ix2 (0 : Fin 1) q)) = V c main_v128 (ix2 (0 : Fin 1) q)
  refine congrArg (V c main_v128) (funext fun a => Fin.ext ?_)
  obtain ⟨e0, e1⟩ := (idxL1 t).2.2.2.2.1
  match a with
  | ⟨0, _⟩ => show win1_4.index t (0 : Fin 2) * 1 + 1 * 0 = 0; omega
  | ⟨1, _⟩ => show win1_4.index t (1 : Fin 2) * 128 + 1 * q.val = q.val; omega

/-- What point t writes back is block t of the region's result as a function of the arrays the region finds. -/
private theorem flushedL1 (c : Dev nD) (t : Fin cfg1.N) :
    (dat1 V c).flushed 5 t = ((cfg1.win 5).blk t).view.read (Elt Ideal)
      (sumTanh (V c main_v75) (V c main_v92) (V c main_v109) (V c main_v126) (V c main_v128)) := by
  show (cfg1.win 5).cut (grid1.coords t) ((dat1 V c).after 5 t) = _
  rw [after1_5]
  unfold out1_5
  rw [View.canon_unit_zero zeros2]
  simp only [View.ld_unit_zero (S := S2000x128) zeros2, View.ld_unit_zero (S := S1x128) zeros2]
  funext y
  have hp : (y 0).val < 2000 := (y 0).isLt
  have hq : (y 1).val < 128 := (y 1).isLt
  have ht := ltL1 t
  -- the block's element (y 0, y 1) sits in the array at row 2000 t + y 0, column y 1
  have hin : (cfg1.win 5).xinj (grid1.coords t) y = ix2 (⟨(y 0).val, hp⟩ : Fin 2000) (⟨(y 1).val, hq⟩ : Fin 128) :=
    funext fun a => Fin.ext (by match a with | ⟨0, _⟩ => rfl | ⟨1, _⟩ => rfl)
  have hemb : ((cfg1.win 5).blk t).view.emb y
      = ix2 (⟨t.val * 2000 + (y 0).val, by omega⟩ : Fin 100000) (⟨(y 1).val, hq⟩ : Fin 128) := by
    obtain ⟨e0, e1⟩ := (idxL1 t).2.2.2.2.2
    refine funext fun a => Fin.ext ?_
    match a with
    | ⟨0, _⟩ => show win1_5.index t (0 : Fin 2) * 2000 + 1 * (y 0).val = t.val * 2000 + (y 0).val; omega
    | ⟨1, _⟩ => show win1_5.index t (1 : Fin 2) * 128 + 1 * (y 1).val = (y 1).val; omega
  refine (congrArg (k1_pay1 (F := Ideal) (iblk1 V c 0 t) (iblk1 V c 1 t) (iblk1 V c 2 t) (iblk1 V c 3 t) (iblk1 V c 4 t)) hin).trans ?_
  refine (payTanh_apply (iblk1 V c 0 t) (iblk1 V c 1 t) (iblk1 V c 2 t) (iblk1 V c 3 t) (iblk1 V c 4 t)
    (⟨(y 0).val, hp⟩ : Fin 2000) (⟨(y 1).val, hq⟩ : Fin 128)).trans ?_
  refine Eq.trans ?_ (congrArg (sumTanh (V c main_v75) (V c main_v92) (V c main_v109) (V c main_v126) (V c main_v128)) hemb).symm
  rw [blkL1_0 V c t ⟨(y 0).val, hp⟩ ⟨(y 1).val, hq⟩ ⟨t.val * 2000 + (y 0).val, by omega⟩ rfl,
    blkL1_1 V c t ⟨(y 0).val, hp⟩ ⟨(y 1).val, hq⟩ ⟨t.val * 2000 + (y 0).val, by omega⟩ rfl,
    blkL1_2 V c t ⟨(y 0).val, hp⟩ ⟨(y 1).val, hq⟩ ⟨t.val * 2000 + (y 0).val, by omega⟩ rfl,
    blkL1_3 V c t ⟨(y 0).val, hp⟩ ⟨(y 1).val, hq⟩ ⟨t.val * 2000 + (y 0).val, by omega⟩ rfl,
    blkL1_4 V c t ⟨(y 1).val, hq⟩]
  rfl

/-- An index of the output array is in point t's block iff each coordinate lies in the block's range on its axis. -/
private theorem memL1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v129).slice (win1_5.rect t)).set ↔ _
  rw [View.set_slice_whole, Rect.mem_set_unit]
  exact Iff.rfl

/-- Row n of the output array lies in the block of point n / 2000, which writes back. -/
private theorem coverL1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, lt_of_lt_of_eq (show (i 0).val / 2000 < 50 by omega) N_1.symm⟩, rfl⟩
  refine ⟨t, flush1_5 t, ?_⟩
  rw [memL1]
  obtain ⟨e0, e1⟩ := (idxL1 t).2.2.2.2.2
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the region the output array is the region's result as a function of the arrays the region found. -/
private theorem arrL1 (c : Dev nD) : (dat1 V c).arrAt 5 cfg1.N
    = sumTanh (V c main_v75) (V c main_v92) (V c main_v109) (V c main_v126) (V c main_v128) :=
  (dat1 V c).arrAt_eq_of_cover 5 (sumTanh (V c main_v75) (V c main_v92) (V c main_v109) (V c main_v126) (V c main_v128))
    (fun t _ => flushedL1 V c t) coverL1

/-- The same at row n, column j. -/
private theorem arrL1_apply (c : Dev nD) (n : Fin 100000) (j : Fin 128) :
    Spec.rd2 ((dat1 V c).arrAt 5 cfg1.N) n j = Ideal.tanh ((((Spec.rd2 (V c main_v75) n j + Spec.rd2 (V c main_v92) n j)
      + Spec.rd2 (V c main_v109) n j) + Spec.rd2 (V c main_v126) n j) + Spec.rd2 (V c main_v128) 0 j) := by
  rw [arrL1 V c]
  rfl

end RegionL1

/-! ## The second combining region -/

/-- The printed index maps over the 50 grid points: the four aggregate windows and the output window sit at block (t, 0),
    the bias window at block (0, 0). -/
private theorem idxL2 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- A grid point of the second region is below 50. -/
private theorem ltL2 (t : Fin cfg3.N) : t.val < 50 := lt_of_lt_of_eq t.isLt N_3

section RegionL2
variable (V : (c : Dev nD) → (b : Ref sig .tc) → Buf (Elt Ideal) ((c : Thread nD τ).loc b))

/-- The first relation's block at point t, at (p, q), is its array at row 2000 t + p, column q. -/
private theorem blkL2_0 (c : Dev nD) (t : Fin cfg3.N) (p : Fin 2000) (q : Fin 128) (r : Fin 100000)
    (hr : r.val = t.val * 2000 + p.val) :
    (iblk3 V c 0 t : FVec Ideal S2000x128 .f32) (ix2 p q) = Spec.rd2 (V c main_v147) r q := by
  show V c main_v147 (((cfg3.win 0).blk t).view.emb (ix2 p q)) = V c main_v147 (ix2 r q)
  refine congrArg (V c main_v147) (funext fun a => Fin.ext ?_)
  obtain ⟨e0, e1⟩ := (idxL2 t).1
  match a with
  | ⟨0, _⟩ => show win3_0.index t (0 : Fin 2) * 2000 + 1 * p.val = r.val; omega
  | ⟨1, _⟩ => show win3_0.index t (1 : Fin 2) * 128 + 1 * q.val = q.val; omega

/-- The second relation's block likewise. -/
private theorem blkL2_1 (c : Dev nD) (t : Fin cfg3.N) (p : Fin 2000) (q : Fin 128) (r : Fin 100000)
    (hr : r.val = t.val * 2000 + p.val) :
    (iblk3 V c 1 t : FVec Ideal S2000x128 .f32) (ix2 p q) = Spec.rd2 (V c main_v164) r q := by
  show V c main_v164 (((cfg3.win 1).blk t).view.emb (ix2 p q)) = V c main_v164 (ix2 r q)
  refine congrArg (V c main_v164) (funext fun a => Fin.ext ?_)
  obtain ⟨e0, e1⟩ := (idxL2 t).2.1
  match a with
  | ⟨0, _⟩ => show win3_1.index t (0 : Fin 2) * 2000 + 1 * p.val = r.val; omega
  | ⟨1, _⟩ => show win3_1.index t (1 : Fin 2) * 128 + 1 * q.val = q.val; omega

/-- The third relation's block likewise. -/
private theorem blkL2_2 (c : Dev nD) (t : Fin cfg3.N) (p : Fin 2000) (q : Fin 128) (r : Fin 100000)
    (hr : r.val = t.val * 2000 + p.val) :
    (iblk3 V c 2 t : FVec Ideal S2000x128 .f32) (ix2 p q) = Spec.rd2 (V c main_v181) r q := by
  show V c main_v181 (((cfg3.win 2).blk t).view.emb (ix2 p q)) = V c main_v181 (ix2 r q)
  refine congrArg (V c main_v181) (funext fun a => Fin.ext ?_)
  obtain ⟨e0, e1⟩ := (idxL2 t).2.2.1
  match a with
  | ⟨0, _⟩ => show win3_2.index t (0 : Fin 2) * 2000 + 1 * p.val = r.val; omega
  | ⟨1, _⟩ => show win3_2.index t (1 : Fin 2) * 128 + 1 * q.val = q.val; omega

/-- The fourth relation's block likewise. -/
private theorem blkL2_3 (c : Dev nD) (t : Fin cfg3.N) (p : Fin 2000) (q : Fin 128) (r : Fin 100000)
    (hr : r.val = t.val * 2000 + p.val) :
    (iblk3 V c 3 t : FVec Ideal S2000x128 .f32) (ix2 p q) = Spec.rd2 (V c main_v198) r q := by
  show V c main_v198 (((cfg3.win 3).blk t).view.emb (ix2 p q)) = V c main_v198 (ix2 r q)
  refine congrArg (V c main_v198) (funext fun a => Fin.ext ?_)
  obtain ⟨e0, e1⟩ := (idxL2 t).2.2.2.1
  match a with
  | ⟨0, _⟩ => show win3_3.index t (0 : Fin 2) * 2000 + 1 * p.val = r.val; omega
  | ⟨1, _⟩ => show win3_3.index t (1 : Fin 2) * 128 + 1 * q.val = q.val; omega

/-- The bias window's block at every point, at (0, q), is the bias row at column q. -/
private theorem blkL2_4 (c : Dev nD) (t : Fin cfg3.N) (q : Fin 128) :
    (iblk3 V c 4 t : FVec Ideal S1x128 .f32) (ix2 (0 : Fin 1) q) = Spec.rd2 (V c main_v200) 0 q := by
  show V c main_v200 (((cfg3.win 4).blk t).view.emb (ix2 (0 : Fin 1) q)) = V c main_v200 (ix2 (0 : Fin 1) q)
  refine congrArg (V c main_v200) (funext fun a => Fin.ext ?_)
  obtain ⟨e0, e1⟩ := (idxL2 t).2.2.2.2.1
  match a with
  | ⟨0, _⟩ => show win3_4.index t (0 : Fin 2) * 1 + 1 * 0 = 0; omega
  | ⟨1, _⟩ => show win3_4.index t (1 : Fin 2) * 128 + 1 * q.val = q.val; omega

/-- What point t writes back is block t of the region's result as a function of the arrays the region finds. -/
private theorem flushedL2 (c : Dev nD) (t : Fin cfg3.N) :
    (dat3 V c).flushed 5 t = ((cfg3.win 5).blk t).view.read (Elt Ideal)
      (sumPlain (V c main_v147) (V c main_v164) (V c main_v181) (V c main_v198) (V c main_v200)) := by
  show (cfg3.win 5).cut (grid3.coords t) ((dat3 V c).after 5 t) = _
  rw [after3_5]
  unfold out3_5
  rw [View.canon_unit_zero zeros2]
  simp only [View.ld_unit_zero (S := S2000x128) zeros2, View.ld_unit_zero (S := S1x128) zeros2]
  funext y
  have hp : (y 0).val < 2000 := (y 0).isLt
  have hq : (y 1).val < 128 := (y 1).isLt
  have ht := ltL2 t
  -- the block's element (y 0, y 1) sits in the array at row 2000 t + y 0, column y 1
  have hin : (cfg3.win 5).xinj (grid3.coords t) y = ix2 (⟨(y 0).val, hp⟩ : Fin 2000) (⟨(y 1).val, hq⟩ : Fin 128) :=
    funext fun a => Fin.ext (by match a with | ⟨0, _⟩ => rfl | ⟨1, _⟩ => rfl)
  have hemb : ((cfg3.win 5).blk t).view.emb y
      = ix2 (⟨t.val * 2000 + (y 0).val, by omega⟩ : Fin 100000) (⟨(y 1).val, hq⟩ : Fin 128) := by
    obtain ⟨e0, e1⟩ := (idxL2 t).2.2.2.2.2
    refine funext fun a => Fin.ext ?_
    match a with
    | ⟨0, _⟩ => show win3_5.index t (0 : Fin 2) * 2000 + 1 * (y 0).val = t.val * 2000 + (y 0).val; omega
    | ⟨1, _⟩ => show win3_5.index t (1 : Fin 2) * 128 + 1 * (y 1).val = (y 1).val; omega
  refine (congrArg (k3_pay1 (F := Ideal) (iblk3 V c 0 t) (iblk3 V c 1 t) (iblk3 V c 2 t) (iblk3 V c 3 t) (iblk3 V c 4 t)) hin).trans ?_
  refine (payPlain_apply (iblk3 V c 0 t) (iblk3 V c 1 t) (iblk3 V c 2 t) (iblk3 V c 3 t) (iblk3 V c 4 t)
    (⟨(y 0).val, hp⟩ : Fin 2000) (⟨(y 1).val, hq⟩ : Fin 128)).trans ?_
  refine Eq.trans ?_ (congrArg (sumPlain (V c main_v147) (V c main_v164) (V c main_v181) (V c main_v198) (V c main_v200)) hemb).symm
  rw [blkL2_0 V c t ⟨(y 0).val, hp⟩ ⟨(y 1).val, hq⟩ ⟨t.val * 2000 + (y 0).val, by omega⟩ rfl,
    blkL2_1 V c t ⟨(y 0).val, hp⟩ ⟨(y 1).val, hq⟩ ⟨t.val * 2000 + (y 0).val, by omega⟩ rfl,
    blkL2_2 V c t ⟨(y 0).val, hp⟩ ⟨(y 1).val, hq⟩ ⟨t.val * 2000 + (y 0).val, by omega⟩ rfl,
    blkL2_3 V c t ⟨(y 0).val, hp⟩ ⟨(y 1).val, hq⟩ ⟨t.val * 2000 + (y 0).val, by omega⟩ rfl,
    blkL2_4 V c t ⟨(y 1).val, hq⟩]
  rfl

/-- An index of the output array is in point t's block iff each coordinate lies in the block's range on its axis. -/
private theorem memL2 (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v201).slice (win3_5.rect t)).set ↔ _
  rw [View.set_slice_whole, Rect.mem_set_unit]
  exact Iff.rfl

/-- Row n of the output array lies in the block of point n / 2000, which writes back. -/
private theorem coverL2 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, lt_of_lt_of_eq (show (i 0).val / 2000 < 50 by omega) N_3.symm⟩, rfl⟩
  refine ⟨t, flush3_5 t, ?_⟩
  rw [memL2]
  obtain ⟨e0, e1⟩ := (idxL2 t).2.2.2.2.2
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 128 ≤ (i 1).val ∧ (i 1).val < win3_5.index t (1 : Fin 2) * 128 + 128
    omega

/-- After the region the output array is the region's result as a function of the arrays the region found. -/
private theorem arrL2 (c : Dev nD) : (dat3 V c).arrAt 5 cfg3.N
    = sumPlain (V c main_v147) (V c main_v164) (V c main_v181) (V c main_v198) (V c main_v200) :=
  (dat3 V c).arrAt_eq_of_cover 5 (sumPlain (V c main_v147) (V c main_v164) (V c main_v181) (V c main_v198) (V c main_v200))
    (fun t _ => flushedL2 V c t) coverL2

/-- The same at row n, column j. -/
private theorem arrL2_apply (c : Dev nD) (n : Fin 100000) (j : Fin 128) :
    Spec.rd2 ((dat3 V c).arrAt 5 cfg3.N) n j = (((Spec.rd2 (V c main_v147) n j + Spec.rd2 (V c main_v164) n j)
      + Spec.rd2 (V c main_v181) n j) + Spec.rd2 (V c main_v198) n j) + Spec.rd2 (V c main_v200) 0 j := by
  rw [arrL2 V c]
  rfl

end RegionL2

/-! ## The two regions in the run -/

variable (m : (ℓ : Loc nD τ sig) → Buf (Elt Ideal) ℓ) (ρ : Dev nD → PrngReg)

/-- After the first combining region. -/
theorem red_L1 (c : Dev nD) (n : Fin 100000) (j : Fin 128) :
    Spec.rd2 (Gen.W33 m ρ c (Proc.devRef .tc main_v129)) n j = Ideal.tanh ((((Spec.rd2 (Gen.W32 m ρ c (Proc.devRef .tc main_v75)) n j + Spec.rd2 (Gen.W32 m ρ c (Proc.devRef .tc main_v92)) n j) + Spec.rd2 (Gen.W32 m ρ c (Proc.devRef .tc main_v109)) n j) + Spec.rd2 (Gen.W32 m ρ c (Proc.devRef .tc main_v126)) n j) + Spec.rd2 (Gen.W32 m ρ c (Proc.devRef .tc main_v128)) 0 j) := by
  -- the region's output array after the region is what its 50 write-backs leave
  have h : Gen.W33 m ρ c (Proc.devRef .tc main_v129) = (dat1 (V32 m ρ) c).arrAt 5 cfg1.N := W33_arr m ρ c 5
  rw [h]
  exact arrL1_apply (V32 m ρ) c n j

/-- After the second combining region (no tanh). -/
theorem red_L2 (c : Dev nD) (n : Fin 100000) (j : Fin 128) :
    Spec.rd2 (Gen.W48 m ρ c (Proc.devRef .tc main_v201)) n j = ((((Spec.rd2 (Gen.W47 m ρ c (Proc.devRef .tc main_v147)) n j + Spec.rd2 (Gen.W47 m ρ c (Proc.devRef .tc main_v164)) n j) + Spec.rd2 (Gen.W47 m ρ c (Proc.devRef .tc main_v181)) n j) + Spec.rd2 (Gen.W47 m ρ c (Proc.devRef .tc main_v198)) n j) + Spec.rd2 (Gen.W47 m ρ c (Proc.devRef .tc main_v200)) 0 j) := by
  -- the region's output array after the region is what its 50 write-backs leave
  have h : Gen.W48 m ρ c (Proc.devRef .tc main_v201) = (dat3 (V47 m ρ) c).arrAt 5 cfg3.N := W48_arr m ρ c 5
  rw [h]
  exact arrL2_apply (V47 m ρ) c n j

end Cert.KernelIdeal.KV

end
-- ==== Proof.LibSegment.lean ====
/-
  The host's accumulating scatter of rows by a column of segment ids, read at one element.

  The scatter takes an operand of G rows and C columns, a column of N integer words (one id per update row) and N update
  rows of C columns. Update element (n, c) is added to operand element (id n, c), the id read as a signed integer;
  a row whose id is negative or at least G is added nowhere. So element (g, f) of the result is the operand's element
  plus the sum, over the rows n whose id is g, of update element (n, f). A signed 32-bit word equals a natural number
  below 2^31 exactly when it is that number's word, which turns the condition on the id into an equation of words.
-/
import Idealize.ShloMosaic.PureOps.Dims
import Idealize.ShloMosaic.PureOps.Ideal
import Idealize.ShloMosaic.Lib.ValueIdx
import Mathlib.Algebra.BigOperators.Group.Finset.Basic
import Mathlib.Algebra.BigOperators.Group.Finset.Piecewise
import Mathlib.Data.Fintype.BigOperators

noncomputable section

open scoped BigOperators

namespace Cert.Seg

open Idealize.ShloMosaic Idealize.ShloMosaic.ValueIdx

/-! ## The dimension numbers of a scatter of rows by one column of ids -/

/-- The dimension numbers of a scatter into G rows of C columns from N update rows of C columns, the row's id in a
    column of N words: the updates' column axis is the window, the operand's row axis is the inserted one and the one
    the id addresses, and the id is the whole index vector. -/
abbrev segDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C : Nat} (wf : ScatterDims.WF ⟨2, ![G, C]⟩ ⟨2, ![N, 1]⟩ ⟨2, ![N, C]⟩ [1] [0] [0] 1)

/-- Update element (n, c) reads its id at row n of the id column. -/
theorem seg_siIdx (j : (⟨2, ![N, C]⟩ : Shape).Idx) (c : Fin (segDims G N C wf).scatterDimsToOperandDims.length) :
    (segDims G N C wf).siIdx j c = ix2 (j 0) 0 := by
  funext b
  match b with
  | ⟨0, _⟩ => rfl
  | ⟨1, _⟩ =>
    have hc : c.val = 0 := by have := c.isLt; change c.val < 1 at this; omega
    exact Fin.ext hc

/-- On the row axis the window of update element (n, c) starts at the id of row n, read signed. -/
theorem seg_start0 {w : Nat} (j : (⟨2, ![N, C]⟩ : Shape).Idx) (idx : IVec ⟨2, ![N, 1]⟩ w) :
    (segDims G N C wf).start j idx 0 = (idx (ix2 (j 0) 0)).toInt := by
  unfold ScatterDims.start
  rw [dif_pos (show (0 : Fin 2) ∈ [(0 : Fin 2)] by decide), seg_siIdx]
  rfl

/-- On the column axis the window starts at 0. -/
theorem seg_start1 {w : Nat} (j : (⟨2, ![N, C]⟩ : Shape).Idx) (idx : IVec ⟨2, ![N, 1]⟩ w) :
    (segDims G N C wf).start j idx 1 = 0 := by
  unfold ScatterDims.start
  rw [dif_neg (show (1 : Fin 2) ∉ [(0 : Fin 2)] by decide)]

/-- The row axis is inserted: the window has no extent along it. -/
theorem seg_window0 (j : (⟨2, ![N, C]⟩ : Shape).Idx) : (segDims G N C wf).window j 0 = 0 := by
  have h : (0 : Fin 2) ∉ (List.finRange 2).filter (· ∉ [(0 : Fin 2)]) := by decide
  exact dif_neg h

/-- Along the column axis the window coordinate of update element (n, c) is c. -/
theorem seg_window1 (j : (⟨2, ![N, C]⟩ : Shape).Idx) : (segDims G N C wf).window j 1 = (j 1).val := by
  have h : (1 : Fin 2) ∈ (List.finRange 2).filter (· ∉ [(0 : Fin 2)]) := by decide
  exact (dif_pos h).trans rfl

/-- Update element (n, c) lands on operand element (g, f) exactly when the id of row n, read signed, is g and c is f. -/
theorem seg_resultIdx?_iff {w : Nat} (j : (⟨2, ![N, C]⟩ : Shape).Idx) (idx : IVec ⟨2, ![N, 1]⟩ w) (g : Fin G) (f : Fin C) :
    (segDims G N C wf).resultIdx? j idx = some (ix2 g f) ↔ (idx (ix2 (j 0) 0)).toInt = (g.val : Int) ∧ j 1 = f := by
  have hg := g.isLt
  have hf := f.isLt
  have hj1 := idx2_lt1 j
  unfold ScatterDims.resultIdx?
  split
  · rename_i h
    rw [Option.some.injEq]
    constructor
    · intro he
      have h0 : ((segDims G N C wf).start j idx 0 + ((segDims G N C wf).window j 0 : ℕ)).toNat = g.val :=
        congrArg (fun i : (⟨2, ![G, C]⟩ : Shape).Idx => (i 0).val) he
      have h1 : ((segDims G N C wf).start j idx 1 + ((segDims G N C wf).window j 1 : ℕ)).toNat = f.val :=
        congrArg (fun i : (⟨2, ![G, C]⟩ : Shape).Idx => (i 1).val) he
      have hb : 0 ≤ (segDims G N C wf).start j idx 0 + ((segDims G N C wf).window j 0 : ℕ) := (h 0).1
      rw [seg_start0, seg_window0] at h0 hb
      rw [seg_start1, seg_window1] at h1
      exact ⟨by omega, Fin.ext (by omega)⟩
    · rintro ⟨h0, h1⟩
      have h1' : (j 1).val = f.val := congrArg Fin.val h1
      funext a
      match a with
      | ⟨0, _⟩ =>
        apply Fin.ext
        show ((segDims G N C wf).start j idx 0 + ((segDims G N C wf).window j 0 : ℕ)).toNat = g.val
        rw [seg_start0, seg_window0]; omega
      | ⟨1, _⟩ =>
        apply Fin.ext
        show ((segDims G N C wf).start j idx 1 + ((segDims G N C wf).window j 1 : ℕ)).toNat = f.val
        rw [seg_start1, seg_window1]; omega
  · rename_i h
    constructor
    · intro he; cases he
    · rintro ⟨h0, h1⟩
      have h1' : (j 1).val = f.val := congrArg Fin.val h1
      exfalso; apply h; intro a
      match a with
      | ⟨0, _⟩ =>
        show 0 ≤ (segDims G N C wf).start j idx 0 + ((segDims G N C wf).window j 0 : ℕ) ∧
          (segDims G N C wf).start j idx 0 + ((segDims G N C wf).window j 0 : ℕ) < ((G : ℕ) : Int)
        rw [seg_start0, seg_window0]; omega
      | ⟨1, _⟩ =>
        show 0 ≤ (segDims G N C wf).start j idx 1 + ((segDims G N C wf).window j 1 : ℕ) ∧
          (segDims G N C wf).start j idx 1 + ((segDims G N C wf).window j 1 : ℕ) < ((C : ℕ) : Int)
        rw [seg_start1, seg_window1]; omega

/-! ## The scatter read at one element -/

/-- Element (g, f) of the accumulating scatter is the operand's element plus the sum, over the rows whose id read
    signed is g, of the update's element in column f. -/
theorem seg_scatterAdd {w : Nat} (x : (⟨2, ![G, C]⟩ : Shape).Idx → EReal) (idx : IVec ⟨2, ![N, 1]⟩ w)
    (upd : (⟨2, ![N, C]⟩ : Shape).Idx → EReal) (g : Fin G) (f : Fin C) :
    Ideal.hostScatterAdd (segDims G N C wf) x idx upd (ix2 g f) =
      x (ix2 g f) + ∑ n : Fin N, if (idx (ix2 n 0)).toInt = (g.val : Int) then upd (ix2 n f) else 0 := by
  unfold Ideal.hostScatterAdd
  congr 1
  rw [Finset.sum_filter, sum_idx2]
  refine Finset.sum_congr rfl fun n _ => ?_
  calc _ = ∑ c : Fin C, (if c = f then (if (idx (ix2 n 0)).toInt = (g.val : Int) then upd (ix2 n c) else 0) else 0) :=
        Finset.sum_congr rfl fun c _ => by
          have hiff := seg_resultIdx?_iff wf (ix2 n c) idx g f
          by_cases hc : c = f
          · subst hc
            rw [if_pos rfl]
            exact if_congr (hiff.trans ⟨fun h => h.1, fun h => ⟨h, rfl⟩⟩) rfl rfl
          · rw [if_neg hc]
            exact if_neg (fun h => hc (hiff.1 h).2)
    _ = _ := by rw [Finset.sum_ite_eq' Finset.univ f, if_pos (Finset.mem_univ f)]

/-- A signed 32-bit word equals a natural number below 2^31 exactly when it is that number's word. -/
theorem toInt_eq_natCast_iff (x : BitVec 32) (g : ℕ) (hg : g < 2 ^ 31) : x.toInt = (g : Int) ↔ x = BitVec.ofNat 32 g := by
  have hx := x.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

end Cert.Seg

end
-- ==== Proof.HostOps.lean ====
/-
  The host's row gather, element gather and accumulating scatters used by the graph convolution, read at one element.

  A gather by a column of ids reads, for result row e, the operand row whose number is the e-th id read as a signed
  integer and clamped into the operand's rows; on a node id the clamp changes nothing. An accumulating scatter adds
  update e to the operand's entry whose number is the e-th id, and to nothing when the id is out of range, so an entry
  of the result is the operand's entry plus the sum of the updates whose id names it.
-/
import proofs.«420714_j25331717112057_2_alg».proof.Proof.Spec
import proofs.«420714_j25331717112057_2_alg».proof.Proof.LibSegment
import Idealize.ShloMosaic.PureOps.Dims
import Idealize.ShloMosaic.PureOps.Ideal
import Idealize.ShloMosaic.Lib.ValueIdx

noncomputable section

open scoped BigOperators

namespace Cert.HostOps

open Idealize.ShloMosaic Idealize.ShloMosaic.ValueIdx Cert.Spec

/-! ## The dimension numbers -/

/-- A gather of rows: operand N rows of C columns, a column of M ids, result M rows of C columns. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A gather of elements: operand N entries, a column of M ids, result M entries. -/
abbrev elemsDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- An accumulating scatter of elements: operand G entries, a column of N ids, N updates. -/
abbrev seg1Dims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

/-! ## The operand index of the two gathers -/

/-- On a node id the clamp into the 100000 rows changes nothing. -/
private theorem clamp_node {w : BitVec 32} (h : IsNode w) : min w.toInt.toNat (100000 - 1) = (node w).val := by
  obtain ⟨h0, h1⟩ := h
  show min w.toInt.toNat (100000 - 1) = w.toInt.toNat % 100000
  omega

section Rows
variable {N M C : Nat} (wf : GatherDims.WF ⟨2, ![N, C]⟩ ⟨2, ![M, 1]⟩ ⟨2, ![M, C]⟩ [1] [0] [] [0] [] 1 ![1, C])

/-- Result element (e, j) of a gather of rows reads its id at row e of the id column. -/
private theorem rows_siIdx (y : (⟨2, ![M, C]⟩ : Shape).Idx) (c : Fin (rowsDims N M C wf).startIndexMap.length) :
    (rowsDims N M C wf).siIdx y c = ix2 (y 0) 0 := by
  funext b
  match b with
  | ⟨0, _⟩ => rfl
  | ⟨1, _⟩ =>
    have hc : c.val = 0 := by have := c.isLt; change c.val < 1 at this; omega
    exact Fin.ext hc

/-- Its operand row is the id of row e, read signed and clamped into the operand's rows. -/
private theorem rows_operand0 {w : Nat} (y : (⟨2, ![M, C]⟩ : Shape).Idx) (idx : IVec ⟨2, ![M, 1]⟩ w) :
    ((rowsDims N M C wf).operandIdx y idx 0).val = min (idx (ix2 (y 0) 0)).toInt.toNat (N - 1) := by
  show (rowsDims N M C wf).start y idx 0 + (rowsDims N M C wf).batchCoord y 0 + (rowsDims N M C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N M C wf).startIndexMap from List.mem_singleton.mpr rfl), rows_siIdx]
  rfl

/-- Its operand column is j. -/
private theorem rows_operand1 {w : Nat} (y : (⟨2, ![M, C]⟩ : Shape).Idx) (idx : IVec ⟨2, ![M, 1]⟩ w) :
    ((rowsDims N M C wf).operandIdx y idx 1).val = (y 1).val := by
  show (rowsDims N M C wf).start y idx 1 + (rowsDims N M C wf).batchCoord y 1 + (rowsDims N M C wf).offCoord y 1 = _
  rw [GatherDims.batchCoord_eq_zero _ _ _ List.not_mem_nil]
  unfold GatherDims.start
  rw [dif_neg (show (1 : Fin 2) ∉ [(0 : Fin 2)] by decide)]
  simp only [Nat.add_zero, Nat.zero_add]
  have h : (1 : Fin 2) ∈ (List.finRange 2).filter (· ∉ [(0 : Fin 2)] ++ []) := by decide
  exact (dif_pos h).trans rfl

end Rows

section Elems
variable {N M : Nat} (wf : GatherDims.WF ⟨1, ![N]⟩ ⟨2, ![M, 1]⟩ ⟨1, ![M]⟩ [] [0] [] [0] [] 1 ![1])

/-- Result element e of a gather of elements reads its id at row e of the id column. -/
private theorem elems_siIdx (y : (⟨1, ![M]⟩ : Shape).Idx) (c : Fin (elemsDims N M wf).startIndexMap.length) :
    (elemsDims N M wf).siIdx y c = ix2 (y 0) 0 := by
  funext b
  match b with
  | ⟨0, _⟩ => rfl
  | ⟨1, _⟩ =>
    have hc : c.val = 0 := by have := c.isLt; change c.val < 1 at this; omega
    exact Fin.ext hc

/-- Its operand entry is the id of row e, read signed and clamped into the operand's entries. -/
private theorem elems_operand0 {w : Nat} (y : (⟨1, ![M]⟩ : Shape).Idx) (idx : IVec ⟨2, ![M, 1]⟩ w) :
    ((elemsDims N M wf).operandIdx y idx 0).val = min (idx (ix2 (y 0) 0)).toInt.toNat (N - 1) := by
  show (elemsDims N M wf).start y idx 0 + (elemsDims N M wf).batchCoord y 0 + (elemsDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N M wf).startIndexMap from List.mem_singleton.mpr rfl), elems_siIdx]
  rfl

end Elems

/-! ## The gathers on a node id -/

/-- Row e of a gather of rows out of 100000 is the row the e-th id addresses, when that id is a node id. -/
theorem gather_rows_node {α : Type} {M C : Nat}
    (wf : GatherDims.WF ⟨2, ![100000, C]⟩ ⟨2, ![M, 1]⟩ ⟨2, ![M, C]⟩ [1] [0] [] [0] [] 1 ![1, C])
    (x : (⟨2, ![100000, C]⟩ : Shape).Idx → α) (idx : IVec ⟨2, ![M, 1]⟩ 32) (e : Fin M) (j : Fin C)
    (h : IsNode (idx (ix2 e 0))) :
    Host.gather (rowsDims 100000 M C wf) x idx (ix2 e j) = x (ix2 (node (idx (ix2 e 0))) j) := by
  unfold Host.gather
  congr 1
  funext a
  match a with
  | ⟨0, _⟩ =>
    refine Fin.ext ?_
    exact (rows_operand0 wf (ix2 e j) idx).trans (clamp_node h)
  | ⟨1, _⟩ =>
    refine Fin.ext ?_
    exact rows_operand1 wf (ix2 e j) idx

/-- Entry e of a gather of elements out of 100000 is the entry the e-th id addresses, when that id is a node id. -/
theorem gather_elems_node {α : Type} {M : Nat}
    (wf : GatherDims.WF ⟨1, ![100000]⟩ ⟨2, ![M, 1]⟩ ⟨1, ![M]⟩ [] [0] [] [0] [] 1 ![1])
    (x : (⟨1, ![100000]⟩ : Shape).Idx → α) (idx : IVec ⟨2, ![M, 1]⟩ 32) (e : Fin M)
    (h : IsNode (idx (ix2 e 0))) :
    Host.gather (elemsDims 100000 M wf) x idx (ix1 e) = x (ix1 (node (idx (ix2 e 0)))) := by
  unfold Host.gather
  congr 1
  funext a
  match a with
  | ⟨0, _⟩ =>
    refine Fin.ext ?_
    exact (elems_operand0 wf (ix1 e) idx).trans (clamp_node h)

/-! ## The accumulating scatter of elements: where an update lands -/

section Seg1
variable {G N : Nat} (wf : ScatterDims.WF ⟨1, ![G]⟩ ⟨2, ![N, 1]⟩ ⟨1, ![N]⟩ [] [0] [0] 1)

/-- Update n reads its id at row n of the id column. -/
private theorem seg1_siIdx (j : (⟨1, ![N]⟩ : Shape).Idx) (c : Fin (seg1Dims G N wf).scatterDimsToOperandDims.length) :
    (seg1Dims G N wf).siIdx j c = ix2 (j 0) 0 := by
  funext b
  match b with
  | ⟨0, _⟩ => rfl
  | ⟨1, _⟩ =>
    have hc : c.val = 0 := by have := c.isLt; change c.val < 1 at this; omega
    exact Fin.ext hc

/-- The window of update n starts at the id of row n, read signed. -/
private theorem seg1_start0 {w : Nat} (j : (⟨1, ![N]⟩ : Shape).Idx) (idx : IVec ⟨2, ![N, 1]⟩ w) :
    (seg1Dims G N wf).start j idx 0 = (idx (ix2 (j 0) 0)).toInt := by
  unfold ScatterDims.start
  rw [dif_pos (show (0 : Fin 1) ∈ [(0 : Fin 1)] by decide), seg1_siIdx]
  rfl

/-- The operand's one axis is inserted: the window has no extent along it. -/
private theorem seg1_window0 (j : (⟨1, ![N]⟩ : Shape).Idx) : (seg1Dims G N wf).window j 0 = 0 := by
  have h : (0 : Fin 1) ∉ (List.finRange 1).filter (· ∉ [(0 : Fin 1)]) := by decide
  exact dif_neg h

/-- Update n lands on operand entry g exactly when the id of row n, read signed, is g. -/
private theorem seg1_resultIdx?_iff {w : Nat} (j : (⟨1, ![N]⟩ : Shape).Idx) (idx : IVec ⟨2, ![N, 1]⟩ w) (g : Fin G) :
    (seg1Dims G N wf).resultIdx? j idx = some (ix1 g) ↔ (idx (ix2 (j 0) 0)).toInt = (g.val : Int) := by
  have hg := g.isLt
  unfold ScatterDims.resultIdx?
  split
  · rename_i h
    rw [Option.some.injEq]
    constructor
    · intro he
      have h0 : ((seg1Dims G N wf).start j idx 0 + ((seg1Dims G N wf).window j 0 : ℕ)).toNat = g.val :=
        congrArg (fun i : (⟨1, ![G]⟩ : Shape).Idx => (i 0).val) he
      have hb : 0 ≤ (seg1Dims G N wf).start j idx 0 + ((seg1Dims G N wf).window j 0 : ℕ) := (h 0).1
      rw [seg1_start0, seg1_window0] at h0 hb
      omega
    · intro h0
      funext a
      match a with
      | ⟨0, _⟩ =>
        apply Fin.ext
        show ((seg1Dims G N wf).start j idx 0 + ((seg1Dims G N wf).window j 0 : ℕ)).toNat = g.val
        rw [seg1_start0, seg1_window0]; omega
  · rename_i h
    constructor
    · intro he; cases he
    · intro h0
      exfalso; apply h; intro a
      match a with
      | ⟨0, _⟩ =>
        show 0 ≤ (seg1Dims G N wf).start j idx 0 + ((seg1Dims G N wf).window j 0 : ℕ) ∧
          (seg1Dims G N wf).start j idx 0 + ((seg1Dims G N wf).window j 0 : ℕ) < ((G : ℕ) : Int)
        rw [seg1_start0, seg1_window0]; omega

/-- A sum over a one-axis index set is the sum over its coordinate. -/
private theorem sum_idx1 {A : Type*} [AddCommMonoid A] {n : Nat} (f : (⟨1, ![n]⟩ : Shape).Idx → A) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- Entry g of the exact accumulating scatter of elements is the operand's entry plus the sum of the updates whose id,
    read signed, is g. -/
private theorem seg1_scatterAdd {w : Nat} (x : (⟨1, ![G]⟩ : Shape).Idx → EReal) (idx : IVec ⟨2, ![N, 1]⟩ w)
    (upd : (⟨1, ![N]⟩ : Shape).Idx → EReal) (g : Fin G) :
    Ideal.hostScatterAdd (seg1Dims G N wf) x idx upd (ix1 g) =
      x (ix1 g) + ∑ n : Fin N, if (idx (ix2 n 0)).toInt = (g.val : Int) then upd (ix1 n) else 0 := by
  unfold Ideal.hostScatterAdd
  congr 1
  rw [Finset.sum_filter, sum_idx1]
  refine Finset.sum_congr rfl fun n _ => ?_
  exact if_congr (seg1_resultIdx?_iff wf (ix1 n) idx g) rfl rfl

end Seg1

/-! ## The accumulating scatters at the ideal instance -/

/-- Entry (g, f) of the accumulating scatter of rows: the operand's entry plus the updates in column f of the rows whose
    id is g. -/
theorem scatterAdd_rows {G N C : Nat} (wf : ScatterDims.WF ⟨2, ![G, C]⟩ ⟨2, ![N, 1]⟩ ⟨2, ![N, C]⟩ [1] [0] [0] 1)
    (x : (⟨2, ![G, C]⟩ : Shape).Idx → EReal) (idx : IVec ⟨2, ![N, 1]⟩ 32) (upd : (⟨2, ![N, C]⟩ : Shape).Idx → EReal)
    (g : Fin G) (f : Fin C) :
    Host.scatterAdd (F := Ideal) (φ := .f32) (Cert.Seg.segDims G N C wf) x idx upd (ix2 g f) =
      x (ix2 g f) + ∑ n : Fin N, if (idx (ix2 n 0)).toInt = (g.val : Int) then upd (ix2 n f) else 0 := by
  unfold Host.scatterAdd
  rw [Ideal.hostScatterAdd_def]
  exact Cert.Seg.seg_scatterAdd wf x idx upd g f

/-- Entry g of the accumulating scatter of elements: the operand's entry plus the updates whose id is g. -/
theorem scatterAdd_elems {G N : Nat} (wf : ScatterDims.WF ⟨1, ![G]⟩ ⟨2, ![N, 1]⟩ ⟨1, ![N]⟩ [] [0] [0] 1)
    (x : (⟨1, ![G]⟩ : Shape).Idx → EReal) (idx : IVec ⟨2, ![N, 1]⟩ 32) (upd : (⟨1, ![N]⟩ : Shape).Idx → EReal)
    (g : Fin G) :
    Host.scatterAdd (F := Ideal) (φ := .f32) (seg1Dims G N wf) x idx upd (ix1 g) =
      x (ix1 g) + ∑ n : Fin N, if (idx (ix2 n 0)).toInt = (g.val : Int) then upd (ix1 n) else 0 := by
  unfold Host.scatterAdd
  rw [Ideal.hostScatterAdd_def]
  exact seg1_scatterAdd wf x idx upd g

end Cert.HostOps

end
-- ==== Proof.KHost0.lean ====
/-
The host operations before the first region, for relation 0: the two degree factors.

A degree factor of a column of ids at a node is the reciprocal square root of the larger of one and the number of the
column's ids that are the node. The host computes it for a row of a [4, 500000] id array by slicing the row out,
flattening it, standing it up as a column, scattering ones into zeros by that column (which counts, at each node, the
ids equal to it), taking the maximum with one and then the reciprocal square root. Each of these is one host operation
writing a buffer of its own; a buffer a stretch of host operations does not write holds after the stretch what it held
before, which carries each result from the level that wrote it to the first region's entry, and the id arrays from the
launch to the level that reads them.
-/
import proofs.«420714_j25331717112057_2_alg».proof.Proof.Gen.KernelIdeal.Frame
import proofs.«420714_j25331717112057_2_alg».proof.Proof.Spec
import proofs.«420714_j25331717112057_2_alg».proof.Proof.HostOps
import Idealize.ShloMosaic.Lib.IdealHost
import Idealize.ShloMosaic.Lib.ValueLayout
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What each stretch writes, and a buffer it does not write carried across it -/

/-- The references stretch 0 writes. -/
abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem sub0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 0 does not write holds after it what it held before. -/
theorem step0 (c : Dev nD) (r : Ref sig .tc) (hr : r ∉ wr0) :
    Gen.W1 m ρ c (Proc.devRef .tc r) = Gen.W0 m ρ c (Proc.devRef .tc r) :=
  StableHlo.after_of_writes_sub _ _ sub0 hr

/-- The references stretch 1 writes. -/
abbrev wr1 : List (Ref sig .tc) := [main_cst, main_v1, main_v2, main_v3, main_cst_0, main_v4, main_v5, main_v6, main_cst_1]

theorem sub1 : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 1 does not write holds after it what it held before. -/
theorem step1 (c : Dev nD) (r : Ref sig .tc) (hr : r ∉ wr1) :
    Gen.W2 m ρ c (Proc.devRef .tc r) = Gen.W1 m ρ c (Proc.devRef .tc r) :=
  StableHlo.after_of_writes_sub _ _ sub1 hr

/-- The references stretch 2 writes. -/
abbrev wr2 : List (Ref sig .tc) := [main_call1_v0, main_call1_v1, main_v7]

theorem sub2 : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 2 does not write holds after it what it held before. -/
theorem step2 (c : Dev nD) (r : Ref sig .tc) (hr : r ∉ wr2) :
    Gen.W3 m ρ c (Proc.devRef .tc r) = Gen.W2 m ρ c (Proc.devRef .tc r) :=
  StableHlo.after_of_writes_sub _ _ sub2 hr

/-- The references stretch 3 writes. -/
abbrev wr3 : List (Ref sig .tc) := [main_v8, main_v9, main_cst_2, main_v10, main_v11, main_v12, main_cst_3]

theorem sub3 : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 3 does not write holds after it what it held before. -/
theorem step3 (c : Dev nD) (r : Ref sig .tc) (hr : r ∉ wr3) :
    Gen.W4 m ρ c (Proc.devRef .tc r) = Gen.W3 m ρ c (Proc.devRef .tc r) :=
  StableHlo.after_of_writes_sub _ _ sub3 hr

/-- The references stretch 4 writes. -/
abbrev wr4 : List (Ref sig .tc) := [main_call2_v0, main_call2_v1, main_v13]

theorem sub4 : (hostOps0_4 : List (HloOp τ sig (Elt Ideal))).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 4 does not write holds after it what it held before. -/
theorem step4 (c : Dev nD) (r : Ref sig .tc) (hr : r ∉ wr4) :
    Gen.W5 m ρ c (Proc.devRef .tc r) = Gen.W4 m ρ c (Proc.devRef .tc r) :=
  StableHlo.after_of_writes_sub _ _ sub4 hr

/-- The references stretch 5 writes. -/
abbrev wr5 : List (Ref sig .tc) := [main_v14, main_v15, main_v16, main_v17, main_cst_4, main_v18, main_v19, main_v20, main_cst_5]

theorem sub5 : (hostOps0_5 : List (HloOp τ sig (Elt Ideal))).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 5 does not write holds after it what it held before. -/
theorem step5 (c : Dev nD) (r : Ref sig .tc) (hr : r ∉ wr5) :
    Gen.W6 m ρ c (Proc.devRef .tc r) = Gen.W5 m ρ c (Proc.devRef .tc r) :=
  StableHlo.after_of_writes_sub _ _ sub5 hr

/-- The references stretch 6 writes. -/
abbrev wr6 : List (Ref sig .tc) := [main_call3_v0, main_call3_v1, main_v21]

theorem sub6 : (hostOps0_6 : List (HloOp τ sig (Elt Ideal))).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 6 does not write holds after it what it held before. -/
theorem step6 (c : Dev nD) (r : Ref sig .tc) (hr : r ∉ wr6) :
    Gen.W7 m ρ c (Proc.devRef .tc r) = Gen.W6 m ρ c (Proc.devRef .tc r) :=
  StableHlo.after_of_writes_sub _ _ sub6 hr

/-- The references stretch 7 writes. -/
abbrev wr7 : List (Ref sig .tc) := [main_v22, main_v23, main_cst_6, main_v24, main_v25, main_v26, main_cst_7]

theorem sub7 : (hostOps0_7 : List (HloOp τ sig (Elt Ideal))).Forall fun op => op.writes ⊆ (wr7.map (Proc.devRef (τ := τ) .tc)).toFinset := by
  simp only [hostOps0_7, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 7 does not write holds after it what it held before. -/
theorem step7 (c : Dev nD) (r : Ref sig .tc) (hr : r ∉ wr7) :
    Gen.W8 m ρ c (Proc.devRef .tc r) = Gen.W7 m ρ c (Proc.devRef .tc r) :=
  StableHlo.after_of_writes_sub _ _ sub7 hr

/-- The references stretch 8 writes. -/
abbrev wr8 : List (Ref sig .tc) := [main_call4_v0, main_call4_v1, main_v27]

theorem sub8 : (hostOps0_8 : List (HloOp τ sig (Elt Ideal))).Forall fun op => op.writes ⊆ (wr8.map (Proc.devRef (τ := τ) .tc)).toFinset := by
  simp only [hostOps0_8, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 8 does not write holds after it what it held before. -/
theorem step8 (c : Dev nD) (r : Ref sig .tc) (hr : r ∉ wr8) :
    Gen.W9 m ρ c (Proc.devRef .tc r) = Gen.W8 m ρ c (Proc.devRef .tc r) :=
  StableHlo.after_of_writes_sub _ _ sub8 hr

/-- The references stretch 9 writes. -/
abbrev wr9 : List (Ref sig .tc) := [main_v28, main_v29, main_v30, main_v31, main_cst_8, main_v32, main_v33, main_v34, main_cst_9]

theorem sub9 : (hostOps0_9 : List (HloOp τ sig (Elt Ideal))).Forall fun op => op.writes ⊆ (wr9.map (Proc.devRef (τ := τ) .tc)).toFinset := by
  simp only [hostOps0_9, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 9 does not write holds after it what it held before. -/
theorem step9 (c : Dev nD) (r : Ref sig .tc) (hr : r ∉ wr9) :
    Gen.W10 m ρ c (Proc.devRef .tc r) = Gen.W9 m ρ c (Proc.devRef .tc r) :=
  StableHlo.after_of_writes_sub _ _ sub9 hr

/-- The references stretch 10 writes. -/
abbrev wr10 : List (Ref sig .tc) := [main_call5_v0, main_call5_v1, main_v35]

theorem sub10 : (hostOps0_10 : List (HloOp τ sig (Elt Ideal))).Forall fun op => op.writes ⊆ (wr10.map (Proc.devRef (τ := τ) .tc)).toFinset := by
  simp only [hostOps0_10, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 10 does not write holds after it what it held before. -/
theorem step10 (c : Dev nD) (r : Ref sig .tc) (hr : r ∉ wr10) :
    Gen.W11 m ρ c (Proc.devRef .tc r) = Gen.W10 m ρ c (Proc.devRef .tc r) :=
  StableHlo.after_of_writes_sub _ _ sub10 hr

/-- The references stretch 11 writes. -/
abbrev wr11 : List (Ref sig .tc) := [main_v36, main_v37, main_cst_10, main_v38, main_v39, main_v40, main_cst_11]

theorem sub11 : (hostOps0_11 : List (HloOp τ sig (Elt Ideal))).Forall fun op => op.writes ⊆ (wr11.map (Proc.devRef (τ := τ) .tc)).toFinset := by
  simp only [hostOps0_11, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 11 does not write holds after it what it held before. -/
theorem step11 (c : Dev nD) (r : Ref sig .tc) (hr : r ∉ wr11) :
    Gen.W12 m ρ c (Proc.devRef .tc r) = Gen.W11 m ρ c (Proc.devRef .tc r) :=
  StableHlo.after_of_writes_sub _ _ sub11 hr

/-- The references stretch 12 writes. -/
abbrev wr12 : List (Ref sig .tc) := [main_call6_v0, main_call6_v1, main_v41]

theorem sub12 : (hostOps0_12 : List (HloOp τ sig (Elt Ideal))).Forall fun op => op.writes ⊆ (wr12.map (Proc.devRef (τ := τ) .tc)).toFinset := by
  simp only [hostOps0_12, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 12 does not write holds after it what it held before. -/
theorem step12 (c : Dev nD) (r : Ref sig .tc) (hr : r ∉ wr12) :
    Gen.W13 m ρ c (Proc.devRef .tc r) = Gen.W12 m ρ c (Proc.devRef .tc r) :=
  StableHlo.after_of_writes_sub _ _ sub12 hr

/-- The references stretch 13 writes. -/
abbrev wr13 : List (Ref sig .tc) := [main_v42, main_v43, main_v44, main_v45, main_cst_12, main_v46, main_v47, main_v48, main_cst_13]

theorem sub13 : (hostOps0_13 : List (HloOp τ sig (Elt Ideal))).Forall fun op => op.writes ⊆ (wr13.map (Proc.devRef (τ := τ) .tc)).toFinset := by
  simp only [hostOps0_13, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 13 does not write holds after it what it held before. -/
theorem step13 (c : Dev nD) (r : Ref sig .tc) (hr : r ∉ wr13) :
    Gen.W14 m ρ c (Proc.devRef .tc r) = Gen.W13 m ρ c (Proc.devRef .tc r) :=
  StableHlo.after_of_writes_sub _ _ sub13 hr

/-- The references stretch 14 writes. -/
abbrev wr14 : List (Ref sig .tc) := [main_call7_v0, main_call7_v1, main_v49]

theorem sub14 : (hostOps0_14 : List (HloOp τ sig (Elt Ideal))).Forall fun op => op.writes ⊆ (wr14.map (Proc.devRef (τ := τ) .tc)).toFinset := by
  simp only [hostOps0_14, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 14 does not write holds after it what it held before. -/
theorem step14 (c : Dev nD) (r : Ref sig .tc) (hr : r ∉ wr14) :
    Gen.W15 m ρ c (Proc.devRef .tc r) = Gen.W14 m ρ c (Proc.devRef .tc r) :=
  StableHlo.after_of_writes_sub _ _ sub14 hr

/-- The references stretch 15 writes. -/
abbrev wr15 : List (Ref sig .tc) := [main_v50, main_v51, main_cst_14, main_v52, main_v53, main_v54, main_cst_15]

theorem sub15 : (hostOps0_15 : List (HloOp τ sig (Elt Ideal))).Forall fun op => op.writes ⊆ (wr15.map (Proc.devRef (τ := τ) .tc)).toFinset := by
  simp only [hostOps0_15, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 15 does not write holds after it what it held before. -/
theorem step15 (c : Dev nD) (r : Ref sig .tc) (hr : r ∉ wr15) :
    Gen.W16 m ρ c (Proc.devRef .tc r) = Gen.W15 m ρ c (Proc.devRef .tc r) :=
  StableHlo.after_of_writes_sub _ _ sub15 hr

/-- The references stretch 16 writes. -/
abbrev wr16 : List (Ref sig .tc) := [main_call8_v0, main_call8_v1, main_v55]

theorem sub16 : (hostOps0_16 : List (HloOp τ sig (Elt Ideal))).Forall fun op => op.writes ⊆ (wr16.map (Proc.devRef (τ := τ) .tc)).toFinset := by
  simp only [hostOps0_16, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 16 does not write holds after it what it held before. -/
theorem step16 (c : Dev nD) (r : Ref sig .tc) (hr : r ∉ wr16) :
    Gen.W17 m ρ c (Proc.devRef .tc r) = Gen.W16 m ρ c (Proc.devRef .tc r) :=
  StableHlo.after_of_writes_sub _ _ sub16 hr

/-- The references stretch 17 writes. -/
abbrev wr17 : List (Ref sig .tc) := [main_v56, main_v57]

theorem sub17 : (hostOps0_17 : List (HloOp τ sig (Elt Ideal))).Forall fun op => op.writes ⊆ (wr17.map (Proc.devRef (τ := τ) .tc)).toFinset := by
  simp only [hostOps0_17, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 17 does not write holds after it what it held before. -/
theorem step17 (c : Dev nD) (r : Ref sig .tc) (hr : r ∉ wr17) :
    Gen.W18 m ρ c (Proc.devRef .tc r) = Gen.W17 m ρ c (Proc.devRef .tc r) :=
  StableHlo.after_of_writes_sub _ _ sub17 hr

/-! ## The count of a row's ids at a node, off the accumulating scatter of ones -/

/-- Row r of a [4, 500000] id array, flattened and stood up as a column, read at edge e. -/
theorem idcol_apply (o : Nat) (r : Fin 4) (hr : r.val = o) (hs : S4x500000.Slices ![o, 0] S1x500000)
    (a : IVec S4x500000 32) (e : Fin 500000) :
    broadcastInDim S500000x1 ![0] bcast_S500000_S500000x1_0
        (shapeCast S500000 (extractStridedSlice S1x500000 ![o, 0] a hs) shapeCasts_S1x500000_S500000) (ix2 e 0)
      = a (ix2 r e) := by
  refine (broadcastInDim_apply _ _ _ (ix2 e 0) (ix1 e) (fun x => match x with | ⟨0, _⟩ => rfl)).trans ?_
  refine (shapeCast_apply _ _ (ix1 e) (ix2 (0 : Fin 1) e) (by
    rw [Shape.rowMajor_val_two, Shape.rowMajor_val_one]; show 0 * 500000 + e.val = e.val; omega)).trans ?_
  exact slice2_axis0_apply o a hs (0 : Fin 1) e r (by rw [hr]; rfl)

/-- The accumulating scatter of ones into zeros by row r of an id array, read at node n: one for every edge of the
    row whose id is n. -/
theorem count_apply (o : Nat) (r : Fin 4) (hr : r.val = o) (hs : S4x500000.Slices ![o, 0] S1x500000)
    (a : IVec S4x500000 32) (u : FVec Ideal S500000 .f32) (hu : ∀ e : Fin 500000, u (ix1 e) = Spec.one) (n : Fin 100000) :
    Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        u (ix1 n)
      = ∑ e : Fin 500000, if Spec.Hits (Spec.wd2 a r) e n then Spec.one else 0 := by
  have hd : scatter_S100000_S500000x1_S500000_n_0_0_1
      = Cert.HostOps.seg1Dims 100000 500000 scatter_S100000_S500000x1_S500000_n_0_0_1_wf := rfl
  rw [hd, Cert.HostOps.scatterAdd_elems, broadcastInDim_scalar_apply, constant_apply, Ideal.ofBits_zero_f32, zero_add]
  refine Finset.sum_congr rfl fun e _ => ?_
  rw [idcol_apply o r hr hs a e, hu e]
  rfl

/-- The host's reciprocal square root at an index is the extended reals' reciprocal square root of the element. -/
theorem hostRsqrt_apply {s : Shape} {φ : FTy} (x : FVec Ideal s φ) (i : s.Idx) :
    Host.rsqrt x i = Ideal.rsqrt (x i) := rfl

/-- The degree factors as the host computes them from a [4, 500000] id array: the count of row o's ids at each node,
    clipped below at one, under the reciprocal square root. -/
def degOf (o : Nat) (hs : S4x500000.Slices ![o, 0] S1x500000) (a : IVec S4x500000 32) : FVec Ideal S100000 .f32 :=
  Host.rsqrt (F := Ideal) (φ := .f32)
    (maximumf (F := Ideal) (φ := .f32) (broadcastInDim S100000 ![] bcast_S_S100000 (constant (F := Ideal) S_ .f32 0x3F800000#32))
      (Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        (broadcastInDim S500000 ![] bcast_S_S500000 (constant (F := Ideal) S_ .f32 0x3F800000#32))))

/-- Read at a node it is the specification's degree factor of the row. -/
theorem degOf_apply (o : Nat) (r : Fin 4) (hr : r.val = o) (hs : S4x500000.Slices ![o, 0] S1x500000)
    (a : IVec S4x500000 32) (n : Fin 100000) : degOf o hs a (ix1 n) = Spec.deg (Spec.wd2 a r) n := by
  unfold degOf
  rw [hostRsqrt_apply, maximumf_apply, broadcastInDim_scalar_apply, constant_apply,
    count_apply o r hr hs a _ (fun e => rfl) n]
  rfl

/-! ## Relation 0: the two degree factors as arrays -/

/-- Stretch 1 leaves the scatter of ones by row 0 of what main_arg1 holds in main_v6 … -/
theorem s1_v6 (V : Valuation τ sig (Elt Ideal)) :
    (StableHlo.after hostOps0_1 V (Proc.devRef .tc main_v6) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![0, 0] (V (Proc.devRef .tc main_arg1) : IVec S4x500000 32) slices_S4x500000_S1x500000_0_0) shapeCasts_S1x500000_S500000))
          (broadcastInDim S500000 ![] bcast_S_S500000 (constant (F := Ideal) S_ .f32 0x3F800000#32)) := by
  simp only [hostOps0_1]
  after_results
  rfl

/-- … a one in main_cst_1 … -/
theorem s1_cst (V : Valuation τ sig (Elt Ideal)) :
    (StableHlo.after hostOps0_1 V (Proc.devRef .tc main_cst_1) : FVec Ideal S_ .f32) = constant (F := Ideal) S_ .f32 0x3F800000#32 := by
  simp only [hostOps0_1]
  after_results

/-- … and ones in main_v1. -/
theorem s1_v1 (V : Valuation τ sig (Elt Ideal)) :
    (StableHlo.after hostOps0_1 V (Proc.devRef .tc main_v1) : FVec Ideal S500000 .f32)
      = broadcastInDim S500000 ![] bcast_S_S500000 (constant (F := Ideal) S_ .f32 0x3F800000#32) := by
  simp only [hostOps0_1]
  after_results

/-- Stretch 2 clips main_v6 below at main_cst_1 into main_v7. -/
theorem s2_v7 (V : Valuation τ sig (Elt Ideal)) :
    (StableHlo.after hostOps0_2 V (Proc.devRef .tc main_v7) : FVec Ideal S100000 .f32)
      = maximumf (F := Ideal) (s := S100000) (φ := .f32) (broadcastInDim S100000 ![] bcast_S_S100000 (V (Proc.devRef .tc main_cst_1) : FVec Ideal S_ .f32)) (V (Proc.devRef .tc main_v6) : FVec Ideal S100000 .f32) := by
  simp only [hostOps0_2]
  after_results
  rfl

/-- Stretch 5 takes the reciprocal square root of main_v7 into main_v14. -/
theorem s5_v14 (V : Valuation τ sig (Elt Ideal)) :
    (StableHlo.after hostOps0_5 V (Proc.devRef .tc main_v14) : FVec Ideal S100000 .f32)
      = Host.rsqrt (F := Ideal) (s := S100000) (φ := .f32) (V (Proc.devRef .tc main_v7) : FVec Ideal S100000 .f32) := by
  simp only [hostOps0_5]
  after_results

/-- main_v14 at the first region's entry is the degree array of row 0 of the launch's main_arg1. -/
theorem v14_W18 (c : Dev nD) :
    Gen.W18 m ρ c (Proc.devRef .tc main_v14) = degOf 0 slices_S4x500000_S1x500000_0_0 (m ((c : Thread nD τ).loc main_arg1)) := by
  have harg : Gen.W1 m ρ c (Proc.devRef .tc main_arg1) = m ((c : Thread nD τ).loc main_arg1) := step0 m ρ c _ (by decide)
  have h2 : Gen.W2 m ρ c (Proc.devRef .tc main_v6) = _ := s1_v6 (Gen.W1 m ρ c)
  have hc : Gen.W2 m ρ c (Proc.devRef .tc main_cst_1) = _ := s1_cst (Gen.W1 m ρ c)
  have h3 : Gen.W3 m ρ c (Proc.devRef .tc main_v7) = _ := s2_v7 (Gen.W2 m ρ c)
  have hcar7 : Gen.W5 m ρ c (Proc.devRef .tc main_v7) = Gen.W3 m ρ c (Proc.devRef .tc main_v7) :=
    (step4 m ρ c _ (by decide)).trans (step3 m ρ c _ (by decide))
  have h6 : Gen.W6 m ρ c (Proc.devRef .tc main_v14) = _ := s5_v14 (Gen.W5 m ρ c)
  have hcar : Gen.W18 m ρ c (Proc.devRef .tc main_v14) = Gen.W6 m ρ c (Proc.devRef .tc main_v14) :=
    (step17 m ρ c _ (by decide)).trans <| (step16 m ρ c _ (by decide)).trans <| (step15 m ρ c _ (by decide)).trans <|
    (step14 m ρ c _ (by decide)).trans <| (step13 m ρ c _ (by decide)).trans <| (step12 m ρ c _ (by decide)).trans <|
    (step11 m ρ c _ (by decide)).trans <| (step10 m ρ c _ (by decide)).trans <| (step9 m ρ c _ (by decide)).trans <|
    (step8 m ρ c _ (by decide)).trans <| (step7 m ρ c _ (by decide)).trans (step6 m ρ c _ (by decide))
  unfold degOf
  rw [hcar, h6, hcar7, h3, hc, h2, harg]

/-- The degree factor of relation 0's source column. -/
theorem deg_v14 (c : Dev nD) (n : Fin 100000) :
    Spec.rd1 (Gen.W18 m ρ c (Proc.devRef .tc main_v14)) n = Spec.deg (Spec.wd2 (m ((c : Thread nD τ).loc main_arg1)) (0 : Fin 4)) n := by
  rw [v14_W18]
  exact degOf_apply 0 (0 : Fin 4) rfl _ _ n

/-- Stretch 3 leaves the scatter of what main_v1 holds by row 0 of what main_arg2 holds in main_v12 … -/
theorem s3_v12 (V : Valuation τ sig (Elt Ideal)) :
    (StableHlo.after hostOps0_3 V (Proc.devRef .tc main_v12) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![0, 0] (V (Proc.devRef .tc main_arg2) : IVec S4x500000 32) slices_S4x500000_S1x500000_0_0) shapeCasts_S1x500000_S500000))
          (V (Proc.devRef .tc main_v1) : FVec Ideal S500000 .f32) := by
  simp only [hostOps0_3]
  after_results
  rfl

/-- … and a one in main_cst_3. -/
theorem s3_cst (V : Valuation τ sig (Elt Ideal)) :
    (StableHlo.after hostOps0_3 V (Proc.devRef .tc main_cst_3) : FVec Ideal S_ .f32) = constant (F := Ideal) S_ .f32 0x3F800000#32 := by
  simp only [hostOps0_3]
  after_results

/-- Stretch 4 clips main_v12 below at main_cst_3 into main_v13. -/
theorem s4_v13 (V : Valuation τ sig (Elt Ideal)) :
    (StableHlo.after hostOps0_4 V (Proc.devRef .tc main_v13) : FVec Ideal S100000 .f32)
      = maximumf (F := Ideal) (s := S100000) (φ := .f32) (broadcastInDim S100000 ![] bcast_S_S100000 (V (Proc.devRef .tc main_cst_3) : FVec Ideal S_ .f32)) (V (Proc.devRef .tc main_v12) : FVec Ideal S100000 .f32) := by
  simp only [hostOps0_4]
  after_results
  rfl

/-- Stretch 5 takes the reciprocal square root of main_v13 into main_v15. -/
theorem s5_v15 (V : Valuation τ sig (Elt Ideal)) :
    (StableHlo.after hostOps0_5 V (Proc.devRef .tc main_v15) : FVec Ideal S100000 .f32)
      = Host.rsqrt (F := Ideal) (s := S100000) (φ := .f32) (V (Proc.devRef .tc main_v13) : FVec Ideal S100000 .f32) := by
  simp only [hostOps0_5]
  after_results

/-- main_v15 at the first region's entry is the degree array of row 0 of the launch's main_arg2. -/
theorem v15_W18 (c : Dev nD) :
    Gen.W18 m ρ c (Proc.devRef .tc main_v15) = degOf 0 slices_S4x500000_S1x500000_0_0 (m ((c : Thread nD τ).loc main_arg2)) := by
  have harg : Gen.W3 m ρ c (Proc.devRef .tc main_arg2) = m ((c : Thread nD τ).loc main_arg2) :=
    (step2 m ρ c _ (by decide)).trans <| (step1 m ρ c _ (by decide)).trans (step0 m ρ c _ (by decide))
  have hone : Gen.W3 m ρ c (Proc.devRef .tc main_v1) = _ := (step2 m ρ c _ (by decide)).trans (s1_v1 (Gen.W1 m ρ c))
  have h4 : Gen.W4 m ρ c (Proc.devRef .tc main_v12) = _ := s3_v12 (Gen.W3 m ρ c)
  have hc : Gen.W4 m ρ c (Proc.devRef .tc main_cst_3) = _ := s3_cst (Gen.W3 m ρ c)
  have h5 : Gen.W5 m ρ c (Proc.devRef .tc main_v13) = _ := s4_v13 (Gen.W4 m ρ c)
  have h6 : Gen.W6 m ρ c (Proc.devRef .tc main_v15) = _ := s5_v15 (Gen.W5 m ρ c)
  have hcar : Gen.W18 m ρ c (Proc.devRef .tc main_v15) = Gen.W6 m ρ c (Proc.devRef .tc main_v15) :=
    (step17 m ρ c _ (by decide)).trans <| (step16 m ρ c _ (by decide)).trans <| (step15 m ρ c _ (by decide)).trans <|
    (step14 m ρ c _ (by decide)).trans <| (step13 m ρ c _ (by decide)).trans <| (step12 m ρ c _ (by decide)).trans <|
    (step11 m ρ c _ (by decide)).trans <| (step10 m ρ c _ (by decide)).trans <| (step9 m ρ c _ (by decide)).trans <|
    (step8 m ρ c _ (by decide)).trans <| (step7 m ρ c _ (by decide)).trans (step6 m ρ c _ (by decide))
  unfold degOf
  rw [hcar, h6, h5, hc, h4, hone, harg]

/-- The degree factor of relation 0's destination column. -/
theorem deg_v15 (c : Dev nD) (n : Fin 100000) :
    Spec.rd1 (Gen.W18 m ρ c (Proc.devRef .tc main_v15)) n = Spec.deg (Spec.wd2 (m ((c : Thread nD τ).loc main_arg2)) (0 : Fin 4)) n := by
  rw [v15_W18]
  exact degOf_apply 0 (0 : Fin 4) rfl _ _ n

end Cert.KernelIdeal.KV

end
-- ==== Proof.KHost1AuxRel.lean ====
/-
  One relation's aggregate as the host computes it between the weight region and the combining region, read at one
  entry.

  The host takes a column of source ids, wraps a negative id by the number of nodes, gathers for every edge the row of
  the weighted features and the degree factor its source id addresses, and replaces what it gathered by a filler wherever
  the wrapped id is outside [0, 99999]. It multiplies an edge's row by its factor, adds the products into the rows the
  destination ids address, starting from zero, and multiplies row n of the sums by node n's own factor.

  When every source id is a node id the wrap changes nothing and every id is in range, so the filler is never taken:
  entry (n, j) is the sum, over the edges that end at n, of the source's entry in column j times the source's factor,
  times n's factor.
-/
import proofs.«420714_j25331717112057_2_alg».proof.Proof.Gen.KernelIdeal
import proofs.«420714_j25331717112057_2_alg».proof.Proof.Spec
import proofs.«420714_j25331717112057_2_alg».proof.Proof.HostOps
import Idealize.ShloMosaic.Lib.Pipeline.Value
import Idealize.ShloMosaic.Lib.ValueLayout
import Idealize.ShloMosaic.PureOps.Reduce
import Idealize.ShloMosaic.PureOps.Ideal.Laws

noncomputable section

open scoped BigOperators

namespace Cert.KernelIdeal.Rel

open Idealize.ShloMosaic Idealize.ShloMosaic.ValueIdx Cert.Spec
open Cert.KernelIdeal Cert.KernelIdeal.Gen

/-! ## Words: a node id is not negative and is at most 99999 -/

/-- Wrapping a negative id by the number of nodes leaves a node id as it is. -/
theorem wrap_node {w : BitVec 32} (h : IsNode w) :
    Scalar.select (IntOp.cmpi .slt w 0#32) (IntOp.addi w 100000#32) w = w := by
  have hc : IntOp.cmpi .slt w 0#32 = 0#1 := by
    have hlt : w.slt 0#32 = false := by
      simp only [BitVec.slt, BitVec.toInt_zero]
      exact decide_eq_false (by have := h.1; omega)
    unfold IntOp.cmpi
    simp only [hlt]
    rfl
  rw [hc]
  exact select_zero _ _

/-- A node id passes the range test 0 ≤ id ≤ 99999. -/
theorem range_node {w : BitVec 32} (h : IsNode w) :
    IntOp.andi (IntOp.cmpi .sge w 0#32) (IntOp.cmpi .sle w 99999#32) = 1#1 := by
  have h1 : IntOp.cmpi .sge w 0#32 = 1#1 := by
    have hle : (0#32 : BitVec 32).sle w = true := by
      simp only [BitVec.sle, BitVec.toInt_zero]
      exact decide_eq_true h.1
    unfold IntOp.cmpi
    simp only [hle]
    rfl
  have h2 : IntOp.cmpi .sle w 99999#32 = 1#1 := by
    have e : (99999#32 : BitVec 32).toInt = 99999 := by decide
    have hle : w.sle 99999#32 = true := by
      simp only [BitVec.sle, e]
      exact decide_eq_true (by have := h.2; omega)
    unfold IntOp.cmpi
    simp only [hle]
    rfl
  rw [h1, h2]
  rfl

/-- A conjunction of ones, started from one, is one. -/
theorem foldl_andi_ones {ι : Type} (f : ι → BitVec 1) (hf : ∀ i, f i = 1#1) :
    ∀ l : List ι, l.foldl (fun r i => IntOp.andi r (f i)) 1#1 = 1#1
  | [] => rfl
  | a :: l => by
    have h11 : IntOp.andi 1#1 (f a) = 1#1 := by rw [hf a]; rfl
    rw [List.foldl_cons, h11]
    exact foldl_andi_ones f hf l

/-! ## Broadcasts read at an entry -/

/-- A vector laid as a column reads its own entry. -/
theorem col_apply {α : Type} {n : Nat} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) := by
  refine broadcastInDim_apply _ h v _ (ix1 e) fun a => ?_
  match a with
  | ⟨0, _⟩ =>
    show e.val = if n = 1 then 0 else e.val
    have := e.isLt
    split <;> omega

/-- A vector laid down the rows of a rectangle reads, at (e, j), its entry e. -/
theorem rows_apply {α : Type} {n k : Nat} (h : (⟨1, ![n]⟩ : Shape).BroadcastsInDim ⟨2, ![n, k]⟩ ![0])
    (v : (⟨1, ![n]⟩ : Shape).Idx → α) (e : Fin n) (j : Fin k) :
    broadcastInDim ⟨2, ![n, k]⟩ ![0] h v (ix2 e j) = v (ix1 e) := by
  refine broadcastInDim_apply _ h v _ (ix1 e) fun a => ?_
  match a with
  | ⟨0, _⟩ =>
    show e.val = if n = 1 then 0 else e.val
    have := e.isLt
    split <;> omega

/-- A column laid across a rectangle reads, at (e, j), its entry (e, 0). -/
theorem ofcol_apply {α : Type} {n k : Nat} (h : (⟨2, ![n, 1]⟩ : Shape).BroadcastsInDim ⟨2, ![n, k]⟩ ![0, 1])
    (v : (⟨2, ![n, 1]⟩ : Shape).Idx → α) (e : Fin n) (j : Fin k) :
    broadcastInDim ⟨2, ![n, k]⟩ ![0, 1] h v (ix2 e j) = v (ix2 e 0) := by
  refine broadcastInDim_apply _ h v _ (ix2 e 0) fun a => ?_
  match a with
  | ⟨0, _⟩ =>
    show e.val = if n = 1 then 0 else e.val
    have := e.isLt
    split <;> omega
  | ⟨1, _⟩ =>
    show (0 : Nat) = if 1 = 1 then 0 else j.val
    rfl

/-! ## The relation's term -/

/-- The ids, a negative one wrapped by the number of nodes. -/
def wrapIds (s : IVec S500000 32) : IVec S500000 32 :=
  select (cmpi .slt s (broadcastInDim S500000 ![] bcast_S_S500000 (constantI S_ 32 0#32)))
    (addi s (broadcastInDim S500000 ![] bcast_S_S500000 (constantI S_ 32 100000#32))) s

/-- The wrapped ids as a column. -/
def idCol (s : IVec S500000 32) : IVec S500000x1 32 :=
  broadcastInDim S500000x1 ![0] bcast_S500000_S500000x1_0 (wrapIds s)

/-- The range test 0 ≤ id ≤ 99999 of every wrapped id. -/
def inRange (s : IVec S500000 32) : IVec S500000 1 :=
  Host.reduce IntOp.andi
    (andi (cmpi .sge (idCol s) (broadcastInDim S500000x1 ![] bcast_S_S500000x1 (constantI S_ 32 0#32)))
      (cmpi .sle (idCol s)
        (broadcastInDim S500000x1 ![0, 1] bcast_S1x1_S500000x1_0_1
          (broadcastInDim S1x1 ![1] bcast_S1_S1x1_1 (constantI S1 32 99999#32)))))
    (constantI S_ 1 1#1) reducesTo_S500000x1_S500000_d1 h_S_

/-- For every edge the row its source id addresses, a filler where the id is out of range. -/
def takeRows (z : FVec Ideal S100000x128 .f32) (s : IVec S500000 32) : FVec Ideal S500000x128 .f32 :=
  select (broadcastInDim S500000x128 ![0] bcast_S500000_S500000x128_0 (inRange s))
    (Host.gather gather_S100000x128_S500000x1_S500000x128_1_0_n_n_0_1_1128 z (idCol s))
    (broadcastInDim S500000x128 ![] bcast_S_S500000x128 (constant S_ .f32 0x7FC00000#32))

/-- For every edge the factor its source id addresses, a filler where the id is out of range. -/
def takeElems (g : FVec Ideal S100000 .f32) (s : IVec S500000 32) : FVec Ideal S500000 .f32 :=
  select (inRange s) (Host.gather gather_S100000_S500000x1_S500000_n_0_n_n_0_1_1 g (idCol s))
    (broadcastInDim S500000 ![] bcast_S_S500000 (constant S_ .f32 0x7FC00000#32))

/-- The relation's aggregate: the edges' rows times their factors, added into the destinations' rows from zero, each
    row times its node's factor. -/
def relAgg (z : FVec Ideal S100000x128 .f32) (s d : IVec S500000 32) (go gi : FVec Ideal S100000 .f32) :
    FVec Ideal S100000x128 .f32 :=
  mulf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 d)
      (mulf (takeRows z s)
        (broadcastInDim S500000x128 ![0, 1] bcast_S500000x1_S500000x128_0_1
          (broadcastInDim S500000x1 ![0] bcast_S500000_S500000x1_0 (takeElems go s)))))
    (broadcastInDim S100000x128 ![0, 1] bcast_S100000x1_S100000x128_0_1
      (broadcastInDim S100000x1 ![0] bcast_S100000_S100000x1_0 gi))

/-! ## The term read at an entry, every source id a node id -/

section Read

variable (s : IVec S500000 32) (hs : ∀ e : Fin 500000, IsNode (s (ix1 e)))
include hs

theorem wrapIds_apply (e : Fin 500000) : wrapIds s (ix1 e) = s (ix1 e) :=
  (show wrapIds s (ix1 e)
      = Scalar.select (IntOp.cmpi .slt (s (ix1 e)) 0#32) (IntOp.addi (s (ix1 e)) 100000#32) (s (ix1 e)) from rfl).trans
    (wrap_node (hs e))

theorem idCol_apply (e : Fin 500000) (u : Fin 1) : idCol s (ix2 e u) = s (ix1 e) :=
  (col_apply bcast_S500000_S500000x1_0 (wrapIds s) e u).trans (wrapIds_apply s hs e)

theorem inRange_apply (j : S500000.Idx) : inRange s j = 1#1 := by
  refine (Host.reduce_eq_foldl _ _ _ _ _ j).trans (foldl_andi_ones _ (fun i => ?_) _)
  obtain ⟨e, u, rfl⟩ : ∃ (e : Fin 500000) (u : Fin 1), i = ix2 e u := ⟨i 0, i 1, eq_ix2 i⟩
  show IntOp.andi (IntOp.cmpi .sge (idCol s (ix2 e u)) 0#32) (IntOp.cmpi .sle (idCol s (ix2 e u)) 99999#32) = 1#1
  rw [idCol_apply s hs e u]
  exact range_node (hs e)

theorem takeRows_apply (z : FVec Ideal S100000x128 .f32) (e : Fin 500000) (j : Fin 128) :
    takeRows z s (ix2 e j) = z (ix2 (node (s (ix1 e))) j) := by
  have hm : broadcastInDim S500000x128 ![0] bcast_S500000_S500000x128_0 (inRange s) (ix2 e j) = 1#1 :=
    (rows_apply bcast_S500000_S500000x128_0 (inRange s) e j).trans (inRange_apply s hs _)
  have hd : gather_S100000x128_S500000x1_S500000x128_1_0_n_n_0_1_1128
      = Cert.HostOps.rowsDims 100000 500000 128 gather_S100000x128_S500000x1_S500000x128_1_0_n_n_0_1_1128_wf := rfl
  have hid : idCol s (ix2 e 0) = s (ix1 e) := idCol_apply s hs e 0
  unfold takeRows
  rw [select_apply, hm, select_one, hd,
    Cert.HostOps.gather_rows_node _ z (idCol s) e j (by rw [hid]; exact hs e), hid]

theorem takeElems_apply (g : FVec Ideal S100000 .f32) (e : Fin 500000) :
    takeElems g s (ix1 e) = g (ix1 (node (s (ix1 e)))) := by
  have hd : gather_S100000_S500000x1_S500000_n_0_n_n_0_1_1
      = Cert.HostOps.elemsDims 100000 500000 gather_S100000_S500000x1_S500000_n_0_n_n_0_1_1_wf := rfl
  have hid : idCol s (ix2 e 0) = s (ix1 e) := idCol_apply s hs e 0
  unfold takeElems
  rw [select_apply, inRange_apply s hs, select_one, hd,
    Cert.HostOps.gather_elems_node _ g (idCol s) e (by rw [hid]; exact hs e), hid]

/-- Entry (n, j) of the relation's aggregate is the specification's: the sum over the edges that end at n of the
    source's entry times the source's factor, times n's factor. -/
theorem relAgg_apply (z : FVec Ideal S100000x128 .f32) (d : IVec S500000 32) (go gi : FVec Ideal S100000 .f32)
    (n : Fin 100000) (j : Fin 128) :
    relAgg z s d go gi (ix2 n j) = aggG (rd2 z) (rd1 go) (rd1 gi) (wd1 s) (wd1 d) n j := by
  have hd : scatter_S100000x128_S500000x1_S500000x128_1_0_0_1
      = Cert.Seg.segDims 100000 500000 128 scatter_S100000x128_S500000x1_S500000x128_1_0_0_1_wf := rfl
  have h0 : broadcastInDim S100000x128 ![] bcast_S_S100000x128 (constant (F := Ideal) S_ .f32 0x00000000#32) (ix2 n j) = 0 :=
    (show _ = Ideal.ofBits .f32 0x00000000#32 from rfl).trans Ideal.ofBits_zero_f32
  have hgi : broadcastInDim S100000x128 ![0, 1] bcast_S100000x1_S100000x128_0_1
      (broadcastInDim S100000x1 ![0] bcast_S100000_S100000x1_0 gi) (ix2 n j) = gi (ix1 n) :=
    (ofcol_apply bcast_S100000x1_S100000x128_0_1 _ n j).trans (col_apply bcast_S100000_S100000x1_0 gi n 0)
  have hmsg : ∀ e : Fin 500000,
      mulf (takeRows z s)
        (broadcastInDim S500000x128 ![0, 1] bcast_S500000x1_S500000x128_0_1
          (broadcastInDim S500000x1 ![0] bcast_S500000_S500000x1_0 (takeElems go s))) (ix2 e j)
        = z (ix2 (node (s (ix1 e))) j) * go (ix1 (node (s (ix1 e)))) := fun e => by
    rw [mulf_apply, takeRows_apply s hs z e j,
      (ofcol_apply bcast_S500000x1_S500000x128_0_1 _ e j).trans (col_apply bcast_S500000_S500000x1_0 (takeElems go s) e 0),
      takeElems_apply s hs go e]
  unfold relAgg
  rw [mulf_apply, hd, Cert.HostOps.scatterAdd_rows, h0, hgi, zero_add]
  unfold aggG
  refine congrArg (fun t : EReal => t * gi (ix1 n)) (Finset.sum_congr rfl fun e _ => ?_)
  rw [col_apply bcast_S500000_S500000x1_0 d e 0, hmsg e]
  exact if_congr Iff.rfl rfl rfl

end Read

/-! ## A relation's slice of the stacked arrays -/

/-- Relation r's rows of the stacked weighted features. -/
theorem rows_slice (x : FVec Ideal S4x100000x128 .f32) (r : Fin 4) (off : Fin 3 → Nat) (hoff : off = ![r.val, 0, 0])
    (h : S4x100000x128.Slices off S1x100000x128) (h' : S1x100000x128.ShapeCasts S100000x128) (n : Fin 100000) (j : Fin 128) :
    shapeCast S100000x128 (extractStridedSlice S1x100000x128 off x h) h' (ix2 n j) = x (ix3 r n j) := by
  subst hoff
  refine (shapeCast_1ab_ab_apply _ h' n j).trans (extractStridedSlice_apply _ x h _ (ix3 r n j) fun a => ?_)
  match a with
  | ⟨0, _⟩ => exact (Nat.add_zero _).symm
  | ⟨1, _⟩ => exact (Nat.zero_add _).symm
  | ⟨2, _⟩ => exact (Nat.zero_add _).symm

/-- Relation r's column of the stacked ids. -/
theorem ids_slice (a : IVec S4x500000 32) (r : Fin 4) (off : Fin 2 → Nat) (hoff : off = ![r.val, 0])
    (h : S4x500000.Slices off S1x500000) (h' : S1x500000.ShapeCasts S500000) (e : Fin 500000) :
    shapeCast S500000 (extractStridedSlice S1x500000 off a h) h' (ix1 e) = a (ix2 r e) := by
  subst hoff
  refine (shapeCast_1a_a_apply _ h' e).trans (extractStridedSlice_apply _ a h _ (ix2 r e) fun b => ?_)
  match b with
  | ⟨0, _⟩ => exact (Nat.add_zero _).symm
  | ⟨1, _⟩ => exact (Nat.zero_add _).symm

/-- The aggregate of relation r's slices of the stacked arrays is the specification's aggregate of relation r's rows,
    ids and factors. -/
theorem relAgg_slices (x : FVec Ideal S4x100000x128 .f32) (a1 a2 : IVec S4x500000 32) (go gi : FVec Ideal S100000 .f32)
    (r : Fin 4) (off3 : Fin 3 → Nat) (hoff3 : off3 = ![r.val, 0, 0]) (h3 : S4x100000x128.Slices off3 S1x100000x128)
    (h3' : S1x100000x128.ShapeCasts S100000x128) (off2 : Fin 2 → Nat) (hoff2 : off2 = ![r.val, 0])
    (h2 : S4x500000.Slices off2 S1x500000) (h2' : S1x500000.ShapeCasts S500000)
    (hs : ∀ e : Fin 500000, IsNode (wd2 a1 r e)) (n : Fin 100000) (j : Fin 128) :
    relAgg (shapeCast S100000x128 (extractStridedSlice S1x100000x128 off3 x h3) h3')
        (shapeCast S500000 (extractStridedSlice S1x500000 off2 a1 h2) h2')
        (shapeCast S500000 (extractStridedSlice S1x500000 off2 a2 h2) h2') go gi (ix2 n j)
      = aggG (rd3 x r) (rd1 go) (rd1 gi) (wd2 a1 r) (wd2 a2 r) n j := by
  have hs' : ∀ e : Fin 500000, IsNode (shapeCast S500000 (extractStridedSlice S1x500000 off2 a1 h2) h2' (ix1 e)) := fun e => by
    rw [ids_slice a1 r off2 hoff2 h2 h2' e]; exact hs e
  have ez : rd2 (shapeCast S100000x128 (extractStridedSlice S1x100000x128 off3 x h3) h3') = rd3 x r :=
    funext fun a => funext fun b => rows_slice x r off3 hoff3 h3 h3' a b
  have es : wd1 (shapeCast S500000 (extractStridedSlice S1x500000 off2 a1 h2) h2') = wd2 a1 r :=
    funext fun e => ids_slice a1 r off2 hoff2 h2 h2' e
  have ed : wd1 (shapeCast S500000 (extractStridedSlice S1x500000 off2 a2 h2) h2') = wd2 a2 r :=
    funext fun e => ids_slice a2 r off2 hoff2 h2 h2' e
  rw [relAgg_apply _ hs', ez, es, ed]

end Cert.KernelIdeal.Rel

end
-- ==== Proof.KHost1.lean ====
/-
The host operations between the first weight region and the first combining region, for relation 0: the gather of the
weighted features' rows by source, the scaling by the source's factor, the accumulating scatter by destination and the
scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Host1

/-! ## Contents at a typed reference

The operations of a called function read and write their buffers through references that carry the tensor's type: the
contents are moved to the buffer's own type and back along an equation of the two types, which changes nothing. -/

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

section

-- The two sides below are the same composition of the same operations: they are compared operation by operation,
-- and the reduction, the gathers and the scatter are never opened.
attribute [local irreducible] Host.reduce Host.gather Host.scatterAdd

set_option maxHeartbeats 40000000 in
/-- The first layer's host operations, run in order from any contents of the buffers, leave in relation 0's result
    buffer the relation's aggregate of relation 0's slices of the stacked weighted features and ids and of its two
    degree factors: every operation is read at its own result buffer and passed over at every other. -/
theorem v75_of (V : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (V)))))))))))))) (Proc.devRef .tc main_v75) =
      Rel.relAgg
        (shapeCast S100000x128 (extractStridedSlice S1x100000x128 ![0, 0, 0] (V (Proc.devRef .tc main_v58)) slices_S4x100000x128_S1x100000x128_0_0_0) shapeCasts_S1x100000x128_S100000x128)
        (shapeCast S500000 (extractStridedSlice S1x500000 ![0, 0] (V (Proc.devRef .tc main_arg1)) slices_S4x500000_S1x500000_0_0) shapeCasts_S1x500000_S500000)
        (shapeCast S500000 (extractStridedSlice S1x500000 ![0, 0] (V (Proc.devRef .tc main_arg2)) slices_S4x500000_S1x500000_0_0) shapeCasts_S1x500000_S500000)
        (V (Proc.devRef .tc main_v14)) (V (Proc.devRef .tc main_v15)) := by
  simp only [hostOps1, hostOps1_1, hostOps1_2, hostOps1_3, hostOps1_4, hostOps1_5, hostOps1_6, hostOps1_7, hostOps1_8, hostOps1_9, hostOps1_10, hostOps1_11, hostOps1_12]
  after_results_simp
  simp only [ofBuf_toBuf]
  rfl

end

end Host1

variable (m : (ℓ : Loc nD τ sig) → Buf (Elt Ideal) ℓ) (ρ : Dev nD → PrngReg)

/-- Relation 0's aggregate: every edge carries its source's row of the weighted features times the source's factor; a
    node sums what arrives and scales by its own factor. -/
theorem agg_v75 (c : Dev nD) (hs : ∀ e : Fin 500000, Spec.IsNode (Spec.wd2 (Gen.W19 m ρ c (Proc.devRef .tc main_arg1)) (0 : Fin 4) e))
    (n : Fin 100000) (j : Fin 128) :
    Spec.rd2 (Gen.W32 m ρ c (Proc.devRef .tc main_v75)) n j =
      Spec.aggG (Spec.rd3 (Gen.W19 m ρ c (Proc.devRef .tc main_v58)) (0 : Fin 4)) (Spec.rd1 (Gen.W19 m ρ c (Proc.devRef .tc main_v14))) (Spec.rd1 (Gen.W19 m ρ c (Proc.devRef .tc main_v15)))
        (Spec.wd2 (Gen.W19 m ρ c (Proc.devRef .tc main_arg1)) (0 : Fin 4)) (Spec.wd2 (Gen.W19 m ρ c (Proc.devRef .tc main_arg2)) (0 : Fin 4)) n j := by
  have e : Gen.W32 m ρ c (Proc.devRef .tc main_v75) = _ := Host1.v75_of (Gen.W19 m ρ c)
  exact (congrFun e (ix2 n j)).trans
    (Rel.relAgg_slices (Gen.W19 m ρ c (Proc.devRef .tc main_v58)) (Gen.W19 m ρ c (Proc.devRef .tc main_arg1))
      (Gen.W19 m ρ c (Proc.devRef .tc main_arg2)) (Gen.W19 m ρ c (Proc.devRef .tc main_v14)) (Gen.W19 m ρ c (Proc.devRef .tc main_v15))
      0 _ rfl _ _ _ rfl _ _ hs n j)

end Cert.KernelIdeal.KV

end
-- ==== Proof.KHost3.lean ====
/-
The host operations between the second weight region and the second combining region, for relation 0: the gather of
every edge's source row and source factor, their product, the accumulating scatter into the destinations' rows and the
scaling by the destinations' factors.

The operations run in thirteen stretches. Each stretch, over any earlier contents, writes its own results as the stated
function of what it reads and leaves every other buffer as it was; composing the stretches that write relation 0's
buffers and carrying the result through the later ones gives the relation's aggregate of the slices of the weight
region's output and of the stacked ids.
-/
import proofs.«420714_j25331717112057_2_alg».proof.Proof.Gen.KernelIdeal.Frame
import proofs.«420714_j25331717112057_2_alg».proof.Proof.Spec
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Each stretch of host operations over any earlier contents

A stretch writes its own results and leaves every other buffer as it was; what it writes is the stated function of the
earlier contents of the buffers it reads. -/

/-- The first stretch cuts relation 0's rows out of the stacked weighted features, -/
private theorem s3_v132 (V : Valuation τ sig (Elt Ideal)) :
    StableHlo.after hostOps3 V (Proc.devRef .tc main_v132) =
      shapeCast S100000x128 (extractStridedSlice S1x100000x128 ![0, 0, 0] (V (Proc.devRef .tc main_v130)) slices_S4x100000x128_S1x100000x128_0_0_0) shapeCasts_S1x100000x128_S100000x128 := by
  after_results_simp
  rfl

/-- its column out of the stacked source ids, -/
private theorem s3_v134 (V : Valuation τ sig (Elt Ideal)) :
    StableHlo.after hostOps3 V (Proc.devRef .tc main_v134) =
      shapeCast S500000 (extractStridedSlice S1x500000 ![0, 0] (V (Proc.devRef .tc main_arg1)) slices_S4x500000_S1x500000_0_0) shapeCasts_S1x500000_S500000 := by
  after_results_simp
  rfl

/-- and its column out of the stacked destination ids. -/
private theorem s3_v136 (V : Valuation τ sig (Elt Ideal)) :
    StableHlo.after hostOps3 V (Proc.devRef .tc main_v136) =
      shapeCast S500000 (extractStridedSlice S1x500000 ![0, 0] (V (Proc.devRef .tc main_arg2)) slices_S4x500000_S1x500000_0_0) shapeCasts_S1x500000_S500000 := by
  after_results_simp
  rfl

private theorem c3_v14 (V : Valuation τ sig (Elt Ideal)) :
    StableHlo.after hostOps3 V (Proc.devRef .tc main_v14) = V (Proc.devRef .tc main_v14) := by
  after_results_simp

private theorem c3_v15 (V : Valuation τ sig (Elt Ideal)) :
    StableHlo.after hostOps3 V (Proc.devRef .tc main_v15) = V (Proc.devRef .tc main_v15) := by
  after_results_simp

/-- The second stretch gathers every edge's source row. -/
private theorem s3_1_v137 (V : Valuation τ sig (Elt Ideal)) :
    StableHlo.after hostOps3_1 V (Proc.devRef .tc main_v137) =
      Rel.takeRows (V (Proc.devRef .tc main_v132)) (V (Proc.devRef .tc main_v134)) := by
  after_results_simp
  simp only [StableHlo.TRef.toBuf, StableHlo.TRef.ofBuf, cast_cast, cast_eq]
  rfl

private theorem c3_1_v134 (V : Valuation τ sig (Elt Ideal)) :
    StableHlo.after hostOps3_1 V (Proc.devRef .tc main_v134) = V (Proc.devRef .tc main_v134) := by
  after_results_simp

private theorem c3_1_v136 (V : Valuation τ sig (Elt Ideal)) :
    StableHlo.after hostOps3_1 V (Proc.devRef .tc main_v136) = V (Proc.devRef .tc main_v136) := by
  after_results_simp

private theorem c3_1_v14 (V : Valuation τ sig (Elt Ideal)) :
    StableHlo.after hostOps3_1 V (Proc.devRef .tc main_v14) = V (Proc.devRef .tc main_v14) := by
  after_results_simp

private theorem c3_1_v15 (V : Valuation τ sig (Elt Ideal)) :
    StableHlo.after hostOps3_1 V (Proc.devRef .tc main_v15) = V (Proc.devRef .tc main_v15) := by
  after_results_simp

/-- The third stretch gathers every edge's source factor. -/
private theorem s3_2_v138 (V : Valuation τ sig (Elt Ideal)) :
    StableHlo.after hostOps3_2 V (Proc.devRef .tc main_v138) =
      Rel.takeElems (V (Proc.devRef .tc main_v14)) (V (Proc.devRef .tc main_v134)) := by
  after_results_simp
  simp only [StableHlo.TRef.toBuf, StableHlo.TRef.ofBuf, cast_cast, cast_eq]
  rfl

private theorem c3_2_v137 (V : Valuation τ sig (Elt Ideal)) :
    StableHlo.after hostOps3_2 V (Proc.devRef .tc main_v137) = V (Proc.devRef .tc main_v137) := by
  after_results_simp

private theorem c3_2_v136 (V : Valuation τ sig (Elt Ideal)) :
    StableHlo.after hostOps3_2 V (Proc.devRef .tc main_v136) = V (Proc.devRef .tc main_v136) := by
  after_results_simp

private theorem c3_2_v15 (V : Valuation τ sig (Elt Ideal)) :
    StableHlo.after hostOps3_2 V (Proc.devRef .tc main_v15) = V (Proc.devRef .tc main_v15) := by
  after_results_simp

/-- The fourth stretch multiplies, adds into the destinations' rows and multiplies by the destinations' factors. -/
private theorem s3_3_v147 (V : Valuation τ sig (Elt Ideal)) (z : FVec Ideal S100000x128 .f32) (s : IVec S500000 32)
    (go : FVec Ideal S100000 .f32)
    (h137 : (V (Proc.devRef .tc main_v137) : FVec Ideal S500000x128 .f32) = Rel.takeRows z s)
    (h138 : (V (Proc.devRef .tc main_v138) : FVec Ideal S500000 .f32) = Rel.takeElems go s) :
    StableHlo.after hostOps3_3 V (Proc.devRef .tc main_v147) =
      Rel.relAgg z s (V (Proc.devRef .tc main_v136)) go (V (Proc.devRef .tc main_v15)) := by
  after_results_simp
  rw [h137, h138]
  rfl

private theorem c3_4_v147 (V : Valuation τ sig (Elt Ideal)) :
    StableHlo.after hostOps3_4 V (Proc.devRef .tc main_v147) = V (Proc.devRef .tc main_v147) := by
  after_results_simp

private theorem c3_5_v147 (V : Valuation τ sig (Elt Ideal)) :
    StableHlo.after hostOps3_5 V (Proc.devRef .tc main_v147) = V (Proc.devRef .tc main_v147) := by
  after_results_simp

private theorem c3_6_v147 (V : Valuation τ sig (Elt Ideal)) :
    StableHlo.after hostOps3_6 V (Proc.devRef .tc main_v147) = V (Proc.devRef .tc main_v147) := by
  after_results_simp

private theorem c3_7_v147 (V : Valuation τ sig (Elt Ideal)) :
    StableHlo.after hostOps3_7 V (Proc.devRef .tc main_v147) = V (Proc.devRef .tc main_v147) := by
  after_results_simp

private theorem c3_8_v147 (V : Valuation τ sig (Elt Ideal)) :
    StableHlo.after hostOps3_8 V (Proc.devRef .tc main_v147) = V (Proc.devRef .tc main_v147) := by
  after_results_simp

private theorem c3_9_v147 (V : Valuation τ sig (Elt Ideal)) :
    StableHlo.after hostOps3_9 V (Proc.devRef .tc main_v147) = V (Proc.devRef .tc main_v147) := by
  after_results_simp

private theorem c3_10_v147 (V : Valuation τ sig (Elt Ideal)) :
    StableHlo.after hostOps3_10 V (Proc.devRef .tc main_v147) = V (Proc.devRef .tc main_v147) := by
  after_results_simp

private theorem c3_11_v147 (V : Valuation τ sig (Elt Ideal)) :
    StableHlo.after hostOps3_11 V (Proc.devRef .tc main_v147) = V (Proc.devRef .tc main_v147) := by
  after_results_simp

private theorem c3_12_v147 (V : Valuation τ sig (Elt Ideal)) :
    StableHlo.after hostOps3_12 V (Proc.devRef .tc main_v147) = V (Proc.devRef .tc main_v147) := by
  after_results_simp

/-! ## Relation 0's result buffer when the combining region is entered -/

/-- It holds the relation's aggregate of relation 0's slices of the stacked weighted features and ids and of its two
    degree factors, as the weight region left them. -/
private theorem v147_read (c : Dev nD) :
    (Gen.W47 m ρ c (Proc.devRef .tc main_v147) : FVec Ideal S100000x128 .f32) =
      Rel.relAgg
        (shapeCast S100000x128 (extractStridedSlice S1x100000x128 ![0, 0, 0] (Gen.W34 m ρ c (Proc.devRef .tc main_v130)) slices_S4x100000x128_S1x100000x128_0_0_0) shapeCasts_S1x100000x128_S100000x128)
        (shapeCast S500000 (extractStridedSlice S1x500000 ![0, 0] (Gen.W34 m ρ c (Proc.devRef .tc main_arg1)) slices_S4x500000_S1x500000_0_0) shapeCasts_S1x500000_S500000)
        (shapeCast S500000 (extractStridedSlice S1x500000 ![0, 0] (Gen.W34 m ρ c (Proc.devRef .tc main_arg2)) slices_S4x500000_S1x500000_0_0) shapeCasts_S1x500000_S500000)
        (Gen.W34 m ρ c (Proc.devRef .tc main_v14)) (Gen.W34 m ρ c (Proc.devRef .tc main_v15)) := by
  have h132 : (Gen.W35 m ρ c (Proc.devRef .tc main_v132) : FVec Ideal S100000x128 .f32) = _ := s3_v132 (Gen.W34 m ρ c)
  have h134 : (Gen.W35 m ρ c (Proc.devRef .tc main_v134) : IVec S500000 32) = _ := s3_v134 (Gen.W34 m ρ c)
  have h136 : (Gen.W37 m ρ c (Proc.devRef .tc main_v136) : IVec S500000 32) = _ :=
    (c3_2_v136 (Gen.W36 m ρ c)).trans ((c3_1_v136 (Gen.W35 m ρ c)).trans (s3_v136 (Gen.W34 m ρ c)))
  have h15 : (Gen.W37 m ρ c (Proc.devRef .tc main_v15) : FVec Ideal S100000 .f32) = Gen.W34 m ρ c (Proc.devRef .tc main_v15) :=
    (c3_2_v15 (Gen.W36 m ρ c)).trans ((c3_1_v15 (Gen.W35 m ρ c)).trans (c3_v15 (Gen.W34 m ρ c)))
  have h14 : (Gen.W36 m ρ c (Proc.devRef .tc main_v14) : FVec Ideal S100000 .f32) = Gen.W34 m ρ c (Proc.devRef .tc main_v14) :=
    (c3_1_v14 (Gen.W35 m ρ c)).trans (c3_v14 (Gen.W34 m ρ c))
  have h134' : (Gen.W36 m ρ c (Proc.devRef .tc main_v134) : IVec S500000 32) = _ := (c3_1_v134 (Gen.W35 m ρ c)).trans h134
  have h137 : (Gen.W37 m ρ c (Proc.devRef .tc main_v137) : FVec Ideal S500000x128 .f32) = _ :=
    (c3_2_v137 (Gen.W36 m ρ c)).trans ((s3_1_v137 (Gen.W35 m ρ c)).trans (congrArg₂ Rel.takeRows h132 h134))
  have h138 : (Gen.W37 m ρ c (Proc.devRef .tc main_v138) : FVec Ideal S500000 .f32) = _ :=
    (s3_2_v138 (Gen.W36 m ρ c)).trans (congrArg₂ Rel.takeElems h14 h134')
  have e1 : Gen.W47 m ρ c (Proc.devRef .tc main_v147) = Gen.W38 m ρ c (Proc.devRef .tc main_v147) :=
    (c3_12_v147 (Gen.W46 m ρ c)).trans ((c3_11_v147 (Gen.W45 m ρ c)).trans ((c3_10_v147 (Gen.W44 m ρ c)).trans
      ((c3_9_v147 (Gen.W43 m ρ c)).trans ((c3_8_v147 (Gen.W42 m ρ c)).trans ((c3_7_v147 (Gen.W41 m ρ c)).trans
        ((c3_6_v147 (Gen.W40 m ρ c)).trans ((c3_5_v147 (Gen.W39 m ρ c)).trans (c3_4_v147 (Gen.W38 m ρ c)))))))))
  exact e1.trans ((s3_3_v147 (Gen.W37 m ρ c) _ _ _ h137 h138).trans
    (congrArg₂ (fun d gi => Rel.relAgg _ _ d _ gi) h136 h15))

/-- Relation 0's aggregate: every edge carries its source's row of the weighted features times the source's factor; a
    node sums what arrives and scales by its own factor. -/
theorem agg_v147 (c : Dev nD) (hs : ∀ e : Fin 500000, Spec.IsNode (Spec.wd2 (Gen.W34 m ρ c (Proc.devRef .tc main_arg1)) (0 : Fin 4) e))
    (n : Fin 100000) (j : Fin 128) :
    Spec.rd2 (Gen.W47 m ρ c (Proc.devRef .tc main_v147)) n j =
      Spec.aggG (Spec.rd3 (Gen.W34 m ρ c (Proc.devRef .tc main_v130)) (0 : Fin 4)) (Spec.rd1 (Gen.W34 m ρ c (Proc.devRef .tc main_v14))) (Spec.rd1 (Gen.W34 m ρ c (Proc.devRef .tc main_v15)))
        (Spec.wd2 (Gen.W34 m ρ c (Proc.devRef .tc main_arg1)) (0 : Fin 4)) (Spec.wd2 (Gen.W34 m ρ c (Proc.devRef .tc main_arg2)) (0 : Fin 4)) n j :=
  (congrFun (v147_read m ρ c) (ix2 n j)).trans
    (Rel.relAgg_slices (Gen.W34 m ρ c (Proc.devRef .tc main_v130)) (Gen.W34 m ρ c (Proc.devRef .tc main_arg1))
      (Gen.W34 m ρ c (Proc.devRef .tc main_arg2)) (Gen.W34 m ρ c (Proc.devRef .tc main_v14)) (Gen.W34 m ρ c (Proc.devRef .tc main_v15))
      0 _ rfl _ _ _ rfl _ _ hs n j)

end Cert.KernelIdeal.KV

end
-- ==== Proof.KCarry.lean ====
/-
Buffers the first layer's host operations do not write keep their contents across them: the eight degree factors and the arguments the second layer reads.
-/
import proofs.«420714_j25331717112057_2_alg».proof.Proof.Gen.KernelIdeal.Frame
import proofs.«420714_j25331717112057_2_alg».proof.Proof.Spec

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- One stretch of the first layer's host operations at a buffer none of its operations writes: each operation
    writes its result buffer only, and the buffer at hand is a different reference from every one of them. -/
local macro "keep_step" : tactic => `(tactic|
  exact StableHlo.after_of_forall_not_mem _ _ (List.forall_iff_forall_mem.mp (by
    simp only [hostOps1, hostOps1_1, hostOps1_2, hostOps1_3, hostOps1_4, hostOps1_5, hostOps1_6, hostOps1_7,
      hostOps1_8, hostOps1_9, hostOps1_10, hostOps1_11, hostOps1_12, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

theorem carry1_v14 (c : Dev nD) : Gen.W32 m ρ c (Proc.devRef .tc main_v14) = Gen.W19 m ρ c (Proc.devRef .tc main_v14) :=
  calc Gen.W32 m ρ c (Proc.devRef .tc main_v14)
    _ = Gen.W31 m ρ c (Proc.devRef .tc main_v14) := by keep_step
    _ = Gen.W30 m ρ c (Proc.devRef .tc main_v14) := by keep_step
    _ = Gen.W29 m ρ c (Proc.devRef .tc main_v14) := by keep_step
    _ = Gen.W28 m ρ c (Proc.devRef .tc main_v14) := by keep_step
    _ = Gen.W27 m ρ c (Proc.devRef .tc main_v14) := by keep_step
    _ = Gen.W26 m ρ c (Proc.devRef .tc main_v14) := by keep_step
    _ = Gen.W25 m ρ c (Proc.devRef .tc main_v14) := by keep_step
    _ = Gen.W24 m ρ c (Proc.devRef .tc main_v14) := by keep_step
    _ = Gen.W23 m ρ c (Proc.devRef .tc main_v14) := by keep_step
    _ = Gen.W22 m ρ c (Proc.devRef .tc main_v14) := by keep_step
    _ = Gen.W21 m ρ c (Proc.devRef .tc main_v14) := by keep_step
    _ = Gen.W20 m ρ c (Proc.devRef .tc main_v14) := by keep_step
    _ = Gen.W19 m ρ c (Proc.devRef .tc main_v14) := by keep_step

theorem carry1_v15 (c : Dev nD) : Gen.W32 m ρ c (Proc.devRef .tc main_v15) = Gen.W19 m ρ c (Proc.devRef .tc main_v15) :=
  calc Gen.W32 m ρ c (Proc.devRef .tc main_v15)
    _ = Gen.W31 m ρ c (Proc.devRef .tc main_v15) := by keep_step
    _ = Gen.W30 m ρ c (Proc.devRef .tc main_v15) := by keep_step
    _ = Gen.W29 m ρ c (Proc.devRef .tc main_v15) := by keep_step
    _ = Gen.W28 m ρ c (Proc.devRef .tc main_v15) := by keep_step
    _ = Gen.W27 m ρ c (Proc.devRef .tc main_v15) := by keep_step
    _ = Gen.W26 m ρ c (Proc.devRef .tc main_v15) := by keep_step
    _ = Gen.W25 m ρ c (Proc.devRef .tc main_v15) := by keep_step
    _ = Gen.W24 m ρ c (Proc.devRef .tc main_v15) := by keep_step
    _ = Gen.W23 m ρ c (Proc.devRef .tc main_v15) := by keep_step
    _ = Gen.W22 m ρ c (Proc.devRef .tc main_v15) := by keep_step
    _ = Gen.W21 m ρ c (Proc.devRef .tc main_v15) := by keep_step
    _ = Gen.W20 m ρ c (Proc.devRef .tc main_v15) := by keep_step
    _ = Gen.W19 m ρ c (Proc.devRef .tc main_v15) := by keep_step

theorem carry1_v28 (c : Dev nD) : Gen.W32 m ρ c (Proc.devRef .tc main_v28) = Gen.W19 m ρ c (Proc.devRef .tc main_v28) :=
  calc Gen.W32 m ρ c (Proc.devRef .tc main_v28)
    _ = Gen.W31 m ρ c (Proc.devRef .tc main_v28) := by keep_step
    _ = Gen.W30 m ρ c (Proc.devRef .tc main_v28) := by keep_step
    _ = Gen.W29 m ρ c (Proc.devRef .tc main_v28) := by keep_step
    _ = Gen.W28 m ρ c (Proc.devRef .tc main_v28) := by keep_step
    _ = Gen.W27 m ρ c (Proc.devRef .tc main_v28) := by keep_step
    _ = Gen.W26 m ρ c (Proc.devRef .tc main_v28) := by keep_step
    _ = Gen.W25 m ρ c (Proc.devRef .tc main_v28) := by keep_step
    _ = Gen.W24 m ρ c (Proc.devRef .tc main_v28) := by keep_step
    _ = Gen.W23 m ρ c (Proc.devRef .tc main_v28) := by keep_step
    _ = Gen.W22 m ρ c (Proc.devRef .tc main_v28) := by keep_step
    _ = Gen.W21 m ρ c (Proc.devRef .tc main_v28) := by keep_step
    _ = Gen.W20 m ρ c (Proc.devRef .tc main_v28) := by keep_step
    _ = Gen.W19 m ρ c (Proc.devRef .tc main_v28) := by keep_step

theorem carry1_v29 (c : Dev nD) : Gen.W32 m ρ c (Proc.devRef .tc main_v29) = Gen.W19 m ρ c (Proc.devRef .tc main_v29) :=
  calc Gen.W32 m ρ c (Proc.devRef .tc main_v29)
    _ = Gen.W31 m ρ c (Proc.devRef .tc main_v29) := by keep_step
    _ = Gen.W30 m ρ c (Proc.devRef .tc main_v29) := by keep_step
    _ = Gen.W29 m ρ c (Proc.devRef .tc main_v29) := by keep_step
    _ = Gen.W28 m ρ c (Proc.devRef .tc main_v29) := by keep_step
    _ = Gen.W27 m ρ c (Proc.devRef .tc main_v29) := by keep_step
    _ = Gen.W26 m ρ c (Proc.devRef .tc main_v29) := by keep_step
    _ = Gen.W25 m ρ c (Proc.devRef .tc main_v29) := by keep_step
    _ = Gen.W24 m ρ c (Proc.devRef .tc main_v29) := by keep_step
    _ = Gen.W23 m ρ c (Proc.devRef .tc main_v29) := by keep_step
    _ = Gen.W22 m ρ c (Proc.devRef .tc main_v29) := by keep_step
    _ = Gen.W21 m ρ c (Proc.devRef .tc main_v29) := by keep_step
    _ = Gen.W20 m ρ c (Proc.devRef .tc main_v29) := by keep_step
    _ = Gen.W19 m ρ c (Proc.devRef .tc main_v29) := by keep_step

theorem carry1_v42 (c : Dev nD) : Gen.W32 m ρ c (Proc.devRef .tc main_v42) = Gen.W19 m ρ c (Proc.devRef .tc main_v42) :=
  calc Gen.W32 m ρ c (Proc.devRef .tc main_v42)
    _ = Gen.W31 m ρ c (Proc.devRef .tc main_v42) := by keep_step
    _ = Gen.W30 m ρ c (Proc.devRef .tc main_v42) := by keep_step
    _ = Gen.W29 m ρ c (Proc.devRef .tc main_v42) := by keep_step
    _ = Gen.W28 m ρ c (Proc.devRef .tc main_v42) := by keep_step
    _ = Gen.W27 m ρ c (Proc.devRef .tc main_v42) := by keep_step
    _ = Gen.W26 m ρ c (Proc.devRef .tc main_v42) := by keep_step
    _ = Gen.W25 m ρ c (Proc.devRef .tc main_v42) := by keep_step
    _ = Gen.W24 m ρ c (Proc.devRef .tc main_v42) := by keep_step
    _ = Gen.W23 m ρ c (Proc.devRef .tc main_v42) := by keep_step
    _ = Gen.W22 m ρ c (Proc.devRef .tc main_v42) := by keep_step
    _ = Gen.W21 m ρ c (Proc.devRef .tc main_v42) := by keep_step
    _ = Gen.W20 m ρ c (Proc.devRef .tc main_v42) := by keep_step
    _ = Gen.W19 m ρ c (Proc.devRef .tc main_v42) := by keep_step

theorem carry1_v43 (c : Dev nD) : Gen.W32 m ρ c (Proc.devRef .tc main_v43) = Gen.W19 m ρ c (Proc.devRef .tc main_v43) :=
  calc Gen.W32 m ρ c (Proc.devRef .tc main_v43)
    _ = Gen.W31 m ρ c (Proc.devRef .tc main_v43) := by keep_step
    _ = Gen.W30 m ρ c (Proc.devRef .tc main_v43) := by keep_step
    _ = Gen.W29 m ρ c (Proc.devRef .tc main_v43) := by keep_step
    _ = Gen.W28 m ρ c (Proc.devRef .tc main_v43) := by keep_step
    _ = Gen.W27 m ρ c (Proc.devRef .tc main_v43) := by keep_step
    _ = Gen.W26 m ρ c (Proc.devRef .tc main_v43) := by keep_step
    _ = Gen.W25 m ρ c (Proc.devRef .tc main_v43) := by keep_step
    _ = Gen.W24 m ρ c (Proc.devRef .tc main_v43) := by keep_step
    _ = Gen.W23 m ρ c (Proc.devRef .tc main_v43) := by keep_step
    _ = Gen.W22 m ρ c (Proc.devRef .tc main_v43) := by keep_step
    _ = Gen.W21 m ρ c (Proc.devRef .tc main_v43) := by keep_step
    _ = Gen.W20 m ρ c (Proc.devRef .tc main_v43) := by keep_step
    _ = Gen.W19 m ρ c (Proc.devRef .tc main_v43) := by keep_step

theorem carry1_v56 (c : Dev nD) : Gen.W32 m ρ c (Proc.devRef .tc main_v56) = Gen.W19 m ρ c (Proc.devRef .tc main_v56) :=
  calc Gen.W32 m ρ c (Proc.devRef .tc main_v56)
    _ = Gen.W31 m ρ c (Proc.devRef .tc main_v56) := by keep_step
    _ = Gen.W30 m ρ c (Proc.devRef .tc main_v56) := by keep_step
    _ = Gen.W29 m ρ c (Proc.devRef .tc main_v56) := by keep_step
    _ = Gen.W28 m ρ c (Proc.devRef .tc main_v56) := by keep_step
    _ = Gen.W27 m ρ c (Proc.devRef .tc main_v56) := by keep_step
    _ = Gen.W26 m ρ c (Proc.devRef .tc main_v56) := by keep_step
    _ = Gen.W25 m ρ c (Proc.devRef .tc main_v56) := by keep_step
    _ = Gen.W24 m ρ c (Proc.devRef .tc main_v56) := by keep_step
    _ = Gen.W23 m ρ c (Proc.devRef .tc main_v56) := by keep_step
    _ = Gen.W22 m ρ c (Proc.devRef .tc main_v56) := by keep_step
    _ = Gen.W21 m ρ c (Proc.devRef .tc main_v56) := by keep_step
    _ = Gen.W20 m ρ c (Proc.devRef .tc main_v56) := by keep_step
    _ = Gen.W19 m ρ c (Proc.devRef .tc main_v56) := by keep_step

theorem carry1_v57 (c : Dev nD) : Gen.W32 m ρ c (Proc.devRef .tc main_v57) = Gen.W19 m ρ c (Proc.devRef .tc main_v57) :=
  calc Gen.W32 m ρ c (Proc.devRef .tc main_v57)
    _ = Gen.W31 m ρ c (Proc.devRef .tc main_v57) := by keep_step
    _ = Gen.W30 m ρ c (Proc.devRef .tc main_v57) := by keep_step
    _ = Gen.W29 m ρ c (Proc.devRef .tc main_v57) := by keep_step
    _ = Gen.W28 m ρ c (Proc.devRef .tc main_v57) := by keep_step
    _ = Gen.W27 m ρ c (Proc.devRef .tc main_v57) := by keep_step
    _ = Gen.W26 m ρ c (Proc.devRef .tc main_v57) := by keep_step
    _ = Gen.W25 m ρ c (Proc.devRef .tc main_v57) := by keep_step
    _ = Gen.W24 m ρ c (Proc.devRef .tc main_v57) := by keep_step
    _ = Gen.W23 m ρ c (Proc.devRef .tc main_v57) := by keep_step
    _ = Gen.W22 m ρ c (Proc.devRef .tc main_v57) := by keep_step
    _ = Gen.W21 m ρ c (Proc.devRef .tc main_v57) := by keep_step
    _ = Gen.W20 m ρ c (Proc.devRef .tc main_v57) := by keep_step
    _ = Gen.W19 m ρ c (Proc.devRef .tc main_v57) := by keep_step

theorem carry1_arg1 (c : Dev nD) : Gen.W32 m ρ c (Proc.devRef .tc main_arg1) = Gen.W19 m ρ c (Proc.devRef .tc main_arg1) :=
  calc Gen.W32 m ρ c (Proc.devRef .tc main_arg1)
    _ = Gen.W31 m ρ c (Proc.devRef .tc main_arg1) := by keep_step
    _ = Gen.W30 m ρ c (Proc.devRef .tc main_arg1) := by keep_step
    _ = Gen.W29 m ρ c (Proc.devRef .tc main_arg1) := by keep_step
    _ = Gen.W28 m ρ c (Proc.devRef .tc main_arg1) := by keep_step
    _ = Gen.W27 m ρ c (Proc.devRef .tc main_arg1) := by keep_step
    _ = Gen.W26 m ρ c (Proc.devRef .tc main_arg1) := by keep_step
    _ = Gen.W25 m ρ c (Proc.devRef .tc main_arg1) := by keep_step
    _ = Gen.W24 m ρ c (Proc.devRef .tc main_arg1) := by keep_step
    _ = Gen.W23 m ρ c (Proc.devRef .tc main_arg1) := by keep_step
    _ = Gen.W22 m ρ c (Proc.devRef .tc main_arg1) := by keep_step
    _ = Gen.W21 m ρ c (Proc.devRef .tc main_arg1) := by keep_step
    _ = Gen.W20 m ρ c (Proc.devRef .tc main_arg1) := by keep_step
    _ = Gen.W19 m ρ c (Proc.devRef .tc main_arg1) := by keep_step

theorem carry1_arg2 (c : Dev nD) : Gen.W32 m ρ c (Proc.devRef .tc main_arg2) = Gen.W19 m ρ c (Proc.devRef .tc main_arg2) :=
  calc Gen.W32 m ρ c (Proc.devRef .tc main_arg2)
    _ = Gen.W31 m ρ c (Proc.devRef .tc main_arg2) := by keep_step
    _ = Gen.W30 m ρ c (Proc.devRef .tc main_arg2) := by keep_step
    _ = Gen.W29 m ρ c (Proc.devRef .tc main_arg2) := by keep_step
    _ = Gen.W28 m ρ c (Proc.devRef .tc main_arg2) := by keep_step
    _ = Gen.W27 m ρ c (Proc.devRef .tc main_arg2) := by keep_step
    _ = Gen.W26 m ρ c (Proc.devRef .tc main_arg2) := by keep_step
    _ = Gen.W25 m ρ c (Proc.devRef .tc main_arg2) := by keep_step
    _ = Gen.W24 m ρ c (Proc.devRef .tc main_arg2) := by keep_step
    _ = Gen.W23 m ρ c (Proc.devRef .tc main_arg2) := by keep_step
    _ = Gen.W22 m ρ c (Proc.devRef .tc main_arg2) := by keep_step
    _ = Gen.W21 m ρ c (Proc.devRef .tc main_arg2) := by keep_step
    _ = Gen.W20 m ρ c (Proc.devRef .tc main_arg2) := by keep_step
    _ = Gen.W19 m ρ c (Proc.devRef .tc main_arg2) := by keep_step

theorem carry1_arg6 (c : Dev nD) : Gen.W32 m ρ c (Proc.devRef .tc main_arg6) = Gen.W19 m ρ c (Proc.devRef .tc main_arg6) :=
  calc Gen.W32 m ρ c (Proc.devRef .tc main_arg6)
    _ = Gen.W31 m ρ c (Proc.devRef .tc main_arg6) := by keep_step
    _ = Gen.W30 m ρ c (Proc.devRef .tc main_arg6) := by keep_step
    _ = Gen.W29 m ρ c (Proc.devRef .tc main_arg6) := by keep_step
    _ = Gen.W28 m ρ c (Proc.devRef .tc main_arg6) := by keep_step
    _ = Gen.W27 m ρ c (Proc.devRef .tc main_arg6) := by keep_step
    _ = Gen.W26 m ρ c (Proc.devRef .tc main_arg6) := by keep_step
    _ = Gen.W25 m ρ c (Proc.devRef .tc main_arg6) := by keep_step
    _ = Gen.W24 m ρ c (Proc.devRef .tc main_arg6) := by keep_step
    _ = Gen.W23 m ρ c (Proc.devRef .tc main_arg6) := by keep_step
    _ = Gen.W22 m ρ c (Proc.devRef .tc main_arg6) := by keep_step
    _ = Gen.W21 m ρ c (Proc.devRef .tc main_arg6) := by keep_step
    _ = Gen.W20 m ρ c (Proc.devRef .tc main_arg6) := by keep_step
    _ = Gen.W19 m ρ c (Proc.devRef .tc main_arg6) := by keep_step

theorem carry1_arg7 (c : Dev nD) : Gen.W32 m ρ c (Proc.devRef .tc main_arg7) = Gen.W19 m ρ c (Proc.devRef .tc main_arg7) :=
  calc Gen.W32 m ρ c (Proc.devRef .tc main_arg7)
    _ = Gen.W31 m ρ c (Proc.devRef .tc main_arg7) := by keep_step
    _ = Gen.W30 m ρ c (Proc.devRef .tc main_arg7) := by keep_step
    _ = Gen.W29 m ρ c (Proc.devRef .tc main_arg7) := by keep_step
    _ = Gen.W28 m ρ c (Proc.devRef .tc main_arg7) := by keep_step
    _ = Gen.W27 m ρ c (Proc.devRef .tc main_arg7) := by keep_step
    _ = Gen.W26 m ρ c (Proc.devRef .tc main_arg7) := by keep_step
    _ = Gen.W25 m ρ c (Proc.devRef .tc main_arg7) := by keep_step
    _ = Gen.W24 m ρ c (Proc.devRef .tc main_arg7) := by keep_step
    _ = Gen.W23 m ρ c (Proc.devRef .tc main_arg7) := by keep_step
    _ = Gen.W22 m ρ c (Proc.devRef .tc main_arg7) := by keep_step
    _ = Gen.W21 m ρ c (Proc.devRef .tc main_arg7) := by keep_step
    _ = Gen.W20 m ρ c (Proc.devRef .tc main_arg7) := by keep_step
    _ = Gen.W19 m ρ c (Proc.devRef .tc main_arg7) := by keep_step

end Cert.KernelIdeal.KV

end
-- ==== Proof.KArgs0.lean ====
/-
The arguments the later segments read are untouched by the host operations before the first region.
-/
import proofs.«420714_j25331717112057_2_alg».proof.Proof.Gen.KernelIdeal.Frame
import proofs.«420714_j25331717112057_2_alg».proof.Proof.Spec

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- One stretch of the host operations before the first region at a buffer none of its operations writes: each
    operation writes its result buffer only, and the buffer at hand is a different reference from every one of them. -/
local macro "keep_step" : tactic => `(tactic|
  exact StableHlo.after_of_forall_not_mem _ _ (List.forall_iff_forall_mem.mp (by
    simp only [hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15,
      hostOps0_16, hostOps0_17, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-- Argument 1 is untouched before the first region. -/
theorem arg1_W18 (c : Dev nD) : Gen.W18 m ρ c (Proc.devRef .tc main_arg1) = m ((c : Thread nD τ).loc main_arg1) :=
  calc Gen.W18 m ρ c (Proc.devRef .tc main_arg1)
    _ = Gen.W17 m ρ c (Proc.devRef .tc main_arg1) := by keep_step
    _ = Gen.W16 m ρ c (Proc.devRef .tc main_arg1) := by keep_step
    _ = Gen.W15 m ρ c (Proc.devRef .tc main_arg1) := by keep_step
    _ = Gen.W14 m ρ c (Proc.devRef .tc main_arg1) := by keep_step
    _ = Gen.W13 m ρ c (Proc.devRef .tc main_arg1) := by keep_step
    _ = Gen.W12 m ρ c (Proc.devRef .tc main_arg1) := by keep_step
    _ = Gen.W11 m ρ c (Proc.devRef .tc main_arg1) := by keep_step
    _ = Gen.W10 m ρ c (Proc.devRef .tc main_arg1) := by keep_step
    _ = Gen.W9 m ρ c (Proc.devRef .tc main_arg1) := by keep_step
    _ = Gen.W8 m ρ c (Proc.devRef .tc main_arg1) := by keep_step
    _ = Gen.W7 m ρ c (Proc.devRef .tc main_arg1) := by keep_step
    _ = Gen.W6 m ρ c (Proc.devRef .tc main_arg1) := by keep_step
    _ = Gen.W5 m ρ c (Proc.devRef .tc main_arg1) := by keep_step
    _ = Gen.W4 m ρ c (Proc.devRef .tc main_arg1) := by keep_step
    _ = Gen.W3 m ρ c (Proc.devRef .tc main_arg1) := by keep_step
    _ = Gen.W2 m ρ c (Proc.devRef .tc main_arg1) := by keep_step
    _ = Gen.W1 m ρ c (Proc.devRef .tc main_arg1) := by keep_step
    _ = Gen.W0 m ρ c (Proc.devRef .tc main_arg1) := by keep_step
    _ = m ((c : Thread nD τ).loc main_arg1) := rfl

/-- Argument 2 is untouched before the first region. -/
theorem arg2_W18 (c : Dev nD) : Gen.W18 m ρ c (Proc.devRef .tc main_arg2) = m ((c : Thread nD τ).loc main_arg2) :=
  calc Gen.W18 m ρ c (Proc.devRef .tc main_arg2)
    _ = Gen.W17 m ρ c (Proc.devRef .tc main_arg2) := by keep_step
    _ = Gen.W16 m ρ c (Proc.devRef .tc main_arg2) := by keep_step
    _ = Gen.W15 m ρ c (Proc.devRef .tc main_arg2) := by keep_step
    _ = Gen.W14 m ρ c (Proc.devRef .tc main_arg2) := by keep_step
    _ = Gen.W13 m ρ c (Proc.devRef .tc main_arg2) := by keep_step
    _ = Gen.W12 m ρ c (Proc.devRef .tc main_arg2) := by keep_step
    _ = Gen.W11 m ρ c (Proc.devRef .tc main_arg2) := by keep_step
    _ = Gen.W10 m ρ c (Proc.devRef .tc main_arg2) := by keep_step
    _ = Gen.W9 m ρ c (Proc.devRef .tc main_arg2) := by keep_step
    _ = Gen.W8 m ρ c (Proc.devRef .tc main_arg2) := by keep_step
    _ = Gen.W7 m ρ c (Proc.devRef .tc main_arg2) := by keep_step
    _ = Gen.W6 m ρ c (Proc.devRef .tc main_arg2) := by keep_step
    _ = Gen.W5 m ρ c (Proc.devRef .tc main_arg2) := by keep_step
    _ = Gen.W4 m ρ c (Proc.devRef .tc main_arg2) := by keep_step
    _ = Gen.W3 m ρ c (Proc.devRef .tc main_arg2) := by keep_step
    _ = Gen.W2 m ρ c (Proc.devRef .tc main_arg2) := by keep_step
    _ = Gen.W1 m ρ c (Proc.devRef .tc main_arg2) := by keep_step
    _ = Gen.W0 m ρ c (Proc.devRef .tc main_arg2) := by keep_step
    _ = m ((c : Thread nD τ).loc main_arg2) := rfl

/-- Argument 4 is untouched before the first region. -/
theorem arg4_W18 (c : Dev nD) : Gen.W18 m ρ c (Proc.devRef .tc main_arg4) = m ((c : Thread nD τ).loc main_arg4) :=
  calc Gen.W18 m ρ c (Proc.devRef .tc main_arg4)
    _ = Gen.W17 m ρ c (Proc.devRef .tc main_arg4) := by keep_step
    _ = Gen.W16 m ρ c (Proc.devRef .tc main_arg4) := by keep_step
    _ = Gen.W15 m ρ c (Proc.devRef .tc main_arg4) := by keep_step
    _ = Gen.W14 m ρ c (Proc.devRef .tc main_arg4) := by keep_step
    _ = Gen.W13 m ρ c (Proc.devRef .tc main_arg4) := by keep_step
    _ = Gen.W12 m ρ c (Proc.devRef .tc main_arg4) := by keep_step
    _ = Gen.W11 m ρ c (Proc.devRef .tc main_arg4) := by keep_step
    _ = Gen.W10 m ρ c (Proc.devRef .tc main_arg4) := by keep_step
    _ = Gen.W9 m ρ c (Proc.devRef .tc main_arg4) := by keep_step
    _ = Gen.W8 m ρ c (Proc.devRef .tc main_arg4) := by keep_step
    _ = Gen.W7 m ρ c (Proc.devRef .tc main_arg4) := by keep_step
    _ = Gen.W6 m ρ c (Proc.devRef .tc main_arg4) := by keep_step
    _ = Gen.W5 m ρ c (Proc.devRef .tc main_arg4) := by keep_step
    _ = Gen.W4 m ρ c (Proc.devRef .tc main_arg4) := by keep_step
    _ = Gen.W3 m ρ c (Proc.devRef .tc main_arg4) := by keep_step
    _ = Gen.W2 m ρ c (Proc.devRef .tc main_arg4) := by keep_step
    _ = Gen.W1 m ρ c (Proc.devRef .tc main_arg4) := by keep_step
    _ = Gen.W0 m ρ c (Proc.devRef .tc main_arg4) := by keep_step
    _ = m ((c : Thread nD τ).loc main_arg4) := rfl

/-- Argument 5 is untouched before the first region. -/
theorem arg5_W18 (c : Dev nD) : Gen.W18 m ρ c (Proc.devRef .tc main_arg5) = m ((c : Thread nD τ).loc main_arg5) :=
  calc Gen.W18 m ρ c (Proc.devRef .tc main_arg5)
    _ = Gen.W17 m ρ c (Proc.devRef .tc main_arg5) := by keep_step
    _ = Gen.W16 m ρ c (Proc.devRef .tc main_arg5) := by keep_step
    _ = Gen.W15 m ρ c (Proc.devRef .tc main_arg5) := by keep_step
    _ = Gen.W14 m ρ c (Proc.devRef .tc main_arg5) := by keep_step
    _ = Gen.W13 m ρ c (Proc.devRef .tc main_arg5) := by keep_step
    _ = Gen.W12 m ρ c (Proc.devRef .tc main_arg5) := by keep_step
    _ = Gen.W11 m ρ c (Proc.devRef .tc main_arg5) := by keep_step
    _ = Gen.W10 m ρ c (Proc.devRef .tc main_arg5) := by keep_step
    _ = Gen.W9 m ρ c (Proc.devRef .tc main_arg5) := by keep_step
    _ = Gen.W8 m ρ c (Proc.devRef .tc main_arg5) := by keep_step
    _ = Gen.W7 m ρ c (Proc.devRef .tc main_arg5) := by keep_step
    _ = Gen.W6 m ρ c (Proc.devRef .tc main_arg5) := by keep_step
    _ = Gen.W5 m ρ c (Proc.devRef .tc main_arg5) := by keep_step
    _ = Gen.W4 m ρ c (Proc.devRef .tc main_arg5) := by keep_step
    _ = Gen.W3 m ρ c (Proc.devRef .tc main_arg5) := by keep_step
    _ = Gen.W2 m ρ c (Proc.devRef .tc main_arg5) := by keep_step
    _ = Gen.W1 m ρ c (Proc.devRef .tc main_arg5) := by keep_step
    _ = Gen.W0 m ρ c (Proc.devRef .tc main_arg5) := by keep_step
    _ = m ((c : Thread nD τ).loc main_arg5) := rfl

/-- Argument 6 is untouched before the first region. -/
theorem arg6_W18 (c : Dev nD) : Gen.W18 m ρ c (Proc.devRef .tc main_arg6) = m ((c : Thread nD τ).loc main_arg6) :=
  calc Gen.W18 m ρ c (Proc.devRef .tc main_arg6)
    _ = Gen.W17 m ρ c (Proc.devRef .tc main_arg6) := by keep_step
    _ = Gen.W16 m ρ c (Proc.devRef .tc main_arg6) := by keep_step
    _ = Gen.W15 m ρ c (Proc.devRef .tc main_arg6) := by keep_step
    _ = Gen.W14 m ρ c (Proc.devRef .tc main_arg6) := by keep_step
    _ = Gen.W13 m ρ c (Proc.devRef .tc main_arg6) := by keep_step
    _ = Gen.W12 m ρ c (Proc.devRef .tc main_arg6) := by keep_step
    _ = Gen.W11 m ρ c (Proc.devRef .tc main_arg6) := by keep_step
    _ = Gen.W10 m ρ c (Proc.devRef .tc main_arg6) := by keep_step
    _ = Gen.W9 m ρ c (Proc.devRef .tc main_arg6) := by keep_step
    _ = Gen.W8 m ρ c (Proc.devRef .tc main_arg6) := by keep_step
    _ = Gen.W7 m ρ c (Proc.devRef .tc main_arg6) := by keep_step
    _ = Gen.W6 m ρ c (Proc.devRef .tc main_arg6) := by keep_step
    _ = Gen.W5 m ρ c (Proc.devRef .tc main_arg6) := by keep_step
    _ = Gen.W4 m ρ c (Proc.devRef .tc main_arg6) := by keep_step
    _ = Gen.W3 m ρ c (Proc.devRef .tc main_arg6) := by keep_step
    _ = Gen.W2 m ρ c (Proc.devRef .tc main_arg6) := by keep_step
    _ = Gen.W1 m ρ c (Proc.devRef .tc main_arg6) := by keep_step
    _ = Gen.W0 m ρ c (Proc.devRef .tc main_arg6) := by keep_step
    _ = m ((c : Thread nD τ).loc main_arg6) := rfl

/-- Argument 7 is untouched before the first region. -/
theorem arg7_W18 (c : Dev nD) : Gen.W18 m ρ c (Proc.devRef .tc main_arg7) = m ((c : Thread nD τ).loc main_arg7) :=
  calc Gen.W18 m ρ c (Proc.devRef .tc main_arg7)
    _ = Gen.W17 m ρ c (Proc.devRef .tc main_arg7) := by keep_step
    _ = Gen.W16 m ρ c (Proc.devRef .tc main_arg7) := by keep_step
    _ = Gen.W15 m ρ c (Proc.devRef .tc main_arg7) := by keep_step
    _ = Gen.W14 m ρ c (Proc.devRef .tc main_arg7) := by keep_step
    _ = Gen.W13 m ρ c (Proc.devRef .tc main_arg7) := by keep_step
    _ = Gen.W12 m ρ c (Proc.devRef .tc main_arg7) := by keep_step
    _ = Gen.W11 m ρ c (Proc.devRef .tc main_arg7) := by keep_step
    _ = Gen.W10 m ρ c (Proc.devRef .tc main_arg7) := by keep_step
    _ = Gen.W9 m ρ c (Proc.devRef .tc main_arg7) := by keep_step
    _ = Gen.W8 m ρ c (Proc.devRef .tc main_arg7) := by keep_step
    _ = Gen.W7 m ρ c (Proc.devRef .tc main_arg7) := by keep_step
    _ = Gen.W6 m ρ c (Proc.devRef .tc main_arg7) := by keep_step
    _ = Gen.W5 m ρ c (Proc.devRef .tc main_arg7) := by keep_step
    _ = Gen.W4 m ρ c (Proc.devRef .tc main_arg7) := by keep_step
    _ = Gen.W3 m ρ c (Proc.devRef .tc main_arg7) := by keep_step
    _ = Gen.W2 m ρ c (Proc.devRef .tc main_arg7) := by keep_step
    _ = Gen.W1 m ρ c (Proc.devRef .tc main_arg7) := by keep_step
    _ = Gen.W0 m ρ c (Proc.devRef .tc main_arg7) := by keep_step
    _ = m ((c : Thread nD τ).loc main_arg7) := rfl

end Cert.KernelIdeal.KV

end
-- ==== Proof.KBias.lean ====
/-
The two bias rows: a host sum of the four relations' biases over the relation axis, laid out as one row of 128 columns.
-/
import proofs.«420714_j25331717112057_2_alg».proof.Proof.Gen.KernelIdeal.Frame
import proofs.«420714_j25331717112057_2_alg».proof.Proof.Spec
import Idealize.ShloMosaic.Lib.IdealHost
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A row laid as a one-row array reads, at (0, q), the row at q. -/
private theorem bcast_row_apply {α : Type} {k : Nat} (h₁ : (⟨1, ![k]⟩ : Shape).BroadcastsInDim ⟨2, ![1, k]⟩ ![1])
    (v : (⟨1, ![k]⟩ : Shape).Idx → α) (q : Fin k) :
    broadcastInDim ⟨2, ![1, k]⟩ ![1] h₁ v (ix2 (0 : Fin 1) q) = v (ix1 q) :=
  broadcastInDim_apply _ _ _ _ _ (fun a => by
    match a with
    | ⟨0, _⟩ =>
      show q.val = if k = 1 then 0 else q.val
      have := q.isLt
      split <;> omega)

/-- The sum over the four rows of a [4, 128] array, from an initial value, at column j. -/
private theorem reduce_rows4 (x : (⟨2, ![4, 128]⟩ : Shape).Idx → EReal) (init : (⟨0, ![]⟩ : Shape).Idx → EReal)
    (h' : (⟨2, ![4, 128]⟩ : Shape).ReducesTo [0] ⟨1, ![128]⟩) (hu : 0 < (⟨0, ![]⟩ : Shape).numel) (j : Fin 128) :
    Host.reduceAdd (F := Ideal) (φ := .f32) x init h' hu (ix1 j) = init (Shape.Idx.first hu) + ∑ r : Fin 4, x (ix2 r j) := by
  have h : (⟨2, ![4, 128]⟩ : Shape).Reduces [0] ⟨1, ![128]⟩ := by decide
  refine (Ideal.hostReduceAdd_single h' h x _ (ix1 j)).trans ?_
  congr 1
  refine Finset.sum_congr rfl fun r _ => congrArg x ?_
  funext a
  match a with
  | ⟨0, _⟩ => rfl
  | ⟨1, _⟩ => rfl

set_option maxHeartbeats 2000000 in
/-- The first layer's bias row: column j holds the sum of the four relations' first-layer biases of that column. -/
theorem bias1_W32 (c : Dev nD) (j : Fin 128) :
    Spec.rd2 (Gen.W32 m ρ c (Proc.devRef .tc main_v128)) 0 j = ∑ r : Fin 4, Spec.rd2 (Gen.W19 m ρ c (Proc.devRef .tc main_arg5)) r j := by
  have e : (Gen.W32 m ρ c (Proc.devRef .tc main_v128) : (⟨2, ![1, 128]⟩ : Shape).Idx → EReal) =
      broadcastInDim S1x128 ![1] bcast_S128_S1x128_1
        (Host.reduceAdd (F := Ideal) (Gen.W19 m ρ c (Proc.devRef .tc main_arg5)) (constant S_ .f32 0#32) reducesTo_S4x128_S128_d0 h_S_) := by
    dsimp only [Gen.W32]
    simp only [hostOps1_12]
    after_results
  refine (congrFun e (ix2 0 j)).trans ?_
  refine (bcast_row_apply _ _ j).trans ?_
  refine (reduce_rows4 _ _ _ _ j).trans ?_
  rw [constant_apply, Ideal.ofBits_zero_f32, zero_add]

set_option maxHeartbeats 2000000 in
/-- The second layer's bias row. -/
theorem bias2_W47 (c : Dev nD) (j : Fin 128) :
    Spec.rd2 (Gen.W47 m ρ c (Proc.devRef .tc main_v200)) 0 j = ∑ r : Fin 4, Spec.rd2 (Gen.W34 m ρ c (Proc.devRef .tc main_arg7)) r j := by
  have e : (Gen.W47 m ρ c (Proc.devRef .tc main_v200) : (⟨2, ![1, 128]⟩ : Shape).Idx → EReal) =
      broadcastInDim S1x128 ![1] bcast_S128_S1x128_1
        (Host.reduceAdd (F := Ideal) (Gen.W34 m ρ c (Proc.devRef .tc main_arg7)) (constant S_ .f32 0#32) reducesTo_S4x128_S128_d0 h_S_) := by
    dsimp only [Gen.W47]
    simp only [hostOps3_12]
    after_results
  refine (congrFun e (ix2 0 j)).trans ?_
  refine (bcast_row_apply _ _ j).trans ?_
  refine (reduce_rows4 _ _ _ _ j).trans ?_
  rw [constant_apply, Ideal.ofBits_zero_f32, zero_add]

end Cert.KernelIdeal.KV

end
-- ==== Proof.KFeat.lean ====
/-
The feature lookup before the first region: a fill-mode take of the embedding rows by the node-index input, which on a node id is the addressed row.
-/
import proofs.«420714_j25331717112057_2_alg».proof.Proof.Gen.KernelIdeal.Frame
import proofs.«420714_j25331717112057_2_alg».proof.Proof.Spec
import proofs.«420714_j25331717112057_2_alg».proof.Proof.HostOps
import Idealize.ShloMosaic.PureOps.Reduce
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The take as a function of the table and the ids -/

/-- The wrapped ids (the number of nodes added to a negative id) as a column. -/
private def wrapCol (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 100000#32))) ids)

/-- The range mask: 1 where the wrapped id lies between 0 and 99999. -/
private def rangeMask (ids : IVec S100000 32) : IVec S100000 1 :=
  Host.reduce IntOp.andi
    (andi (cmpi .sge (wrapCol ids) (broadcastInDim S100000x1 ![] bcast_S_S100000x1 (constantI S_ 32 0#32)))
      (cmpi .sle (wrapCol ids) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

/-- The take: the rows of the table gathered by the wrapped ids where the mask is 1, a fill value elsewhere. -/
private def takeRows (emb : FVec Ideal S100000x128 .f32) (ids : IVec S100000 32) : FVec Ideal S100000x128 .f32 :=
  select (broadcastInDim S100000x128 ![0] bcast_S100000_S100000x128_0 (rangeMask ids))
    (Host.gather gather_S100000x128_S100000x1_S100000x128_1_0_n_n_0_1_1128 emb (wrapCol ids))
    (broadcastInDim S100000x128 ![] bcast_S_S100000x128 (constant S_ .f32 0x7FC00000#32))

/-- The first host stretch leaves in the feature buffer the take of what the table and the id input hold. -/
private theorem s0_v0 (V : Valuation τ sig (Elt Ideal)) :
    (StableHlo.after hostOps0 V (Proc.devRef .tc main_v0) : FVec Ideal S100000x128 .f32)
      = takeRows (V (Proc.devRef .tc main_arg3)) (V (Proc.devRef .tc main_arg0)) := by
  simp only [hostOps0]
  after_results_simp
  simp only [StableHlo.TRef.ofBuf, StableHlo.TRef.toBuf, cast_eq]
  unfold takeRows rangeMask wrapCol
  rfl

/-! ## The take on a node id -/

/-- Adding the number of nodes to a negative id changes nothing on a node id. -/
private theorem wrap_node {w : BitVec 32} (h : Spec.IsNode w) :
    Scalar.select (IntOp.cmpi .slt w 0#32) (IntOp.addi w 100000#32) w = w := by
  have hc : IntOp.cmpi .slt w 0#32 = 0#1 := by
    show BitVec.ofBool (w.slt 0#32) = 0#1
    have hf : w.slt 0#32 = false := by
      unfold BitVec.slt
      exact decide_eq_false (by have := h.1; simp only [BitVec.toInt_zero]; omega)
    rw [hf]; rfl
  rw [hc]; exact select_zero _ _

/-- A node id passes both range tests. -/
private theorem inrange_node {w : BitVec 32} (h : Spec.IsNode w) :
    IntOp.andi (IntOp.cmpi .sge w 0#32) (IntOp.cmpi .sle w 99999#32) = 1#1 := by
  have h1 : IntOp.cmpi .sge w 0#32 = 1#1 := by
    show BitVec.ofBool ((0#32 : BitVec 32).sle w) = 1#1
    have ht : (0#32 : BitVec 32).sle w = true := by
      unfold BitVec.sle
      exact decide_eq_true (by have := h.1; simp only [BitVec.toInt_zero]; omega)
    rw [ht]; rfl
  have h2 : IntOp.cmpi .sle w 99999#32 = 1#1 := by
    show BitVec.ofBool (w.sle 99999#32) = 1#1
    have h9 : (99999#32 : BitVec 32).toInt = 99999 := by decide
    have ht : w.sle 99999#32 = true := by
      unfold BitVec.sle
      exact decide_eq_true (by have := h.2; rw [h9]; omega)
    rw [ht]; rfl
  rw [h1, h2]; rfl

/-- A left fold of the bitwise and from 1 over bits that are all 1 is 1. -/
private theorem foldl_andi_one {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a List.mem_cons_self]
    exact foldl_andi_one x l fun i hi => h i (List.mem_cons_of_mem _ hi)

/-- The reduction of a column of bits along its one-entry axis, from 1, is 1 at a row whose bit is 1. -/
private theorem reduce_col_one (x : IVec S100000x1 1) (n : Fin 100000) (hx : x (ix2 n 0) = 1#1) :
    Host.reduce IntOp.andi x (constantI S_ 1 1#1) reducesTo_S100000x1_S100000_d1 h_S_ (ix1 n) = 1#1 := by
  rw [Host.reduce_eq_foldl]
  refine foldl_andi_one x _ fun i hi => ?_
  have hd : reducesTo_S100000x1_S100000_d1.drop i = ix1 n := of_decide_eq_true (List.mem_filter.mp hi).2
  have h0 : (i 0).val = n.val := by
    have hv := congrArg (fun j : S100000.Idx => (j 0).val) hd
    rw [← Shape.ReducesTo.drop_apply_val_of_eq reducesTo_S100000x1_S100000_d1 i 0 0]
    exact hv
  have h1 : (i 1).val < 1 := (i 1).isLt
  have hi' : i = ix2 n 0 := funext fun a => match a with
    | ⟨0, _⟩ => Fin.ext h0
    | ⟨1, _⟩ => Fin.ext (by show (i 1).val = 0; omega)
  rw [hi']; exact hx

/-- On a node id the wrapped id is the id. -/
private theorem wrapCol_node (ids : IVec S100000 32) (n : Fin 100000) (h : Spec.IsNode (ids (ix1 n))) :
    wrapCol ids (ix2 n 0) = ids (ix1 n) := by
  unfold wrapCol
  rw [broadcastInDim_apply _ bcast_S100000_S100000x1_0 _ (ix2 n 0) (ix1 n) (fun a => match a with
    | ⟨0, _⟩ => by show n.val = if (100000 : Nat) = 1 then 0 else n.val; rw [if_neg (by decide)])]
  exact wrap_node h

/-- On a node id the range mask is 1. -/
private theorem rangeMask_node (ids : IVec S100000 32) (n : Fin 100000) (h : Spec.IsNode (ids (ix1 n))) :
    rangeMask ids (ix1 n) = 1#1 := by
  unfold rangeMask
  refine reduce_col_one _ n ?_
  show IntOp.andi (IntOp.cmpi .sge (wrapCol ids (ix2 n 0)) _) (IntOp.cmpi .sle (wrapCol ids (ix2 n 0)) _) = 1#1
  rw [wrapCol_node ids n h]
  exact inrange_node h

/-- On a node id the take reads the addressed row of the table. -/
private theorem takeRows_node (emb : FVec Ideal S100000x128 .f32) (ids : IVec S100000 32) (n : Fin 100000) (k : Fin 128)
    (h : Spec.IsNode (ids (ix1 n))) :
    takeRows emb ids (ix2 n k) = emb (ix2 (Spec.node (ids (ix1 n))) k) := by
  have hd : gather_S100000x128_S100000x1_S100000x128_1_0_n_n_0_1_1128 = Cert.HostOps.rowsDims 100000 100000 128 Facts₀.gather_S100000x128_S100000x1_S100000x128_1_0_n_n_0_1_1128_wf := rfl
  have hw : wrapCol ids (ix2 n 0) = ids (ix1 n) := wrapCol_node ids n h
  unfold takeRows
  rw [select_apply, broadcastInDim_apply _ bcast_S100000_S100000x128_0 (rangeMask ids) (ix2 n k) (ix1 n) (fun a => match a with
    | ⟨0, _⟩ => by show n.val = if (100000 : Nat) = 1 then 0 else n.val; rw [if_neg (by decide)]),
    rangeMask_node ids n h, select_one, hd, Cert.HostOps.gather_rows_node _ emb _ n k (by rw [hw]; exact h), hw]

/-! ## The feature buffer is written once: the later host stretches keep it -/

/-- One later stretch at the feature buffer: each of its operations writes its own result buffer, a different
    reference. -/
local macro "keep_v0" : tactic => `(tactic|
  exact StableHlo.after_of_forall_not_mem _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

private theorem carry_v0 (c : Dev nD) : Gen.W18 m ρ c (Proc.devRef .tc main_v0) = Gen.W1 m ρ c (Proc.devRef .tc main_v0) :=
  calc Gen.W18 m ρ c (Proc.devRef .tc main_v0)
    _ = Gen.W17 m ρ c (Proc.devRef .tc main_v0) := by keep_v0
    _ = Gen.W16 m ρ c (Proc.devRef .tc main_v0) := by keep_v0
    _ = Gen.W15 m ρ c (Proc.devRef .tc main_v0) := by keep_v0
    _ = Gen.W14 m ρ c (Proc.devRef .tc main_v0) := by keep_v0
    _ = Gen.W13 m ρ c (Proc.devRef .tc main_v0) := by keep_v0
    _ = Gen.W12 m ρ c (Proc.devRef .tc main_v0) := by keep_v0
    _ = Gen.W11 m ρ c (Proc.devRef .tc main_v0) := by keep_v0
    _ = Gen.W10 m ρ c (Proc.devRef .tc main_v0) := by keep_v0
    _ = Gen.W9 m ρ c (Proc.devRef .tc main_v0) := by keep_v0
    _ = Gen.W8 m ρ c (Proc.devRef .tc main_v0) := by keep_v0
    _ = Gen.W7 m ρ c (Proc.devRef .tc main_v0) := by keep_v0
    _ = Gen.W6 m ρ c (Proc.devRef .tc main_v0) := by keep_v0
    _ = Gen.W5 m ρ c (Proc.devRef .tc main_v0) := by keep_v0
    _ = Gen.W4 m ρ c (Proc.devRef .tc main_v0) := by keep_v0
    _ = Gen.W3 m ρ c (Proc.devRef .tc main_v0) := by keep_v0
    _ = Gen.W2 m ρ c (Proc.devRef .tc main_v0) := by keep_v0
    _ = Gen.W1 m ρ c (Proc.devRef .tc main_v0) := by keep_v0

/-- The looked-up features: row n is the embedding row the n-th input word addresses, when that word is a node id. -/
theorem feat_W18 (c : Dev nD) (h : ∀ n : Fin 100000, Spec.IsNode (Spec.wd1 (m ((c : Thread nD τ).loc main_arg0)) n)) (n : Fin 100000) (k : Fin 128) :
    Spec.rd2 (Gen.W18 m ρ c (Proc.devRef .tc main_v0)) n k = Spec.rd2 (m ((c : Thread nD τ).loc main_arg3)) (Spec.node (Spec.wd1 (m ((c : Thread nD τ).loc main_arg0)) n)) k := by
  have hcar : Gen.W18 m ρ c (Proc.devRef .tc main_v0) = Gen.W1 m ρ c (Proc.devRef .tc main_v0) := carry_v0 m ρ c
  have h1 : Gen.W1 m ρ c (Proc.devRef .tc main_v0)
      = takeRows (m ((c : Thread nD τ).loc main_arg3)) (m ((c : Thread nD τ).loc main_arg0)) := s0_v0 (Gen.W0 m ρ c)
  show Gen.W18 m ρ c (Proc.devRef .tc main_v0) (ix2 n k) = _
  rw [hcar, h1]
  exact takeRows_node _ _ n k (h n)

end Cert.KernelIdeal.KV

end
-- ==== Proof.KDeg1.lean ====
/-
The degree factors of relation 1: per id column the count of edges ending at a node (an accumulating scatter of ones), clipped below at 1, through the reciprocal square root.
-/
import proofs.«420714_j25331717112057_2_alg».proof.Proof.Gen.KernelIdeal.Frame
import proofs.«420714_j25331717112057_2_alg».proof.Proof.Spec
import proofs.«420714_j25331717112057_2_alg».proof.Proof.HostOps
import Idealize.ShloMosaic.Lib.IdealHost
import Idealize.ShloMosaic.Lib.ValueLayout
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What each stretch writes, and a buffer it does not write carried across it -/

/-- The references stretch 0 writes. -/
private abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

private theorem sub0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 0 does not write holds after it what it held before. -/
private theorem step0 (c : Dev nD) (r : Ref sig .tc) (hr : r ∉ wr0) :
    Gen.W1 m ρ c (Proc.devRef .tc r) = Gen.W0 m ρ c (Proc.devRef .tc r) :=
  StableHlo.after_of_writes_sub _ _ sub0 hr

/-- The references stretch 1 writes. -/
private abbrev wr1 : List (Ref sig .tc) := [main_cst, main_v1, main_v2, main_v3, main_cst_0, main_v4, main_v5, main_v6, main_cst_1]

private theorem sub1 : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 1 does not write holds after it what it held before. -/
private theorem step1 (c : Dev nD) (r : Ref sig .tc) (hr : r ∉ wr1) :
    Gen.W2 m ρ c (Proc.devRef .tc r) = Gen.W1 m ρ c (Proc.devRef .tc r) :=
  StableHlo.after_of_writes_sub _ _ sub1 hr

/-- The references stretch 2 writes. -/
private abbrev wr2 : List (Ref sig .tc) := [main_call1_v0, main_call1_v1, main_v7]

private theorem sub2 : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 2 does not write holds after it what it held before. -/
private theorem step2 (c : Dev nD) (r : Ref sig .tc) (hr : r ∉ wr2) :
    Gen.W3 m ρ c (Proc.devRef .tc r) = Gen.W2 m ρ c (Proc.devRef .tc r) :=
  StableHlo.after_of_writes_sub _ _ sub2 hr

/-- The references stretch 3 writes. -/
private abbrev wr3 : List (Ref sig .tc) := [main_v8, main_v9, main_cst_2, main_v10, main_v11, main_v12, main_cst_3]

private theorem sub3 : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 3 does not write holds after it what it held before. -/
private theorem step3 (c : Dev nD) (r : Ref sig .tc) (hr : r ∉ wr3) :
    Gen.W4 m ρ c (Proc.devRef .tc r) = Gen.W3 m ρ c (Proc.devRef .tc r) :=
  StableHlo.after_of_writes_sub _ _ sub3 hr

/-- The references stretch 4 writes. -/
private abbrev wr4 : List (Ref sig .tc) := [main_call2_v0, main_call2_v1, main_v13]

private theorem sub4 : (hostOps0_4 : List (HloOp τ sig (Elt Ideal))).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 4 does not write holds after it what it held before. -/
private theorem step4 (c : Dev nD) (r : Ref sig .tc) (hr : r ∉ wr4) :
    Gen.W5 m ρ c (Proc.devRef .tc r) = Gen.W4 m ρ c (Proc.devRef .tc r) :=
  StableHlo.after_of_writes_sub _ _ sub4 hr

/-- The references stretch 5 writes. -/
private abbrev wr5 : List (Ref sig .tc) := [main_v14, main_v15, main_v16, main_v17, main_cst_4, main_v18, main_v19, main_v20, main_cst_5]

private theorem sub5 : (hostOps0_5 : List (HloOp τ sig (Elt Ideal))).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 5 does not write holds after it what it held before. -/
private theorem step5 (c : Dev nD) (r : Ref sig .tc) (hr : r ∉ wr5) :
    Gen.W6 m ρ c (Proc.devRef .tc r) = Gen.W5 m ρ c (Proc.devRef .tc r) :=
  StableHlo.after_of_writes_sub _ _ sub5 hr

/-- The references stretch 6 writes. -/
private abbrev wr6 : List (Ref sig .tc) := [main_call3_v0, main_call3_v1, main_v21]

private theorem sub6 : (hostOps0_6 : List (HloOp τ sig (Elt Ideal))).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 6 does not write holds after it what it held before. -/
private theorem step6 (c : Dev nD) (r : Ref sig .tc) (hr : r ∉ wr6) :
    Gen.W7 m ρ c (Proc.devRef .tc r) = Gen.W6 m ρ c (Proc.devRef .tc r) :=
  StableHlo.after_of_writes_sub _ _ sub6 hr

/-- The references stretch 7 writes. -/
private abbrev wr7 : List (Ref sig .tc) := [main_v22, main_v23, main_cst_6, main_v24, main_v25, main_v26, main_cst_7]

private theorem sub7 : (hostOps0_7 : List (HloOp τ sig (Elt Ideal))).Forall fun op => op.writes ⊆ (wr7.map (Proc.devRef (τ := τ) .tc)).toFinset := by
  simp only [hostOps0_7, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 7 does not write holds after it what it held before. -/
private theorem step7 (c : Dev nD) (r : Ref sig .tc) (hr : r ∉ wr7) :
    Gen.W8 m ρ c (Proc.devRef .tc r) = Gen.W7 m ρ c (Proc.devRef .tc r) :=
  StableHlo.after_of_writes_sub _ _ sub7 hr

/-- The references stretch 8 writes. -/
private abbrev wr8 : List (Ref sig .tc) := [main_call4_v0, main_call4_v1, main_v27]

private theorem sub8 : (hostOps0_8 : List (HloOp τ sig (Elt Ideal))).Forall fun op => op.writes ⊆ (wr8.map (Proc.devRef (τ := τ) .tc)).toFinset := by
  simp only [hostOps0_8, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 8 does not write holds after it what it held before. -/
private theorem step8 (c : Dev nD) (r : Ref sig .tc) (hr : r ∉ wr8) :
    Gen.W9 m ρ c (Proc.devRef .tc r) = Gen.W8 m ρ c (Proc.devRef .tc r) :=
  StableHlo.after_of_writes_sub _ _ sub8 hr

/-- The references stretch 10 writes. -/
private abbrev wr10 : List (Ref sig .tc) := [main_call5_v0, main_call5_v1, main_v35]

private theorem sub10 : (hostOps0_10 : List (HloOp τ sig (Elt Ideal))).Forall fun op => op.writes ⊆ (wr10.map (Proc.devRef (τ := τ) .tc)).toFinset := by
  simp only [hostOps0_10, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 10 does not write holds after it what it held before. -/
private theorem step10 (c : Dev nD) (r : Ref sig .tc) (hr : r ∉ wr10) :
    Gen.W11 m ρ c (Proc.devRef .tc r) = Gen.W10 m ρ c (Proc.devRef .tc r) :=
  StableHlo.after_of_writes_sub _ _ sub10 hr

/-- The references stretch 11 writes. -/
private abbrev wr11 : List (Ref sig .tc) := [main_v36, main_v37, main_cst_10, main_v38, main_v39, main_v40, main_cst_11]

private theorem sub11 : (hostOps0_11 : List (HloOp τ sig (Elt Ideal))).Forall fun op => op.writes ⊆ (wr11.map (Proc.devRef (τ := τ) .tc)).toFinset := by
  simp only [hostOps0_11, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 11 does not write holds after it what it held before. -/
private theorem step11 (c : Dev nD) (r : Ref sig .tc) (hr : r ∉ wr11) :
    Gen.W12 m ρ c (Proc.devRef .tc r) = Gen.W11 m ρ c (Proc.devRef .tc r) :=
  StableHlo.after_of_writes_sub _ _ sub11 hr

/-- The references stretch 12 writes. -/
private abbrev wr12 : List (Ref sig .tc) := [main_call6_v0, main_call6_v1, main_v41]

private theorem sub12 : (hostOps0_12 : List (HloOp τ sig (Elt Ideal))).Forall fun op => op.writes ⊆ (wr12.map (Proc.devRef (τ := τ) .tc)).toFinset := by
  simp only [hostOps0_12, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 12 does not write holds after it what it held before. -/
private theorem step12 (c : Dev nD) (r : Ref sig .tc) (hr : r ∉ wr12) :
    Gen.W13 m ρ c (Proc.devRef .tc r) = Gen.W12 m ρ c (Proc.devRef .tc r) :=
  StableHlo.after_of_writes_sub _ _ sub12 hr

/-- The references stretch 13 writes. -/
private abbrev wr13 : List (Ref sig .tc) := [main_v42, main_v43, main_v44, main_v45, main_cst_12, main_v46, main_v47, main_v48, main_cst_13]

private theorem sub13 : (hostOps0_13 : List (HloOp τ sig (Elt Ideal))).Forall fun op => op.writes ⊆ (wr13.map (Proc.devRef (τ := τ) .tc)).toFinset := by
  simp only [hostOps0_13, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 13 does not write holds after it what it held before. -/
private theorem step13 (c : Dev nD) (r : Ref sig .tc) (hr : r ∉ wr13) :
    Gen.W14 m ρ c (Proc.devRef .tc r) = Gen.W13 m ρ c (Proc.devRef .tc r) :=
  StableHlo.after_of_writes_sub _ _ sub13 hr

/-- The references stretch 14 writes. -/
private abbrev wr14 : List (Ref sig .tc) := [main_call7_v0, main_call7_v1, main_v49]

private theorem sub14 : (hostOps0_14 : List (HloOp τ sig (Elt Ideal))).Forall fun op => op.writes ⊆ (wr14.map (Proc.devRef (τ := τ) .tc)).toFinset := by
  simp only [hostOps0_14, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 14 does not write holds after it what it held before. -/
private theorem step14 (c : Dev nD) (r : Ref sig .tc) (hr : r ∉ wr14) :
    Gen.W15 m ρ c (Proc.devRef .tc r) = Gen.W14 m ρ c (Proc.devRef .tc r) :=
  StableHlo.after_of_writes_sub _ _ sub14 hr

/-- The references stretch 15 writes. -/
private abbrev wr15 : List (Ref sig .tc) := [main_v50, main_v51, main_cst_14, main_v52, main_v53, main_v54, main_cst_15]

private theorem sub15 : (hostOps0_15 : List (HloOp τ sig (Elt Ideal))).Forall fun op => op.writes ⊆ (wr15.map (Proc.devRef (τ := τ) .tc)).toFinset := by
  simp only [hostOps0_15, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 15 does not write holds after it what it held before. -/
private theorem step15 (c : Dev nD) (r : Ref sig .tc) (hr : r ∉ wr15) :
    Gen.W16 m ρ c (Proc.devRef .tc r) = Gen.W15 m ρ c (Proc.devRef .tc r) :=
  StableHlo.after_of_writes_sub _ _ sub15 hr

/-- The references stretch 16 writes. -/
private abbrev wr16 : List (Ref sig .tc) := [main_call8_v0, main_call8_v1, main_v55]

private theorem sub16 : (hostOps0_16 : List (HloOp τ sig (Elt Ideal))).Forall fun op => op.writes ⊆ (wr16.map (Proc.devRef (τ := τ) .tc)).toFinset := by
  simp only [hostOps0_16, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 16 does not write holds after it what it held before. -/
private theorem step16 (c : Dev nD) (r : Ref sig .tc) (hr : r ∉ wr16) :
    Gen.W17 m ρ c (Proc.devRef .tc r) = Gen.W16 m ρ c (Proc.devRef .tc r) :=
  StableHlo.after_of_writes_sub _ _ sub16 hr

/-- The references stretch 17 writes. -/
private abbrev wr17 : List (Ref sig .tc) := [main_v56, main_v57]

private theorem sub17 : (hostOps0_17 : List (HloOp τ sig (Elt Ideal))).Forall fun op => op.writes ⊆ (wr17.map (Proc.devRef (τ := τ) .tc)).toFinset := by
  simp only [hostOps0_17, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 17 does not write holds after it what it held before. -/
private theorem step17 (c : Dev nD) (r : Ref sig .tc) (hr : r ∉ wr17) :
    Gen.W18 m ρ c (Proc.devRef .tc r) = Gen.W17 m ρ c (Proc.devRef .tc r) :=
  StableHlo.after_of_writes_sub _ _ sub17 hr

/-! ## The count of a row's ids at a node, off the accumulating scatter of ones -/

/-- Row r of a [4, 500000] id array, flattened and stood up as a column, read at edge e. -/
private theorem idcol_apply (o : Nat) (r : Fin 4) (hr : r.val = o) (hs : S4x500000.Slices ![o, 0] S1x500000)
    (a : IVec S4x500000 32) (e : Fin 500000) :
    broadcastInDim S500000x1 ![0] bcast_S500000_S500000x1_0
        (shapeCast S500000 (extractStridedSlice S1x500000 ![o, 0] a hs) shapeCasts_S1x500000_S500000) (ix2 e 0)
      = a (ix2 r e) := by
  refine (broadcastInDim_apply _ _ _ (ix2 e 0) (ix1 e) (fun x => match x with | ⟨0, _⟩ => rfl)).trans ?_
  refine (shapeCast_apply _ _ (ix1 e) (ix2 (0 : Fin 1) e) (by
    rw [Shape.rowMajor_val_two, Shape.rowMajor_val_one]; show 0 * 500000 + e.val = e.val; omega)).trans ?_
  exact slice2_axis0_apply o a hs (0 : Fin 1) e r (by rw [hr]; rfl)

/-- The accumulating scatter of ones into zeros by row r of an id array, read at node n: one for every edge of the
    row whose id is n. -/
private theorem count_apply (o : Nat) (r : Fin 4) (hr : r.val = o) (hs : S4x500000.Slices ![o, 0] S1x500000)
    (a : IVec S4x500000 32) (u : FVec Ideal S500000 .f32) (hu : ∀ e : Fin 500000, u (ix1 e) = Spec.one) (n : Fin 100000) :
    Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        u (ix1 n)
      = ∑ e : Fin 500000, if Spec.Hits (Spec.wd2 a r) e n then Spec.one else 0 := by
  have hd : scatter_S100000_S500000x1_S500000_n_0_0_1
      = Cert.HostOps.seg1Dims 100000 500000 scatter_S100000_S500000x1_S500000_n_0_0_1_wf := rfl
  rw [hd, Cert.HostOps.scatterAdd_elems, broadcastInDim_scalar_apply, constant_apply, Ideal.ofBits_zero_f32, zero_add]
  refine Finset.sum_congr rfl fun e _ => ?_
  rw [idcol_apply o r hr hs a e, hu e]
  rfl

/-- The host's reciprocal square root at an index is the extended reals' reciprocal square root of the element. -/
private theorem hostRsqrt_apply {s : Shape} {φ : FTy} (x : FVec Ideal s φ) (i : s.Idx) :
    Host.rsqrt x i = Ideal.rsqrt (x i) := rfl

/-- The degree factors as the host computes them from a [4, 500000] id array: the count of row o's ids at each node,
    clipped below at one, under the reciprocal square root. -/
private def degOf (o : Nat) (hs : S4x500000.Slices ![o, 0] S1x500000) (a : IVec S4x500000 32) : FVec Ideal S100000 .f32 :=
  Host.rsqrt (F := Ideal) (φ := .f32)
    (maximumf (F := Ideal) (φ := .f32) (broadcastInDim S100000 ![] bcast_S_S100000 (constant (F := Ideal) S_ .f32 0x3F800000#32))
      (Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        (broadcastInDim S500000 ![] bcast_S_S500000 (constant (F := Ideal) S_ .f32 0x3F800000#32))))

/-- Read at a node it is the specification's degree factor of the row. -/
private theorem degOf_apply (o : Nat) (r : Fin 4) (hr : r.val = o) (hs : S4x500000.Slices ![o, 0] S1x500000)
    (a : IVec S4x500000 32) (n : Fin 100000) : degOf o hs a (ix1 n) = Spec.deg (Spec.wd2 a r) n := by
  unfold degOf
  rw [hostRsqrt_apply, maximumf_apply, broadcastInDim_scalar_apply, constant_apply,
    count_apply o r hr hs a _ (fun e => rfl) n]
  rfl

/-! ## Relation 1: the two degree factors as arrays -/

/-- Stretch 1 leaves ones in main_v1. -/
private theorem s1_v1 (V : Valuation τ sig (Elt Ideal)) :
    (StableHlo.after hostOps0_1 V (Proc.devRef .tc main_v1) : FVec Ideal S500000 .f32)
      = broadcastInDim S500000 ![] bcast_S_S500000 (constant (F := Ideal) S_ .f32 0x3F800000#32) := by
  simp only [hostOps0_1]
  after_results

/-- Stretch 5 leaves in main_v20 the scatter of what main_v1 holds by row 1 of what main_arg1 holds … -/
private theorem s5_v20 (V : Valuation τ sig (Elt Ideal)) :
    (StableHlo.after hostOps0_5 V (Proc.devRef .tc main_v20) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![1, 0] (V (Proc.devRef .tc main_arg1) : IVec S4x500000 32) slices_S4x500000_S1x500000_1_0) shapeCasts_S1x500000_S500000))
          (V (Proc.devRef .tc main_v1) : FVec Ideal S500000 .f32) := by
  simp only [hostOps0_5]
  after_results
  rfl

/-- … and a one in main_cst_5. -/
private theorem s5_cst (V : Valuation τ sig (Elt Ideal)) :
    (StableHlo.after hostOps0_5 V (Proc.devRef .tc main_cst_5) : FVec Ideal S_ .f32) = constant (F := Ideal) S_ .f32 0x3F800000#32 := by
  simp only [hostOps0_5]
  after_results

/-- Stretch 6 clips main_v20 below at main_cst_5 into main_v21. -/
private theorem s6_v21 (V : Valuation τ sig (Elt Ideal)) :
    (StableHlo.after hostOps0_6 V (Proc.devRef .tc main_v21) : FVec Ideal S100000 .f32)
      = maximumf (F := Ideal) (s := S100000) (φ := .f32) (broadcastInDim S100000 ![] bcast_S_S100000 (V (Proc.devRef .tc main_cst_5) : FVec Ideal S_ .f32)) (V (Proc.devRef .tc main_v20) : FVec Ideal S100000 .f32) := by
  simp only [hostOps0_6]
  after_results
  rfl

/-- Stretch 7 leaves in main_v26 the scatter of what main_v1 holds by row 1 of what main_arg2 holds … -/
private theorem s7_v26 (V : Valuation τ sig (Elt Ideal)) :
    (StableHlo.after hostOps0_7 V (Proc.devRef .tc main_v26) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![1, 0] (V (Proc.devRef .tc main_arg2) : IVec S4x500000 32) slices_S4x500000_S1x500000_1_0) shapeCasts_S1x500000_S500000))
          (V (Proc.devRef .tc main_v1) : FVec Ideal S500000 .f32) := by
  simp only [hostOps0_7]
  after_results
  rfl

/-- … and a one in main_cst_7. -/
private theorem s7_cst (V : Valuation τ sig (Elt Ideal)) :
    (StableHlo.after hostOps0_7 V (Proc.devRef .tc main_cst_7) : FVec Ideal S_ .f32) = constant (F := Ideal) S_ .f32 0x3F800000#32 := by
  simp only [hostOps0_7]
  after_results

/-- Stretch 8 clips main_v26 below at main_cst_7 into main_v27. -/
private theorem s8_v27 (V : Valuation τ sig (Elt Ideal)) :
    (StableHlo.after hostOps0_8 V (Proc.devRef .tc main_v27) : FVec Ideal S100000 .f32)
      = maximumf (F := Ideal) (s := S100000) (φ := .f32) (broadcastInDim S100000 ![] bcast_S_S100000 (V (Proc.devRef .tc main_cst_7) : FVec Ideal S_ .f32)) (V (Proc.devRef .tc main_v26) : FVec Ideal S100000 .f32) := by
  simp only [hostOps0_8]
  after_results
  rfl

/-- Stretch 9 takes the reciprocal square root of main_v21 into main_v28 … -/
private theorem s9_v28 (V : Valuation τ sig (Elt Ideal)) :
    (StableHlo.after hostOps0_9 V (Proc.devRef .tc main_v28) : FVec Ideal S100000 .f32)
      = Host.rsqrt (F := Ideal) (s := S100000) (φ := .f32) (V (Proc.devRef .tc main_v21) : FVec Ideal S100000 .f32) := by
  simp only [hostOps0_9]
  after_results

/-- … and of main_v27 into main_v29. -/
private theorem s9_v29 (V : Valuation τ sig (Elt Ideal)) :
    (StableHlo.after hostOps0_9 V (Proc.devRef .tc main_v29) : FVec Ideal S100000 .f32)
      = Host.rsqrt (F := Ideal) (s := S100000) (φ := .f32) (V (Proc.devRef .tc main_v27) : FVec Ideal S100000 .f32) := by
  simp only [hostOps0_9]
  after_results

/-- A buffer stretches 10 to 17 do not write holds at the first region's entry what it held after stretch 9. -/
private theorem carry_10_17 (c : Dev nD) (r : Ref sig .tc) (h10 : r ∉ wr10) (h11 : r ∉ wr11) (h12 : r ∉ wr12) (h13 : r ∉ wr13)
    (h14 : r ∉ wr14) (h15 : r ∉ wr15) (h16 : r ∉ wr16) (h17 : r ∉ wr17) :
    Gen.W18 m ρ c (Proc.devRef .tc r) = Gen.W10 m ρ c (Proc.devRef .tc r) :=
  (step17 m ρ c r h17).trans <| (step16 m ρ c r h16).trans <| (step15 m ρ c r h15).trans <|
  (step14 m ρ c r h14).trans <| (step13 m ρ c r h13).trans <| (step12 m ρ c r h12).trans <|
  (step11 m ρ c r h11).trans (step10 m ρ c r h10)

/-- The ones array main_v1 after stretch 4 is what stretch 1 left. -/
private theorem ones_W5 (c : Dev nD) :
    Gen.W5 m ρ c (Proc.devRef .tc main_v1) = broadcastInDim S500000 ![] bcast_S_S500000 (constant (F := Ideal) S_ .f32 0x3F800000#32) := by
  have h2 : Gen.W2 m ρ c (Proc.devRef .tc main_v1) = _ := s1_v1 (Gen.W1 m ρ c)
  have hcar : Gen.W5 m ρ c (Proc.devRef .tc main_v1) = Gen.W2 m ρ c (Proc.devRef .tc main_v1) :=
    (step4 m ρ c _ (by decide)).trans <| (step3 m ρ c _ (by decide)).trans (step2 m ρ c _ (by decide))
  rw [hcar, h2]

/-- main_v28 at the first region's entry is the degree array of row 1 of the launch's main_arg1. -/
private theorem v28_W18 (c : Dev nD) :
    Gen.W18 m ρ c (Proc.devRef .tc main_v28) = degOf 1 slices_S4x500000_S1x500000_1_0 (m ((c : Thread nD τ).loc main_arg1)) := by
  have harg1 : Gen.W1 m ρ c (Proc.devRef .tc main_arg1) = m ((c : Thread nD τ).loc main_arg1) := step0 m ρ c _ (by decide)
  have harg : Gen.W5 m ρ c (Proc.devRef .tc main_arg1) = Gen.W1 m ρ c (Proc.devRef .tc main_arg1) :=
    (step4 m ρ c _ (by decide)).trans <| (step3 m ρ c _ (by decide)).trans <| (step2 m ρ c _ (by decide)).trans
      (step1 m ρ c _ (by decide))
  have h6 : Gen.W6 m ρ c (Proc.devRef .tc main_v20) = _ := s5_v20 (Gen.W5 m ρ c)
  have hc : Gen.W6 m ρ c (Proc.devRef .tc main_cst_5) = _ := s5_cst (Gen.W5 m ρ c)
  have h7 : Gen.W7 m ρ c (Proc.devRef .tc main_v21) = _ := s6_v21 (Gen.W6 m ρ c)
  have hcar21 : Gen.W9 m ρ c (Proc.devRef .tc main_v21) = Gen.W7 m ρ c (Proc.devRef .tc main_v21) :=
    (step8 m ρ c _ (by decide)).trans (step7 m ρ c _ (by decide))
  have h10 : Gen.W10 m ρ c (Proc.devRef .tc main_v28) = _ := s9_v28 (Gen.W9 m ρ c)
  have hcar : Gen.W18 m ρ c (Proc.devRef .tc main_v28) = Gen.W10 m ρ c (Proc.devRef .tc main_v28) :=
    carry_10_17 m ρ c _ (by decide) (by decide) (by decide) (by decide) (by decide) (by decide) (by decide) (by decide)
  unfold degOf
  rw [hcar, h10, hcar21, h7, hc, h6, ones_W5, harg, harg1]

/-- main_v29 at the first region's entry is the degree array of row 1 of the launch's main_arg2. -/
private theorem v29_W18 (c : Dev nD) :
    Gen.W18 m ρ c (Proc.devRef .tc main_v29) = degOf 1 slices_S4x500000_S1x500000_1_0 (m ((c : Thread nD τ).loc main_arg2)) := by
  have harg1 : Gen.W1 m ρ c (Proc.devRef .tc main_arg2) = m ((c : Thread nD τ).loc main_arg2) := step0 m ρ c _ (by decide)
  have harg : Gen.W7 m ρ c (Proc.devRef .tc main_arg2) = Gen.W1 m ρ c (Proc.devRef .tc main_arg2) :=
    (step6 m ρ c _ (by decide)).trans <| (step5 m ρ c _ (by decide)).trans <| (step4 m ρ c _ (by decide)).trans <|
    (step3 m ρ c _ (by decide)).trans <| (step2 m ρ c _ (by decide)).trans (step1 m ρ c _ (by decide))
  have hones : Gen.W7 m ρ c (Proc.devRef .tc main_v1) = Gen.W5 m ρ c (Proc.devRef .tc main_v1) :=
    (step6 m ρ c _ (by decide)).trans (step5 m ρ c _ (by decide))
  have h8 : Gen.W8 m ρ c (Proc.devRef .tc main_v26) = _ := s7_v26 (Gen.W7 m ρ c)
  have hc : Gen.W8 m ρ c (Proc.devRef .tc main_cst_7) = _ := s7_cst (Gen.W7 m ρ c)
  have h9 : Gen.W9 m ρ c (Proc.devRef .tc main_v27) = _ := s8_v27 (Gen.W8 m ρ c)
  have h10 : Gen.W10 m ρ c (Proc.devRef .tc main_v29) = _ := s9_v29 (Gen.W9 m ρ c)
  have hcar : Gen.W18 m ρ c (Proc.devRef .tc main_v29) = Gen.W10 m ρ c (Proc.devRef .tc main_v29) :=
    carry_10_17 m ρ c _ (by decide) (by decide) (by decide) (by decide) (by decide) (by decide) (by decide) (by decide)
  unfold degOf
  rw [hcar, h10, h9, hc, h8, hones, ones_W5, harg, harg1]

/-- The degree factor of relation 1's source column. -/
theorem deg_v28 (c : Dev nD) (n : Fin 100000) :
    Spec.rd1 (Gen.W18 m ρ c (Proc.devRef .tc main_v28)) n = Spec.deg (Spec.wd2 (m ((c : Thread nD τ).loc main_arg1)) (1 : Fin 4)) n := by
  rw [v28_W18]
  exact degOf_apply 1 (1 : Fin 4) rfl _ _ n

/-- The degree factor of relation 1's destination column. -/
theorem deg_v29 (c : Dev nD) (n : Fin 100000) :
    Spec.rd1 (Gen.W18 m ρ c (Proc.devRef .tc main_v29)) n = Spec.deg (Spec.wd2 (m ((c : Thread nD τ).loc main_arg2)) (1 : Fin 4)) n := by
  rw [v29_W18]
  exact degOf_apply 1 (1 : Fin 4) rfl _ _ n

end Cert.KernelIdeal.KV

end
-- ==== Proof.KAgg1b.lean ====
/-
Layer 1, relation 1: the gather of the weighted features' rows by source, the scaling by the source's factor, the accumulating scatter by destination and the scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Agg1b

/-! ## Relation 1's four stretches of host operations, from any contents -/

section Stretch

variable (V : Valuation τ sig (Elt Ideal))

/-- The slicing stretch leaves relation 1's rows of the stacked weighted features in their buffer. -/
theorem rel1_rows : StableHlo.after hostOps1_3 V (Proc.devRef .tc main_v77) =
    shapeCast S100000x128 (extractStridedSlice S1x100000x128 ![1, 0, 0] (V (Proc.devRef .tc main_v58)) slices_S4x100000x128_S1x100000x128_1_0_0)
      shapeCasts_S1x100000x128_S100000x128 := by
  simp only [hostOps1_3]
  after_results
  all_goals rfl

/-- It leaves relation 1's source ids in theirs. -/
theorem rel1_src : StableHlo.after hostOps1_3 V (Proc.devRef .tc main_v79) =
    shapeCast S500000 (extractStridedSlice S1x500000 ![1, 0] (V (Proc.devRef .tc main_arg1)) slices_S4x500000_S1x500000_1_0) shapeCasts_S1x500000_S500000 := by
  simp only [hostOps1_3]
  after_results
  all_goals rfl

/-- It leaves relation 1's destination ids in theirs. -/
theorem rel1_dst : StableHlo.after hostOps1_3 V (Proc.devRef .tc main_v81) =
    shapeCast S500000 (extractStridedSlice S1x500000 ![1, 0] (V (Proc.devRef .tc main_arg2)) slices_S4x500000_S1x500000_1_0) shapeCasts_S1x500000_S500000 := by
  simp only [hostOps1_3]
  after_results
  all_goals rfl

set_option maxHeartbeats 1000000 in
/-- The stretch that gathers the rows leaves, for every edge, the row its source id addresses. -/
theorem rel1_takeRows : StableHlo.after hostOps1_4 V (Proc.devRef .tc main_v82) =
    Rel.takeRows (V (Proc.devRef .tc main_v77)) (V (Proc.devRef .tc main_v79)) := by
  simp only [hostOps1_4]
  after_results_simp
  unfold Rel.takeRows Rel.inRange Rel.idCol Rel.wrapIds
  simp only [StableHlo.TRef.toBuf, StableHlo.TRef.ofBuf, cast_cast, cast_eq]
  all_goals rfl

set_option maxHeartbeats 1000000 in
/-- The stretch that gathers the factors leaves, for every edge, the factor its source id addresses. -/
theorem rel1_takeElems : StableHlo.after hostOps1_5 V (Proc.devRef .tc main_v83) =
    Rel.takeElems (V (Proc.devRef .tc main_v28)) (V (Proc.devRef .tc main_v79)) := by
  simp only [hostOps1_5]
  after_results_simp
  unfold Rel.takeElems Rel.inRange Rel.idCol Rel.wrapIds
  simp only [StableHlo.TRef.toBuf, StableHlo.TRef.ofBuf, cast_cast, cast_eq]
  all_goals rfl

/-- The edges' rows times their factors, added into the destinations' rows from zero, each row times its node's factor. -/
def relOut (rows : FVec Ideal S500000x128 .f32) (sc : FVec Ideal S500000 .f32) (d : IVec S500000 32)
    (gi : FVec Ideal S100000 .f32) : FVec Ideal S100000x128 .f32 :=
  mulf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 d)
      (mulf rows
        (broadcastInDim S500000x128 ![0, 1] bcast_S500000x1_S500000x128_0_1
          (broadcastInDim S500000x1 ![0] bcast_S500000_S500000x1_0 sc))))
    (broadcastInDim S100000x128 ![0, 1] bcast_S100000x1_S100000x128_0_1
      (broadcastInDim S100000x1 ![0] bcast_S100000_S100000x1_0 gi))

/-- The relation's aggregate is that of its gathered rows and factors. -/
theorem relAgg_eq_relOut (z : FVec Ideal S100000x128 .f32) (s d : IVec S500000 32) (go gi : FVec Ideal S100000 .f32) :
    Rel.relAgg z s d go gi = relOut (Rel.takeRows z s) (Rel.takeElems go s) d gi := rfl

/-- The last stretch scales the rows, adds them into the destinations' rows and scales the sums. -/
theorem rel1_out : StableHlo.after hostOps1_6 V (Proc.devRef .tc main_v92) =
    relOut (V (Proc.devRef .tc main_v82)) (V (Proc.devRef .tc main_v83)) (V (Proc.devRef .tc main_v81)) (V (Proc.devRef .tc main_v29)) := by
  simp only [hostOps1_6]
  after_results
  all_goals rfl

end Stretch

/-! ## The buffers between the stretches -/

/-- One stretch of the first layer's host operations at a buffer none of its operations writes: each operation
    writes its result buffer only, and the buffer at hand is a different reference from every one of them. -/
local macro "keep_step" : tactic => `(tactic|
  exact StableHlo.after_of_forall_not_mem _ _ (List.forall_iff_forall_mem.mp (by
    simp only [hostOps1, hostOps1_1, hostOps1_2, hostOps1_3, hostOps1_4, hostOps1_5, hostOps1_6, hostOps1_7,
      hostOps1_8, hostOps1_9, hostOps1_10, hostOps1_11, hostOps1_12, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-- Relation 1's result is not written after its own stretch. -/
theorem keep_v92 (c : Dev nD) : Gen.W32 m ρ c (Proc.devRef .tc main_v92) = Gen.W26 m ρ c (Proc.devRef .tc main_v92) :=
  calc Gen.W32 m ρ c (Proc.devRef .tc main_v92)
    _ = Gen.W31 m ρ c (Proc.devRef .tc main_v92) := by keep_step
    _ = Gen.W30 m ρ c (Proc.devRef .tc main_v92) := by keep_step
    _ = Gen.W29 m ρ c (Proc.devRef .tc main_v92) := by keep_step
    _ = Gen.W28 m ρ c (Proc.devRef .tc main_v92) := by keep_step
    _ = Gen.W27 m ρ c (Proc.devRef .tc main_v92) := by keep_step
    _ = Gen.W26 m ρ c (Proc.devRef .tc main_v92) := by keep_step

/-- The gathered rows wait through the stretch that gathers the factors. -/
theorem keep_v82 (c : Dev nD) : Gen.W25 m ρ c (Proc.devRef .tc main_v82) = Gen.W24 m ρ c (Proc.devRef .tc main_v82) := by keep_step

/-- The source ids wait through the stretch that gathers the rows. -/
theorem keep_v79 (c : Dev nD) : Gen.W24 m ρ c (Proc.devRef .tc main_v79) = Gen.W23 m ρ c (Proc.devRef .tc main_v79) := by keep_step

/-- The destination ids wait through the two gathering stretches. -/
theorem keep_v81 (c : Dev nD) : Gen.W25 m ρ c (Proc.devRef .tc main_v81) = Gen.W23 m ρ c (Proc.devRef .tc main_v81) :=
  calc Gen.W25 m ρ c (Proc.devRef .tc main_v81)
    _ = Gen.W24 m ρ c (Proc.devRef .tc main_v81) := by keep_step
    _ = Gen.W23 m ρ c (Proc.devRef .tc main_v81) := by keep_step

/-- The sources' factor is as the weight region left it when it is gathered. -/
theorem keep_v28 (c : Dev nD) : Gen.W24 m ρ c (Proc.devRef .tc main_v28) = Gen.W19 m ρ c (Proc.devRef .tc main_v28) :=
  calc Gen.W24 m ρ c (Proc.devRef .tc main_v28)
    _ = Gen.W23 m ρ c (Proc.devRef .tc main_v28) := by keep_step
    _ = Gen.W22 m ρ c (Proc.devRef .tc main_v28) := by keep_step
    _ = Gen.W21 m ρ c (Proc.devRef .tc main_v28) := by keep_step
    _ = Gen.W20 m ρ c (Proc.devRef .tc main_v28) := by keep_step
    _ = Gen.W19 m ρ c (Proc.devRef .tc main_v28) := by keep_step

/-- The destinations' factor is as the weight region left it when the sums are scaled. -/
theorem keep_v29 (c : Dev nD) : Gen.W25 m ρ c (Proc.devRef .tc main_v29) = Gen.W19 m ρ c (Proc.devRef .tc main_v29) :=
  calc Gen.W25 m ρ c (Proc.devRef .tc main_v29)
    _ = Gen.W24 m ρ c (Proc.devRef .tc main_v29) := by keep_step
    _ = Gen.W23 m ρ c (Proc.devRef .tc main_v29) := by keep_step
    _ = Gen.W22 m ρ c (Proc.devRef .tc main_v29) := by keep_step
    _ = Gen.W21 m ρ c (Proc.devRef .tc main_v29) := by keep_step
    _ = Gen.W20 m ρ c (Proc.devRef .tc main_v29) := by keep_step
    _ = Gen.W19 m ρ c (Proc.devRef .tc main_v29) := by keep_step

/-- The stacked weighted features are as the weight region left them when relation 1's rows are sliced. -/
theorem keep_v58 (c : Dev nD) : Gen.W22 m ρ c (Proc.devRef .tc main_v58) = Gen.W19 m ρ c (Proc.devRef .tc main_v58) :=
  calc Gen.W22 m ρ c (Proc.devRef .tc main_v58)
    _ = Gen.W21 m ρ c (Proc.devRef .tc main_v58) := by keep_step
    _ = Gen.W20 m ρ c (Proc.devRef .tc main_v58) := by keep_step
    _ = Gen.W19 m ρ c (Proc.devRef .tc main_v58) := by keep_step

/-- So are the stacked source ids … -/
theorem keep_arg1 (c : Dev nD) : Gen.W22 m ρ c (Proc.devRef .tc main_arg1) = Gen.W19 m ρ c (Proc.devRef .tc main_arg1) :=
  calc Gen.W22 m ρ c (Proc.devRef .tc main_arg1)
    _ = Gen.W21 m ρ c (Proc.devRef .tc main_arg1) := by keep_step
    _ = Gen.W20 m ρ c (Proc.devRef .tc main_arg1) := by keep_step
    _ = Gen.W19 m ρ c (Proc.devRef .tc main_arg1) := by keep_step

/-- … and the stacked destination ids. -/
theorem keep_arg2 (c : Dev nD) : Gen.W22 m ρ c (Proc.devRef .tc main_arg2) = Gen.W19 m ρ c (Proc.devRef .tc main_arg2) :=
  calc Gen.W22 m ρ c (Proc.devRef .tc main_arg2)
    _ = Gen.W21 m ρ c (Proc.devRef .tc main_arg2) := by keep_step
    _ = Gen.W20 m ρ c (Proc.devRef .tc main_arg2) := by keep_step
    _ = Gen.W19 m ρ c (Proc.devRef .tc main_arg2) := by keep_step

/-! ## Relation 1's result buffer when the combining region is entered -/

/-- What relation 1's result buffer holds when the combining region is entered: the relation's aggregate of relation 1's
    slices of the stacked weighted features and ids and of its two degree factors, as the weight region left them. -/
theorem v92_read (c : Dev nD) :
    Gen.W32 m ρ c (Proc.devRef .tc main_v92) =
      Rel.relAgg
        (shapeCast S100000x128 (extractStridedSlice S1x100000x128 ![1, 0, 0] (Gen.W19 m ρ c (Proc.devRef .tc main_v58)) slices_S4x100000x128_S1x100000x128_1_0_0) shapeCasts_S1x100000x128_S100000x128)
        (shapeCast S500000 (extractStridedSlice S1x500000 ![1, 0] (Gen.W19 m ρ c (Proc.devRef .tc main_arg1)) slices_S4x500000_S1x500000_1_0) shapeCasts_S1x500000_S500000)
        (shapeCast S500000 (extractStridedSlice S1x500000 ![1, 0] (Gen.W19 m ρ c (Proc.devRef .tc main_arg2)) slices_S4x500000_S1x500000_1_0) shapeCasts_S1x500000_S500000)
        (Gen.W19 m ρ c (Proc.devRef .tc main_v28)) (Gen.W19 m ρ c (Proc.devRef .tc main_v29)) := by
  have e77 : Gen.W23 m ρ c (Proc.devRef .tc main_v77) = _ := rel1_rows (Gen.W22 m ρ c)
  have e79 : Gen.W23 m ρ c (Proc.devRef .tc main_v79) = _ := rel1_src (Gen.W22 m ρ c)
  have e81 : Gen.W23 m ρ c (Proc.devRef .tc main_v81) = _ := rel1_dst (Gen.W22 m ρ c)
  have e82 : Gen.W25 m ρ c (Proc.devRef .tc main_v82) = _ := (keep_v82 m ρ c).trans (rel1_takeRows (Gen.W23 m ρ c))
  have e83 : Gen.W25 m ρ c (Proc.devRef .tc main_v83) = _ := rel1_takeElems (Gen.W24 m ρ c)
  have e92 : Gen.W32 m ρ c (Proc.devRef .tc main_v92) = _ := (keep_v92 m ρ c).trans (rel1_out (Gen.W25 m ρ c))
  rw [relAgg_eq_relOut]
  refine e92.trans ?_
  rw [e82, e83, keep_v81 m ρ c, keep_v29 m ρ c, keep_v79 m ρ c, keep_v28 m ρ c]
  rw [e77, e79, e81, keep_v58 m ρ c, keep_arg1 m ρ c, keep_arg2 m ρ c]

end Agg1b

/-- Relation 1's aggregate: every edge carries its source's row of the weighted features times the source's factor; a
    node sums what arrives and scales by its own factor. -/
theorem agg_v92 (c : Dev nD) (hs : ∀ e : Fin 500000, Spec.IsNode (Spec.wd2 (Gen.W19 m ρ c (Proc.devRef .tc main_arg1)) (1 : Fin 4) e))
    (n : Fin 100000) (j : Fin 128) :
    Spec.rd2 (Gen.W32 m ρ c (Proc.devRef .tc main_v92)) n j =
      Spec.aggG (Spec.rd3 (Gen.W19 m ρ c (Proc.devRef .tc main_v58)) (1 : Fin 4)) (Spec.rd1 (Gen.W19 m ρ c (Proc.devRef .tc main_v28))) (Spec.rd1 (Gen.W19 m ρ c (Proc.devRef .tc main_v29)))
        (Spec.wd2 (Gen.W19 m ρ c (Proc.devRef .tc main_arg1)) (1 : Fin 4)) (Spec.wd2 (Gen.W19 m ρ c (Proc.devRef .tc main_arg2)) (1 : Fin 4)) n j :=
  (congrFun (Agg1b.v92_read m ρ c) (ix2 n j)).trans
    (Rel.relAgg_slices (Gen.W19 m ρ c (Proc.devRef .tc main_v58)) (Gen.W19 m ρ c (Proc.devRef .tc main_arg1))
      (Gen.W19 m ρ c (Proc.devRef .tc main_arg2)) (Gen.W19 m ρ c (Proc.devRef .tc main_v28)) (Gen.W19 m ρ c (Proc.devRef .tc main_v29))
      1 _ rfl _ _ _ rfl _ _ hs n j)

end Cert.KernelIdeal.KV

end
-- ==== Proof.KAgg3b.lean ====
/-
Layer 2, relation 1: the gather of the weighted hidden features' rows by source, the scaling by the source's factor, the accumulating scatter by destination and the scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Agg3b

/-! ## Contents at a typed reference

A called function's operations read and write their buffers through references that carry the tensor's type; the
contents are moved to the buffer's own type and back along an equation of types, which changes nothing. -/

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

/-- At the buffers where a called function's operations meet @main's own, the move is the identity. -/
theorem toBuf_v154 (h1 h2 h3) (v : (⟨S500000x128, .f32⟩ : BufTy).Contents (Elt Ideal)) :
    (StableHlo.TRef.of (T := ⟨S500000x128, .f32⟩) main_v154 h1 h2 h3).toBuf v = v := rfl
theorem toBuf_v155 (h1 h2 h3) (v : (⟨S500000, .f32⟩ : BufTy).Contents (Elt Ideal)) :
    (StableHlo.TRef.of (T := ⟨S500000, .f32⟩) main_v155 h1 h2 h3).toBuf v = v := rfl
theorem ofBuf_v151 (h1 h2 h3) (v : main_v151.ty.Contents (Elt Ideal)) :
    (StableHlo.TRef.of (T := ⟨S500000, .i32⟩) main_v151 h1 h2 h3).ofBuf v = v := rfl
theorem ofBuf_v149 (h1 h2 h3) (v : main_v149.ty.Contents (Elt Ideal)) :
    (StableHlo.TRef.of (T := ⟨S100000x128, .f32⟩) main_v149 h1 h2 h3).ofBuf v = v := rfl
theorem ofBuf_v28 (h1 h2 h3) (v : main_v28.ty.Contents (Elt Ideal)) :
    (StableHlo.TRef.of (T := ⟨S100000, .f32⟩) main_v28 h1 h2 h3).ofBuf v = v := rfl

set_option maxHeartbeats 40000000 in
/-- The second layer's host operations, run in order from any contents of the buffers, leave in relation 1's result
    buffer the relation's aggregate of relation 1's slices of the stacked weighted features and ids and of its two
    degree factors: every operation is read at its own result buffer and passed over at every other. -/
theorem v164_of (V : Valuation τ sig (Elt Ideal)) :
    (StableHlo.after (hostOps3_12 (F := Ideal)) (StableHlo.after (hostOps3_11 (F := Ideal)) (StableHlo.after (hostOps3_10 (F := Ideal)) (StableHlo.after (hostOps3_9 (F := Ideal)) (StableHlo.after (hostOps3_8 (F := Ideal)) (StableHlo.after (hostOps3_7 (F := Ideal)) (StableHlo.after (hostOps3_6 (F := Ideal)) (StableHlo.after (hostOps3_5 (F := Ideal)) (StableHlo.after (hostOps3_4 (F := Ideal)) (StableHlo.after (hostOps3_3 (F := Ideal)) (StableHlo.after (hostOps3_2 (F := Ideal)) (StableHlo.after (hostOps3_1 (F := Ideal)) (StableHlo.after (hostOps3 (F := Ideal)) V))))))))))))) (Proc.devRef .tc main_v164) =
      Rel.relAgg
        (shapeCast S100000x128 (extractStridedSlice S1x100000x128 ![1, 0, 0] (V (Proc.devRef .tc main_v130)) slices_S4x100000x128_S1x100000x128_1_0_0) shapeCasts_S1x100000x128_S100000x128)
        (shapeCast S500000 (extractStridedSlice S1x500000 ![1, 0] (V (Proc.devRef .tc main_arg1)) slices_S4x500000_S1x500000_1_0) shapeCasts_S1x500000_S500000)
        (shapeCast S500000 (extractStridedSlice S1x500000 ![1, 0] (V (Proc.devRef .tc main_arg2)) slices_S4x500000_S1x500000_1_0) shapeCasts_S1x500000_S500000)
        (V (Proc.devRef .tc main_v28)) (V (Proc.devRef .tc main_v29)) := by
  simp only [hostOps3, hostOps3_1, hostOps3_2, hostOps3_3, hostOps3_4, hostOps3_5, hostOps3_6, hostOps3_7, hostOps3_8, hostOps3_9, hostOps3_10, hostOps3_11, hostOps3_12]
  after_results_simp
  simp only [ofBuf_toBuf, toBuf_v154, toBuf_v155, ofBuf_v151, ofBuf_v149, ofBuf_v28]
  unfold Rel.relAgg Rel.takeRows Rel.takeElems Rel.inRange Rel.idCol Rel.wrapIds
  rfl

end Agg3b

variable (m : (ℓ : Loc nD τ sig) → Buf (Elt Ideal) ℓ) (ρ : Dev nD → PrngReg)

/-- Relation 1's aggregate: every edge carries its source's row of the weighted features times the source's factor; a
    node sums what arrives and scales by its own factor. -/
theorem agg_v164 (c : Dev nD) (hs : ∀ e : Fin 500000, Spec.IsNode (Spec.wd2 (Gen.W34 m ρ c (Proc.devRef .tc main_arg1)) (1 : Fin 4) e))
    (n : Fin 100000) (j : Fin 128) :
    Spec.rd2 (Gen.W47 m ρ c (Proc.devRef .tc main_v164)) n j =
      Spec.aggG (Spec.rd3 (Gen.W34 m ρ c (Proc.devRef .tc main_v130)) (1 : Fin 4)) (Spec.rd1 (Gen.W34 m ρ c (Proc.devRef .tc main_v28))) (Spec.rd1 (Gen.W34 m ρ c (Proc.devRef .tc main_v29)))
        (Spec.wd2 (Gen.W34 m ρ c (Proc.devRef .tc main_arg1)) (1 : Fin 4)) (Spec.wd2 (Gen.W34 m ρ c (Proc.devRef .tc main_arg2)) (1 : Fin 4)) n j := by
  have e : Gen.W47 m ρ c (Proc.devRef .tc main_v164) = _ := Agg3b.v164_of (Gen.W34 m ρ c)
  exact (congrFun e (ix2 n j)).trans
    (Rel.relAgg_slices (Gen.W34 m ρ c (Proc.devRef .tc main_v130)) (Gen.W34 m ρ c (Proc.devRef .tc main_arg1))
      (Gen.W34 m ρ c (Proc.devRef .tc main_arg2)) (Gen.W34 m ρ c (Proc.devRef .tc main_v28)) (Gen.W34 m ρ c (Proc.devRef .tc main_v29))
      1 _ rfl _ _ _ rfl _ _ hs n j)

end Cert.KernelIdeal.KV

end
-- ==== Proof.KDeg2.lean ====
/-
The degree factors of relation 2: per id column the count of edges ending at a node (an accumulating scatter of ones), clipped below at 1, through the reciprocal square root.
-/
import proofs.«420714_j25331717112057_2_alg».proof.Proof.Gen.KernelIdeal.Frame
import proofs.«420714_j25331717112057_2_alg».proof.Proof.Spec
import proofs.«420714_j25331717112057_2_alg».proof.Proof.HostOps
import Idealize.ShloMosaic.Lib.IdealHost
import Idealize.ShloMosaic.Lib.ValueLayout
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What each stretch writes, and a buffer it does not write carried across it -/

/-- The references stretch 0 writes. -/
private abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

private theorem sub0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 0 does not write holds after it what it held before. -/
private theorem step0 (c : Dev nD) (r : Ref sig .tc) (hr : r ∉ wr0) :
    Gen.W1 m ρ c (Proc.devRef .tc r) = Gen.W0 m ρ c (Proc.devRef .tc r) :=
  StableHlo.after_of_writes_sub _ _ sub0 hr

/-- The references stretch 1 writes. -/
private abbrev wr1 : List (Ref sig .tc) := [main_cst, main_v1, main_v2, main_v3, main_cst_0, main_v4, main_v5, main_v6, main_cst_1]

private theorem sub1 : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 1 does not write holds after it what it held before. -/
private theorem step1 (c : Dev nD) (r : Ref sig .tc) (hr : r ∉ wr1) :
    Gen.W2 m ρ c (Proc.devRef .tc r) = Gen.W1 m ρ c (Proc.devRef .tc r) :=
  StableHlo.after_of_writes_sub _ _ sub1 hr

/-- The references stretch 2 writes. -/
private abbrev wr2 : List (Ref sig .tc) := [main_call1_v0, main_call1_v1, main_v7]

private theorem sub2 : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 2 does not write holds after it what it held before. -/
private theorem step2 (c : Dev nD) (r : Ref sig .tc) (hr : r ∉ wr2) :
    Gen.W3 m ρ c (Proc.devRef .tc r) = Gen.W2 m ρ c (Proc.devRef .tc r) :=
  StableHlo.after_of_writes_sub _ _ sub2 hr

/-- The references stretch 3 writes. -/
private abbrev wr3 : List (Ref sig .tc) := [main_v8, main_v9, main_cst_2, main_v10, main_v11, main_v12, main_cst_3]

private theorem sub3 : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 3 does not write holds after it what it held before. -/
private theorem step3 (c : Dev nD) (r : Ref sig .tc) (hr : r ∉ wr3) :
    Gen.W4 m ρ c (Proc.devRef .tc r) = Gen.W3 m ρ c (Proc.devRef .tc r) :=
  StableHlo.after_of_writes_sub _ _ sub3 hr

/-- The references stretch 4 writes. -/
private abbrev wr4 : List (Ref sig .tc) := [main_call2_v0, main_call2_v1, main_v13]

private theorem sub4 : (hostOps0_4 : List (HloOp τ sig (Elt Ideal))).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 4 does not write holds after it what it held before. -/
private theorem step4 (c : Dev nD) (r : Ref sig .tc) (hr : r ∉ wr4) :
    Gen.W5 m ρ c (Proc.devRef .tc r) = Gen.W4 m ρ c (Proc.devRef .tc r) :=
  StableHlo.after_of_writes_sub _ _ sub4 hr

/-- The references stretch 5 writes. -/
private abbrev wr5 : List (Ref sig .tc) := [main_v14, main_v15, main_v16, main_v17, main_cst_4, main_v18, main_v19, main_v20, main_cst_5]

private theorem sub5 : (hostOps0_5 : List (HloOp τ sig (Elt Ideal))).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 5 does not write holds after it what it held before. -/
private theorem step5 (c : Dev nD) (r : Ref sig .tc) (hr : r ∉ wr5) :
    Gen.W6 m ρ c (Proc.devRef .tc r) = Gen.W5 m ρ c (Proc.devRef .tc r) :=
  StableHlo.after_of_writes_sub _ _ sub5 hr

/-- The references stretch 6 writes. -/
private abbrev wr6 : List (Ref sig .tc) := [main_call3_v0, main_call3_v1, main_v21]

private theorem sub6 : (hostOps0_6 : List (HloOp τ sig (Elt Ideal))).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 6 does not write holds after it what it held before. -/
private theorem step6 (c : Dev nD) (r : Ref sig .tc) (hr : r ∉ wr6) :
    Gen.W7 m ρ c (Proc.devRef .tc r) = Gen.W6 m ρ c (Proc.devRef .tc r) :=
  StableHlo.after_of_writes_sub _ _ sub6 hr

/-- The references stretch 7 writes. -/
private abbrev wr7 : List (Ref sig .tc) := [main_v22, main_v23, main_cst_6, main_v24, main_v25, main_v26, main_cst_7]

private theorem sub7 : (hostOps0_7 : List (HloOp τ sig (Elt Ideal))).Forall fun op => op.writes ⊆ (wr7.map (Proc.devRef (τ := τ) .tc)).toFinset := by
  simp only [hostOps0_7, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 7 does not write holds after it what it held before. -/
private theorem step7 (c : Dev nD) (r : Ref sig .tc) (hr : r ∉ wr7) :
    Gen.W8 m ρ c (Proc.devRef .tc r) = Gen.W7 m ρ c (Proc.devRef .tc r) :=
  StableHlo.after_of_writes_sub _ _ sub7 hr

/-- The references stretch 8 writes. -/
private abbrev wr8 : List (Ref sig .tc) := [main_call4_v0, main_call4_v1, main_v27]

private theorem sub8 : (hostOps0_8 : List (HloOp τ sig (Elt Ideal))).Forall fun op => op.writes ⊆ (wr8.map (Proc.devRef (τ := τ) .tc)).toFinset := by
  simp only [hostOps0_8, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 8 does not write holds after it what it held before. -/
private theorem step8 (c : Dev nD) (r : Ref sig .tc) (hr : r ∉ wr8) :
    Gen.W9 m ρ c (Proc.devRef .tc r) = Gen.W8 m ρ c (Proc.devRef .tc r) :=
  StableHlo.after_of_writes_sub _ _ sub8 hr

/-- The references stretch 9 writes. -/
private abbrev wr9 : List (Ref sig .tc) := [main_v28, main_v29, main_v30, main_v31, main_cst_8, main_v32, main_v33, main_v34, main_cst_9]

private theorem sub9 : (hostOps0_9 : List (HloOp τ sig (Elt Ideal))).Forall fun op => op.writes ⊆ (wr9.map (Proc.devRef (τ := τ) .tc)).toFinset := by
  simp only [hostOps0_9, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 9 does not write holds after it what it held before. -/
private theorem step9 (c : Dev nD) (r : Ref sig .tc) (hr : r ∉ wr9) :
    Gen.W10 m ρ c (Proc.devRef .tc r) = Gen.W9 m ρ c (Proc.devRef .tc r) :=
  StableHlo.after_of_writes_sub _ _ sub9 hr

/-- The references stretch 10 writes. -/
private abbrev wr10 : List (Ref sig .tc) := [main_call5_v0, main_call5_v1, main_v35]

private theorem sub10 : (hostOps0_10 : List (HloOp τ sig (Elt Ideal))).Forall fun op => op.writes ⊆ (wr10.map (Proc.devRef (τ := τ) .tc)).toFinset := by
  simp only [hostOps0_10, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 10 does not write holds after it what it held before. -/
private theorem step10 (c : Dev nD) (r : Ref sig .tc) (hr : r ∉ wr10) :
    Gen.W11 m ρ c (Proc.devRef .tc r) = Gen.W10 m ρ c (Proc.devRef .tc r) :=
  StableHlo.after_of_writes_sub _ _ sub10 hr

/-- The references stretch 11 writes. -/
private abbrev wr11 : List (Ref sig .tc) := [main_v36, main_v37, main_cst_10, main_v38, main_v39, main_v40, main_cst_11]

private theorem sub11 : (hostOps0_11 : List (HloOp τ sig (Elt Ideal))).Forall fun op => op.writes ⊆ (wr11.map (Proc.devRef (τ := τ) .tc)).toFinset := by
  simp only [hostOps0_11, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 11 does not write holds after it what it held before. -/
private theorem step11 (c : Dev nD) (r : Ref sig .tc) (hr : r ∉ wr11) :
    Gen.W12 m ρ c (Proc.devRef .tc r) = Gen.W11 m ρ c (Proc.devRef .tc r) :=
  StableHlo.after_of_writes_sub _ _ sub11 hr

/-- The references stretch 12 writes. -/
private abbrev wr12 : List (Ref sig .tc) := [main_call6_v0, main_call6_v1, main_v41]

private theorem sub12 : (hostOps0_12 : List (HloOp τ sig (Elt Ideal))).Forall fun op => op.writes ⊆ (wr12.map (Proc.devRef (τ := τ) .tc)).toFinset := by
  simp only [hostOps0_12, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 12 does not write holds after it what it held before. -/
private theorem step12 (c : Dev nD) (r : Ref sig .tc) (hr : r ∉ wr12) :
    Gen.W13 m ρ c (Proc.devRef .tc r) = Gen.W12 m ρ c (Proc.devRef .tc r) :=
  StableHlo.after_of_writes_sub _ _ sub12 hr

/-- The references stretch 14 writes. -/
private abbrev wr14 : List (Ref sig .tc) := [main_call7_v0, main_call7_v1, main_v49]

private theorem sub14 : (hostOps0_14 : List (HloOp τ sig (Elt Ideal))).Forall fun op => op.writes ⊆ (wr14.map (Proc.devRef (τ := τ) .tc)).toFinset := by
  simp only [hostOps0_14, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 14 does not write holds after it what it held before. -/
private theorem step14 (c : Dev nD) (r : Ref sig .tc) (hr : r ∉ wr14) :
    Gen.W15 m ρ c (Proc.devRef .tc r) = Gen.W14 m ρ c (Proc.devRef .tc r) :=
  StableHlo.after_of_writes_sub _ _ sub14 hr

/-- The references stretch 15 writes. -/
private abbrev wr15 : List (Ref sig .tc) := [main_v50, main_v51, main_cst_14, main_v52, main_v53, main_v54, main_cst_15]

private theorem sub15 : (hostOps0_15 : List (HloOp τ sig (Elt Ideal))).Forall fun op => op.writes ⊆ (wr15.map (Proc.devRef (τ := τ) .tc)).toFinset := by
  simp only [hostOps0_15, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 15 does not write holds after it what it held before. -/
private theorem step15 (c : Dev nD) (r : Ref sig .tc) (hr : r ∉ wr15) :
    Gen.W16 m ρ c (Proc.devRef .tc r) = Gen.W15 m ρ c (Proc.devRef .tc r) :=
  StableHlo.after_of_writes_sub _ _ sub15 hr

/-- The references stretch 16 writes. -/
private abbrev wr16 : List (Ref sig .tc) := [main_call8_v0, main_call8_v1, main_v55]

private theorem sub16 : (hostOps0_16 : List (HloOp τ sig (Elt Ideal))).Forall fun op => op.writes ⊆ (wr16.map (Proc.devRef (τ := τ) .tc)).toFinset := by
  simp only [hostOps0_16, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 16 does not write holds after it what it held before. -/
private theorem step16 (c : Dev nD) (r : Ref sig .tc) (hr : r ∉ wr16) :
    Gen.W17 m ρ c (Proc.devRef .tc r) = Gen.W16 m ρ c (Proc.devRef .tc r) :=
  StableHlo.after_of_writes_sub _ _ sub16 hr

/-- The references stretch 17 writes. -/
private abbrev wr17 : List (Ref sig .tc) := [main_v56, main_v57]

private theorem sub17 : (hostOps0_17 : List (HloOp τ sig (Elt Ideal))).Forall fun op => op.writes ⊆ (wr17.map (Proc.devRef (τ := τ) .tc)).toFinset := by
  simp only [hostOps0_17, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 17 does not write holds after it what it held before. -/
private theorem step17 (c : Dev nD) (r : Ref sig .tc) (hr : r ∉ wr17) :
    Gen.W18 m ρ c (Proc.devRef .tc r) = Gen.W17 m ρ c (Proc.devRef .tc r) :=
  StableHlo.after_of_writes_sub _ _ sub17 hr

/-! ## The count of a row's ids at a node, off the accumulating scatter of ones -/

/-- Row r of a [4, 500000] id array, flattened and stood up as a column, read at edge e. -/
private theorem idcol_apply (o : Nat) (r : Fin 4) (hr : r.val = o) (hs : S4x500000.Slices ![o, 0] S1x500000)
    (a : IVec S4x500000 32) (e : Fin 500000) :
    broadcastInDim S500000x1 ![0] bcast_S500000_S500000x1_0
        (shapeCast S500000 (extractStridedSlice S1x500000 ![o, 0] a hs) shapeCasts_S1x500000_S500000) (ix2 e 0)
      = a (ix2 r e) := by
  refine (broadcastInDim_apply _ _ _ (ix2 e 0) (ix1 e) (fun x => match x with | ⟨0, _⟩ => rfl)).trans ?_
  refine (shapeCast_apply _ _ (ix1 e) (ix2 (0 : Fin 1) e) (by
    rw [Shape.rowMajor_val_two, Shape.rowMajor_val_one]; show 0 * 500000 + e.val = e.val; omega)).trans ?_
  exact slice2_axis0_apply o a hs (0 : Fin 1) e r (by rw [hr]; rfl)

/-- The accumulating scatter of ones into zeros by row r of an id array, read at node n: one for every edge of the
    row whose id is n. -/
private theorem count_apply (o : Nat) (r : Fin 4) (hr : r.val = o) (hs : S4x500000.Slices ![o, 0] S1x500000)
    (a : IVec S4x500000 32) (u : FVec Ideal S500000 .f32) (hu : ∀ e : Fin 500000, u (ix1 e) = Spec.one) (n : Fin 100000) :
    Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        u (ix1 n)
      = ∑ e : Fin 500000, if Spec.Hits (Spec.wd2 a r) e n then Spec.one else 0 := by
  have hd : scatter_S100000_S500000x1_S500000_n_0_0_1
      = Cert.HostOps.seg1Dims 100000 500000 scatter_S100000_S500000x1_S500000_n_0_0_1_wf := rfl
  rw [hd, Cert.HostOps.scatterAdd_elems, broadcastInDim_scalar_apply, constant_apply, Ideal.ofBits_zero_f32, zero_add]
  refine Finset.sum_congr rfl fun e _ => ?_
  rw [idcol_apply o r hr hs a e, hu e]
  rfl

/-- The host's reciprocal square root at an index is the extended reals' reciprocal square root of the element. -/
private theorem hostRsqrt_apply {s : Shape} {φ : FTy} (x : FVec Ideal s φ) (i : s.Idx) :
    Host.rsqrt x i = Ideal.rsqrt (x i) := rfl

/-- The degree factors as the host computes them from a [4, 500000] id array: the count of row o's ids at each node,
    clipped below at one, under the reciprocal square root. -/
private def degOf (o : Nat) (hs : S4x500000.Slices ![o, 0] S1x500000) (a : IVec S4x500000 32) : FVec Ideal S100000 .f32 :=
  Host.rsqrt (F := Ideal) (φ := .f32)
    (maximumf (F := Ideal) (φ := .f32) (broadcastInDim S100000 ![] bcast_S_S100000 (constant (F := Ideal) S_ .f32 0x3F800000#32))
      (Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        (broadcastInDim S500000 ![] bcast_S_S500000 (constant (F := Ideal) S_ .f32 0x3F800000#32))))

/-- Read at a node it is the specification's degree factor of the row. -/
private theorem degOf_apply (o : Nat) (r : Fin 4) (hr : r.val = o) (hs : S4x500000.Slices ![o, 0] S1x500000)
    (a : IVec S4x500000 32) (n : Fin 100000) : degOf o hs a (ix1 n) = Spec.deg (Spec.wd2 a r) n := by
  unfold degOf
  rw [hostRsqrt_apply, maximumf_apply, broadcastInDim_scalar_apply, constant_apply,
    count_apply o r hr hs a _ (fun e => rfl) n]
  rfl

/-! ## Relation 2: the two degree factors as arrays -/

/-- Stretch 1 leaves ones in main_v1. -/
private theorem s1_v1 (V : Valuation τ sig (Elt Ideal)) :
    (StableHlo.after hostOps0_1 V (Proc.devRef .tc main_v1) : FVec Ideal S500000 .f32)
      = broadcastInDim S500000 ![] bcast_S_S500000 (constant (F := Ideal) S_ .f32 0x3F800000#32) := by
  simp only [hostOps0_1]
  after_results

/-- Stretch 9 leaves in main_v34 the scatter of what main_v1 holds by row 2 of what main_arg1 holds … -/
private theorem s9_v34 (V : Valuation τ sig (Elt Ideal)) :
    (StableHlo.after hostOps0_9 V (Proc.devRef .tc main_v34) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![2, 0] (V (Proc.devRef .tc main_arg1) : IVec S4x500000 32) slices_S4x500000_S1x500000_2_0) shapeCasts_S1x500000_S500000))
          (V (Proc.devRef .tc main_v1) : FVec Ideal S500000 .f32) := by
  simp only [hostOps0_9]
  after_results
  rfl

/-- … and a one in main_cst_9. -/
private theorem s9_cst (V : Valuation τ sig (Elt Ideal)) :
    (StableHlo.after hostOps0_9 V (Proc.devRef .tc main_cst_9) : FVec Ideal S_ .f32) = constant (F := Ideal) S_ .f32 0x3F800000#32 := by
  simp only [hostOps0_9]
  after_results

/-- Stretch 10 clips main_v34 below at main_cst_9 into main_v35. -/
private theorem s10_v35 (V : Valuation τ sig (Elt Ideal)) :
    (StableHlo.after hostOps0_10 V (Proc.devRef .tc main_v35) : FVec Ideal S100000 .f32)
      = maximumf (F := Ideal) (s := S100000) (φ := .f32) (broadcastInDim S100000 ![] bcast_S_S100000 (V (Proc.devRef .tc main_cst_9) : FVec Ideal S_ .f32)) (V (Proc.devRef .tc main_v34) : FVec Ideal S100000 .f32) := by
  simp only [hostOps0_10]
  after_results
  rfl

/-- Stretch 13 takes the reciprocal square root of main_v35 into main_v42. -/
private theorem s13_v42 (V : Valuation τ sig (Elt Ideal)) :
    (StableHlo.after hostOps0_13 V (Proc.devRef .tc main_v42) : FVec Ideal S100000 .f32)
      = Host.rsqrt (F := Ideal) (s := S100000) (φ := .f32) (V (Proc.devRef .tc main_v35) : FVec Ideal S100000 .f32) := by
  simp only [hostOps0_13]
  after_results

/-- main_v42 at the first region's entry is the degree array of row 2 of the launch's main_arg1. -/
private theorem v42_W18 (c : Dev nD) :
    Gen.W18 m ρ c (Proc.devRef .tc main_v42) = degOf 2 slices_S4x500000_S1x500000_2_0 (m ((c : Thread nD τ).loc main_arg1)) := by
  have harg : Gen.W9 m ρ c (Proc.devRef .tc main_arg1) = m ((c : Thread nD τ).loc main_arg1) :=
    (step8 m ρ c _ (by decide)).trans <| (step7 m ρ c _ (by decide)).trans <| (step6 m ρ c _ (by decide)).trans <| (step5 m ρ c _ (by decide)).trans <| (step4 m ρ c _ (by decide)).trans <| (step3 m ρ c _ (by decide)).trans <| (step2 m ρ c _ (by decide)).trans <| (step1 m ρ c _ (by decide)).trans <| (step0 m ρ c _ (by decide))
  have h1 : Gen.W2 m ρ c (Proc.devRef .tc main_v1) = _ := s1_v1 (Gen.W1 m ρ c)
  have hcar1 : Gen.W9 m ρ c (Proc.devRef .tc main_v1) = Gen.W2 m ρ c (Proc.devRef .tc main_v1) :=
    (step8 m ρ c _ (by decide)).trans <| (step7 m ρ c _ (by decide)).trans <| (step6 m ρ c _ (by decide)).trans <| (step5 m ρ c _ (by decide)).trans <| (step4 m ρ c _ (by decide)).trans <| (step3 m ρ c _ (by decide)).trans <| (step2 m ρ c _ (by decide))
  have hs : Gen.W10 m ρ c (Proc.devRef .tc main_v34) = _ := s9_v34 (Gen.W9 m ρ c)
  have hc : Gen.W10 m ρ c (Proc.devRef .tc main_cst_9) = _ := s9_cst (Gen.W9 m ρ c)
  have hm : Gen.W11 m ρ c (Proc.devRef .tc main_v35) = _ := s10_v35 (Gen.W10 m ρ c)
  have hcarm : Gen.W13 m ρ c (Proc.devRef .tc main_v35) = Gen.W11 m ρ c (Proc.devRef .tc main_v35) :=
    (step12 m ρ c _ (by decide)).trans <| (step11 m ρ c _ (by decide))
  have ho : Gen.W14 m ρ c (Proc.devRef .tc main_v42) = _ := s13_v42 (Gen.W13 m ρ c)
  have hcar : Gen.W18 m ρ c (Proc.devRef .tc main_v42) = Gen.W14 m ρ c (Proc.devRef .tc main_v42) :=
    (step17 m ρ c _ (by decide)).trans <| (step16 m ρ c _ (by decide)).trans <| (step15 m ρ c _ (by decide)).trans <| (step14 m ρ c _ (by decide))
  unfold degOf
  rw [hcar, ho, hcarm, hm, hc, hs, harg, hcar1, h1]

/-- Stretch 11 leaves in main_v40 the scatter of what main_v1 holds by row 2 of what main_arg2 holds … -/
private theorem s11_v40 (V : Valuation τ sig (Elt Ideal)) :
    (StableHlo.after hostOps0_11 V (Proc.devRef .tc main_v40) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![2, 0] (V (Proc.devRef .tc main_arg2) : IVec S4x500000 32) slices_S4x500000_S1x500000_2_0) shapeCasts_S1x500000_S500000))
          (V (Proc.devRef .tc main_v1) : FVec Ideal S500000 .f32) := by
  simp only [hostOps0_11]
  after_results
  rfl

/-- … and a one in main_cst_11. -/
private theorem s11_cst (V : Valuation τ sig (Elt Ideal)) :
    (StableHlo.after hostOps0_11 V (Proc.devRef .tc main_cst_11) : FVec Ideal S_ .f32) = constant (F := Ideal) S_ .f32 0x3F800000#32 := by
  simp only [hostOps0_11]
  after_results

/-- Stretch 12 clips main_v40 below at main_cst_11 into main_v41. -/
private theorem s12_v41 (V : Valuation τ sig (Elt Ideal)) :
    (StableHlo.after hostOps0_12 V (Proc.devRef .tc main_v41) : FVec Ideal S100000 .f32)
      = maximumf (F := Ideal) (s := S100000) (φ := .f32) (broadcastInDim S100000 ![] bcast_S_S100000 (V (Proc.devRef .tc main_cst_11) : FVec Ideal S_ .f32)) (V (Proc.devRef .tc main_v40) : FVec Ideal S100000 .f32) := by
  simp only [hostOps0_12]
  after_results
  rfl

/-- Stretch 13 takes the reciprocal square root of main_v41 into main_v43. -/
private theorem s13_v43 (V : Valuation τ sig (Elt Ideal)) :
    (StableHlo.after hostOps0_13 V (Proc.devRef .tc main_v43) : FVec Ideal S100000 .f32)
      = Host.rsqrt (F := Ideal) (s := S100000) (φ := .f32) (V (Proc.devRef .tc main_v41) : FVec Ideal S100000 .f32) := by
  simp only [hostOps0_13]
  after_results

/-- main_v43 at the first region's entry is the degree array of row 2 of the launch's main_arg2. -/
private theorem v43_W18 (c : Dev nD) :
    Gen.W18 m ρ c (Proc.devRef .tc main_v43) = degOf 2 slices_S4x500000_S1x500000_2_0 (m ((c : Thread nD τ).loc main_arg2)) := by
  have harg : Gen.W11 m ρ c (Proc.devRef .tc main_arg2) = m ((c : Thread nD τ).loc main_arg2) :=
    (step10 m ρ c _ (by decide)).trans <| (step9 m ρ c _ (by decide)).trans <| (step8 m ρ c _ (by decide)).trans <| (step7 m ρ c _ (by decide)).trans <| (step6 m ρ c _ (by decide)).trans <| (step5 m ρ c _ (by decide)).trans <| (step4 m ρ c _ (by decide)).trans <| (step3 m ρ c _ (by decide)).trans <| (step2 m ρ c _ (by decide)).trans <| (step1 m ρ c _ (by decide)).trans <| (step0 m ρ c _ (by decide))
  have h1 : Gen.W2 m ρ c (Proc.devRef .tc main_v1) = _ := s1_v1 (Gen.W1 m ρ c)
  have hcar1 : Gen.W11 m ρ c (Proc.devRef .tc main_v1) = Gen.W2 m ρ c (Proc.devRef .tc main_v1) :=
    (step10 m ρ c _ (by decide)).trans <| (step9 m ρ c _ (by decide)).trans <| (step8 m ρ c _ (by decide)).trans <| (step7 m ρ c _ (by decide)).trans <| (step6 m ρ c _ (by decide)).trans <| (step5 m ρ c _ (by decide)).trans <| (step4 m ρ c _ (by decide)).trans <| (step3 m ρ c _ (by decide)).trans <| (step2 m ρ c _ (by decide))
  have hs : Gen.W12 m ρ c (Proc.devRef .tc main_v40) = _ := s11_v40 (Gen.W11 m ρ c)
  have hc : Gen.W12 m ρ c (Proc.devRef .tc main_cst_11) = _ := s11_cst (Gen.W11 m ρ c)
  have hm : Gen.W13 m ρ c (Proc.devRef .tc main_v41) = _ := s12_v41 (Gen.W12 m ρ c)
  have ho : Gen.W14 m ρ c (Proc.devRef .tc main_v43) = _ := s13_v43 (Gen.W13 m ρ c)
  have hcar : Gen.W18 m ρ c (Proc.devRef .tc main_v43) = Gen.W14 m ρ c (Proc.devRef .tc main_v43) :=
    (step17 m ρ c _ (by decide)).trans <| (step16 m ρ c _ (by decide)).trans <| (step15 m ρ c _ (by decide)).trans <| (step14 m ρ c _ (by decide))
  unfold degOf
  rw [hcar, ho, hm, hc, hs, harg, hcar1, h1]

/-! ## The two factors at a node -/

/-- The degree factor of relation 2's source column. -/
theorem deg_v42 (c : Dev nD) (n : Fin 100000) :
    Spec.rd1 (Gen.W18 m ρ c (Proc.devRef .tc main_v42)) n = Spec.deg (Spec.wd2 (m ((c : Thread nD τ).loc main_arg1)) (2 : Fin 4)) n := by
  rw [v42_W18]
  exact degOf_apply 2 (2 : Fin 4) rfl _ _ n

/-- The degree factor of relation 2's destination column. -/
theorem deg_v43 (c : Dev nD) (n : Fin 100000) :
    Spec.rd1 (Gen.W18 m ρ c (Proc.devRef .tc main_v43)) n = Spec.deg (Spec.wd2 (m ((c : Thread nD τ).loc main_arg2)) (2 : Fin 4)) n := by
  rw [v43_W18]
  exact degOf_apply 2 (2 : Fin 4) rfl _ _ n

end Cert.KernelIdeal.KV

end
-- ==== Proof.KAgg1c.lean ====
/-
Layer 1, relation 2: the gather of the weighted features' rows by source, the scaling by the source's factor, the accumulating scatter by destination and the scaling by the destination's factor.

The relation's result buffer is followed back through the host operations between the weight region and the combining
region, one run of operations at a time and at any contents of the buffers: a run leaves a buffer it does not write as
it found it, and a buffer it writes at the operations' term of the buffers it reads. Chained, the runs give the result
buffer as the relation's term of what the weight region left: relation 2's slices of the stacked weighted features and
ids, and relation 2's two degree factors. That term, read at one entry with every source id a node id, is the
specification's aggregate.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Agg1c

/-! ## Contents at a typed reference

The operations of a called function read and write their buffers through references that carry the tensor's type:
contents are moved to the buffer's own type and back along an equation of types, which changes nothing. -/

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

/-- Where a called function's operations meet the main function's buffers the move is the identity. -/
theorem toBuf_v99 (h1 h2 h3) (v : (⟨S500000x128, .f32⟩ : BufTy).Contents (Elt Ideal)) :
    (StableHlo.TRef.of (T := ⟨S500000x128, .f32⟩) main_v99 h1 h2 h3).toBuf v = v := rfl
theorem toBuf_v100 (h1 h2 h3) (v : (⟨S500000, .f32⟩ : BufTy).Contents (Elt Ideal)) :
    (StableHlo.TRef.of (T := ⟨S500000, .f32⟩) main_v100 h1 h2 h3).toBuf v = v := rfl
theorem ofBuf_v94 (h1 h2 h3) (v : main_v94.ty.Contents (Elt Ideal)) :
    (StableHlo.TRef.of (T := ⟨S100000x128, .f32⟩) main_v94 h1 h2 h3).ofBuf v = v := rfl
theorem ofBuf_v96 (h1 h2 h3) (v : main_v96.ty.Contents (Elt Ideal)) :
    (StableHlo.TRef.of (T := ⟨S500000, .i32⟩) main_v96 h1 h2 h3).ofBuf v = v := rfl
theorem ofBuf_v42 (h1 h2 h3) (v : main_v42.ty.Contents (Elt Ideal)) :
    (StableHlo.TRef.of (T := ⟨S100000, .f32⟩) main_v42 h1 h2 h3).ofBuf v = v := rfl

/-! ## The relation's term, cut after the two gathers -/

/-- The edges' rows times their factors, added into the destinations' rows from zero, each row times its node's factor:
    the relation's aggregate with the gathered rows and factors as given. -/
def relTail (rows : FVec Ideal S500000x128 .f32) (fac : FVec Ideal S500000 .f32) (d : IVec S500000 32)
    (gi : FVec Ideal S100000 .f32) : FVec Ideal S100000x128 .f32 :=
  mulf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 d)
      (mulf rows
        (broadcastInDim S500000x128 ![0, 1] bcast_S500000x1_S500000x128_0_1
          (broadcastInDim S500000x1 ![0] bcast_S500000_S500000x1_0 fac))))
    (broadcastInDim S100000x128 ![0, 1] bcast_S100000x1_S100000x128_0_1
      (broadcastInDim S100000x1 ![0] bcast_S100000_S100000x1_0 gi))

theorem relAgg_eq_tail (z : FVec Ideal S100000x128 .f32) (s d : IVec S500000 32) (go gi : FVec Ideal S100000 .f32) :
    Rel.relAgg z s d go gi = relTail (Rel.takeRows z s) (Rel.takeElems go s) d gi := rfl

section Stretches

/-! ## The host stretches between the weight region and the combining region, at any contents

Each lemma reads one buffer after a run of host operations from contents `V`: a buffer the operations do not write keeps
what it held, and a buffer they write holds the operations' term of the buffers they read. -/

variable (V : Valuation τ sig (Elt Ideal))

/-- The stacked weighted features are not written before relation 2's slices are taken. -/
theorem keep_v58 : StableHlo.after hostOps1_5 (StableHlo.after hostOps1_4 (StableHlo.after hostOps1_3 (StableHlo.after hostOps1_2 (StableHlo.after hostOps1_1 (StableHlo.after hostOps1 (V)))))) (Proc.devRef .tc main_v58) = V (Proc.devRef .tc main_v58) := by
  simp only [hostOps1_5, hostOps1_4, hostOps1_3, hostOps1_2, hostOps1_1, hostOps1]
  after_results_simp

/-- The stacked source ids are not written before relation 2's slices are taken. -/
theorem keep_arg1 : StableHlo.after hostOps1_5 (StableHlo.after hostOps1_4 (StableHlo.after hostOps1_3 (StableHlo.after hostOps1_2 (StableHlo.after hostOps1_1 (StableHlo.after hostOps1 (V)))))) (Proc.devRef .tc main_arg1) = V (Proc.devRef .tc main_arg1) := by
  simp only [hostOps1_5, hostOps1_4, hostOps1_3, hostOps1_2, hostOps1_1, hostOps1]
  after_results_simp

/-- The stacked destination ids are not written before relation 2's slices are taken. -/
theorem keep_arg2 : StableHlo.after hostOps1_5 (StableHlo.after hostOps1_4 (StableHlo.after hostOps1_3 (StableHlo.after hostOps1_2 (StableHlo.after hostOps1_1 (StableHlo.after hostOps1 (V)))))) (Proc.devRef .tc main_arg2) = V (Proc.devRef .tc main_arg2) := by
  simp only [hostOps1_5, hostOps1_4, hostOps1_3, hostOps1_2, hostOps1_1, hostOps1]
  after_results_simp

/-- Relation 2's source factors are not written before the gather that reads them. -/
theorem keep_v42 : StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (V)))))))) (Proc.devRef .tc main_v42) = V (Proc.devRef .tc main_v42) := by
  simp only [hostOps1_7, hostOps1_6, hostOps1_5, hostOps1_4, hostOps1_3, hostOps1_2, hostOps1_1, hostOps1]
  after_results_simp

/-- Relation 2's destination factors are not written before the product that reads them. -/
theorem keep_v43 : StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (V))))))))) (Proc.devRef .tc main_v43) = V (Proc.devRef .tc main_v43) := by
  simp only [hostOps1_8, hostOps1_7, hostOps1_6, hostOps1_5, hostOps1_4, hostOps1_3, hostOps1_2, hostOps1_1, hostOps1]
  after_results_simp

/-- The gather of rows does not write the source ids. -/
theorem keep_v96 : StableHlo.after hostOps1_7 (V) (Proc.devRef .tc main_v96) = V (Proc.devRef .tc main_v96) := by
  simp only [hostOps1_7]
  after_results_simp

/-- The two gathers do not write the destination ids. -/
theorem keep_v98 : StableHlo.after hostOps1_8 (StableHlo.after hostOps1_7 (V)) (Proc.devRef .tc main_v98) = V (Proc.devRef .tc main_v98) := by
  simp only [hostOps1_8, hostOps1_7]
  after_results_simp

/-- The gather of factors does not write the gathered rows. -/
theorem keep_v99 : StableHlo.after hostOps1_8 (V) (Proc.devRef .tc main_v99) = V (Proc.devRef .tc main_v99) := by
  simp only [hostOps1_8]
  after_results_simp

/-- Relation 3's operations and the bias row do not write relation 2's aggregate. -/
theorem keep_v109 : StableHlo.after hostOps1_12 (StableHlo.after hostOps1_11 (StableHlo.after hostOps1_10 (V))) (Proc.devRef .tc main_v109) = V (Proc.devRef .tc main_v109) := by
  simp only [hostOps1_12, hostOps1_11, hostOps1_10]
  after_results_simp

/-- Relation 2's rows of the stacked weighted features. -/
theorem slice_v94 : StableHlo.after hostOps1_6 V (Proc.devRef .tc main_v94) =
    shapeCast S100000x128 (extractStridedSlice S1x100000x128 ![2, 0, 0] (V (Proc.devRef .tc main_v58)) slices_S4x100000x128_S1x100000x128_2_0_0) shapeCasts_S1x100000x128_S100000x128 := by
  simp only [hostOps1_6]
  after_results_simp
  rfl

/-- Relation 2's source ids. -/
theorem slice_v96 : StableHlo.after hostOps1_6 V (Proc.devRef .tc main_v96) =
    shapeCast S500000 (extractStridedSlice S1x500000 ![2, 0] (V (Proc.devRef .tc main_arg1)) slices_S4x500000_S1x500000_2_0) shapeCasts_S1x500000_S500000 := by
  simp only [hostOps1_6]
  after_results_simp
  rfl

/-- Relation 2's destination ids. -/
theorem slice_v98 : StableHlo.after hostOps1_6 V (Proc.devRef .tc main_v98) =
    shapeCast S500000 (extractStridedSlice S1x500000 ![2, 0] (V (Proc.devRef .tc main_arg2)) slices_S4x500000_S1x500000_2_0) shapeCasts_S1x500000_S500000 := by
  simp only [hostOps1_6]
  after_results_simp
  rfl

/-- The gathered rows: for every edge the row its source id addresses. -/
theorem rows_v99 : StableHlo.after hostOps1_7 V (Proc.devRef .tc main_v99) =
    Rel.takeRows (V (Proc.devRef .tc main_v94)) (V (Proc.devRef .tc main_v96)) := by
  simp only [hostOps1_7]
  after_results_simp
  simp only [ofBuf_toBuf, toBuf_v99, ofBuf_v94, ofBuf_v96]
  rfl

/-- The gathered factors: for every edge the factor its source id addresses. -/
theorem elems_v100 : StableHlo.after hostOps1_8 V (Proc.devRef .tc main_v100) =
    Rel.takeElems (V (Proc.devRef .tc main_v42)) (V (Proc.devRef .tc main_v96)) := by
  simp only [hostOps1_8]
  after_results_simp
  simp only [ofBuf_toBuf, toBuf_v100, ofBuf_v42, ofBuf_v96]
  rfl

/-- The products added into the destinations' rows from zero, each row times its node's factor. -/
theorem tail_v109 : StableHlo.after hostOps1_9 V (Proc.devRef .tc main_v109) =
    relTail (V (Proc.devRef .tc main_v99)) (V (Proc.devRef .tc main_v100)) (V (Proc.devRef .tc main_v98))
      (V (Proc.devRef .tc main_v43)) := by
  simp only [hostOps1_9]
  after_results_simp
  rfl

end Stretches

/-! ## The aggregate buffer at the combining region's entry -/

/-- Relation 2's aggregate buffer at the combining region's entry is the relation's term of the buffers the weight
    region left: relation 2's slices of the stacked features and ids, and its two degree factors. -/
theorem read_v109 (c : Dev nD) :
    Gen.W32 m ρ c (Proc.devRef .tc main_v109) =
      Rel.relAgg
        (shapeCast S100000x128 (extractStridedSlice S1x100000x128 ![2, 0, 0] (Gen.W19 m ρ c (Proc.devRef .tc main_v58)) slices_S4x100000x128_S1x100000x128_2_0_0) shapeCasts_S1x100000x128_S100000x128)
        (shapeCast S500000 (extractStridedSlice S1x500000 ![2, 0] (Gen.W19 m ρ c (Proc.devRef .tc main_arg1)) slices_S4x500000_S1x500000_2_0) shapeCasts_S1x500000_S500000)
        (shapeCast S500000 (extractStridedSlice S1x500000 ![2, 0] (Gen.W19 m ρ c (Proc.devRef .tc main_arg2)) slices_S4x500000_S1x500000_2_0) shapeCasts_S1x500000_S500000)
        (Gen.W19 m ρ c (Proc.devRef .tc main_v42)) (Gen.W19 m ρ c (Proc.devRef .tc main_v43)) := by
  dsimp only [Gen.W32, Gen.W31, Gen.W30, Gen.W29, Gen.W28, Gen.W27, Gen.W26, Gen.W25, Gen.W24, Gen.W23, Gen.W22, Gen.W21, Gen.W20]
  rw [keep_v109, tail_v109, keep_v43, keep_v98, slice_v98, keep_arg2, keep_v99, rows_v99, elems_v100, keep_v42, keep_v96,
    slice_v94, keep_v58, slice_v96, keep_arg1, relAgg_eq_tail]

end Agg1c

/-- Relation 2's aggregate: every edge carries its source's row of the weighted features times the source's factor; a
    node sums what arrives and scales by its own factor. -/
theorem agg_v109 (c : Dev nD) (hs : ∀ e : Fin 500000, Spec.IsNode (Spec.wd2 (Gen.W19 m ρ c (Proc.devRef .tc main_arg1)) (2 : Fin 4) e))
    (n : Fin 100000) (j : Fin 128) :
    Spec.rd2 (Gen.W32 m ρ c (Proc.devRef .tc main_v109)) n j =
      Spec.aggG (Spec.rd3 (Gen.W19 m ρ c (Proc.devRef .tc main_v58)) (2 : Fin 4)) (Spec.rd1 (Gen.W19 m ρ c (Proc.devRef .tc main_v42))) (Spec.rd1 (Gen.W19 m ρ c (Proc.devRef .tc main_v43)))
        (Spec.wd2 (Gen.W19 m ρ c (Proc.devRef .tc main_arg1)) (2 : Fin 4)) (Spec.wd2 (Gen.W19 m ρ c (Proc.devRef .tc main_arg2)) (2 : Fin 4)) n j := by
  refine (congrFun (Agg1c.read_v109 m ρ c) (ix2 n j)).trans ?_
  exact Rel.relAgg_slices (Gen.W19 m ρ c (Proc.devRef .tc main_v58)) (Gen.W19 m ρ c (Proc.devRef .tc main_arg1))
    (Gen.W19 m ρ c (Proc.devRef .tc main_arg2)) (Gen.W19 m ρ c (Proc.devRef .tc main_v42)) (Gen.W19 m ρ c (Proc.devRef .tc main_v43))
    (2 : Fin 4) ![2, 0, 0] rfl slices_S4x100000x128_S1x100000x128_2_0_0 shapeCasts_S1x100000x128_S100000x128
    ![2, 0] rfl slices_S4x500000_S1x500000_2_0 shapeCasts_S1x500000_S500000 hs n j

end Cert.KernelIdeal.KV

end
-- ==== Proof.KAgg3c.lean ====
/-
Layer 2, relation 2: the gather of the weighted hidden features' rows by source, the scaling by the source's factor, the accumulating scatter by destination and the scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Agg3c

/-! ## Contents at a typed reference

The two gathers are called functions: their operations read and write their buffers through references that carry the
tensor's type, and the contents are moved to the buffer's own type and back along an equation of types, which changes
nothing. -/

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

/-- Where a gather hands its result to the relation's own operations the move is the identity: the gathered rows, -/
theorem toBuf_v171 (h1 h2 h3) (v : (⟨S500000x128, .f32⟩ : BufTy).Contents (Elt Ideal)) :
    (StableHlo.TRef.of (T := ⟨S500000x128, .f32⟩) main_v171 h1 h2 h3).toBuf v = v := rfl
/-- and the gathered factors. -/
theorem toBuf_v172 (h1 h2 h3) (v : (⟨S500000, .f32⟩ : BufTy).Contents (Elt Ideal)) :
    (StableHlo.TRef.of (T := ⟨S500000, .f32⟩) main_v172 h1 h2 h3).toBuf v = v := rfl
/-- Where a gather takes an argument from the relation's own operations it is the identity too: the source ids, -/
theorem ofBuf_v168 (h1 h2 h3) (v : main_v168.ty.Contents (Elt Ideal)) :
    (StableHlo.TRef.of (T := ⟨S500000, .i32⟩) main_v168 h1 h2 h3).ofBuf v = v := rfl
/-- the relation's rows of the weighted features, -/
theorem ofBuf_v166 (h1 h2 h3) (v : main_v166.ty.Contents (Elt Ideal)) :
    (StableHlo.TRef.of (T := ⟨S100000x128, .f32⟩) main_v166 h1 h2 h3).ofBuf v = v := rfl
/-- and the sources' degree factors. -/
theorem ofBuf_v42 (h1 h2 h3) (v : main_v42.ty.Contents (Elt Ideal)) :
    (StableHlo.TRef.of (T := ⟨S100000, .f32⟩) main_v42 h1 h2 h3).ofBuf v = v := rfl

set_option maxHeartbeats 40000000 in
/-- The second layer's host operations, run in order from any contents of the buffers, leave in relation 2's result
    buffer the relation's aggregate of relation 2's slices of the stacked weighted features and ids and of its two
    degree factors: every operation is read at its own result buffer and passed over at every other. -/
theorem v181_of (V : Valuation τ sig (Elt Ideal)) :
    (StableHlo.after (hostOps3_12 (F := Ideal)) (StableHlo.after (hostOps3_11 (F := Ideal)) (StableHlo.after (hostOps3_10 (F := Ideal)) (StableHlo.after (hostOps3_9 (F := Ideal)) (StableHlo.after (hostOps3_8 (F := Ideal)) (StableHlo.after (hostOps3_7 (F := Ideal)) (StableHlo.after (hostOps3_6 (F := Ideal)) (StableHlo.after (hostOps3_5 (F := Ideal)) (StableHlo.after (hostOps3_4 (F := Ideal)) (StableHlo.after (hostOps3_3 (F := Ideal)) (StableHlo.after (hostOps3_2 (F := Ideal)) (StableHlo.after (hostOps3_1 (F := Ideal)) (StableHlo.after (hostOps3 (F := Ideal)) V))))))))))))) (Proc.devRef .tc main_v181) =
      Rel.relAgg
        (shapeCast S100000x128 (extractStridedSlice S1x100000x128 ![2, 0, 0] (V (Proc.devRef .tc main_v130)) slices_S4x100000x128_S1x100000x128_2_0_0) shapeCasts_S1x100000x128_S100000x128)
        (shapeCast S500000 (extractStridedSlice S1x500000 ![2, 0] (V (Proc.devRef .tc main_arg1)) slices_S4x500000_S1x500000_2_0) shapeCasts_S1x500000_S500000)
        (shapeCast S500000 (extractStridedSlice S1x500000 ![2, 0] (V (Proc.devRef .tc main_arg2)) slices_S4x500000_S1x500000_2_0) shapeCasts_S1x500000_S500000)
        (V (Proc.devRef .tc main_v42)) (V (Proc.devRef .tc main_v43)) := by
  simp only [hostOps3, hostOps3_1, hostOps3_2, hostOps3_3, hostOps3_4, hostOps3_5, hostOps3_6, hostOps3_7, hostOps3_8, hostOps3_9, hostOps3_10, hostOps3_11, hostOps3_12]
  after_results_simp
  simp only [ofBuf_toBuf, toBuf_v171, toBuf_v172, ofBuf_v168, ofBuf_v166, ofBuf_v42]
  unfold Rel.relAgg Rel.takeRows Rel.takeElems Rel.inRange Rel.idCol Rel.wrapIds
  rfl

end Agg3c

variable (m : (ℓ : Loc nD τ sig) → Buf (Elt Ideal) ℓ) (ρ : Dev nD → PrngReg)

/-- Relation 2's aggregate: every edge carries its source's row of the weighted features times the source's factor; a
    node sums what arrives and scales by its own factor. -/
theorem agg_v181 (c : Dev nD) (hs : ∀ e : Fin 500000, Spec.IsNode (Spec.wd2 (Gen.W34 m ρ c (Proc.devRef .tc main_arg1)) (2 : Fin 4) e))
    (n : Fin 100000) (j : Fin 128) :
    Spec.rd2 (Gen.W47 m ρ c (Proc.devRef .tc main_v181)) n j =
      Spec.aggG (Spec.rd3 (Gen.W34 m ρ c (Proc.devRef .tc main_v130)) (2 : Fin 4)) (Spec.rd1 (Gen.W34 m ρ c (Proc.devRef .tc main_v42))) (Spec.rd1 (Gen.W34 m ρ c (Proc.devRef .tc main_v43)))
        (Spec.wd2 (Gen.W34 m ρ c (Proc.devRef .tc main_arg1)) (2 : Fin 4)) (Spec.wd2 (Gen.W34 m ρ c (Proc.devRef .tc main_arg2)) (2 : Fin 4)) n j := by
  -- the run's contents at the second combining region's entry are the thirteen stretches run from the contents after
  -- the second weight region
  have e : Gen.W47 m ρ c (Proc.devRef .tc main_v181) = _ := Agg3c.v181_of (Gen.W34 m ρ c)
  exact (congrFun e (ix2 n j)).trans
    (Rel.relAgg_slices (Gen.W34 m ρ c (Proc.devRef .tc main_v130)) (Gen.W34 m ρ c (Proc.devRef .tc main_arg1))
      (Gen.W34 m ρ c (Proc.devRef .tc main_arg2)) (Gen.W34 m ρ c (Proc.devRef .tc main_v42)) (Gen.W34 m ρ c (Proc.devRef .tc main_v43))
      2 _ rfl _ _ _ rfl _ _ hs n j)

end Cert.KernelIdeal.KV

end
-- ==== Proof.KDeg3.lean ====
/-
The degree factors of relation 3: per id column the count of edges ending at a node (an accumulating scatter of ones), clipped below at 1, through the reciprocal square root.
-/
import proofs.«420714_j25331717112057_2_alg».proof.Proof.Gen.KernelIdeal.Frame
import proofs.«420714_j25331717112057_2_alg».proof.Proof.Spec
import proofs.«420714_j25331717112057_2_alg».proof.Proof.HostOps
import Idealize.ShloMosaic.Lib.IdealHost
import Idealize.ShloMosaic.Lib.ValueLayout
import Idealize.ShloMosaic.Lib.Pipeline.Value

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What each stretch before the first region writes, and a buffer it does not write carried across it -/

/-- The references stretch 0 writes. -/
private abbrev wr0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

private theorem sub0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 0 does not write holds after it what it held before. -/
private theorem step0 (c : Dev nD) (r : Ref sig .tc) (hr : r ∉ wr0) :
    Gen.W1 m ρ c (Proc.devRef .tc r) = Gen.W0 m ρ c (Proc.devRef .tc r) :=
  StableHlo.after_of_writes_sub _ _ sub0 hr

/-- The references stretch 1 writes. -/
private abbrev wr1 : List (Ref sig .tc) := [main_cst, main_v1, main_v2, main_v3, main_cst_0, main_v4, main_v5, main_v6, main_cst_1]

private theorem sub1 : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 1 does not write holds after it what it held before. -/
private theorem step1 (c : Dev nD) (r : Ref sig .tc) (hr : r ∉ wr1) :
    Gen.W2 m ρ c (Proc.devRef .tc r) = Gen.W1 m ρ c (Proc.devRef .tc r) :=
  StableHlo.after_of_writes_sub _ _ sub1 hr

/-- The references stretch 2 writes. -/
private abbrev wr2 : List (Ref sig .tc) := [main_call1_v0, main_call1_v1, main_v7]

private theorem sub2 : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 2 does not write holds after it what it held before. -/
private theorem step2 (c : Dev nD) (r : Ref sig .tc) (hr : r ∉ wr2) :
    Gen.W3 m ρ c (Proc.devRef .tc r) = Gen.W2 m ρ c (Proc.devRef .tc r) :=
  StableHlo.after_of_writes_sub _ _ sub2 hr

/-- The references stretch 3 writes. -/
private abbrev wr3 : List (Ref sig .tc) := [main_v8, main_v9, main_cst_2, main_v10, main_v11, main_v12, main_cst_3]

private theorem sub3 : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 3 does not write holds after it what it held before. -/
private theorem step3 (c : Dev nD) (r : Ref sig .tc) (hr : r ∉ wr3) :
    Gen.W4 m ρ c (Proc.devRef .tc r) = Gen.W3 m ρ c (Proc.devRef .tc r) :=
  StableHlo.after_of_writes_sub _ _ sub3 hr

/-- The references stretch 4 writes. -/
private abbrev wr4 : List (Ref sig .tc) := [main_call2_v0, main_call2_v1, main_v13]

private theorem sub4 : (hostOps0_4 : List (HloOp τ sig (Elt Ideal))).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 4 does not write holds after it what it held before. -/
private theorem step4 (c : Dev nD) (r : Ref sig .tc) (hr : r ∉ wr4) :
    Gen.W5 m ρ c (Proc.devRef .tc r) = Gen.W4 m ρ c (Proc.devRef .tc r) :=
  StableHlo.after_of_writes_sub _ _ sub4 hr

/-- The references stretch 5 writes. -/
private abbrev wr5 : List (Ref sig .tc) := [main_v14, main_v15, main_v16, main_v17, main_cst_4, main_v18, main_v19, main_v20, main_cst_5]

private theorem sub5 : (hostOps0_5 : List (HloOp τ sig (Elt Ideal))).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 5 does not write holds after it what it held before. -/
private theorem step5 (c : Dev nD) (r : Ref sig .tc) (hr : r ∉ wr5) :
    Gen.W6 m ρ c (Proc.devRef .tc r) = Gen.W5 m ρ c (Proc.devRef .tc r) :=
  StableHlo.after_of_writes_sub _ _ sub5 hr

/-- The references stretch 6 writes. -/
private abbrev wr6 : List (Ref sig .tc) := [main_call3_v0, main_call3_v1, main_v21]

private theorem sub6 : (hostOps0_6 : List (HloOp τ sig (Elt Ideal))).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 6 does not write holds after it what it held before. -/
private theorem step6 (c : Dev nD) (r : Ref sig .tc) (hr : r ∉ wr6) :
    Gen.W7 m ρ c (Proc.devRef .tc r) = Gen.W6 m ρ c (Proc.devRef .tc r) :=
  StableHlo.after_of_writes_sub _ _ sub6 hr

/-- The references stretch 7 writes. -/
private abbrev wr7 : List (Ref sig .tc) := [main_v22, main_v23, main_cst_6, main_v24, main_v25, main_v26, main_cst_7]

private theorem sub7 : (hostOps0_7 : List (HloOp τ sig (Elt Ideal))).Forall fun op => op.writes ⊆ (wr7.map (Proc.devRef (τ := τ) .tc)).toFinset := by
  simp only [hostOps0_7, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 7 does not write holds after it what it held before. -/
private theorem step7 (c : Dev nD) (r : Ref sig .tc) (hr : r ∉ wr7) :
    Gen.W8 m ρ c (Proc.devRef .tc r) = Gen.W7 m ρ c (Proc.devRef .tc r) :=
  StableHlo.after_of_writes_sub _ _ sub7 hr

/-- The references stretch 8 writes. -/
private abbrev wr8 : List (Ref sig .tc) := [main_call4_v0, main_call4_v1, main_v27]

private theorem sub8 : (hostOps0_8 : List (HloOp τ sig (Elt Ideal))).Forall fun op => op.writes ⊆ (wr8.map (Proc.devRef (τ := τ) .tc)).toFinset := by
  simp only [hostOps0_8, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 8 does not write holds after it what it held before. -/
private theorem step8 (c : Dev nD) (r : Ref sig .tc) (hr : r ∉ wr8) :
    Gen.W9 m ρ c (Proc.devRef .tc r) = Gen.W8 m ρ c (Proc.devRef .tc r) :=
  StableHlo.after_of_writes_sub _ _ sub8 hr

/-- The references stretch 9 writes. -/
private abbrev wr9 : List (Ref sig .tc) := [main_v28, main_v29, main_v30, main_v31, main_cst_8, main_v32, main_v33, main_v34, main_cst_9]

private theorem sub9 : (hostOps0_9 : List (HloOp τ sig (Elt Ideal))).Forall fun op => op.writes ⊆ (wr9.map (Proc.devRef (τ := τ) .tc)).toFinset := by
  simp only [hostOps0_9, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 9 does not write holds after it what it held before. -/
private theorem step9 (c : Dev nD) (r : Ref sig .tc) (hr : r ∉ wr9) :
    Gen.W10 m ρ c (Proc.devRef .tc r) = Gen.W9 m ρ c (Proc.devRef .tc r) :=
  StableHlo.after_of_writes_sub _ _ sub9 hr

/-- The references stretch 10 writes. -/
private abbrev wr10 : List (Ref sig .tc) := [main_call5_v0, main_call5_v1, main_v35]

private theorem sub10 : (hostOps0_10 : List (HloOp τ sig (Elt Ideal))).Forall fun op => op.writes ⊆ (wr10.map (Proc.devRef (τ := τ) .tc)).toFinset := by
  simp only [hostOps0_10, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 10 does not write holds after it what it held before. -/
private theorem step10 (c : Dev nD) (r : Ref sig .tc) (hr : r ∉ wr10) :
    Gen.W11 m ρ c (Proc.devRef .tc r) = Gen.W10 m ρ c (Proc.devRef .tc r) :=
  StableHlo.after_of_writes_sub _ _ sub10 hr

/-- The references stretch 11 writes. -/
private abbrev wr11 : List (Ref sig .tc) := [main_v36, main_v37, main_cst_10, main_v38, main_v39, main_v40, main_cst_11]

private theorem sub11 : (hostOps0_11 : List (HloOp τ sig (Elt Ideal))).Forall fun op => op.writes ⊆ (wr11.map (Proc.devRef (τ := τ) .tc)).toFinset := by
  simp only [hostOps0_11, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 11 does not write holds after it what it held before. -/
private theorem step11 (c : Dev nD) (r : Ref sig .tc) (hr : r ∉ wr11) :
    Gen.W12 m ρ c (Proc.devRef .tc r) = Gen.W11 m ρ c (Proc.devRef .tc r) :=
  StableHlo.after_of_writes_sub _ _ sub11 hr

/-- The references stretch 12 writes. -/
private abbrev wr12 : List (Ref sig .tc) := [main_call6_v0, main_call6_v1, main_v41]

private theorem sub12 : (hostOps0_12 : List (HloOp τ sig (Elt Ideal))).Forall fun op => op.writes ⊆ (wr12.map (Proc.devRef (τ := τ) .tc)).toFinset := by
  simp only [hostOps0_12, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 12 does not write holds after it what it held before. -/
private theorem step12 (c : Dev nD) (r : Ref sig .tc) (hr : r ∉ wr12) :
    Gen.W13 m ρ c (Proc.devRef .tc r) = Gen.W12 m ρ c (Proc.devRef .tc r) :=
  StableHlo.after_of_writes_sub _ _ sub12 hr

/-- The references stretch 13 writes. -/
private abbrev wr13 : List (Ref sig .tc) := [main_v42, main_v43, main_v44, main_v45, main_cst_12, main_v46, main_v47, main_v48, main_cst_13]

private theorem sub13 : (hostOps0_13 : List (HloOp τ sig (Elt Ideal))).Forall fun op => op.writes ⊆ (wr13.map (Proc.devRef (τ := τ) .tc)).toFinset := by
  simp only [hostOps0_13, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 13 does not write holds after it what it held before. -/
private theorem step13 (c : Dev nD) (r : Ref sig .tc) (hr : r ∉ wr13) :
    Gen.W14 m ρ c (Proc.devRef .tc r) = Gen.W13 m ρ c (Proc.devRef .tc r) :=
  StableHlo.after_of_writes_sub _ _ sub13 hr

/-- The references stretch 14 writes. -/
private abbrev wr14 : List (Ref sig .tc) := [main_call7_v0, main_call7_v1, main_v49]

private theorem sub14 : (hostOps0_14 : List (HloOp τ sig (Elt Ideal))).Forall fun op => op.writes ⊆ (wr14.map (Proc.devRef (τ := τ) .tc)).toFinset := by
  simp only [hostOps0_14, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 14 does not write holds after it what it held before. -/
private theorem step14 (c : Dev nD) (r : Ref sig .tc) (hr : r ∉ wr14) :
    Gen.W15 m ρ c (Proc.devRef .tc r) = Gen.W14 m ρ c (Proc.devRef .tc r) :=
  StableHlo.after_of_writes_sub _ _ sub14 hr

/-- The references stretch 15 writes. -/
private abbrev wr15 : List (Ref sig .tc) := [main_v50, main_v51, main_cst_14, main_v52, main_v53, main_v54, main_cst_15]

private theorem sub15 : (hostOps0_15 : List (HloOp τ sig (Elt Ideal))).Forall fun op => op.writes ⊆ (wr15.map (Proc.devRef (τ := τ) .tc)).toFinset := by
  simp only [hostOps0_15, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 15 does not write holds after it what it held before. -/
private theorem step15 (c : Dev nD) (r : Ref sig .tc) (hr : r ∉ wr15) :
    Gen.W16 m ρ c (Proc.devRef .tc r) = Gen.W15 m ρ c (Proc.devRef .tc r) :=
  StableHlo.after_of_writes_sub _ _ sub15 hr

/-- The references stretch 16 writes. -/
private abbrev wr16 : List (Ref sig .tc) := [main_call8_v0, main_call8_v1, main_v55]

private theorem sub16 : (hostOps0_16 : List (HloOp τ sig (Elt Ideal))).Forall fun op => op.writes ⊆ (wr16.map (Proc.devRef (τ := τ) .tc)).toFinset := by
  simp only [hostOps0_16, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

/-- A buffer stretch 16 does not write holds after it what it held before. -/
private theorem step16 (c : Dev nD) (r : Ref sig .tc) (hr : r ∉ wr16) :
    Gen.W17 m ρ c (Proc.devRef .tc r) = Gen.W16 m ρ c (Proc.devRef .tc r) :=
  StableHlo.after_of_writes_sub _ _ sub16 hr

/-! ## The count of a row's ids at a node, off the accumulating scatter of ones -/

/-- Row r of a [4, 500000] id array, flattened and stood up as a column, read at edge e. -/
private theorem idcol_apply (o : Nat) (r : Fin 4) (hr : r.val = o) (hs : S4x500000.Slices ![o, 0] S1x500000)
    (a : IVec S4x500000 32) (e : Fin 500000) :
    broadcastInDim S500000x1 ![0] bcast_S500000_S500000x1_0
        (shapeCast S500000 (extractStridedSlice S1x500000 ![o, 0] a hs) shapeCasts_S1x500000_S500000) (ix2 e 0)
      = a (ix2 r e) := by
  refine (broadcastInDim_apply _ _ _ (ix2 e 0) (ix1 e) (fun x => match x with | ⟨0, _⟩ => rfl)).trans ?_
  refine (shapeCast_apply _ _ (ix1 e) (ix2 (0 : Fin 1) e) (by
    rw [Shape.rowMajor_val_two, Shape.rowMajor_val_one]; show 0 * 500000 + e.val = e.val; omega)).trans ?_
  exact slice2_axis0_apply o a hs (0 : Fin 1) e r (by rw [hr]; rfl)

/-- The accumulating scatter of ones into zeros by row r of an id array, read at node n: one for every edge of the
    row whose id is n. -/
private theorem count_apply (o : Nat) (r : Fin 4) (hr : r.val = o) (hs : S4x500000.Slices ![o, 0] S1x500000)
    (a : IVec S4x500000 32) (u : FVec Ideal S500000 .f32) (hu : ∀ e : Fin 500000, u (ix1 e) = Spec.one) (n : Fin 100000) :
    Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        u (ix1 n)
      = ∑ e : Fin 500000, if Spec.Hits (Spec.wd2 a r) e n then Spec.one else 0 := by
  have hd : scatter_S100000_S500000x1_S500000_n_0_0_1
      = Cert.HostOps.seg1Dims 100000 500000 scatter_S100000_S500000x1_S500000_n_0_0_1_wf := rfl
  rw [hd, Cert.HostOps.scatterAdd_elems, broadcastInDim_scalar_apply, constant_apply, Ideal.ofBits_zero_f32, zero_add]
  refine Finset.sum_congr rfl fun e _ => ?_
  rw [idcol_apply o r hr hs a e, hu e]
  rfl

/-- The host's reciprocal square root at an index is the extended reals' reciprocal square root of the element. -/
private theorem hostRsqrt_apply {s : Shape} {φ : FTy} (x : FVec Ideal s φ) (i : s.Idx) :
    Host.rsqrt x i = Ideal.rsqrt (x i) := rfl

/-- The degree factors as the host computes them from a [4, 500000] id array: the count of row o's ids at each node,
    clipped below at one, under the reciprocal square root. -/
private def degOf (o : Nat) (hs : S4x500000.Slices ![o, 0] S1x500000) (a : IVec S4x500000 32) : FVec Ideal S100000 .f32 :=
  Host.rsqrt (F := Ideal) (φ := .f32)
    (maximumf (F := Ideal) (φ := .f32) (broadcastInDim S100000 ![] bcast_S_S100000 (constant (F := Ideal) S_ .f32 0x3F800000#32))
      (Host.scatterAdd (F := Ideal) (φ := .f32) scatter_S100000_S500000x1_S500000_n_0_0_1
        (broadcastInDim S100000 ![] bcast_S_S100000 (constant (F := Ideal) S_ .f32 0x00000000#32))
        (broadcastInDim S500000x1 ![0] bcast_S500000_S500000x1_0
          (shapeCast S500000 (extractStridedSlice S1x500000 ![o, 0] a hs) shapeCasts_S1x500000_S500000))
        (broadcastInDim S500000 ![] bcast_S_S500000 (constant (F := Ideal) S_ .f32 0x3F800000#32))))

/-- Read at a node it is the specification's degree factor of the row. -/
private theorem degOf_apply (o : Nat) (r : Fin 4) (hr : r.val = o) (hs : S4x500000.Slices ![o, 0] S1x500000)
    (a : IVec S4x500000 32) (n : Fin 100000) : degOf o hs a (ix1 n) = Spec.deg (Spec.wd2 a r) n := by
  unfold degOf
  rw [hostRsqrt_apply, maximumf_apply, broadcastInDim_scalar_apply, constant_apply,
    count_apply o r hr hs a _ (fun e => rfl) n]
  rfl

/-! ## Relation 3: the two degree factors as arrays -/

/-- Stretch 1 leaves ones in main_v1. -/
private theorem s1_v1 (V : Valuation τ sig (Elt Ideal)) :
    (StableHlo.after hostOps0_1 V (Proc.devRef .tc main_v1) : FVec Ideal S500000 .f32)
      = broadcastInDim S500000 ![] bcast_S_S500000 (constant (F := Ideal) S_ .f32 0x3F800000#32) := by
  simp only [hostOps0_1]
  after_results

/-- Stretch 13 leaves the scatter of what main_v1 holds by row 3 of what main_arg1 holds in main_v48 … -/
private theorem s13_v48 (V : Valuation τ sig (Elt Ideal)) :
    (StableHlo.after hostOps0_13 V (Proc.devRef .tc main_v48) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![3, 0] (V (Proc.devRef .tc main_arg1) : IVec S4x500000 32) slices_S4x500000_S1x500000_3_0) shapeCasts_S1x500000_S500000))
          (V (Proc.devRef .tc main_v1) : FVec Ideal S500000 .f32) := by
  simp only [hostOps0_13]
  after_results
  rfl

/-- … and a one in main_cst_13. -/
private theorem s13_cst (V : Valuation τ sig (Elt Ideal)) :
    (StableHlo.after hostOps0_13 V (Proc.devRef .tc main_cst_13) : FVec Ideal S_ .f32) = constant (F := Ideal) S_ .f32 0x3F800000#32 := by
  simp only [hostOps0_13]
  after_results

/-- Stretch 14 clips main_v48 below at main_cst_13 into main_v49. -/
private theorem s14_v49 (V : Valuation τ sig (Elt Ideal)) :
    (StableHlo.after hostOps0_14 V (Proc.devRef .tc main_v49) : FVec Ideal S100000 .f32)
      = maximumf (F := Ideal) (s := S100000) (φ := .f32) (broadcastInDim S100000 ![] bcast_S_S100000 (V (Proc.devRef .tc main_cst_13) : FVec Ideal S_ .f32)) (V (Proc.devRef .tc main_v48) : FVec Ideal S100000 .f32) := by
  simp only [hostOps0_14]
  after_results
  rfl

/-- Stretch 15 leaves the scatter of what main_v1 holds by row 3 of what main_arg2 holds in main_v54 … -/
private theorem s15_v54 (V : Valuation τ sig (Elt Ideal)) :
    (StableHlo.after hostOps0_15 V (Proc.devRef .tc main_v54) : FVec Ideal S100000 .f32)
      = Host.scatterAdd (F := Ideal) (φ := .f32) scatter_S100000_S500000x1_S500000_n_0_0_1
          (broadcastInDim S100000 ![] bcast_S_S100000 (constant (F := Ideal) S_ .f32 0x00000000#32))
          (broadcastInDim S500000x1 ![0] bcast_S500000_S500000x1_0
            (shapeCast S500000 (extractStridedSlice S1x500000 ![3, 0] (V (Proc.devRef .tc main_arg2) : IVec S4x500000 32) slices_S4x500000_S1x500000_3_0) shapeCasts_S1x500000_S500000))
          (V (Proc.devRef .tc main_v1) : FVec Ideal S500000 .f32) := by
  simp only [hostOps0_15]
  after_results
  rfl

/-- … and a one in main_cst_15. -/
private theorem s15_cst (V : Valuation τ sig (Elt Ideal)) :
    (StableHlo.after hostOps0_15 V (Proc.devRef .tc main_cst_15) : FVec Ideal S_ .f32) = constant (F := Ideal) S_ .f32 0x3F800000#32 := by
  simp only [hostOps0_15]
  after_results

/-- Stretch 16 clips main_v54 below at main_cst_15 into main_v55. -/
private theorem s16_v55 (V : Valuation τ sig (Elt Ideal)) :
    (StableHlo.after hostOps0_16 V (Proc.devRef .tc main_v55) : FVec Ideal S100000 .f32)
      = maximumf (F := Ideal) (s := S100000) (φ := .f32) (broadcastInDim S100000 ![] bcast_S_S100000 (V (Proc.devRef .tc main_cst_15) : FVec Ideal S_ .f32)) (V (Proc.devRef .tc main_v54) : FVec Ideal S100000 .f32) := by
  simp only [hostOps0_16]
  after_results
  rfl

/-- Stretch 17 takes the reciprocal square root of main_v49 into main_v56 … -/
private theorem s17_v56 (V : Valuation τ sig (Elt Ideal)) :
    (StableHlo.after hostOps0_17 V (Proc.devRef .tc main_v56) : FVec Ideal S100000 .f32)
      = Host.rsqrt (F := Ideal) (s := S100000) (φ := .f32) (V (Proc.devRef .tc main_v49) : FVec Ideal S100000 .f32) := by
  simp only [hostOps0_17]
  after_results

/-- … and of main_v55 into main_v57. -/
private theorem s17_v57 (V : Valuation τ sig (Elt Ideal)) :
    (StableHlo.after hostOps0_17 V (Proc.devRef .tc main_v57) : FVec Ideal S100000 .f32)
      = Host.rsqrt (F := Ideal) (s := S100000) (φ := .f32) (V (Proc.devRef .tc main_v55) : FVec Ideal S100000 .f32) := by
  simp only [hostOps0_17]
  after_results

/-- main_v56 at the first region's entry is the degree array of row 3 of the launch's main_arg1. -/
private theorem v56_W18 (c : Dev nD) :
    Gen.W18 m ρ c (Proc.devRef .tc main_v56) = degOf 3 slices_S4x500000_S1x500000_3_0 (m ((c : Thread nD τ).loc main_arg1)) := by
  have harg1 : Gen.W1 m ρ c (Proc.devRef .tc main_arg1) = m ((c : Thread nD τ).loc main_arg1) := step0 m ρ c _ (by decide)
  have harg : Gen.W13 m ρ c (Proc.devRef .tc main_arg1) = Gen.W1 m ρ c (Proc.devRef .tc main_arg1) :=
    (step12 m ρ c _ (by decide)).trans <| (step11 m ρ c _ (by decide)).trans <| (step10 m ρ c _ (by decide)).trans <|
      (step9 m ρ c _ (by decide)).trans <| (step8 m ρ c _ (by decide)).trans <| (step7 m ρ c _ (by decide)).trans <|
      (step6 m ρ c _ (by decide)).trans <| (step5 m ρ c _ (by decide)).trans <| (step4 m ρ c _ (by decide)).trans <|
      (step3 m ρ c _ (by decide)).trans <| (step2 m ρ c _ (by decide)).trans (step1 m ρ c _ (by decide))
  have hones2 : Gen.W2 m ρ c (Proc.devRef .tc main_v1) = _ := s1_v1 (Gen.W1 m ρ c)
  have hones : Gen.W13 m ρ c (Proc.devRef .tc main_v1) = Gen.W2 m ρ c (Proc.devRef .tc main_v1) :=
    (step12 m ρ c _ (by decide)).trans <| (step11 m ρ c _ (by decide)).trans <| (step10 m ρ c _ (by decide)).trans <|
      (step9 m ρ c _ (by decide)).trans <| (step8 m ρ c _ (by decide)).trans <| (step7 m ρ c _ (by decide)).trans <|
      (step6 m ρ c _ (by decide)).trans <| (step5 m ρ c _ (by decide)).trans <| (step4 m ρ c _ (by decide)).trans <|
      (step3 m ρ c _ (by decide)).trans (step2 m ρ c _ (by decide))
  have h48 : Gen.W14 m ρ c (Proc.devRef .tc main_v48) = _ := s13_v48 (Gen.W13 m ρ c)
  have hc : Gen.W14 m ρ c (Proc.devRef .tc main_cst_13) = _ := s13_cst (Gen.W13 m ρ c)
  have h49 : Gen.W15 m ρ c (Proc.devRef .tc main_v49) = _ := s14_v49 (Gen.W14 m ρ c)
  have hcar49 : Gen.W17 m ρ c (Proc.devRef .tc main_v49) = Gen.W15 m ρ c (Proc.devRef .tc main_v49) :=
    (step16 m ρ c _ (by decide)).trans (step15 m ρ c _ (by decide))
  have h56 : Gen.W18 m ρ c (Proc.devRef .tc main_v56) = _ := s17_v56 (Gen.W17 m ρ c)
  unfold degOf
  rw [h56, hcar49, h49, hc, h48, hones, hones2, harg, harg1]

/-- main_v57 at the first region's entry is the degree array of row 3 of the launch's main_arg2. -/
private theorem v57_W18 (c : Dev nD) :
    Gen.W18 m ρ c (Proc.devRef .tc main_v57) = degOf 3 slices_S4x500000_S1x500000_3_0 (m ((c : Thread nD τ).loc main_arg2)) := by
  have harg1 : Gen.W1 m ρ c (Proc.devRef .tc main_arg2) = m ((c : Thread nD τ).loc main_arg2) := step0 m ρ c _ (by decide)
  have harg : Gen.W15 m ρ c (Proc.devRef .tc main_arg2) = Gen.W1 m ρ c (Proc.devRef .tc main_arg2) :=
    (step14 m ρ c _ (by decide)).trans <| (step13 m ρ c _ (by decide)).trans <| (step12 m ρ c _ (by decide)).trans <|
      (step11 m ρ c _ (by decide)).trans <| (step10 m ρ c _ (by decide)).trans <| (step9 m ρ c _ (by decide)).trans <|
      (step8 m ρ c _ (by decide)).trans <| (step7 m ρ c _ (by decide)).trans <| (step6 m ρ c _ (by decide)).trans <|
      (step5 m ρ c _ (by decide)).trans <| (step4 m ρ c _ (by decide)).trans <| (step3 m ρ c _ (by decide)).trans <|
      (step2 m ρ c _ (by decide)).trans (step1 m ρ c _ (by decide))
  have hones2 : Gen.W2 m ρ c (Proc.devRef .tc main_v1) = _ := s1_v1 (Gen.W1 m ρ c)
  have hones : Gen.W15 m ρ c (Proc.devRef .tc main_v1) = Gen.W2 m ρ c (Proc.devRef .tc main_v1) :=
    (step14 m ρ c _ (by decide)).trans <| (step13 m ρ c _ (by decide)).trans <| (step12 m ρ c _ (by decide)).trans <|
      (step11 m ρ c _ (by decide)).trans <| (step10 m ρ c _ (by decide)).trans <| (step9 m ρ c _ (by decide)).trans <|
      (step8 m ρ c _ (by decide)).trans <| (step7 m ρ c _ (by decide)).trans <| (step6 m ρ c _ (by decide)).trans <|
      (step5 m ρ c _ (by decide)).trans <| (step4 m ρ c _ (by decide)).trans <| (step3 m ρ c _ (by decide)).trans (step2 m ρ c _ (by decide))
  have h54 : Gen.W16 m ρ c (Proc.devRef .tc main_v54) = _ := s15_v54 (Gen.W15 m ρ c)
  have hc : Gen.W16 m ρ c (Proc.devRef .tc main_cst_15) = _ := s15_cst (Gen.W15 m ρ c)
  have h55 : Gen.W17 m ρ c (Proc.devRef .tc main_v55) = _ := s16_v55 (Gen.W16 m ρ c)
  have h57 : Gen.W18 m ρ c (Proc.devRef .tc main_v57) = _ := s17_v57 (Gen.W17 m ρ c)
  unfold degOf
  rw [h57, h55, hc, h54, hones, hones2, harg, harg1]

/-- The degree factor of relation 3's source column. -/
theorem deg_v56 (c : Dev nD) (n : Fin 100000) :
    Spec.rd1 (Gen.W18 m ρ c (Proc.devRef .tc main_v56)) n = Spec.deg (Spec.wd2 (m ((c : Thread nD τ).loc main_arg1)) (3 : Fin 4)) n := by
  rw [v56_W18]
  exact degOf_apply 3 (3 : Fin 4) rfl _ _ n

/-- The degree factor of relation 3's destination column. -/
theorem deg_v57 (c : Dev nD) (n : Fin 100000) :
    Spec.rd1 (Gen.W18 m ρ c (Proc.devRef .tc main_v57)) n = Spec.deg (Spec.wd2 (m ((c : Thread nD τ).loc main_arg2)) (3 : Fin 4)) n := by
  rw [v57_W18]
  exact degOf_apply 3 (3 : Fin 4) rfl _ _ n

end Cert.KernelIdeal.KV

end
-- ==== Proof.KAgg1d.lean ====
/-
Layer 1, relation 3: the gather of the weighted features' rows by source, the scaling by the source's factor, the accumulating scatter by destination and the scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Agg1d

/-! ## Contents at a typed reference

The two gathers are called functions: their operations read and write their buffers through references that carry the
tensor's type, and the contents are moved to the buffer's own type and back along an equation of types, which changes
nothing. -/

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x
  rfl

/-- Where a gather's operations meet the plain ones — its two arguments going in, its result coming out — the move
    is the identity. -/
theorem toBuf_v116 (h1 h2 h3) (v : (⟨S500000x128, .f32⟩ : BufTy).Contents (Elt Ideal)) :
    (StableHlo.TRef.of (T := ⟨S500000x128, .f32⟩) main_v116 h1 h2 h3).toBuf v = v := rfl
theorem toBuf_v117 (h1 h2 h3) (v : (⟨S500000, .f32⟩ : BufTy).Contents (Elt Ideal)) :
    (StableHlo.TRef.of (T := ⟨S500000, .f32⟩) main_v117 h1 h2 h3).toBuf v = v := rfl
theorem ofBuf_v113 (h1 h2 h3) (v : main_v113.ty.Contents (Elt Ideal)) :
    (StableHlo.TRef.of (T := ⟨S500000, .i32⟩) main_v113 h1 h2 h3).ofBuf v = v := rfl
theorem ofBuf_v111 (h1 h2 h3) (v : main_v111.ty.Contents (Elt Ideal)) :
    (StableHlo.TRef.of (T := ⟨S100000x128, .f32⟩) main_v111 h1 h2 h3).ofBuf v = v := rfl
theorem ofBuf_v56 (h1 h2 h3) (v : main_v56.ty.Contents (Elt Ideal)) :
    (StableHlo.TRef.of (T := ⟨S100000, .f32⟩) main_v56 h1 h2 h3).ofBuf v = v := rfl

set_option maxHeartbeats 40000000 in
/-- The first layer's host operations, run in order from any contents of the buffers, leave in relation 3's result
    buffer the relation's aggregate of relation 3's slices of the stacked weighted features and ids and of its two
    degree factors: every operation is read at its own result buffer and passed over at every other, so the three
    earlier relations' operations leave no trace in it. -/
theorem v126_of (V : Valuation τ sig (Elt Ideal)) :
    (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) V))))))))))))) (Proc.devRef .tc main_v126) =
      Rel.relAgg
        (shapeCast S100000x128 (extractStridedSlice S1x100000x128 ![3, 0, 0] (V (Proc.devRef .tc main_v58)) slices_S4x100000x128_S1x100000x128_3_0_0) shapeCasts_S1x100000x128_S100000x128)
        (shapeCast S500000 (extractStridedSlice S1x500000 ![3, 0] (V (Proc.devRef .tc main_arg1)) slices_S4x500000_S1x500000_3_0) shapeCasts_S1x500000_S500000)
        (shapeCast S500000 (extractStridedSlice S1x500000 ![3, 0] (V (Proc.devRef .tc main_arg2)) slices_S4x500000_S1x500000_3_0) shapeCasts_S1x500000_S500000)
        (V (Proc.devRef .tc main_v56)) (V (Proc.devRef .tc main_v57)) := by
  simp only [hostOps1, hostOps1_1, hostOps1_2, hostOps1_3, hostOps1_4, hostOps1_5, hostOps1_6, hostOps1_7, hostOps1_8, hostOps1_9, hostOps1_10, hostOps1_11, hostOps1_12]
  after_results_simp
  simp only [ofBuf_toBuf, toBuf_v116, toBuf_v117, ofBuf_v113, ofBuf_v111, ofBuf_v56]
  unfold Rel.relAgg Rel.takeRows Rel.takeElems Rel.inRange Rel.idCol Rel.wrapIds
  rfl

end Agg1d

variable (m : (ℓ : Loc nD τ sig) → Buf (Elt Ideal) ℓ) (ρ : Dev nD → PrngReg)

/-- Relation 3's aggregate: every edge carries its source's row of the weighted features times the source's factor; a
    node sums what arrives and scales by its own factor. -/
theorem agg_v126 (c : Dev nD) (hs : ∀ e : Fin 500000, Spec.IsNode (Spec.wd2 (Gen.W19 m ρ c (Proc.devRef .tc main_arg1)) (3 : Fin 4) e))
    (n : Fin 100000) (j : Fin 128) :
    Spec.rd2 (Gen.W32 m ρ c (Proc.devRef .tc main_v126)) n j =
      Spec.aggG (Spec.rd3 (Gen.W19 m ρ c (Proc.devRef .tc main_v58)) (3 : Fin 4)) (Spec.rd1 (Gen.W19 m ρ c (Proc.devRef .tc main_v56))) (Spec.rd1 (Gen.W19 m ρ c (Proc.devRef .tc main_v57)))
        (Spec.wd2 (Gen.W19 m ρ c (Proc.devRef .tc main_arg1)) (3 : Fin 4)) (Spec.wd2 (Gen.W19 m ρ c (Proc.devRef .tc main_arg2)) (3 : Fin 4)) n j := by
  have e : Gen.W32 m ρ c (Proc.devRef .tc main_v126) = _ := Agg1d.v126_of (Gen.W19 m ρ c)
  exact (congrFun e (ix2 n j)).trans
    (Rel.relAgg_slices (Gen.W19 m ρ c (Proc.devRef .tc main_v58)) (Gen.W19 m ρ c (Proc.devRef .tc main_arg1))
      (Gen.W19 m ρ c (Proc.devRef .tc main_arg2)) (Gen.W19 m ρ c (Proc.devRef .tc main_v56)) (Gen.W19 m ρ c (Proc.devRef .tc main_v57))
      3 _ rfl _ _ _ rfl _ _ hs n j)

end Cert.KernelIdeal.KV

end
-- ==== Proof.KAgg3d.lean ====
/-
Layer 2, relation 3: the gather of the weighted hidden features' rows by source, the scaling by the source's factor, the accumulating scatter by destination and the scaling by the destination's factor.
-/
import proofs.«420714_j25331717112057_2_alg».proof.Proof.Gen.KernelIdeal.Frame
import proofs.«420714_j25331717112057_2_alg».proof.Proof.Spec
import proofs.«420714_j25331717112057_2_alg».proof.Proof.HostOps
import proofs.«420714_j25331717112057_2_alg».proof.Proof.KHost1AuxRel

noncomputable section

open scoped BigOperators

namespace Cert.KernelIdeal.KV.KAgg3d

open Idealize.ShloMosaic Idealize.ShloMosaic.TcCoe Idealize.ShloMosaic.ValueIdx Idealize.SL.Sem
open Cert.KernelIdeal Cert.KernelIdeal.Gen

/-! ## The four stretches that compute relation 3's aggregate, each read off any contents V of the buffers before it -/

section Stretch
variable (V : Valuation τ sig (Elt Ideal))

/-- The last stretch: the edges' rows times their factors, added into the destinations' rows from zero, each row times
    its node's factor. -/
theorem s12_v198 :
    @Eq (FVec Ideal S100000x128 .f32) (StableHlo.after hostOps3_12 V (Proc.devRef .tc main_v198))
      (mulf
        (Host.scatterAdd scatter_S100000x128_S500000x1_S500000x128_1_0_0_1
          (broadcastInDim S100000x128 ![] bcast_S_S100000x128 (constant S_ .f32 0x00000000#32))
          (broadcastInDim S500000x1 ![0] bcast_S500000_S500000x1_0 (V (Proc.devRef .tc main_v187)))
          (mulf (V (Proc.devRef .tc main_v188))
            (broadcastInDim S500000x128 ![0, 1] bcast_S500000x1_S500000x128_0_1
              (broadcastInDim S500000x1 ![0] bcast_S500000_S500000x1_0 (V (Proc.devRef .tc main_v189))))))
        (broadcastInDim S100000x128 ![0, 1] bcast_S100000x1_S100000x128_0_1
          (broadcastInDim S100000x1 ![0] bcast_S100000_S100000x1_0 (V (Proc.devRef .tc main_v57))))) := by
  simp only [hostOps3_12]
  after_results

/-- The stretch before it: for every edge the factor its source id addresses. -/
theorem s11_v189 :
    @Eq (FVec Ideal S500000 .f32) (StableHlo.after hostOps3_11 V (Proc.devRef .tc main_v189))
      (Rel.takeElems (V (Proc.devRef .tc main_v56)) (V (Proc.devRef .tc main_v185))) := by
  simp only [hostOps3_11]
  after_results_simp
  simp only [StableHlo.TRef.ofBuf, StableHlo.TRef.toBuf, cast_eq]
  rfl

/-- It leaves the destination ids, the gathered rows and the destination's factor as they were. -/
theorem s11_keep (r : Ref sig .tc) (hr : r = main_v187 ∨ r = main_v188 ∨ r = main_v57) :
    StableHlo.after hostOps3_11 V (Proc.devRef .tc r) = V (Proc.devRef .tc r) := by
  rcases hr with rfl | rfl | rfl <;> (simp only [hostOps3_11]; after_results)

/-- The stretch before that: for every edge the row its source id addresses. -/
theorem s10_v188 :
    @Eq (FVec Ideal S500000x128 .f32) (StableHlo.after hostOps3_10 V (Proc.devRef .tc main_v188))
      (Rel.takeRows (V (Proc.devRef .tc main_v183)) (V (Proc.devRef .tc main_v185))) := by
  simp only [hostOps3_10]
  after_results_simp
  simp only [StableHlo.TRef.ofBuf, StableHlo.TRef.toBuf, cast_eq]
  rfl

/-- It leaves the two factors and the two id columns as they were. -/
theorem s10_keep (r : Ref sig .tc) (hr : r = main_v56 ∨ r = main_v185 ∨ r = main_v187 ∨ r = main_v57) :
    StableHlo.after hostOps3_10 V (Proc.devRef .tc r) = V (Proc.devRef .tc r) := by
  rcases hr with rfl | rfl | rfl | rfl <;> (simp only [hostOps3_10]; after_results)

/-- The first of the four ends with relation 3's slices: its rows of the stacked weighted features … -/
theorem s9_v183 :
    @Eq (FVec Ideal S100000x128 .f32) (StableHlo.after hostOps3_9 V (Proc.devRef .tc main_v183))
      (shapeCast S100000x128
        (extractStridedSlice S1x100000x128 ![3, 0, 0] (V (Proc.devRef .tc main_v130)) slices_S4x100000x128_S1x100000x128_3_0_0)
        shapeCasts_S1x100000x128_S100000x128) := by
  simp only [hostOps3_9]
  after_results
  rfl

/-- … its column of the stacked source ids … -/
theorem s9_v185 :
    @Eq (IVec S500000 32) (StableHlo.after hostOps3_9 V (Proc.devRef .tc main_v185))
      (shapeCast S500000
        (extractStridedSlice S1x500000 ![3, 0] (V (Proc.devRef .tc main_arg1)) slices_S4x500000_S1x500000_3_0)
        shapeCasts_S1x500000_S500000) := by
  simp only [hostOps3_9]
  after_results
  rfl

/-- … and its column of the stacked destination ids. -/
theorem s9_v187 :
    @Eq (IVec S500000 32) (StableHlo.after hostOps3_9 V (Proc.devRef .tc main_v187))
      (shapeCast S500000
        (extractStridedSlice S1x500000 ![3, 0] (V (Proc.devRef .tc main_arg2)) slices_S4x500000_S1x500000_3_0)
        shapeCasts_S1x500000_S500000) := by
  simp only [hostOps3_9]
  after_results
  rfl

/-- It leaves the two factors as they were. -/
theorem s9_keep (r : Ref sig .tc) (hr : r = main_v56 ∨ r = main_v57) :
    StableHlo.after hostOps3_9 V (Proc.devRef .tc r) = V (Proc.devRef .tc r) := by
  rcases hr with rfl | rfl <;> (simp only [hostOps3_9]; after_results)

end Stretch

/-! ## The nine stretches before them -/

/-- The host operations of relations 0 to 2 write neither the stacked weighted features, nor the stacked ids, nor
    relation 3's two factors. -/
theorem pre_keep (V : Valuation τ sig (Elt Ideal)) (r : Ref sig .tc)
    (hr : r = main_v130 ∨ r = main_arg1 ∨ r = main_arg2 ∨ r = main_v56 ∨ r = main_v57) :
    StableHlo.after hostOps3_8 (StableHlo.after hostOps3_7 (StableHlo.after hostOps3_6 (StableHlo.after hostOps3_5
      (StableHlo.after hostOps3_4 (StableHlo.after hostOps3_3 (StableHlo.after hostOps3_2 (StableHlo.after hostOps3_1
        (StableHlo.after hostOps3 V)))))))) (Proc.devRef .tc r) = V (Proc.devRef .tc r) := by
  rcases hr with rfl | rfl | rfl | rfl | rfl <;>
    (simp only [hostOps3, hostOps3_1, hostOps3_2, hostOps3_3, hostOps3_4, hostOps3_5, hostOps3_6, hostOps3_7, hostOps3_8]
     after_results_simp)

/-! ## The aggregate's buffer when the last region is entered -/

section Run
variable (m : (ℓ : Loc nD τ sig) → Buf (Elt Ideal) ℓ) (ρ : Dev nD → PrngReg)

/-- Relation 3's aggregate, when the last region is entered, is the relation's term over its slices of the stacked
    arrays and its two factors as the second weight region left them. -/
theorem v198_eq (c : Dev nD) :
    @Eq (FVec Ideal S100000x128 .f32) (Gen.W47 m ρ c (Proc.devRef .tc main_v198))
      (Rel.relAgg
        (shapeCast S100000x128
          (extractStridedSlice S1x100000x128 ![3, 0, 0] (Gen.W34 m ρ c (Proc.devRef .tc main_v130)) slices_S4x100000x128_S1x100000x128_3_0_0)
          shapeCasts_S1x100000x128_S100000x128)
        (shapeCast S500000
          (extractStridedSlice S1x500000 ![3, 0] (Gen.W34 m ρ c (Proc.devRef .tc main_arg1)) slices_S4x500000_S1x500000_3_0)
          shapeCasts_S1x500000_S500000)
        (shapeCast S500000
          (extractStridedSlice S1x500000 ![3, 0] (Gen.W34 m ρ c (Proc.devRef .tc main_arg2)) slices_S4x500000_S1x500000_3_0)
          shapeCasts_S1x500000_S500000)
        (Gen.W34 m ρ c (Proc.devRef .tc main_v56)) (Gen.W34 m ρ c (Proc.devRef .tc main_v57))) := by
  dsimp only [Gen.W47, Gen.W46, Gen.W45, Gen.W44, Gen.W43, Gen.W42, Gen.W41, Gen.W40, Gen.W39, Gen.W38, Gen.W37, Gen.W36, Gen.W35]
  rw [s12_v198, s11_v189, s11_keep _ main_v187 (.inl rfl), s11_keep _ main_v188 (.inr (.inl rfl)),
    s11_keep _ main_v57 (.inr (.inr rfl)), s10_v188, s10_keep _ main_v56 (.inl rfl), s10_keep _ main_v185 (.inr (.inl rfl)),
    s10_keep _ main_v187 (.inr (.inr (.inl rfl))), s10_keep _ main_v57 (.inr (.inr (.inr rfl))), s9_v183, s9_v185, s9_v187,
    s9_keep _ main_v56 (.inl rfl), s9_keep _ main_v57 (.inr rfl), pre_keep _ main_v130 (.inl rfl),
    pre_keep _ main_arg1 (.inr (.inl rfl)), pre_keep _ main_arg2 (.inr (.inr (.inl rfl))),
    pre_keep _ main_v56 (.inr (.inr (.inr (.inl rfl)))), pre_keep _ main_v57 (.inr (.inr (.inr (.inr rfl))))]
  rfl

end Run

end Cert.KernelIdeal.KV.KAgg3d

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Relation 3's aggregate: every edge carries its source's row of the weighted features times the source's factor; a
    node sums what arrives and scales by its own factor. -/
theorem agg_v198 (c : Dev nD) (hs : ∀ e : Fin 500000, Spec.IsNode (Spec.wd2 (Gen.W34 m ρ c (Proc.devRef .tc main_arg1)) (3 : Fin 4) e))
    (n : Fin 100000) (j : Fin 128) :
    Spec.rd2 (Gen.W47 m ρ c (Proc.devRef .tc main_v198)) n j =
      Spec.aggG (Spec.rd3 (Gen.W34 m ρ c (Proc.devRef .tc main_v130)) (3 : Fin 4)) (Spec.rd1 (Gen.W34 m ρ c (Proc.devRef .tc main_v56))) (Spec.rd1 (Gen.W34 m ρ c (Proc.devRef .tc main_v57)))
        (Spec.wd2 (Gen.W34 m ρ c (Proc.devRef .tc main_arg1)) (3 : Fin 4)) (Spec.wd2 (Gen.W34 m ρ c (Proc.devRef .tc main_arg2)) (3 : Fin 4)) n j :=
  (congrFun (KAgg3d.v198_eq m ρ c) (ix2 n j)).trans
    (Rel.relAgg_slices _ _ _ _ _ (3 : Fin 4) _ rfl _ _ _ rfl _ _ hs n j)

end Cert.KernelIdeal.KV

end
-- ==== Proof.KValue.lean ====
/-
  The kernel's result, element by element, as the weight-first network of the inputs.

  The buffer contents at the segment boundaries are chained: the features looked up and the degree factors computed
  before the first region; the first weight region's product; per relation the aggregate of that product; the first
  combining region's tanh of the relations' sum plus the bias row; then the same three steps on the hidden features
  with the second weights and biases. Buffers a stretch or a region does not write are carried across it unchanged.
-/
import proofs.«420714_j25331717112057_2_alg».proof.Proof.KXw
import proofs.«420714_j25331717112057_2_alg».proof.Proof.KRed
import proofs.«420714_j25331717112057_2_alg».proof.Proof.KHost0
import proofs.«420714_j25331717112057_2_alg».proof.Proof.KHost1
import proofs.«420714_j25331717112057_2_alg».proof.Proof.KHost3
import proofs.«420714_j25331717112057_2_alg».proof.Proof.KCarry
import proofs.«420714_j25331717112057_2_alg».proof.Proof.KArgs0
import proofs.«420714_j25331717112057_2_alg».proof.Proof.KBias
import proofs.«420714_j25331717112057_2_alg».proof.Proof.KFeat
import proofs.«420714_j25331717112057_2_alg».proof.Proof.KDeg1
import proofs.«420714_j25331717112057_2_alg».proof.Proof.KAgg1b
import proofs.«420714_j25331717112057_2_alg».proof.Proof.KAgg3b
import proofs.«420714_j25331717112057_2_alg».proof.Proof.KDeg2
import proofs.«420714_j25331717112057_2_alg».proof.Proof.KAgg1c
import proofs.«420714_j25331717112057_2_alg».proof.Proof.KAgg3c
import proofs.«420714_j25331717112057_2_alg».proof.Proof.KDeg3
import proofs.«420714_j25331717112057_2_alg».proof.Proof.KAgg1d
import proofs.«420714_j25331717112057_2_alg».proof.Proof.KAgg3d

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The inputs, read off the launch memory of core c. -/
def inputs (c : Dev nD) : Spec.Inputs :=
  Spec.Inputs.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

variable (c : Dev nD)

/-! ## Arguments and degree factors at the later boundaries -/
theorem arg1_19 : Gen.W19 m ρ c (Proc.devRef .tc main_arg1) = m ((c : Thread nD τ).loc main_arg1) := by
  rw [Gen.W19_of_ne m ρ c main_arg1 (by decide)]; exact arg1_W18 m ρ c
theorem arg2_19 : Gen.W19 m ρ c (Proc.devRef .tc main_arg2) = m ((c : Thread nD τ).loc main_arg2) := by
  rw [Gen.W19_of_ne m ρ c main_arg2 (by decide)]; exact arg2_W18 m ρ c
theorem arg5_19 : Gen.W19 m ρ c (Proc.devRef .tc main_arg5) = m ((c : Thread nD τ).loc main_arg5) := by
  rw [Gen.W19_of_ne m ρ c main_arg5 (by decide)]; exact arg5_W18 m ρ c
theorem arg6_19 : Gen.W19 m ρ c (Proc.devRef .tc main_arg6) = m ((c : Thread nD τ).loc main_arg6) := by
  rw [Gen.W19_of_ne m ρ c main_arg6 (by decide)]; exact arg6_W18 m ρ c
theorem arg7_19 : Gen.W19 m ρ c (Proc.devRef .tc main_arg7) = m ((c : Thread nD τ).loc main_arg7) := by
  rw [Gen.W19_of_ne m ρ c main_arg7 (by decide)]; exact arg7_W18 m ρ c
theorem arg4_18 : Gen.W18 m ρ c (Proc.devRef .tc main_arg4) = m ((c : Thread nD τ).loc main_arg4) := arg4_W18 m ρ c
theorem arg6_33 : Gen.W33 m ρ c (Proc.devRef .tc main_arg6) = m ((c : Thread nD τ).loc main_arg6) := by
  rw [Gen.W33_of_ne m ρ c main_arg6 (by decide), carry1_arg6 m ρ c]; exact arg6_19 m ρ c
theorem arg1_34 : Gen.W34 m ρ c (Proc.devRef .tc main_arg1) = m ((c : Thread nD τ).loc main_arg1) := by
  rw [Gen.W34_of_ne m ρ c main_arg1 (by decide), Gen.W33_of_ne m ρ c main_arg1 (by decide), carry1_arg1 m ρ c]; exact arg1_19 m ρ c
theorem arg2_34 : Gen.W34 m ρ c (Proc.devRef .tc main_arg2) = m ((c : Thread nD τ).loc main_arg2) := by
  rw [Gen.W34_of_ne m ρ c main_arg2 (by decide), Gen.W33_of_ne m ρ c main_arg2 (by decide), carry1_arg2 m ρ c]; exact arg2_19 m ρ c
theorem arg7_34 : Gen.W34 m ρ c (Proc.devRef .tc main_arg7) = m ((c : Thread nD τ).loc main_arg7) := by
  rw [Gen.W34_of_ne m ρ c main_arg7 (by decide), Gen.W33_of_ne m ρ c main_arg7 (by decide), carry1_arg7 m ρ c]; exact arg7_19 m ρ c
theorem deg_v14_19 : Spec.rd1 (Gen.W19 m ρ c (Proc.devRef .tc main_v14)) = Spec.deg ((inputs m c).src 0) := by
  funext i; rw [Gen.W19_of_ne m ρ c main_v14 (by decide)]; exact deg_v14 m ρ c i
theorem deg_v14_34 : Spec.rd1 (Gen.W34 m ρ c (Proc.devRef .tc main_v14)) = Spec.deg ((inputs m c).src 0) := by
  funext i
  rw [Gen.W34_of_ne m ρ c main_v14 (by decide), Gen.W33_of_ne m ρ c main_v14 (by decide), carry1_v14 m ρ c,
    Gen.W19_of_ne m ρ c main_v14 (by decide)]
  exact deg_v14 m ρ c i
theorem deg_v15_19 : Spec.rd1 (Gen.W19 m ρ c (Proc.devRef .tc main_v15)) = Spec.deg ((inputs m c).dst 0) := by
  funext i; rw [Gen.W19_of_ne m ρ c main_v15 (by decide)]; exact deg_v15 m ρ c i
theorem deg_v15_34 : Spec.rd1 (Gen.W34 m ρ c (Proc.devRef .tc main_v15)) = Spec.deg ((inputs m c).dst 0) := by
  funext i
  rw [Gen.W34_of_ne m ρ c main_v15 (by decide), Gen.W33_of_ne m ρ c main_v15 (by decide), carry1_v15 m ρ c,
    Gen.W19_of_ne m ρ c main_v15 (by decide)]
  exact deg_v15 m ρ c i
theorem deg_v28_19 : Spec.rd1 (Gen.W19 m ρ c (Proc.devRef .tc main_v28)) = Spec.deg ((inputs m c).src 1) := by
  funext i; rw [Gen.W19_of_ne m ρ c main_v28 (by decide)]; exact deg_v28 m ρ c i
theorem deg_v28_34 : Spec.rd1 (Gen.W34 m ρ c (Proc.devRef .tc main_v28)) = Spec.deg ((inputs m c).src 1) := by
  funext i
  rw [Gen.W34_of_ne m ρ c main_v28 (by decide), Gen.W33_of_ne m ρ c main_v28 (by decide), carry1_v28 m ρ c,
    Gen.W19_of_ne m ρ c main_v28 (by decide)]
  exact deg_v28 m ρ c i
theorem deg_v29_19 : Spec.rd1 (Gen.W19 m ρ c (Proc.devRef .tc main_v29)) = Spec.deg ((inputs m c).dst 1) := by
  funext i; rw [Gen.W19_of_ne m ρ c main_v29 (by decide)]; exact deg_v29 m ρ c i
theorem deg_v29_34 : Spec.rd1 (Gen.W34 m ρ c (Proc.devRef .tc main_v29)) = Spec.deg ((inputs m c).dst 1) := by
  funext i
  rw [Gen.W34_of_ne m ρ c main_v29 (by decide), Gen.W33_of_ne m ρ c main_v29 (by decide), carry1_v29 m ρ c,
    Gen.W19_of_ne m ρ c main_v29 (by decide)]
  exact deg_v29 m ρ c i
theorem deg_v42_19 : Spec.rd1 (Gen.W19 m ρ c (Proc.devRef .tc main_v42)) = Spec.deg ((inputs m c).src 2) := by
  funext i; rw [Gen.W19_of_ne m ρ c main_v42 (by decide)]; exact deg_v42 m ρ c i
theorem deg_v42_34 : Spec.rd1 (Gen.W34 m ρ c (Proc.devRef .tc main_v42)) = Spec.deg ((inputs m c).src 2) := by
  funext i
  rw [Gen.W34_of_ne m ρ c main_v42 (by decide), Gen.W33_of_ne m ρ c main_v42 (by decide), carry1_v42 m ρ c,
    Gen.W19_of_ne m ρ c main_v42 (by decide)]
  exact deg_v42 m ρ c i
theorem deg_v43_19 : Spec.rd1 (Gen.W19 m ρ c (Proc.devRef .tc main_v43)) = Spec.deg ((inputs m c).dst 2) := by
  funext i; rw [Gen.W19_of_ne m ρ c main_v43 (by decide)]; exact deg_v43 m ρ c i
theorem deg_v43_34 : Spec.rd1 (Gen.W34 m ρ c (Proc.devRef .tc main_v43)) = Spec.deg ((inputs m c).dst 2) := by
  funext i
  rw [Gen.W34_of_ne m ρ c main_v43 (by decide), Gen.W33_of_ne m ρ c main_v43 (by decide), carry1_v43 m ρ c,
    Gen.W19_of_ne m ρ c main_v43 (by decide)]
  exact deg_v43 m ρ c i
theorem deg_v56_19 : Spec.rd1 (Gen.W19 m ρ c (Proc.devRef .tc main_v56)) = Spec.deg ((inputs m c).src 3) := by
  funext i; rw [Gen.W19_of_ne m ρ c main_v56 (by decide)]; exact deg_v56 m ρ c i
theorem deg_v56_34 : Spec.rd1 (Gen.W34 m ρ c (Proc.devRef .tc main_v56)) = Spec.deg ((inputs m c).src 3) := by
  funext i
  rw [Gen.W34_of_ne m ρ c main_v56 (by decide), Gen.W33_of_ne m ρ c main_v56 (by decide), carry1_v56 m ρ c,
    Gen.W19_of_ne m ρ c main_v56 (by decide)]
  exact deg_v56 m ρ c i
theorem deg_v57_19 : Spec.rd1 (Gen.W19 m ρ c (Proc.devRef .tc main_v57)) = Spec.deg ((inputs m c).dst 3) := by
  funext i; rw [Gen.W19_of_ne m ρ c main_v57 (by decide)]; exact deg_v57 m ρ c i
theorem deg_v57_34 : Spec.rd1 (Gen.W34 m ρ c (Proc.devRef .tc main_v57)) = Spec.deg ((inputs m c).dst 3) := by
  funext i
  rw [Gen.W34_of_ne m ρ c main_v57 (by decide), Gen.W33_of_ne m ρ c main_v57 (by decide), carry1_v57 m ρ c,
    Gen.W19_of_ne m ρ c main_v57 (by decide)]
  exact deg_v57 m ρ c i

/-! ## The first layer -/

/-- The first weight region's output is the looked-up features times the first weights. -/
theorem z1 (hg : (inputs m c).Good) (r : Fin 4) :
    Spec.rd3 (Gen.W19 m ρ c (Proc.devRef .tc main_v58)) r = Spec.xw (Spec.feat (inputs m c)) ((inputs m c).W1 r) := by
  funext i j
  rw [xw_L1 m ρ c r i j]
  refine Finset.sum_congr rfl fun k _ => ?_
  rw [feat_W18 m ρ c hg.inp i k, arg4_18 m ρ c]
  rfl

theorem a1_0 (hg : (inputs m c).Good) (n : Fin 100000) (j : Fin 128) :
    Spec.rd2 (Gen.W32 m ρ c (Proc.devRef .tc main_v75)) n j = Spec.agg (Spec.xw (Spec.feat (inputs m c)) ((inputs m c).W1 0)) ((inputs m c).src 0) ((inputs m c).dst 0) n j := by
  have hs : ∀ e : Fin 500000, Spec.IsNode (Spec.wd2 (Gen.W19 m ρ c (Proc.devRef .tc main_arg1)) (0 : Fin 4) e) := by
    intro e; rw [arg1_19 m ρ c]; exact hg.src 0 e
  rw [agg_v75 m ρ c hs n j, z1 m ρ c hg 0, deg_v14_19 m ρ c, deg_v15_19 m ρ c, arg1_19 m ρ c, arg2_19 m ρ c]
  rfl

theorem a1_1 (hg : (inputs m c).Good) (n : Fin 100000) (j : Fin 128) :
    Spec.rd2 (Gen.W32 m ρ c (Proc.devRef .tc main_v92)) n j = Spec.agg (Spec.xw (Spec.feat (inputs m c)) ((inputs m c).W1 1)) ((inputs m c).src 1) ((inputs m c).dst 1) n j := by
  have hs : ∀ e : Fin 500000, Spec.IsNode (Spec.wd2 (Gen.W19 m ρ c (Proc.devRef .tc main_arg1)) (1 : Fin 4) e) := by
    intro e; rw [arg1_19 m ρ c]; exact hg.src 1 e
  rw [agg_v92 m ρ c hs n j, z1 m ρ c hg 1, deg_v28_19 m ρ c, deg_v29_19 m ρ c, arg1_19 m ρ c, arg2_19 m ρ c]
  rfl

theorem a1_2 (hg : (inputs m c).Good) (n : Fin 100000) (j : Fin 128) :
    Spec.rd2 (Gen.W32 m ρ c (Proc.devRef .tc main_v109)) n j = Spec.agg (Spec.xw (Spec.feat (inputs m c)) ((inputs m c).W1 2)) ((inputs m c).src 2) ((inputs m c).dst 2) n j := by
  have hs : ∀ e : Fin 500000, Spec.IsNode (Spec.wd2 (Gen.W19 m ρ c (Proc.devRef .tc main_arg1)) (2 : Fin 4) e) := by
    intro e; rw [arg1_19 m ρ c]; exact hg.src 2 e
  rw [agg_v109 m ρ c hs n j, z1 m ρ c hg 2, deg_v42_19 m ρ c, deg_v43_19 m ρ c, arg1_19 m ρ c, arg2_19 m ρ c]
  rfl

theorem a1_3 (hg : (inputs m c).Good) (n : Fin 100000) (j : Fin 128) :
    Spec.rd2 (Gen.W32 m ρ c (Proc.devRef .tc main_v126)) n j = Spec.agg (Spec.xw (Spec.feat (inputs m c)) ((inputs m c).W1 3)) ((inputs m c).src 3) ((inputs m c).dst 3) n j := by
  have hs : ∀ e : Fin 500000, Spec.IsNode (Spec.wd2 (Gen.W19 m ρ c (Proc.devRef .tc main_arg1)) (3 : Fin 4) e) := by
    intro e; rw [arg1_19 m ρ c]; exact hg.src 3 e
  rw [agg_v126 m ρ c hs n j, z1 m ρ c hg 3, deg_v56_19 m ρ c, deg_v57_19 m ρ c, arg1_19 m ρ c, arg2_19 m ρ c]
  rfl

theorem bias1 (j : Fin 128) : Spec.rd2 (Gen.W32 m ρ c (Proc.devRef .tc main_v128)) 0 j = ∑ r : Fin 4, (inputs m c).b1 r j := by
  rw [bias1_W32 m ρ c j, arg5_19 m ρ c]; rfl

/-- The first combining region's output is the hidden features. -/
theorem hid (hg : (inputs m c).Good) : Spec.rd2 (Gen.W33 m ρ c (Proc.devRef .tc main_v129)) = Spec.hidK (inputs m c) := by
  funext n j
  rw [red_L1 m ρ c n j, a1_0 m ρ c hg n j, a1_1 m ρ c hg n j, a1_2 m ρ c hg n j, a1_3 m ρ c hg n j, bias1 m ρ c j]
  unfold Spec.hidK Spec.layerK
  rw [Fin.sum_univ_four (fun r : Fin 4 => Spec.agg (Spec.xw (Spec.feat (inputs m c)) ((inputs m c).W1 r)) ((inputs m c).src r) ((inputs m c).dst r) n j)]

/-! ## The second layer -/

/-- The second weight region's output is the hidden features times the second weights. -/
theorem z2 (hg : (inputs m c).Good) (r : Fin 4) :
    Spec.rd3 (Gen.W34 m ρ c (Proc.devRef .tc main_v130)) r = Spec.xw (Spec.hidK (inputs m c)) ((inputs m c).W2 r) := by
  funext i j
  rw [xw_L2 m ρ c r i j]
  refine Finset.sum_congr rfl fun k _ => ?_
  rw [arg6_33 m ρ c, hid m ρ c hg]
  rfl

theorem a2_0 (hg : (inputs m c).Good) (n : Fin 100000) (j : Fin 128) :
    Spec.rd2 (Gen.W47 m ρ c (Proc.devRef .tc main_v147)) n j = Spec.agg (Spec.xw (Spec.hidK (inputs m c)) ((inputs m c).W2 0)) ((inputs m c).src 0) ((inputs m c).dst 0) n j := by
  have hs : ∀ e : Fin 500000, Spec.IsNode (Spec.wd2 (Gen.W34 m ρ c (Proc.devRef .tc main_arg1)) (0 : Fin 4) e) := by
    intro e; rw [arg1_34 m ρ c]; exact hg.src 0 e
  rw [agg_v147 m ρ c hs n j, z2 m ρ c hg 0, deg_v14_34 m ρ c, deg_v15_34 m ρ c, arg1_34 m ρ c, arg2_34 m ρ c]
  rfl

theorem a2_1 (hg : (inputs m c).Good) (n : Fin 100000) (j : Fin 128) :
    Spec.rd2 (Gen.W47 m ρ c (Proc.devRef .tc main_v164)) n j = Spec.agg (Spec.xw (Spec.hidK (inputs m c)) ((inputs m c).W2 1)) ((inputs m c).src 1) ((inputs m c).dst 1) n j := by
  have hs : ∀ e : Fin 500000, Spec.IsNode (Spec.wd2 (Gen.W34 m ρ c (Proc.devRef .tc main_arg1)) (1 : Fin 4) e) := by
    intro e; rw [arg1_34 m ρ c]; exact hg.src 1 e
  rw [agg_v164 m ρ c hs n j, z2 m ρ c hg 1, deg_v28_34 m ρ c, deg_v29_34 m ρ c, arg1_34 m ρ c, arg2_34 m ρ c]
  rfl

theorem a2_2 (hg : (inputs m c).Good) (n : Fin 100000) (j : Fin 128) :
    Spec.rd2 (Gen.W47 m ρ c (Proc.devRef .tc main_v181)) n j = Spec.agg (Spec.xw (Spec.hidK (inputs m c)) ((inputs m c).W2 2)) ((inputs m c).src 2) ((inputs m c).dst 2) n j := by
  have hs : ∀ e : Fin 500000, Spec.IsNode (Spec.wd2 (Gen.W34 m ρ c (Proc.devRef .tc main_arg1)) (2 : Fin 4) e) := by
    intro e; rw [arg1_34 m ρ c]; exact hg.src 2 e
  rw [agg_v181 m ρ c hs n j, z2 m ρ c hg 2, deg_v42_34 m ρ c, deg_v43_34 m ρ c, arg1_34 m ρ c, arg2_34 m ρ c]
  rfl

theorem a2_3 (hg : (inputs m c).Good) (n : Fin 100000) (j : Fin 128) :
    Spec.rd2 (Gen.W47 m ρ c (Proc.devRef .tc main_v198)) n j = Spec.agg (Spec.xw (Spec.hidK (inputs m c)) ((inputs m c).W2 3)) ((inputs m c).src 3) ((inputs m c).dst 3) n j := by
  have hs : ∀ e : Fin 500000, Spec.IsNode (Spec.wd2 (Gen.W34 m ρ c (Proc.devRef .tc main_arg1)) (3 : Fin 4) e) := by
    intro e; rw [arg1_34 m ρ c]; exact hg.src 3 e
  rw [agg_v198 m ρ c hs n j, z2 m ρ c hg 3, deg_v56_34 m ρ c, deg_v57_34 m ρ c, arg1_34 m ρ c, arg2_34 m ρ c]
  rfl

theorem bias2 (j : Fin 128) : Spec.rd2 (Gen.W47 m ρ c (Proc.devRef .tc main_v200)) 0 j = ∑ r : Fin 4, (inputs m c).b2 r j := by
  rw [bias2_W47 m ρ c j, arg7_34 m ρ c]; rfl

/-- The result buffer holds the weight-first network of the inputs. -/
theorem result (hg : (inputs m c).Good) (n : Fin 100000) (j : Fin 128) :
    Spec.rd2 (Gen.W48 m ρ c (Proc.devRef .tc main_v201)) n j = Spec.outK (inputs m c) n j := by
  rw [red_L2 m ρ c n j, a2_0 m ρ c hg n j, a2_1 m ρ c hg n j, a2_2 m ρ c hg n j, a2_3 m ρ c hg n j, bias2 m ρ c j]
  unfold Spec.outK Spec.layerK
  rw [Fin.sum_univ_four (fun r : Fin 4 => Spec.agg (Spec.xw (Spec.hidK (inputs m c)) ((inputs m c).W2 r)) ((inputs m c).src r) ((inputs m c).dst r) n j)]

end Cert.KernelIdeal.KV

end
-- ==== Proof.RLayer1.lean ====
/-
The reference's first layer, staged: the feature lookup (a clamping gather, which on a node id reads the addressed row), per relation the degree factors, the scaled features gathered by source, the accumulating scatter by destination, the scaling by the destination's factor, the product with the relation's weight and its bias; the four relations summed from zero; tanh.
-/
import proofs.«420714_j25331717112057_2_alg».proof.Proof.ReadP
import proofs.«420714_j25331717112057_2_alg».proof.Proof.Spec
import proofs.«420714_j25331717112057_2_alg».proof.Proof.HostOps

noncomputable section

open scoped BigOperators

namespace Cert.ReferenceIdeal.RV

open Idealize.ShloMosaic Idealize.ShloMosaic.ValueIdx
open Cert.ReferenceIdeal Cert.ReferenceIdeal.Read

variable (x0 : (⟨S100000, .i32⟩ : BufTy).Contents (Elt Ideal)) (x1 x2 : (⟨S4x500000, .i32⟩ : BufTy).Contents (Elt Ideal))
  (x3 : (⟨S100000x128, .f32⟩ : BufTy).Contents (Elt Ideal)) (x4 : (⟨S4x128x128, .f32⟩ : BufTy).Contents (Elt Ideal))
  (x5 : (⟨S4x128, .f32⟩ : BufTy).Contents (Elt Ideal)) (x6 : (⟨S4x128x128, .f32⟩ : BufTy).Contents (Elt Ideal))
  (x7 : (⟨S4x128, .f32⟩ : BufTy).Contents (Elt Ideal))

namespace L1

/-! ## Lemmas over variables: the wrap of an id, the degree factor, what the destination scatter collects -/

/-- Adding the number of nodes to a negative id changes nothing on a node id. -/
theorem wrap_node {w : BitVec 32} (h : Spec.IsNode w) :
    Scalar.select (IntOp.cmpi .slt w 0#32) (IntOp.addi w 100000#32) w = w := by
  have hc : IntOp.cmpi .slt w 0#32 = 0#1 := by
    show BitVec.ofBool (w.slt 0#32) = 0#1
    have hf : w.slt 0#32 = false := by
      unfold BitVec.slt
      exact decide_eq_false (by have := h.1; simp only [BitVec.toInt_zero]; omega)
    rw [hf]; rfl
  rw [hc]; exact select_zero _ _

/-- The degree factor as the program computes it: ones accumulated from zero at the ids, the count clipped below at
    one, the reciprocal square root of that. -/
theorem deg_read (bone zero : (⟨S100000, .f32⟩ : BufTy).Contents (Elt Ideal)) (col : (⟨S500000x1, .i32⟩ : BufTy).Contents (Elt Ideal))
    (ones : (⟨S500000, .f32⟩ : BufTy).Contents (Elt Ideal)) (ids : Fin 500000 → BitVec 32)
    (hb : ∀ n, Spec.rd1 bone n = Spec.one) (hz : ∀ n, Spec.rd1 zero n = 0) (hc : ∀ e, Spec.wd2 col e 0 = ids e)
    (ho : ∀ e, Spec.rd1 ones e = Spec.one) (n : Fin 100000) :
    Spec.rd1 (Host.rsqrt (F := Ideal) (φ := .f32) (maximumf (F := Ideal) (φ := .f32) bone (Host.scatterAdd (F := Ideal) (φ := .f32) scatter_S100000_S500000x1_S500000_n_0_0_1 zero col ones))) n = Spec.deg ids n := by
  have hd : scatter_S100000_S500000x1_S500000_n_0_0_1 = Cert.HostOps.seg1Dims 100000 500000 Facts₀.scatter_S100000_S500000x1_S500000_n_0_0_1_wf := rfl
  show FloatOps.hostUnary (F := Ideal) (φ := .f32) .rsqrt (FloatOps.maximumf (F := Ideal) (φ := .f32) (bone (ix1 n)) (Host.scatterAdd (F := Ideal) (φ := .f32) scatter_S100000_S500000x1_S500000_n_0_0_1 zero col ones (ix1 n))) = _
  rw [hd, Cert.HostOps.scatterAdd_elems, Ideal.hostUnary_rsqrt_def, Ideal.maximumf_def]
  have hsum : (∑ e : Fin 500000, if (col (ix2 e 0)).toInt = (n.val : Int) then (ones (ix1 e) : EReal) else 0)
      = ∑ e : Fin 500000, if Spec.Hits ids e n then Spec.one else 0 :=
    Finset.sum_congr rfl fun e _ => by
      rw [show col (ix2 e 0) = ids e from hc e, show ones (ix1 e) = Spec.one from ho e]
      exact if_congr Iff.rfl rfl rfl
  rw [hsum, show bone (ix1 n) = Spec.one from hb n, show zero (ix1 n) = 0 from hz n, zero_add]
  rfl

/-- The aggregate as the program computes it: the rows of the scaled features gathered by source id, accumulated from
    zero at the destination id, the sum scaled by the destination's factor. -/
theorem agg_read (Y gD zero2 : (⟨S100000x128, .f32⟩ : BufTy).Contents (Elt Ideal)) (colW colD : (⟨S500000x1, .i32⟩ : BufTy).Contents (Elt Ideal))
    (x : Fin 100000 → Fin 128 → EReal) (s d : Fin 500000 → BitVec 32)
    (hY : ∀ m k, Spec.rd2 Y m k = x m k * Spec.deg s m) (hgD : ∀ n k, Spec.rd2 gD n k = Spec.deg d n)
    (hz : ∀ n k, Spec.rd2 zero2 n k = 0) (hW : ∀ e, Spec.wd2 colW e 0 = s e) (hD : ∀ e, Spec.wd2 colD e 0 = d e)
    (hs : ∀ e, Spec.IsNode (s e)) (n : Fin 100000) (k : Fin 128) :
    Spec.rd2 (mulf (F := Ideal) (φ := .f32) (Host.scatterAdd (F := Ideal) (φ := .f32) scatter_S100000x128_S500000x1_S500000x128_1_0_0_1 zero2 colD
      (Host.gather gather_S100000x128_S500000x1_S500000x128_1_0_n_n_0_1_1128 Y colW)) gD) n k = Spec.agg x s d n k := by
  have hdg : gather_S100000x128_S500000x1_S500000x128_1_0_n_n_0_1_1128 = Cert.HostOps.rowsDims 100000 500000 128 Facts₀.gather_S100000x128_S500000x1_S500000x128_1_0_n_n_0_1_1128_wf := rfl
  have hds : scatter_S100000x128_S500000x1_S500000x128_1_0_0_1 = Cert.Seg.segDims 100000 500000 128 Facts₀.scatter_S100000x128_S500000x1_S500000x128_1_0_0_1_wf := rfl
  show FloatOps.mulf (F := Ideal) (φ := .f32) (Host.scatterAdd (F := Ideal) (φ := .f32) scatter_S100000x128_S500000x1_S500000x128_1_0_0_1 zero2 colD
      (Host.gather gather_S100000x128_S500000x1_S500000x128_1_0_n_n_0_1_1128 Y colW) (ix2 n k)) (gD (ix2 n k)) = _
  rw [hds, hdg, Cert.HostOps.scatterAdd_rows, Ideal.mulf_def, show zero2 (ix2 n k) = 0 from hz n k, zero_add,
    show gD (ix2 n k) = Spec.deg d n from hgD n k]
  have hsum : (∑ e : Fin 500000, if (colD (ix2 e 0)).toInt = (n.val : Int) then
        (Host.gather (Cert.HostOps.rowsDims 100000 500000 128 Facts₀.gather_S100000x128_S500000x1_S500000x128_1_0_n_n_0_1_1128_wf) Y colW (ix2 e k) : EReal) else 0)
      = ∑ e : Fin 500000, if Spec.Hits d e n then x (Spec.node (s e)) k * Spec.deg s (Spec.node (s e)) else 0 :=
    Finset.sum_congr rfl fun e _ => by
      have hw : colW (ix2 e 0) = s e := hW e
      rw [Cert.HostOps.gather_rows_node _ Y colW e k (by rw [hw]; exact hs e), hw, show colD (ix2 e 0) = d e from hD e,
        show Y (ix2 (Spec.node (s e)) k) = x (Spec.node (s e)) k * Spec.deg s (Spec.node (s e)) from hY _ k]
      exact if_congr Iff.rfl rfl rfl
  rw [hsum]
  rfl

/-! ## The feature lookup -/

/-- The wrapped input ids, as a column, are the input ids. -/
theorem inp_col (hin : ∀ n : Fin 100000, Spec.IsNode (Spec.wd1 x0 n)) (m : Fin 100000) :
    Spec.wd2 (val_main_v5 (F := Ideal) x0) m 0 = Spec.wd1 x0 m := by
  have hi : idx_main_v5 (ix2 m 0) = ix1 m := funext fun a => Fin.ext (by match a with | ⟨0, _⟩ => rfl)
  show val_main_v5 (F := Ideal) x0 (ix2 m 0) = x0 (ix1 m)
  rw [val_main_v5_apply, hi, val_main_v4_apply, val_main_v1_apply, val_main_v3_apply]
  exact wrap_node (hin m)

/-- Row m of the looked-up features is the row of the table that input id m addresses. -/
theorem feat_read (hin : ∀ n : Fin 100000, Spec.IsNode (Spec.wd1 x0 n)) (m : Fin 100000) (k : Fin 128) :
    Spec.rd2 (val_main_v6 (F := Ideal) x0 x3) m k = Spec.rd2 x3 (Spec.node (Spec.wd1 x0 m)) k := by
  have hd : gather_S100000x128_S100000x1_S100000x128_1_0_n_n_0_1_1128 = Cert.HostOps.rowsDims 100000 100000 128 Facts₀.gather_S100000x128_S100000x1_S100000x128_1_0_n_n_0_1_1128_wf := rfl
  have hw : val_main_v5 (F := Ideal) x0 (ix2 m 0) = x0 (ix1 m) := inp_col x0 hin m
  show val_main_v6 (F := Ideal) x0 x3 (ix2 m k) = x3 (ix2 (Spec.node (x0 (ix1 m))) k)
  unfold val_main_v6
  rw [hd, Cert.HostOps.gather_rows_node _ x3 _ m k (by rw [hw]; exact hin m), hw]

/-! ## Relation 0 -/

/-- The relation's source ids are row 0 of the source array. -/
theorem src_0 (e : Fin 500000) : Spec.wd1 (val_main_v8 (F := Ideal) x1) e = Spec.wd2 x1 0 e := by
  show val_main_v8 (F := Ideal) x1 (ix1 e) = x1 (ix2 0 e)
  rw [val_main_v8_apply, val_main_v7_apply]
  exact congrArg x1 (funext fun a => Fin.ext (by
    match a with
    | ⟨0, _⟩ => rfl
    | ⟨1, _⟩ => exact Nat.mod_eq_of_lt e.isLt))

/-- Its destination ids are row 0 of the destination array. -/
theorem dst_0 (e : Fin 500000) : Spec.wd1 (val_main_v10 (F := Ideal) x2) e = Spec.wd2 x2 0 e := by
  show val_main_v10 (F := Ideal) x2 (ix1 e) = x2 (ix2 0 e)
  rw [val_main_v10_apply, val_main_v9_apply]
  exact congrArg x2 (funext fun a => Fin.ext (by
    match a with
    | ⟨0, _⟩ => rfl
    | ⟨1, _⟩ => exact Nat.mod_eq_of_lt e.isLt))

/-- Its weight is slab 0 of the weights. -/
theorem W_0 (k j : Fin 128) : Spec.rd2 (val_main_v12 (F := Ideal) x4) k j = Spec.rd3 x4 0 k j := by
  have hk := k.isLt
  have hj := j.isLt
  show val_main_v12 (F := Ideal) x4 (ix2 k j) = x4 (ix3 0 k j)
  rw [val_main_v12_apply, val_main_v11_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Its bias is row 0 of the biases. -/
theorem b_0 (j : Fin 128) : Spec.rd1 (val_main_v14 (F := Ideal) x5) j = Spec.rd2 x5 0 j := by
  show val_main_v14 (F := Ideal) x5 (ix1 j) = x5 (ix2 0 j)
  rw [val_main_v14_apply, val_main_v13_apply]
  exact congrArg x5 (funext fun a => Fin.ext (by
    match a with
    | ⟨0, _⟩ => rfl
    | ⟨1, _⟩ => exact Nat.mod_eq_of_lt j.isLt))

/-- The source ids as a column (the ids the out-degree count scatters at). -/
theorem colS_0 (e : Fin 500000) : Spec.wd2 (val_main_v17 (F := Ideal) x1) e 0 = Spec.wd2 x1 0 e := by
  have hi : idx_main_v17 (ix2 e 0) = ix1 e := funext fun a => Fin.ext (by match a with | ⟨0, _⟩ => rfl)
  show val_main_v17 (F := Ideal) x1 (ix2 e 0) = x1 (ix2 0 e)
  rw [val_main_v17_apply, hi]
  exact src_0 x1 e

/-- The destination ids as a column (the ids the in-degree count scatters at). -/
theorem colD_0 (e : Fin 500000) : Spec.wd2 (val_main_v21 (F := Ideal) x2) e 0 = Spec.wd2 x2 0 e := by
  have hi : idx_main_v21 (ix2 e 0) = ix1 e := funext fun a => Fin.ext (by match a with | ⟨0, _⟩ => rfl)
  show val_main_v21 (F := Ideal) x2 (ix2 e 0) = x2 (ix2 0 e)
  rw [val_main_v21_apply, hi]
  exact dst_0 x2 e

/-- The destination ids as a column again (the ids the feature rows scatter at). -/
theorem colD2_0 (e : Fin 500000) : Spec.wd2 (val_main_v36 (F := Ideal) x2) e 0 = Spec.wd2 x2 0 e := by
  have hi : idx_main_v36 (ix2 e 0) = ix1 e := funext fun a => Fin.ext (by match a with | ⟨0, _⟩ => rfl)
  show val_main_v36 (F := Ideal) x2 (ix2 e 0) = x2 (ix2 0 e)
  rw [val_main_v36_apply, hi]
  exact dst_0 x2 e

/-- The wrapped source ids as a column (the ids the feature rows are gathered by) are the source ids. -/
theorem colW_0 (hs : ∀ (r : Fin 4) (e : Fin 500000), Spec.IsNode (Spec.wd2 x1 r e)) (e : Fin 500000) : Spec.wd2 (val_main_v33 (F := Ideal) x1) e 0 = Spec.wd2 x1 0 e := by
  have hi : idx_main_v33 (ix2 e 0) = ix1 e := funext fun a => Fin.ext (by match a with | ⟨0, _⟩ => rfl)
  show val_main_v33 (F := Ideal) x1 (ix2 e 0) = x1 (ix2 0 e)
  rw [val_main_v33_apply, hi, val_main_v32_apply, val_main_v29_apply, val_main_v31_apply, show val_main_v8 (F := Ideal) x1 (ix1 e) = x1 (ix2 0 e) from src_0 x1 e]
  exact wrap_node (hs 0 e)

/-- The source factor of the relation is the degree factor of its source ids. -/
theorem degS_0 (n : Fin 100000) : Spec.rd1 (val_main_v24 (F := Ideal) x1) n = Spec.deg (Spec.wd2 x1 0) n := by
  unfold val_main_v24 val_main_v19 val_main_v18
  refine deg_read _ _ _ _ (Spec.wd2 x1 0) (fun n => ?_) (fun n => ?_) (colS_0 x1) (fun e => ?_) n
  · exact (val_main_call0_v1_apply _).trans rfl
  · exact (val_main_v16_apply _).trans Ideal.ofBits_zero_f32
  · exact (val_main_v15_apply _).trans rfl

/-- The destination factor of the relation is the degree factor of its destination ids. -/
theorem degD_0 (n : Fin 100000) : Spec.rd1 (val_main_v38 (F := Ideal) x2) n = Spec.deg (Spec.wd2 x2 0) n := by
  unfold val_main_v38 val_main_v23 val_main_v22
  refine deg_read _ _ _ _ (Spec.wd2 x2 0) (fun n => ?_) (fun n => ?_) (colD_0 x2) (fun e => ?_) n
  · exact (val_main_call1_v1_apply _).trans rfl
  · exact (val_main_v20_apply _).trans Ideal.ofBits_zero_f32
  · exact (val_main_v15_apply _).trans rfl

/-- The looked-up features scaled by the source factor. -/
theorem Y_0 (hin : ∀ n : Fin 100000, Spec.IsNode (Spec.wd1 x0 n)) (m : Fin 100000) (k : Fin 128) :
    Spec.rd2 (val_main_v27 (F := Ideal) x0 x1 x3) m k = Spec.rd2 x3 (Spec.node (Spec.wd1 x0 m)) k * Spec.deg (Spec.wd2 x1 0) m := by
  have hi : idx_main_v25 (idx_main_v26 (ix2 m k)) = ix1 m := funext fun a => Fin.ext (by match a with | ⟨0, _⟩ => rfl)
  show val_main_v27 (F := Ideal) x0 x1 x3 (ix2 m k) = _
  rw [val_main_v27_apply, val_main_v26_apply, val_main_v25_apply, hi, Ideal.mulf_def,
    show val_main_v24 (F := Ideal) x1 (ix1 m) = Spec.deg (Spec.wd2 x1 0) m from degS_0 x1 m,
    show val_main_v6 (F := Ideal) x0 x3 (ix2 m k) = x3 (ix2 (Spec.node (x0 (ix1 m))) k) from feat_read x0 x3 hin m k]

/-- The destination factor laid along the rows. -/
theorem gD_0 (n : Fin 100000) (k : Fin 128) : Spec.rd2 (val_main_v40 (F := Ideal) x2) n k = Spec.deg (Spec.wd2 x2 0) n := by
  have hi : idx_main_v39 (idx_main_v40 (ix2 n k)) = ix1 n := funext fun a => Fin.ext (by match a with | ⟨0, _⟩ => rfl)
  show val_main_v40 (F := Ideal) x2 (ix2 n k) = _
  rw [val_main_v40_apply, val_main_v39_apply, hi]
  exact degD_0 x2 n

/-- The relation's aggregate of the looked-up features. -/
theorem agg_0 (hin : ∀ n : Fin 100000, Spec.IsNode (Spec.wd1 x0 n)) (hs : ∀ (r : Fin 4) (e : Fin 500000), Spec.IsNode (Spec.wd2 x1 r e)) (n : Fin 100000) (k : Fin 128) :
    Spec.rd2 (val_main_v41 (F := Ideal) x0 x1 x2 x3) n k = Spec.agg (fun i k => Spec.rd2 x3 (Spec.node (Spec.wd1 x0 i)) k) (Spec.wd2 x1 0) (Spec.wd2 x2 0) n k := by
  unfold val_main_v41 val_main_v37 val_main_v34
  refine agg_read _ _ _ _ _ (fun i k => Spec.rd2 x3 (Spec.node (Spec.wd1 x0 i)) k) (Spec.wd2 x1 0) (Spec.wd2 x2 0) (Y_0 x0 x1 x3 hin) (gD_0 x2) (fun n k => ?_)
    (colW_0 x1 hs) (colD2_0 x2) (hs 0) n k
  exact (val_main_v35_apply _).trans Ideal.ofBits_zero_f32

/-- The relation's term of the layer: the aggregate against the relation's weight, plus its bias. -/
theorem term_0 (hin : ∀ n : Fin 100000, Spec.IsNode (Spec.wd1 x0 n)) (hs : ∀ (r : Fin 4) (e : Fin 500000), Spec.IsNode (Spec.wd2 x1 r e)) (n : Fin 100000) (j : Fin 128) :
    Spec.rd2 (val_main_v45 (F := Ideal) x0 x1 x2 x3 x4 x5) n j =
      (∑ k : Fin 128, Spec.agg (fun i k => Spec.rd2 x3 (Spec.node (Spec.wd1 x0 i)) k) (Spec.wd2 x1 0) (Spec.wd2 x2 0) n k * Spec.rd3 x4 0 k j) + Spec.rd2 x5 0 j := by
  have hl : ∀ k : Fin 128, lidx_main_v42 (ix2 n j) k = ix2 n k := fun k =>
    funext fun a => Fin.ext (by match a with | ⟨0, _⟩ => rfl | ⟨1, _⟩ => rfl)
  have hr : ∀ k : Fin 128, ridx_main_v42 (ix2 n j) k = ix2 k j := fun k =>
    funext fun a => Fin.ext (by match a with | ⟨0, _⟩ => rfl | ⟨1, _⟩ => rfl)
  have hi : idx_main_v43 (idx_main_v44 (ix2 n j)) = ix1 j := funext fun a => Fin.ext (by match a with | ⟨0, _⟩ => rfl)
  have hb : val_main_v44 (F := Ideal) x5 (ix2 n j) = x5 (ix2 0 j) := by
    rw [val_main_v44_apply, val_main_v43_apply, hi]
    exact b_0 x5 j
  show val_main_v45 (F := Ideal) x0 x1 x2 x3 x4 x5 (ix2 n j) = _
  rw [val_main_v45_apply, val_main_v42_apply, Ideal.addf_def, hb]
  refine congrArg₂ (· + ·) (Finset.sum_congr rfl fun k _ => ?_) rfl
  rw [hl, hr]
  exact congrArg₂ (· * ·) (agg_0 x0 x1 x2 x3 hin hs n k) (W_0 x4 k j)

/-! ## Relation 1 -/

/-- The relation's source ids are row 1 of the source array. -/
theorem src_1 (e : Fin 500000) : Spec.wd1 (val_main_v49 (F := Ideal) x1) e = Spec.wd2 x1 1 e := by
  show val_main_v49 (F := Ideal) x1 (ix1 e) = x1 (ix2 1 e)
  rw [val_main_v49_apply, val_main_v48_apply]
  exact congrArg x1 (funext fun a => Fin.ext (by
    match a with
    | ⟨0, _⟩ => rfl
    | ⟨1, _⟩ => exact Nat.mod_eq_of_lt e.isLt))

/-- Its destination ids are row 1 of the destination array. -/
theorem dst_1 (e : Fin 500000) : Spec.wd1 (val_main_v51 (F := Ideal) x2) e = Spec.wd2 x2 1 e := by
  show val_main_v51 (F := Ideal) x2 (ix1 e) = x2 (ix2 1 e)
  rw [val_main_v51_apply, val_main_v50_apply]
  exact congrArg x2 (funext fun a => Fin.ext (by
    match a with
    | ⟨0, _⟩ => rfl
    | ⟨1, _⟩ => exact Nat.mod_eq_of_lt e.isLt))

/-- Its weight is slab 1 of the weights. -/
theorem W_1 (k j : Fin 128) : Spec.rd2 (val_main_v53 (F := Ideal) x4) k j = Spec.rd3 x4 1 k j := by
  have hk := k.isLt
  have hj := j.isLt
  show val_main_v53 (F := Ideal) x4 (ix2 k j) = x4 (ix3 1 k j)
  rw [val_main_v53_apply, val_main_v52_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Its bias is row 1 of the biases. -/
theorem b_1 (j : Fin 128) : Spec.rd1 (val_main_v55 (F := Ideal) x5) j = Spec.rd2 x5 1 j := by
  show val_main_v55 (F := Ideal) x5 (ix1 j) = x5 (ix2 1 j)
  rw [val_main_v55_apply, val_main_v54_apply]
  exact congrArg x5 (funext fun a => Fin.ext (by
    match a with
    | ⟨0, _⟩ => rfl
    | ⟨1, _⟩ => exact Nat.mod_eq_of_lt j.isLt))

/-- The source ids as a column (the ids the out-degree count scatters at). -/
theorem colS_1 (e : Fin 500000) : Spec.wd2 (val_main_v58 (F := Ideal) x1) e 0 = Spec.wd2 x1 1 e := by
  have hi : idx_main_v58 (ix2 e 0) = ix1 e := funext fun a => Fin.ext (by match a with | ⟨0, _⟩ => rfl)
  show val_main_v58 (F := Ideal) x1 (ix2 e 0) = x1 (ix2 1 e)
  rw [val_main_v58_apply, hi]
  exact src_1 x1 e

/-- The destination ids as a column (the ids the in-degree count scatters at). -/
theorem colD_1 (e : Fin 500000) : Spec.wd2 (val_main_v62 (F := Ideal) x2) e 0 = Spec.wd2 x2 1 e := by
  have hi : idx_main_v62 (ix2 e 0) = ix1 e := funext fun a => Fin.ext (by match a with | ⟨0, _⟩ => rfl)
  show val_main_v62 (F := Ideal) x2 (ix2 e 0) = x2 (ix2 1 e)
  rw [val_main_v62_apply, hi]
  exact dst_1 x2 e

/-- The destination ids as a column again (the ids the feature rows scatter at). -/
theorem colD2_1 (e : Fin 500000) : Spec.wd2 (val_main_v77 (F := Ideal) x2) e 0 = Spec.wd2 x2 1 e := by
  have hi : idx_main_v77 (ix2 e 0) = ix1 e := funext fun a => Fin.ext (by match a with | ⟨0, _⟩ => rfl)
  show val_main_v77 (F := Ideal) x2 (ix2 e 0) = x2 (ix2 1 e)
  rw [val_main_v77_apply, hi]
  exact dst_1 x2 e

/-- The wrapped source ids as a column (the ids the feature rows are gathered by) are the source ids. -/
theorem colW_1 (hs : ∀ (r : Fin 4) (e : Fin 500000), Spec.IsNode (Spec.wd2 x1 r e)) (e : Fin 500000) : Spec.wd2 (val_main_v74 (F := Ideal) x1) e 0 = Spec.wd2 x1 1 e := by
  have hi : idx_main_v74 (ix2 e 0) = ix1 e := funext fun a => Fin.ext (by match a with | ⟨0, _⟩ => rfl)
  show val_main_v74 (F := Ideal) x1 (ix2 e 0) = x1 (ix2 1 e)
  rw [val_main_v74_apply, hi, val_main_v73_apply, val_main_v70_apply, val_main_v72_apply, show val_main_v49 (F := Ideal) x1 (ix1 e) = x1 (ix2 1 e) from src_1 x1 e]
  exact wrap_node (hs 1 e)

/-- The source factor of the relation is the degree factor of its source ids. -/
theorem degS_1 (n : Fin 100000) : Spec.rd1 (val_main_v65 (F := Ideal) x1) n = Spec.deg (Spec.wd2 x1 1) n := by
  unfold val_main_v65 val_main_v60 val_main_v59
  refine deg_read _ _ _ _ (Spec.wd2 x1 1) (fun n => ?_) (fun n => ?_) (colS_1 x1) (fun e => ?_) n
  · exact (val_main_call2_v1_apply _).trans rfl
  · exact (val_main_v57_apply _).trans Ideal.ofBits_zero_f32
  · exact (val_main_v56_apply _).trans rfl

/-- The destination factor of the relation is the degree factor of its destination ids. -/
theorem degD_1 (n : Fin 100000) : Spec.rd1 (val_main_v79 (F := Ideal) x2) n = Spec.deg (Spec.wd2 x2 1) n := by
  unfold val_main_v79 val_main_v64 val_main_v63
  refine deg_read _ _ _ _ (Spec.wd2 x2 1) (fun n => ?_) (fun n => ?_) (colD_1 x2) (fun e => ?_) n
  · exact (val_main_call3_v1_apply _).trans rfl
  · exact (val_main_v61_apply _).trans Ideal.ofBits_zero_f32
  · exact (val_main_v56_apply _).trans rfl

/-- The looked-up features scaled by the source factor. -/
theorem Y_1 (hin : ∀ n : Fin 100000, Spec.IsNode (Spec.wd1 x0 n)) (m : Fin 100000) (k : Fin 128) :
    Spec.rd2 (val_main_v68 (F := Ideal) x0 x1 x3) m k = Spec.rd2 x3 (Spec.node (Spec.wd1 x0 m)) k * Spec.deg (Spec.wd2 x1 1) m := by
  have hi : idx_main_v66 (idx_main_v67 (ix2 m k)) = ix1 m := funext fun a => Fin.ext (by match a with | ⟨0, _⟩ => rfl)
  show val_main_v68 (F := Ideal) x0 x1 x3 (ix2 m k) = _
  rw [val_main_v68_apply, val_main_v67_apply, val_main_v66_apply, hi, Ideal.mulf_def,
    show val_main_v65 (F := Ideal) x1 (ix1 m) = Spec.deg (Spec.wd2 x1 1) m from degS_1 x1 m,
    show val_main_v6 (F := Ideal) x0 x3 (ix2 m k) = x3 (ix2 (Spec.node (x0 (ix1 m))) k) from feat_read x0 x3 hin m k]

/-- The destination factor laid along the rows. -/
theorem gD_1 (n : Fin 100000) (k : Fin 128) : Spec.rd2 (val_main_v81 (F := Ideal) x2) n k = Spec.deg (Spec.wd2 x2 1) n := by
  have hi : idx_main_v80 (idx_main_v81 (ix2 n k)) = ix1 n := funext fun a => Fin.ext (by match a with | ⟨0, _⟩ => rfl)
  show val_main_v81 (F := Ideal) x2 (ix2 n k) = _
  rw [val_main_v81_apply, val_main_v80_apply, hi]
  exact degD_1 x2 n

/-- The relation's aggregate of the looked-up features. -/
theorem agg_1 (hin : ∀ n : Fin 100000, Spec.IsNode (Spec.wd1 x0 n)) (hs : ∀ (r : Fin 4) (e : Fin 500000), Spec.IsNode (Spec.wd2 x1 r e)) (n : Fin 100000) (k : Fin 128) :
    Spec.rd2 (val_main_v82 (F := Ideal) x0 x1 x2 x3) n k = Spec.agg (fun i k => Spec.rd2 x3 (Spec.node (Spec.wd1 x0 i)) k) (Spec.wd2 x1 1) (Spec.wd2 x2 1) n k := by
  unfold val_main_v82 val_main_v78 val_main_v75
  refine agg_read _ _ _ _ _ (fun i k => Spec.rd2 x3 (Spec.node (Spec.wd1 x0 i)) k) (Spec.wd2 x1 1) (Spec.wd2 x2 1) (Y_1 x0 x1 x3 hin) (gD_1 x2) (fun n k => ?_)
    (colW_1 x1 hs) (colD2_1 x2) (hs 1) n k
  exact (val_main_v76_apply _).trans Ideal.ofBits_zero_f32

/-- The relation's term of the layer: the aggregate against the relation's weight, plus its bias. -/
theorem term_1 (hin : ∀ n : Fin 100000, Spec.IsNode (Spec.wd1 x0 n)) (hs : ∀ (r : Fin 4) (e : Fin 500000), Spec.IsNode (Spec.wd2 x1 r e)) (n : Fin 100000) (j : Fin 128) :
    Spec.rd2 (val_main_v86 (F := Ideal) x0 x1 x2 x3 x4 x5) n j =
      (∑ k : Fin 128, Spec.agg (fun i k => Spec.rd2 x3 (Spec.node (Spec.wd1 x0 i)) k) (Spec.wd2 x1 1) (Spec.wd2 x2 1) n k * Spec.rd3 x4 1 k j) + Spec.rd2 x5 1 j := by
  have hl : ∀ k : Fin 128, lidx_main_v83 (ix2 n j) k = ix2 n k := fun k =>
    funext fun a => Fin.ext (by match a with | ⟨0, _⟩ => rfl | ⟨1, _⟩ => rfl)
  have hr : ∀ k : Fin 128, ridx_main_v83 (ix2 n j) k = ix2 k j := fun k =>
    funext fun a => Fin.ext (by match a with | ⟨0, _⟩ => rfl | ⟨1, _⟩ => rfl)
  have hi : idx_main_v84 (idx_main_v85 (ix2 n j)) = ix1 j := funext fun a => Fin.ext (by match a with | ⟨0, _⟩ => rfl)
  have hb : val_main_v85 (F := Ideal) x5 (ix2 n j) = x5 (ix2 1 j) := by
    rw [val_main_v85_apply, val_main_v84_apply, hi]
    exact b_1 x5 j
  show val_main_v86 (F := Ideal) x0 x1 x2 x3 x4 x5 (ix2 n j) = _
  rw [val_main_v86_apply, val_main_v83_apply, Ideal.addf_def, hb]
  refine congrArg₂ (· + ·) (Finset.sum_congr rfl fun k _ => ?_) rfl
  rw [hl, hr]
  exact congrArg₂ (· * ·) (agg_1 x0 x1 x2 x3 hin hs n k) (W_1 x4 k j)

/-! ## Relation 2 -/

/-- The relation's source ids are row 2 of the source array. -/
theorem src_2 (e : Fin 500000) : Spec.wd1 (val_main_v89 (F := Ideal) x1) e = Spec.wd2 x1 2 e := by
  show val_main_v89 (F := Ideal) x1 (ix1 e) = x1 (ix2 2 e)
  rw [val_main_v89_apply, val_main_v88_apply]
  exact congrArg x1 (funext fun a => Fin.ext (by
    match a with
    | ⟨0, _⟩ => rfl
    | ⟨1, _⟩ => exact Nat.mod_eq_of_lt e.isLt))

/-- Its destination ids are row 2 of the destination array. -/
theorem dst_2 (e : Fin 500000) : Spec.wd1 (val_main_v91 (F := Ideal) x2) e = Spec.wd2 x2 2 e := by
  show val_main_v91 (F := Ideal) x2 (ix1 e) = x2 (ix2 2 e)
  rw [val_main_v91_apply, val_main_v90_apply]
  exact congrArg x2 (funext fun a => Fin.ext (by
    match a with
    | ⟨0, _⟩ => rfl
    | ⟨1, _⟩ => exact Nat.mod_eq_of_lt e.isLt))

/-- Its weight is slab 2 of the weights. -/
theorem W_2 (k j : Fin 128) : Spec.rd2 (val_main_v93 (F := Ideal) x4) k j = Spec.rd3 x4 2 k j := by
  have hk := k.isLt
  have hj := j.isLt
  show val_main_v93 (F := Ideal) x4 (ix2 k j) = x4 (ix3 2 k j)
  rw [val_main_v93_apply, val_main_v92_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Its bias is row 2 of the biases. -/
theorem b_2 (j : Fin 128) : Spec.rd1 (val_main_v95 (F := Ideal) x5) j = Spec.rd2 x5 2 j := by
  show val_main_v95 (F := Ideal) x5 (ix1 j) = x5 (ix2 2 j)
  rw [val_main_v95_apply, val_main_v94_apply]
  exact congrArg x5 (funext fun a => Fin.ext (by
    match a with
    | ⟨0, _⟩ => rfl
    | ⟨1, _⟩ => exact Nat.mod_eq_of_lt j.isLt))

/-- The source ids as a column (the ids the out-degree count scatters at). -/
theorem colS_2 (e : Fin 500000) : Spec.wd2 (val_main_v98 (F := Ideal) x1) e 0 = Spec.wd2 x1 2 e := by
  have hi : idx_main_v98 (ix2 e 0) = ix1 e := funext fun a => Fin.ext (by match a with | ⟨0, _⟩ => rfl)
  show val_main_v98 (F := Ideal) x1 (ix2 e 0) = x1 (ix2 2 e)
  rw [val_main_v98_apply, hi]
  exact src_2 x1 e

/-- The destination ids as a column (the ids the in-degree count scatters at). -/
theorem colD_2 (e : Fin 500000) : Spec.wd2 (val_main_v102 (F := Ideal) x2) e 0 = Spec.wd2 x2 2 e := by
  have hi : idx_main_v102 (ix2 e 0) = ix1 e := funext fun a => Fin.ext (by match a with | ⟨0, _⟩ => rfl)
  show val_main_v102 (F := Ideal) x2 (ix2 e 0) = x2 (ix2 2 e)
  rw [val_main_v102_apply, hi]
  exact dst_2 x2 e

/-- The destination ids as a column again (the ids the feature rows scatter at). -/
theorem colD2_2 (e : Fin 500000) : Spec.wd2 (val_main_v117 (F := Ideal) x2) e 0 = Spec.wd2 x2 2 e := by
  have hi : idx_main_v117 (ix2 e 0) = ix1 e := funext fun a => Fin.ext (by match a with | ⟨0, _⟩ => rfl)
  show val_main_v117 (F := Ideal) x2 (ix2 e 0) = x2 (ix2 2 e)
  rw [val_main_v117_apply, hi]
  exact dst_2 x2 e

/-- The wrapped source ids as a column (the ids the feature rows are gathered by) are the source ids. -/
theorem colW_2 (hs : ∀ (r : Fin 4) (e : Fin 500000), Spec.IsNode (Spec.wd2 x1 r e)) (e : Fin 500000) : Spec.wd2 (val_main_v114 (F := Ideal) x1) e 0 = Spec.wd2 x1 2 e := by
  have hi : idx_main_v114 (ix2 e 0) = ix1 e := funext fun a => Fin.ext (by match a with | ⟨0, _⟩ => rfl)
  show val_main_v114 (F := Ideal) x1 (ix2 e 0) = x1 (ix2 2 e)
  rw [val_main_v114_apply, hi, val_main_v113_apply, val_main_v110_apply, val_main_v112_apply, show val_main_v89 (F := Ideal) x1 (ix1 e) = x1 (ix2 2 e) from src_2 x1 e]
  exact wrap_node (hs 2 e)

/-- The source factor of the relation is the degree factor of its source ids. -/
theorem degS_2 (n : Fin 100000) : Spec.rd1 (val_main_v105 (F := Ideal) x1) n = Spec.deg (Spec.wd2 x1 2) n := by
  unfold val_main_v105 val_main_v100 val_main_v99
  refine deg_read _ _ _ _ (Spec.wd2 x1 2) (fun n => ?_) (fun n => ?_) (colS_2 x1) (fun e => ?_) n
  · exact (val_main_call4_v1_apply _).trans rfl
  · exact (val_main_v97_apply _).trans Ideal.ofBits_zero_f32
  · exact (val_main_v96_apply _).trans rfl

/-- The destination factor of the relation is the degree factor of its destination ids. -/
theorem degD_2 (n : Fin 100000) : Spec.rd1 (val_main_v119 (F := Ideal) x2) n = Spec.deg (Spec.wd2 x2 2) n := by
  unfold val_main_v119 val_main_v104 val_main_v103
  refine deg_read _ _ _ _ (Spec.wd2 x2 2) (fun n => ?_) (fun n => ?_) (colD_2 x2) (fun e => ?_) n
  · exact (val_main_call5_v1_apply _).trans rfl
  · exact (val_main_v101_apply _).trans Ideal.ofBits_zero_f32
  · exact (val_main_v96_apply _).trans rfl

/-- The looked-up features scaled by the source factor. -/
theorem Y_2 (hin : ∀ n : Fin 100000, Spec.IsNode (Spec.wd1 x0 n)) (m : Fin 100000) (k : Fin 128) :
    Spec.rd2 (val_main_v108 (F := Ideal) x0 x1 x3) m k = Spec.rd2 x3 (Spec.node (Spec.wd1 x0 m)) k * Spec.deg (Spec.wd2 x1 2) m := by
  have hi : idx_main_v106 (idx_main_v107 (ix2 m k)) = ix1 m := funext fun a => Fin.ext (by match a with | ⟨0, _⟩ => rfl)
  show val_main_v108 (F := Ideal) x0 x1 x3 (ix2 m k) = _
  rw [val_main_v108_apply, val_main_v107_apply, val_main_v106_apply, hi, Ideal.mulf_def,
    show val_main_v105 (F := Ideal) x1 (ix1 m) = Spec.deg (Spec.wd2 x1 2) m from degS_2 x1 m,
    show val_main_v6 (F := Ideal) x0 x3 (ix2 m k) = x3 (ix2 (Spec.node (x0 (ix1 m))) k) from feat_read x0 x3 hin m k]

/-- The destination factor laid along the rows. -/
theorem gD_2 (n : Fin 100000) (k : Fin 128) : Spec.rd2 (val_main_v121 (F := Ideal) x2) n k = Spec.deg (Spec.wd2 x2 2) n := by
  have hi : idx_main_v120 (idx_main_v121 (ix2 n k)) = ix1 n := funext fun a => Fin.ext (by match a with | ⟨0, _⟩ => rfl)
  show val_main_v121 (F := Ideal) x2 (ix2 n k) = _
  rw [val_main_v121_apply, val_main_v120_apply, hi]
  exact degD_2 x2 n

/-- The relation's aggregate of the looked-up features. -/
theorem agg_2 (hin : ∀ n : Fin 100000, Spec.IsNode (Spec.wd1 x0 n)) (hs : ∀ (r : Fin 4) (e : Fin 500000), Spec.IsNode (Spec.wd2 x1 r e)) (n : Fin 100000) (k : Fin 128) :
    Spec.rd2 (val_main_v122 (F := Ideal) x0 x1 x2 x3) n k = Spec.agg (fun i k => Spec.rd2 x3 (Spec.node (Spec.wd1 x0 i)) k) (Spec.wd2 x1 2) (Spec.wd2 x2 2) n k := by
  unfold val_main_v122 val_main_v118 val_main_v115
  refine agg_read _ _ _ _ _ (fun i k => Spec.rd2 x3 (Spec.node (Spec.wd1 x0 i)) k) (Spec.wd2 x1 2) (Spec.wd2 x2 2) (Y_2 x0 x1 x3 hin) (gD_2 x2) (fun n k => ?_)
    (colW_2 x1 hs) (colD2_2 x2) (hs 2) n k
  exact (val_main_v116_apply _).trans Ideal.ofBits_zero_f32

/-- The relation's term of the layer: the aggregate against the relation's weight, plus its bias. -/
theorem term_2 (hin : ∀ n : Fin 100000, Spec.IsNode (Spec.wd1 x0 n)) (hs : ∀ (r : Fin 4) (e : Fin 500000), Spec.IsNode (Spec.wd2 x1 r e)) (n : Fin 100000) (j : Fin 128) :
    Spec.rd2 (val_main_v126 (F := Ideal) x0 x1 x2 x3 x4 x5) n j =
      (∑ k : Fin 128, Spec.agg (fun i k => Spec.rd2 x3 (Spec.node (Spec.wd1 x0 i)) k) (Spec.wd2 x1 2) (Spec.wd2 x2 2) n k * Spec.rd3 x4 2 k j) + Spec.rd2 x5 2 j := by
  have hl : ∀ k : Fin 128, lidx_main_v123 (ix2 n j) k = ix2 n k := fun k =>
    funext fun a => Fin.ext (by match a with | ⟨0, _⟩ => rfl | ⟨1, _⟩ => rfl)
  have hr : ∀ k : Fin 128, ridx_main_v123 (ix2 n j) k = ix2 k j := fun k =>
    funext fun a => Fin.ext (by match a with | ⟨0, _⟩ => rfl | ⟨1, _⟩ => rfl)
  have hi : idx_main_v124 (idx_main_v125 (ix2 n j)) = ix1 j := funext fun a => Fin.ext (by match a with | ⟨0, _⟩ => rfl)
  have hb : val_main_v125 (F := Ideal) x5 (ix2 n j) = x5 (ix2 2 j) := by
    rw [val_main_v125_apply, val_main_v124_apply, hi]
    exact b_2 x5 j
  show val_main_v126 (F := Ideal) x0 x1 x2 x3 x4 x5 (ix2 n j) = _
  rw [val_main_v126_apply, val_main_v123_apply, Ideal.addf_def, hb]
  refine congrArg₂ (· + ·) (Finset.sum_congr rfl fun k _ => ?_) rfl
  rw [hl, hr]
  exact congrArg₂ (· * ·) (agg_2 x0 x1 x2 x3 hin hs n k) (W_2 x4 k j)

/-! ## Relation 3 -/

/-- The relation's source ids are row 3 of the source array. -/
theorem src_3 (e : Fin 500000) : Spec.wd1 (val_main_v129 (F := Ideal) x1) e = Spec.wd2 x1 3 e := by
  show val_main_v129 (F := Ideal) x1 (ix1 e) = x1 (ix2 3 e)
  rw [val_main_v129_apply, val_main_v128_apply]
  exact congrArg x1 (funext fun a => Fin.ext (by
    match a with
    | ⟨0, _⟩ => rfl
    | ⟨1, _⟩ => exact Nat.mod_eq_of_lt e.isLt))

/-- Its destination ids are row 3 of the destination array. -/
theorem dst_3 (e : Fin 500000) : Spec.wd1 (val_main_v131 (F := Ideal) x2) e = Spec.wd2 x2 3 e := by
  show val_main_v131 (F := Ideal) x2 (ix1 e) = x2 (ix2 3 e)
  rw [val_main_v131_apply, val_main_v130_apply]
  exact congrArg x2 (funext fun a => Fin.ext (by
    match a with
    | ⟨0, _⟩ => rfl
    | ⟨1, _⟩ => exact Nat.mod_eq_of_lt e.isLt))

/-- Its weight is slab 3 of the weights. -/
theorem W_3 (k j : Fin 128) : Spec.rd2 (val_main_v133 (F := Ideal) x4) k j = Spec.rd3 x4 3 k j := by
  have hk := k.isLt
  have hj := j.isLt
  show val_main_v133 (F := Ideal) x4 (ix2 k j) = x4 (ix3 3 k j)
  rw [val_main_v133_apply, val_main_v132_apply]
  exact congrArg x4 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Its bias is row 3 of the biases. -/
theorem b_3 (j : Fin 128) : Spec.rd1 (val_main_v135 (F := Ideal) x5) j = Spec.rd2 x5 3 j := by
  show val_main_v135 (F := Ideal) x5 (ix1 j) = x5 (ix2 3 j)
  rw [val_main_v135_apply, val_main_v134_apply]
  exact congrArg x5 (funext fun a => Fin.ext (by
    match a with
    | ⟨0, _⟩ => rfl
    | ⟨1, _⟩ => exact Nat.mod_eq_of_lt j.isLt))

/-- The source ids as a column (the ids the out-degree count scatters at). -/
theorem colS_3 (e : Fin 500000) : Spec.wd2 (val_main_v138 (F := Ideal) x1) e 0 = Spec.wd2 x1 3 e := by
  have hi : idx_main_v138 (ix2 e 0) = ix1 e := funext fun a => Fin.ext (by match a with | ⟨0, _⟩ => rfl)
  show val_main_v138 (F := Ideal) x1 (ix2 e 0) = x1 (ix2 3 e)
  rw [val_main_v138_apply, hi]
  exact src_3 x1 e

/-- The destination ids as a column (the ids the in-degree count scatters at). -/
theorem colD_3 (e : Fin 500000) : Spec.wd2 (val_main_v142 (F := Ideal) x2) e 0 = Spec.wd2 x2 3 e := by
  have hi : idx_main_v142 (ix2 e 0) = ix1 e := funext fun a => Fin.ext (by match a with | ⟨0, _⟩ => rfl)
  show val_main_v142 (F := Ideal) x2 (ix2 e 0) = x2 (ix2 3 e)
  rw [val_main_v142_apply, hi]
  exact dst_3 x2 e

/-- The destination ids as a column again (the ids the feature rows scatter at). -/
theorem colD2_3 (e : Fin 500000) : Spec.wd2 (val_main_v157 (F := Ideal) x2) e 0 = Spec.wd2 x2 3 e := by
  have hi : idx_main_v157 (ix2 e 0) = ix1 e := funext fun a => Fin.ext (by match a with | ⟨0, _⟩ => rfl)
  show val_main_v157 (F := Ideal) x2 (ix2 e 0) = x2 (ix2 3 e)
  rw [val_main_v157_apply, hi]
  exact dst_3 x2 e

/-- The wrapped source ids as a column (the ids the feature rows are gathered by) are the source ids. -/
theorem colW_3 (hs : ∀ (r : Fin 4) (e : Fin 500000), Spec.IsNode (Spec.wd2 x1 r e)) (e : Fin 500000) : Spec.wd2 (val_main_v154 (F := Ideal) x1) e 0 = Spec.wd2 x1 3 e := by
  have hi : idx_main_v154 (ix2 e 0) = ix1 e := funext fun a => Fin.ext (by match a with | ⟨0, _⟩ => rfl)
  show val_main_v154 (F := Ideal) x1 (ix2 e 0) = x1 (ix2 3 e)
  rw [val_main_v154_apply, hi, val_main_v153_apply, val_main_v150_apply, val_main_v152_apply, show val_main_v129 (F := Ideal) x1 (ix1 e) = x1 (ix2 3 e) from src_3 x1 e]
  exact wrap_node (hs 3 e)

/-- The source factor of the relation is the degree factor of its source ids. -/
theorem degS_3 (n : Fin 100000) : Spec.rd1 (val_main_v145 (F := Ideal) x1) n = Spec.deg (Spec.wd2 x1 3) n := by
  unfold val_main_v145 val_main_v140 val_main_v139
  refine deg_read _ _ _ _ (Spec.wd2 x1 3) (fun n => ?_) (fun n => ?_) (colS_3 x1) (fun e => ?_) n
  · exact (val_main_call6_v1_apply _).trans rfl
  · exact (val_main_v137_apply _).trans Ideal.ofBits_zero_f32
  · exact (val_main_v136_apply _).trans rfl

/-- The destination factor of the relation is the degree factor of its destination ids. -/
theorem degD_3 (n : Fin 100000) : Spec.rd1 (val_main_v159 (F := Ideal) x2) n = Spec.deg (Spec.wd2 x2 3) n := by
  unfold val_main_v159 val_main_v144 val_main_v143
  refine deg_read _ _ _ _ (Spec.wd2 x2 3) (fun n => ?_) (fun n => ?_) (colD_3 x2) (fun e => ?_) n
  · exact (val_main_call7_v1_apply _).trans rfl
  · exact (val_main_v141_apply _).trans Ideal.ofBits_zero_f32
  · exact (val_main_v136_apply _).trans rfl

/-- The looked-up features scaled by the source factor. -/
theorem Y_3 (hin : ∀ n : Fin 100000, Spec.IsNode (Spec.wd1 x0 n)) (m : Fin 100000) (k : Fin 128) :
    Spec.rd2 (val_main_v148 (F := Ideal) x0 x1 x3) m k = Spec.rd2 x3 (Spec.node (Spec.wd1 x0 m)) k * Spec.deg (Spec.wd2 x1 3) m := by
  have hi : idx_main_v146 (idx_main_v147 (ix2 m k)) = ix1 m := funext fun a => Fin.ext (by match a with | ⟨0, _⟩ => rfl)
  show val_main_v148 (F := Ideal) x0 x1 x3 (ix2 m k) = _
  rw [val_main_v148_apply, val_main_v147_apply, val_main_v146_apply, hi, Ideal.mulf_def,
    show val_main_v145 (F := Ideal) x1 (ix1 m) = Spec.deg (Spec.wd2 x1 3) m from degS_3 x1 m,
    show val_main_v6 (F := Ideal) x0 x3 (ix2 m k) = x3 (ix2 (Spec.node (x0 (ix1 m))) k) from feat_read x0 x3 hin m k]

/-- The destination factor laid along the rows. -/
theorem gD_3 (n : Fin 100000) (k : Fin 128) : Spec.rd2 (val_main_v161 (F := Ideal) x2) n k = Spec.deg (Spec.wd2 x2 3) n := by
  have hi : idx_main_v160 (idx_main_v161 (ix2 n k)) = ix1 n := funext fun a => Fin.ext (by match a with | ⟨0, _⟩ => rfl)
  show val_main_v161 (F := Ideal) x2 (ix2 n k) = _
  rw [val_main_v161_apply, val_main_v160_apply, hi]
  exact degD_3 x2 n

/-- The relation's aggregate of the looked-up features. -/
theorem agg_3 (hin : ∀ n : Fin 100000, Spec.IsNode (Spec.wd1 x0 n)) (hs : ∀ (r : Fin 4) (e : Fin 500000), Spec.IsNode (Spec.wd2 x1 r e)) (n : Fin 100000) (k : Fin 128) :
    Spec.rd2 (val_main_v162 (F := Ideal) x0 x1 x2 x3) n k = Spec.agg (fun i k => Spec.rd2 x3 (Spec.node (Spec.wd1 x0 i)) k) (Spec.wd2 x1 3) (Spec.wd2 x2 3) n k := by
  unfold val_main_v162 val_main_v158 val_main_v155
  refine agg_read _ _ _ _ _ (fun i k => Spec.rd2 x3 (Spec.node (Spec.wd1 x0 i)) k) (Spec.wd2 x1 3) (Spec.wd2 x2 3) (Y_3 x0 x1 x3 hin) (gD_3 x2) (fun n k => ?_)
    (colW_3 x1 hs) (colD2_3 x2) (hs 3) n k
  exact (val_main_v156_apply _).trans Ideal.ofBits_zero_f32

/-- The relation's term of the layer: the aggregate against the relation's weight, plus its bias. -/
theorem term_3 (hin : ∀ n : Fin 100000, Spec.IsNode (Spec.wd1 x0 n)) (hs : ∀ (r : Fin 4) (e : Fin 500000), Spec.IsNode (Spec.wd2 x1 r e)) (n : Fin 100000) (j : Fin 128) :
    Spec.rd2 (val_main_v166 (F := Ideal) x0 x1 x2 x3 x4 x5) n j =
      (∑ k : Fin 128, Spec.agg (fun i k => Spec.rd2 x3 (Spec.node (Spec.wd1 x0 i)) k) (Spec.wd2 x1 3) (Spec.wd2 x2 3) n k * Spec.rd3 x4 3 k j) + Spec.rd2 x5 3 j := by
  have hl : ∀ k : Fin 128, lidx_main_v163 (ix2 n j) k = ix2 n k := fun k =>
    funext fun a => Fin.ext (by match a with | ⟨0, _⟩ => rfl | ⟨1, _⟩ => rfl)
  have hr : ∀ k : Fin 128, ridx_main_v163 (ix2 n j) k = ix2 k j := fun k =>
    funext fun a => Fin.ext (by match a with | ⟨0, _⟩ => rfl | ⟨1, _⟩ => rfl)
  have hi : idx_main_v164 (idx_main_v165 (ix2 n j)) = ix1 j := funext fun a => Fin.ext (by match a with | ⟨0, _⟩ => rfl)
  have hb : val_main_v165 (F := Ideal) x5 (ix2 n j) = x5 (ix2 3 j) := by
    rw [val_main_v165_apply, val_main_v164_apply, hi]
    exact b_3 x5 j
  show val_main_v166 (F := Ideal) x0 x1 x2 x3 x4 x5 (ix2 n j) = _
  rw [val_main_v166_apply, val_main_v163_apply, Ideal.addf_def, hb]
  refine congrArg₂ (· + ·) (Finset.sum_congr rfl fun k _ => ?_) rfl
  rw [hl, hr]
  exact congrArg₂ (· * ·) (agg_3 x0 x1 x2 x3 hin hs n k) (W_3 x4 k j)

end L1

/-! ## The four relations summed from zero, through tanh -/

/-- The hidden features of the reference are the aggregate-first layer of the looked-up features, through tanh. -/
theorem hid_R (hin : ∀ n : Fin 100000, Spec.IsNode (Spec.wd1 x0 n)) (hs : ∀ (r : Fin 4) (e : Fin 500000), Spec.IsNode (Spec.wd2 x1 r e))
    (n : Fin 100000) (j : Fin 128) :
    Spec.rd2 (val_main_v168 (F := Ideal) x0 x1 x2 x3 x4 x5) n j =
      Ideal.tanh (Spec.layerR (fun i k => Spec.rd2 x3 (Spec.node (Spec.wd1 x0 i)) k) (Spec.rd3 x4) (Spec.rd2 x5) (Spec.wd2 x1) (Spec.wd2 x2) n j) := by
  show val_main_v168 (F := Ideal) x0 x1 x2 x3 x4 x5 (ix2 n j) = _
  rw [val_main_v168_apply, val_main_v167_apply, val_main_v127_apply, val_main_v87_apply, val_main_v47_apply, val_main_v46_apply,
    Ideal.hostUnary_tanh_def]
  simp only [Ideal.addf_def]
  rw [show val_main_v45 (F := Ideal) x0 x1 x2 x3 x4 x5 (ix2 n j) = _ from L1.term_0 x0 x1 x2 x3 x4 x5 hin hs n j,
    show val_main_v86 (F := Ideal) x0 x1 x2 x3 x4 x5 (ix2 n j) = _ from L1.term_1 x0 x1 x2 x3 x4 x5 hin hs n j,
    show val_main_v126 (F := Ideal) x0 x1 x2 x3 x4 x5 (ix2 n j) = _ from L1.term_2 x0 x1 x2 x3 x4 x5 hin hs n j,
    show val_main_v166 (F := Ideal) x0 x1 x2 x3 x4 x5 (ix2 n j) = _ from L1.term_3 x0 x1 x2 x3 x4 x5 hin hs n j,
    show val_main_cst_8 (F := Ideal) (idx_main_v46 (ix2 n j)) = (0 : EReal) from Ideal.ofBits_zero_f32, zero_add]
  unfold Spec.layerR
  rw [Fin.sum_univ_four]

end Cert.ReferenceIdeal.RV

end
-- ==== Proof.RLayer2.lean ====
/-
The reference's second layer, staged over its hidden features: per relation the degree factors, the scaled hidden features gathered by source, the accumulating scatter by destination, the scaling by the destination's factor, the product with the relation's second weight and its bias; the four relations summed from zero.

Each relation's stages are read at one element, innermost first. The id columns are rows of the two id arrays. A degree
factor is the reciprocal square root of the larger of one and a count, the count accumulated from zero by a scatter of
ones. The source ids pass through a wrap of negative ids, which is the identity on a node id, so the gather reads the
source node's scaled row; the scatter by destination then sums those rows over the edges that end at the node, and
the destination's factor scales the sum: that is the aggregate. The contraction with the relation's weight and the bias
give the relation's term, and the four terms are added to zero in order.
-/
import proofs.«420714_j25331717112057_2_alg».proof.Proof.ReadP
import proofs.«420714_j25331717112057_2_alg».proof.Proof.Spec
import proofs.«420714_j25331717112057_2_alg».proof.Proof.HostOps

noncomputable section

open scoped BigOperators

namespace Cert.ReferenceIdeal.RV

open Idealize.ShloMosaic Idealize.ShloMosaic.ValueIdx
open Cert.ReferenceIdeal Cert.ReferenceIdeal.Read

variable (x0 : (⟨S100000, .i32⟩ : BufTy).Contents (Elt Ideal)) (x1 x2 : (⟨S4x500000, .i32⟩ : BufTy).Contents (Elt Ideal))
  (x3 : (⟨S100000x128, .f32⟩ : BufTy).Contents (Elt Ideal)) (x4 : (⟨S4x128x128, .f32⟩ : BufTy).Contents (Elt Ideal))
  (x5 : (⟨S4x128, .f32⟩ : BufTy).Contents (Elt Ideal)) (x6 : (⟨S4x128x128, .f32⟩ : BufTy).Contents (Elt Ideal))
  (x7 : (⟨S4x128, .f32⟩ : BufTy).Contents (Elt Ideal))

namespace L2

/-- On a node id the wrap of a negative id (add 100000 when the id is below zero) changes nothing. -/
theorem wrap_node (w : BitVec 32) (h : Spec.IsNode w) :
    Scalar.select (IntOp.cmpi .slt w 0#32) (IntOp.addi w 100000#32) w = w := by
  have hc : IntOp.cmpi .slt w 0#32 = 0#1 := by
    unfold IntOp.cmpi
    have hlt : w.slt 0#32 = false := by
      have h0 := h.1
      simp only [BitVec.slt, BitVec.toInt_zero]
      exact decide_eq_false (by omega)
    simp only [hlt]
    rfl
  unfold Scalar.select
  rw [hc, if_neg (by decide)]

/-- The degree factor read off the program: the count of the edges whose id is n, accumulated from zero by the
    scatter of ones, clipped below at one, under the reciprocal square root. -/
theorem deg_read (wf : ScatterDims.WF ⟨1, ![100000]⟩ ⟨2, ![500000, 1]⟩ ⟨1, ![500000]⟩ [] [0] [0] 1)
    (z : (⟨1, ![100000]⟩ : Shape).Idx → EReal) (idx : IVec ⟨2, ![500000, 1]⟩ 32)
    (ones : (⟨1, ![500000]⟩ : Shape).Idx → EReal) (c : EReal) (ids : Fin 500000 → BitVec 32)
    (hz : ∀ n, z (ix1 n) = 0) (hidx : ∀ e, idx (ix2 e 0) = ids e) (hones : ∀ e, ones (ix1 e) = Spec.one)
    (hc : c = Spec.one) (n : Fin 100000) :
    Ideal.rsqrt (max c (Host.scatterAdd (F := Ideal) (φ := .f32) (Cert.HostOps.seg1Dims 100000 500000 wf) z idx ones (ix1 n))) =
      Spec.deg ids n := by
  rw [Cert.HostOps.scatterAdd_elems, hz, zero_add, hc]
  unfold Spec.deg Spec.Hits
  simp only [hidx, hones]

/-- What the destination scatter collects: the rows of the scaled features gathered by source id and accumulated
    from zero at the destination id. Entry (n, k) is the sum, over the edges that end at n, of the source's feature
    k times the source's factor. -/
theorem agg_read (wfg : GatherDims.WF ⟨2, ![100000, 128]⟩ ⟨2, ![500000, 1]⟩ ⟨2, ![500000, 128]⟩ [1] [0] [] [0] [] 1 ![1, 128])
    (wfs : ScatterDims.WF ⟨2, ![100000, 128]⟩ ⟨2, ![500000, 1]⟩ ⟨2, ![500000, 128]⟩ [1] [0] [0] 1)
    (X : Fin 100000 → Fin 128 → EReal) (g : Fin 100000 → EReal) (s d : Fin 500000 → BitVec 32)
    (Y : (⟨2, ![100000, 128]⟩ : Shape).Idx → EReal) (idxG idxS : IVec ⟨2, ![500000, 1]⟩ 32)
    (z : (⟨2, ![100000, 128]⟩ : Shape).Idx → EReal)
    (hY : ∀ n k, Y (ix2 n k) = X n k * g n) (hG : ∀ e, idxG (ix2 e 0) = s e) (hS : ∀ e, idxS (ix2 e 0) = d e)
    (hz : ∀ n k, z (ix2 n k) = 0) (hs : ∀ e, Spec.IsNode (s e)) (n : Fin 100000) (k : Fin 128) :
    Host.scatterAdd (F := Ideal) (φ := .f32) (Cert.Seg.segDims 100000 500000 128 wfs) z idxS
        (Host.gather (Cert.HostOps.rowsDims 100000 500000 128 wfg) Y idxG) (ix2 n k) =
      ∑ e : Fin 500000, if Spec.Hits d e n then X (Spec.node (s e)) k * g (Spec.node (s e)) else 0 := by
  rw [Cert.HostOps.scatterAdd_rows, hz, zero_add]
  refine Finset.sum_congr rfl fun e _ => ?_
  unfold Spec.Hits
  rw [hS e, Cert.HostOps.gather_rows_node wfg Y idxG e k (by rw [hG e]; exact hs e), hG e, hY]

/-! ### Relation 0 -/

theorem v170_read (e : Fin 500000) : val_main_v170 (F := Ideal) x1 (ix1 e) = Spec.wd2 x1 0 e := by
  rw [val_main_v170_apply, val_main_v169_apply]
  exact congrArg x1 (funext fun a => Fin.ext (by
    match a with
    | ⟨0, _⟩ => rfl
    | ⟨1, _⟩ => exact Nat.mod_eq_of_lt e.isLt))

theorem v172_read (e : Fin 500000) : val_main_v172 (F := Ideal) x2 (ix1 e) = Spec.wd2 x2 0 e := by
  rw [val_main_v172_apply, val_main_v171_apply]
  exact congrArg x2 (funext fun a => Fin.ext (by
    match a with
    | ⟨0, _⟩ => rfl
    | ⟨1, _⟩ => exact Nat.mod_eq_of_lt e.isLt))

theorem v179_read (e : Fin 500000) : val_main_v179 (F := Ideal) x1 (ix2 e 0) = Spec.wd2 x1 0 e := by
  rw [val_main_v179_apply, ← v170_read x1 e]
  exact congrArg _ (funext fun a => Fin.ext (by match a with | ⟨0, _⟩ => rfl))

theorem v183_read (e : Fin 500000) : val_main_v183 (F := Ideal) x2 (ix2 e 0) = Spec.wd2 x2 0 e := by
  rw [val_main_v183_apply, ← v172_read x2 e]
  exact congrArg _ (funext fun a => Fin.ext (by match a with | ⟨0, _⟩ => rfl))

theorem v198_read (e : Fin 500000) : val_main_v198 (F := Ideal) x2 (ix2 e 0) = Spec.wd2 x2 0 e := by
  rw [val_main_v198_apply, ← v172_read x2 e]
  exact congrArg _ (funext fun a => Fin.ext (by match a with | ⟨0, _⟩ => rfl))

theorem v195_read (hs : ∀ (r : Fin 4) (e : Fin 500000), Spec.IsNode (Spec.wd2 x1 r e)) (e : Fin 500000) :
    val_main_v195 (F := Ideal) x1 (ix2 e 0) = Spec.wd2 x1 0 e := by
  have hi : idx_main_v195 (ix2 e 0) = ix1 e := funext fun a => Fin.ext (by match a with | ⟨0, _⟩ => rfl)
  rw [val_main_v195_apply, hi, val_main_v194_apply, val_main_v191_apply, val_main_v193_apply, val_main_v190_apply,
    val_main_v192_apply, val_main_c_38_apply, val_main_c_39_apply, v170_read]
  exact L2.wrap_node _ (hs 0 e)

theorem v186_read (n : Fin 100000) : val_main_v186 (F := Ideal) x1 (ix1 n) = Spec.deg (Spec.wd2 x1 0) n := by
  rw [val_main_v186_apply, val_main_v181_apply, Ideal.hostUnary_rsqrt_def, Ideal.maximumf_def]
  unfold val_main_v180
  exact L2.deg_read Facts₀.scatter_S100000_S500000x1_S500000_n_0_0_1_wf _ _ _ _ (Spec.wd2 x1 0)
    (fun n => by rw [val_main_v178_apply, val_main_cst_34_apply, Ideal.ofBits_def, Ideal.ofBits_zero_f32])
    (v179_read x1)
    (fun e => by rw [val_main_v177_apply, val_main_cst_33_apply, Ideal.ofBits_def]; rfl)
    (by rw [val_main_call8_v1_apply, val_main_call8_v0_apply, val_main_cst_35_apply, Ideal.ofBits_def]; rfl) n

theorem v200_read (n : Fin 100000) : val_main_v200 (F := Ideal) x2 (ix1 n) = Spec.deg (Spec.wd2 x2 0) n := by
  rw [val_main_v200_apply, val_main_v185_apply, Ideal.hostUnary_rsqrt_def, Ideal.maximumf_def]
  unfold val_main_v184
  exact L2.deg_read Facts₀.scatter_S100000_S500000x1_S500000_n_0_0_1_wf _ _ _ _ (Spec.wd2 x2 0)
    (fun n => by rw [val_main_v182_apply, val_main_cst_36_apply, Ideal.ofBits_def, Ideal.ofBits_zero_f32])
    (v183_read x2)
    (fun e => by rw [val_main_v177_apply, val_main_cst_33_apply, Ideal.ofBits_def]; rfl)
    (by rw [val_main_call9_v1_apply, val_main_call9_v0_apply, val_main_cst_37_apply, Ideal.ofBits_def]; rfl) n

theorem v189_read (n : Fin 100000) (k : Fin 128) :
    val_main_v189 (F := Ideal) x0 x1 x2 x3 x4 x5 (ix2 n k) =
      Spec.rd2 (val_main_v168 (F := Ideal) x0 x1 x2 x3 x4 x5) n k * Spec.deg (Spec.wd2 x1 0) n := by
  have hi : idx_main_v187 (idx_main_v188 (ix2 n k)) = ix1 n := funext fun a => Fin.ext (by match a with | ⟨0, _⟩ => rfl)
  rw [val_main_v189_apply, val_main_v188_apply, val_main_v187_apply, hi, v186_read, Ideal.mulf_def]

theorem v199_read (hs : ∀ (r : Fin 4) (e : Fin 500000), Spec.IsNode (Spec.wd2 x1 r e)) (n : Fin 100000) (k : Fin 128) :
    val_main_v199 (F := Ideal) x0 x1 x2 x3 x4 x5 (ix2 n k) =
      ∑ e : Fin 500000, if Spec.Hits (Spec.wd2 x2 0) e n then
        Spec.rd2 (val_main_v168 (F := Ideal) x0 x1 x2 x3 x4 x5) (Spec.node (Spec.wd2 x1 0 e)) k *
          Spec.deg (Spec.wd2 x1 0) (Spec.node (Spec.wd2 x1 0 e)) else 0 := by
  unfold val_main_v199 val_main_v196
  exact L2.agg_read Facts₀.gather_S100000x128_S500000x1_S500000x128_1_0_n_n_0_1_1128_wf
    Facts₀.scatter_S100000x128_S500000x1_S500000x128_1_0_0_1_wf
    (Spec.rd2 (val_main_v168 (F := Ideal) x0 x1 x2 x3 x4 x5)) (Spec.deg (Spec.wd2 x1 0)) (Spec.wd2 x1 0) (Spec.wd2 x2 0)
    _ _ _ _ (v189_read x0 x1 x2 x3 x4 x5) (v195_read x1 hs) (v198_read x2)
    (fun n k => by rw [val_main_v197_apply, val_main_cst_40_apply, Ideal.ofBits_def, Ideal.ofBits_zero_f32])
    (hs 0) n k

theorem v203_read (hs : ∀ (r : Fin 4) (e : Fin 500000), Spec.IsNode (Spec.wd2 x1 r e)) (n : Fin 100000) (k : Fin 128) :
    val_main_v203 (F := Ideal) x0 x1 x2 x3 x4 x5 (ix2 n k) =
      Spec.agg (Spec.rd2 (val_main_v168 (F := Ideal) x0 x1 x2 x3 x4 x5)) (Spec.wd2 x1 0) (Spec.wd2 x2 0) n k := by
  have hi : idx_main_v201 (idx_main_v202 (ix2 n k)) = ix1 n := funext fun a => Fin.ext (by match a with | ⟨0, _⟩ => rfl)
  rw [val_main_v203_apply, val_main_v202_apply, val_main_v201_apply, hi, v200_read, v199_read x0 x1 x2 x3 x4 x5 hs,
    Ideal.mulf_def]
  rfl

theorem v174_read (k j : Fin 128) : val_main_v174 (F := Ideal) x6 (ix2 k j) = Spec.rd3 x6 0 k j := by
  rw [val_main_v174_apply, val_main_v173_apply]
  have hk := k.isLt
  have hj := j.isLt
  exact congrArg x6 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem v206_read (n : Fin 100000) (j : Fin 128) : val_main_v206 (F := Ideal) x7 (ix2 n j) = Spec.rd2 x7 0 j := by
  rw [val_main_v206_apply, val_main_v205_apply, val_main_v176_apply, val_main_v175_apply]
  exact congrArg x7 (funext fun a => Fin.ext (by
    match a with
    | ⟨0, _⟩ => rfl
    | ⟨1, _⟩ => exact Nat.mod_eq_of_lt j.isLt))

/-- Relation 0's term of the second layer at (n, j): the aggregate against the relation's weight, plus its bias. -/
theorem v207_read (hs : ∀ (r : Fin 4) (e : Fin 500000), Spec.IsNode (Spec.wd2 x1 r e)) (n : Fin 100000) (j : Fin 128) :
    val_main_v207 (F := Ideal) x0 x1 x2 x3 x4 x5 x6 x7 (ix2 n j) =
      (∑ k : Fin 128, Spec.agg (Spec.rd2 (val_main_v168 (F := Ideal) x0 x1 x2 x3 x4 x5)) (Spec.wd2 x1 0) (Spec.wd2 x2 0) n k *
        Spec.rd3 x6 0 k j) + Spec.rd2 x7 0 j := by
  have hl : ∀ k : Fin 128, lidx_main_v204 (ix2 n j) k = ix2 n k := fun k =>
    funext fun a => Fin.ext (by match a with | ⟨0, _⟩ => rfl | ⟨1, _⟩ => rfl)
  have hr : ∀ k : Fin 128, ridx_main_v204 (ix2 n j) k = ix2 k j := fun k =>
    funext fun a => Fin.ext (by match a with | ⟨0, _⟩ => rfl | ⟨1, _⟩ => rfl)
  rw [val_main_v207_apply, val_main_v204_apply, v206_read, Ideal.addf_def]
  simp only [hl, hr, v203_read x0 x1 x2 x3 x4 x5 hs, v174_read]

/-! ### Relation 1 -/

theorem v211_read (e : Fin 500000) : val_main_v211 (F := Ideal) x1 (ix1 e) = Spec.wd2 x1 1 e := by
  rw [val_main_v211_apply, val_main_v210_apply]
  exact congrArg x1 (funext fun a => Fin.ext (by
    match a with
    | ⟨0, _⟩ => rfl
    | ⟨1, _⟩ => exact Nat.mod_eq_of_lt e.isLt))

theorem v213_read (e : Fin 500000) : val_main_v213 (F := Ideal) x2 (ix1 e) = Spec.wd2 x2 1 e := by
  rw [val_main_v213_apply, val_main_v212_apply]
  exact congrArg x2 (funext fun a => Fin.ext (by
    match a with
    | ⟨0, _⟩ => rfl
    | ⟨1, _⟩ => exact Nat.mod_eq_of_lt e.isLt))

theorem v220_read (e : Fin 500000) : val_main_v220 (F := Ideal) x1 (ix2 e 0) = Spec.wd2 x1 1 e := by
  rw [val_main_v220_apply, ← v211_read x1 e]
  exact congrArg _ (funext fun a => Fin.ext (by match a with | ⟨0, _⟩ => rfl))

theorem v224_read (e : Fin 500000) : val_main_v224 (F := Ideal) x2 (ix2 e 0) = Spec.wd2 x2 1 e := by
  rw [val_main_v224_apply, ← v213_read x2 e]
  exact congrArg _ (funext fun a => Fin.ext (by match a with | ⟨0, _⟩ => rfl))

theorem v239_read (e : Fin 500000) : val_main_v239 (F := Ideal) x2 (ix2 e 0) = Spec.wd2 x2 1 e := by
  rw [val_main_v239_apply, ← v213_read x2 e]
  exact congrArg _ (funext fun a => Fin.ext (by match a with | ⟨0, _⟩ => rfl))

theorem v236_read (hs : ∀ (r : Fin 4) (e : Fin 500000), Spec.IsNode (Spec.wd2 x1 r e)) (e : Fin 500000) :
    val_main_v236 (F := Ideal) x1 (ix2 e 0) = Spec.wd2 x1 1 e := by
  have hi : idx_main_v236 (ix2 e 0) = ix1 e := funext fun a => Fin.ext (by match a with | ⟨0, _⟩ => rfl)
  rw [val_main_v236_apply, hi, val_main_v235_apply, val_main_v232_apply, val_main_v234_apply, val_main_v231_apply,
    val_main_v233_apply, val_main_c_47_apply, val_main_c_48_apply, v211_read]
  exact L2.wrap_node _ (hs 1 e)

theorem v227_read (n : Fin 100000) : val_main_v227 (F := Ideal) x1 (ix1 n) = Spec.deg (Spec.wd2 x1 1) n := by
  rw [val_main_v227_apply, val_main_v222_apply, Ideal.hostUnary_rsqrt_def, Ideal.maximumf_def]
  unfold val_main_v221
  exact L2.deg_read Facts₀.scatter_S100000_S500000x1_S500000_n_0_0_1_wf _ _ _ _ (Spec.wd2 x1 1)
    (fun n => by rw [val_main_v219_apply, val_main_cst_43_apply, Ideal.ofBits_def, Ideal.ofBits_zero_f32])
    (v220_read x1)
    (fun e => by rw [val_main_v218_apply, val_main_cst_42_apply, Ideal.ofBits_def]; rfl)
    (by rw [val_main_call10_v1_apply, val_main_call10_v0_apply, val_main_cst_44_apply, Ideal.ofBits_def]; rfl) n

theorem v241_read (n : Fin 100000) : val_main_v241 (F := Ideal) x2 (ix1 n) = Spec.deg (Spec.wd2 x2 1) n := by
  rw [val_main_v241_apply, val_main_v226_apply, Ideal.hostUnary_rsqrt_def, Ideal.maximumf_def]
  unfold val_main_v225
  exact L2.deg_read Facts₀.scatter_S100000_S500000x1_S500000_n_0_0_1_wf _ _ _ _ (Spec.wd2 x2 1)
    (fun n => by rw [val_main_v223_apply, val_main_cst_45_apply, Ideal.ofBits_def, Ideal.ofBits_zero_f32])
    (v224_read x2)
    (fun e => by rw [val_main_v218_apply, val_main_cst_42_apply, Ideal.ofBits_def]; rfl)
    (by rw [val_main_call11_v1_apply, val_main_call11_v0_apply, val_main_cst_46_apply, Ideal.ofBits_def]; rfl) n

theorem v230_read (n : Fin 100000) (k : Fin 128) :
    val_main_v230 (F := Ideal) x0 x1 x2 x3 x4 x5 (ix2 n k) =
      Spec.rd2 (val_main_v168 (F := Ideal) x0 x1 x2 x3 x4 x5) n k * Spec.deg (Spec.wd2 x1 1) n := by
  have hi : idx_main_v228 (idx_main_v229 (ix2 n k)) = ix1 n := funext fun a => Fin.ext (by match a with | ⟨0, _⟩ => rfl)
  rw [val_main_v230_apply, val_main_v229_apply, val_main_v228_apply, hi, v227_read, Ideal.mulf_def]

theorem v240_read (hs : ∀ (r : Fin 4) (e : Fin 500000), Spec.IsNode (Spec.wd2 x1 r e)) (n : Fin 100000) (k : Fin 128) :
    val_main_v240 (F := Ideal) x0 x1 x2 x3 x4 x5 (ix2 n k) =
      ∑ e : Fin 500000, if Spec.Hits (Spec.wd2 x2 1) e n then
        Spec.rd2 (val_main_v168 (F := Ideal) x0 x1 x2 x3 x4 x5) (Spec.node (Spec.wd2 x1 1 e)) k *
          Spec.deg (Spec.wd2 x1 1) (Spec.node (Spec.wd2 x1 1 e)) else 0 := by
  unfold val_main_v240 val_main_v237
  exact L2.agg_read Facts₀.gather_S100000x128_S500000x1_S500000x128_1_0_n_n_0_1_1128_wf
    Facts₀.scatter_S100000x128_S500000x1_S500000x128_1_0_0_1_wf
    (Spec.rd2 (val_main_v168 (F := Ideal) x0 x1 x2 x3 x4 x5)) (Spec.deg (Spec.wd2 x1 1)) (Spec.wd2 x1 1) (Spec.wd2 x2 1)
    _ _ _ _ (v230_read x0 x1 x2 x3 x4 x5) (v236_read x1 hs) (v239_read x2)
    (fun n k => by rw [val_main_v238_apply, val_main_cst_49_apply, Ideal.ofBits_def, Ideal.ofBits_zero_f32])
    (hs 1) n k

theorem v244_read (hs : ∀ (r : Fin 4) (e : Fin 500000), Spec.IsNode (Spec.wd2 x1 r e)) (n : Fin 100000) (k : Fin 128) :
    val_main_v244 (F := Ideal) x0 x1 x2 x3 x4 x5 (ix2 n k) =
      Spec.agg (Spec.rd2 (val_main_v168 (F := Ideal) x0 x1 x2 x3 x4 x5)) (Spec.wd2 x1 1) (Spec.wd2 x2 1) n k := by
  have hi : idx_main_v242 (idx_main_v243 (ix2 n k)) = ix1 n := funext fun a => Fin.ext (by match a with | ⟨0, _⟩ => rfl)
  rw [val_main_v244_apply, val_main_v243_apply, val_main_v242_apply, hi, v241_read, v240_read x0 x1 x2 x3 x4 x5 hs,
    Ideal.mulf_def]
  rfl

theorem v215_read (k j : Fin 128) : val_main_v215 (F := Ideal) x6 (ix2 k j) = Spec.rd3 x6 1 k j := by
  rw [val_main_v215_apply, val_main_v214_apply]
  have hk := k.isLt
  have hj := j.isLt
  exact congrArg x6 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem v247_read (n : Fin 100000) (j : Fin 128) : val_main_v247 (F := Ideal) x7 (ix2 n j) = Spec.rd2 x7 1 j := by
  rw [val_main_v247_apply, val_main_v246_apply, val_main_v217_apply, val_main_v216_apply]
  exact congrArg x7 (funext fun a => Fin.ext (by
    match a with
    | ⟨0, _⟩ => rfl
    | ⟨1, _⟩ => exact Nat.mod_eq_of_lt j.isLt))

/-- Relation 1's term of the second layer at (n, j): the aggregate against the relation's weight, plus its bias. -/
theorem v248_read (hs : ∀ (r : Fin 4) (e : Fin 500000), Spec.IsNode (Spec.wd2 x1 r e)) (n : Fin 100000) (j : Fin 128) :
    val_main_v248 (F := Ideal) x0 x1 x2 x3 x4 x5 x6 x7 (ix2 n j) =
      (∑ k : Fin 128, Spec.agg (Spec.rd2 (val_main_v168 (F := Ideal) x0 x1 x2 x3 x4 x5)) (Spec.wd2 x1 1) (Spec.wd2 x2 1) n k *
        Spec.rd3 x6 1 k j) + Spec.rd2 x7 1 j := by
  have hl : ∀ k : Fin 128, lidx_main_v245 (ix2 n j) k = ix2 n k := fun k =>
    funext fun a => Fin.ext (by match a with | ⟨0, _⟩ => rfl | ⟨1, _⟩ => rfl)
  have hr : ∀ k : Fin 128, ridx_main_v245 (ix2 n j) k = ix2 k j := fun k =>
    funext fun a => Fin.ext (by match a with | ⟨0, _⟩ => rfl | ⟨1, _⟩ => rfl)
  rw [val_main_v248_apply, val_main_v245_apply, v247_read, Ideal.addf_def]
  simp only [hl, hr, v244_read x0 x1 x2 x3 x4 x5 hs, v215_read]

/-! ### Relation 2 -/

theorem v251_read (e : Fin 500000) : val_main_v251 (F := Ideal) x1 (ix1 e) = Spec.wd2 x1 2 e := by
  rw [val_main_v251_apply, val_main_v250_apply]
  exact congrArg x1 (funext fun a => Fin.ext (by
    match a with
    | ⟨0, _⟩ => rfl
    | ⟨1, _⟩ => exact Nat.mod_eq_of_lt e.isLt))

theorem v253_read (e : Fin 500000) : val_main_v253 (F := Ideal) x2 (ix1 e) = Spec.wd2 x2 2 e := by
  rw [val_main_v253_apply, val_main_v252_apply]
  exact congrArg x2 (funext fun a => Fin.ext (by
    match a with
    | ⟨0, _⟩ => rfl
    | ⟨1, _⟩ => exact Nat.mod_eq_of_lt e.isLt))

theorem v260_read (e : Fin 500000) : val_main_v260 (F := Ideal) x1 (ix2 e 0) = Spec.wd2 x1 2 e := by
  rw [val_main_v260_apply, ← v251_read x1 e]
  exact congrArg _ (funext fun a => Fin.ext (by match a with | ⟨0, _⟩ => rfl))

theorem v264_read (e : Fin 500000) : val_main_v264 (F := Ideal) x2 (ix2 e 0) = Spec.wd2 x2 2 e := by
  rw [val_main_v264_apply, ← v253_read x2 e]
  exact congrArg _ (funext fun a => Fin.ext (by match a with | ⟨0, _⟩ => rfl))

theorem v279_read (e : Fin 500000) : val_main_v279 (F := Ideal) x2 (ix2 e 0) = Spec.wd2 x2 2 e := by
  rw [val_main_v279_apply, ← v253_read x2 e]
  exact congrArg _ (funext fun a => Fin.ext (by match a with | ⟨0, _⟩ => rfl))

theorem v276_read (hs : ∀ (r : Fin 4) (e : Fin 500000), Spec.IsNode (Spec.wd2 x1 r e)) (e : Fin 500000) :
    val_main_v276 (F := Ideal) x1 (ix2 e 0) = Spec.wd2 x1 2 e := by
  have hi : idx_main_v276 (ix2 e 0) = ix1 e := funext fun a => Fin.ext (by match a with | ⟨0, _⟩ => rfl)
  rw [val_main_v276_apply, hi, val_main_v275_apply, val_main_v272_apply, val_main_v274_apply, val_main_v271_apply,
    val_main_v273_apply, val_main_c_55_apply, val_main_c_56_apply, v251_read]
  exact L2.wrap_node _ (hs 2 e)

theorem v267_read (n : Fin 100000) : val_main_v267 (F := Ideal) x1 (ix1 n) = Spec.deg (Spec.wd2 x1 2) n := by
  rw [val_main_v267_apply, val_main_v262_apply, Ideal.hostUnary_rsqrt_def, Ideal.maximumf_def]
  unfold val_main_v261
  exact L2.deg_read Facts₀.scatter_S100000_S500000x1_S500000_n_0_0_1_wf _ _ _ _ (Spec.wd2 x1 2)
    (fun n => by rw [val_main_v259_apply, val_main_cst_51_apply, Ideal.ofBits_def, Ideal.ofBits_zero_f32])
    (v260_read x1)
    (fun e => by rw [val_main_v258_apply, val_main_cst_50_apply, Ideal.ofBits_def]; rfl)
    (by rw [val_main_call12_v1_apply, val_main_call12_v0_apply, val_main_cst_52_apply, Ideal.ofBits_def]; rfl) n

theorem v281_read (n : Fin 100000) : val_main_v281 (F := Ideal) x2 (ix1 n) = Spec.deg (Spec.wd2 x2 2) n := by
  rw [val_main_v281_apply, val_main_v266_apply, Ideal.hostUnary_rsqrt_def, Ideal.maximumf_def]
  unfold val_main_v265
  exact L2.deg_read Facts₀.scatter_S100000_S500000x1_S500000_n_0_0_1_wf _ _ _ _ (Spec.wd2 x2 2)
    (fun n => by rw [val_main_v263_apply, val_main_cst_53_apply, Ideal.ofBits_def, Ideal.ofBits_zero_f32])
    (v264_read x2)
    (fun e => by rw [val_main_v258_apply, val_main_cst_50_apply, Ideal.ofBits_def]; rfl)
    (by rw [val_main_call13_v1_apply, val_main_call13_v0_apply, val_main_cst_54_apply, Ideal.ofBits_def]; rfl) n

theorem v270_read (n : Fin 100000) (k : Fin 128) :
    val_main_v270 (F := Ideal) x0 x1 x2 x3 x4 x5 (ix2 n k) =
      Spec.rd2 (val_main_v168 (F := Ideal) x0 x1 x2 x3 x4 x5) n k * Spec.deg (Spec.wd2 x1 2) n := by
  have hi : idx_main_v268 (idx_main_v269 (ix2 n k)) = ix1 n := funext fun a => Fin.ext (by match a with | ⟨0, _⟩ => rfl)
  rw [val_main_v270_apply, val_main_v269_apply, val_main_v268_apply, hi, v267_read, Ideal.mulf_def]

theorem v280_read (hs : ∀ (r : Fin 4) (e : Fin 500000), Spec.IsNode (Spec.wd2 x1 r e)) (n : Fin 100000) (k : Fin 128) :
    val_main_v280 (F := Ideal) x0 x1 x2 x3 x4 x5 (ix2 n k) =
      ∑ e : Fin 500000, if Spec.Hits (Spec.wd2 x2 2) e n then
        Spec.rd2 (val_main_v168 (F := Ideal) x0 x1 x2 x3 x4 x5) (Spec.node (Spec.wd2 x1 2 e)) k *
          Spec.deg (Spec.wd2 x1 2) (Spec.node (Spec.wd2 x1 2 e)) else 0 := by
  unfold val_main_v280 val_main_v277
  exact L2.agg_read Facts₀.gather_S100000x128_S500000x1_S500000x128_1_0_n_n_0_1_1128_wf
    Facts₀.scatter_S100000x128_S500000x1_S500000x128_1_0_0_1_wf
    (Spec.rd2 (val_main_v168 (F := Ideal) x0 x1 x2 x3 x4 x5)) (Spec.deg (Spec.wd2 x1 2)) (Spec.wd2 x1 2) (Spec.wd2 x2 2)
    _ _ _ _ (v270_read x0 x1 x2 x3 x4 x5) (v276_read x1 hs) (v279_read x2)
    (fun n k => by rw [val_main_v278_apply, val_main_cst_57_apply, Ideal.ofBits_def, Ideal.ofBits_zero_f32])
    (hs 2) n k

theorem v284_read (hs : ∀ (r : Fin 4) (e : Fin 500000), Spec.IsNode (Spec.wd2 x1 r e)) (n : Fin 100000) (k : Fin 128) :
    val_main_v284 (F := Ideal) x0 x1 x2 x3 x4 x5 (ix2 n k) =
      Spec.agg (Spec.rd2 (val_main_v168 (F := Ideal) x0 x1 x2 x3 x4 x5)) (Spec.wd2 x1 2) (Spec.wd2 x2 2) n k := by
  have hi : idx_main_v282 (idx_main_v283 (ix2 n k)) = ix1 n := funext fun a => Fin.ext (by match a with | ⟨0, _⟩ => rfl)
  rw [val_main_v284_apply, val_main_v283_apply, val_main_v282_apply, hi, v281_read, v280_read x0 x1 x2 x3 x4 x5 hs,
    Ideal.mulf_def]
  rfl

theorem v255_read (k j : Fin 128) : val_main_v255 (F := Ideal) x6 (ix2 k j) = Spec.rd3 x6 2 k j := by
  rw [val_main_v255_apply, val_main_v254_apply]
  have hk := k.isLt
  have hj := j.isLt
  exact congrArg x6 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem v287_read (n : Fin 100000) (j : Fin 128) : val_main_v287 (F := Ideal) x7 (ix2 n j) = Spec.rd2 x7 2 j := by
  rw [val_main_v287_apply, val_main_v286_apply, val_main_v257_apply, val_main_v256_apply]
  exact congrArg x7 (funext fun a => Fin.ext (by
    match a with
    | ⟨0, _⟩ => rfl
    | ⟨1, _⟩ => exact Nat.mod_eq_of_lt j.isLt))

/-- Relation 2's term of the second layer at (n, j): the aggregate against the relation's weight, plus its bias. -/
theorem v288_read (hs : ∀ (r : Fin 4) (e : Fin 500000), Spec.IsNode (Spec.wd2 x1 r e)) (n : Fin 100000) (j : Fin 128) :
    val_main_v288 (F := Ideal) x0 x1 x2 x3 x4 x5 x6 x7 (ix2 n j) =
      (∑ k : Fin 128, Spec.agg (Spec.rd2 (val_main_v168 (F := Ideal) x0 x1 x2 x3 x4 x5)) (Spec.wd2 x1 2) (Spec.wd2 x2 2) n k *
        Spec.rd3 x6 2 k j) + Spec.rd2 x7 2 j := by
  have hl : ∀ k : Fin 128, lidx_main_v285 (ix2 n j) k = ix2 n k := fun k =>
    funext fun a => Fin.ext (by match a with | ⟨0, _⟩ => rfl | ⟨1, _⟩ => rfl)
  have hr : ∀ k : Fin 128, ridx_main_v285 (ix2 n j) k = ix2 k j := fun k =>
    funext fun a => Fin.ext (by match a with | ⟨0, _⟩ => rfl | ⟨1, _⟩ => rfl)
  rw [val_main_v288_apply, val_main_v285_apply, v287_read, Ideal.addf_def]
  simp only [hl, hr, v284_read x0 x1 x2 x3 x4 x5 hs, v255_read]

/-! ### Relation 3 -/

theorem v291_read (e : Fin 500000) : val_main_v291 (F := Ideal) x1 (ix1 e) = Spec.wd2 x1 3 e := by
  rw [val_main_v291_apply, val_main_v290_apply]
  exact congrArg x1 (funext fun a => Fin.ext (by
    match a with
    | ⟨0, _⟩ => rfl
    | ⟨1, _⟩ => exact Nat.mod_eq_of_lt e.isLt))

theorem v293_read (e : Fin 500000) : val_main_v293 (F := Ideal) x2 (ix1 e) = Spec.wd2 x2 3 e := by
  rw [val_main_v293_apply, val_main_v292_apply]
  exact congrArg x2 (funext fun a => Fin.ext (by
    match a with
    | ⟨0, _⟩ => rfl
    | ⟨1, _⟩ => exact Nat.mod_eq_of_lt e.isLt))

theorem v300_read (e : Fin 500000) : val_main_v300 (F := Ideal) x1 (ix2 e 0) = Spec.wd2 x1 3 e := by
  rw [val_main_v300_apply, ← v291_read x1 e]
  exact congrArg _ (funext fun a => Fin.ext (by match a with | ⟨0, _⟩ => rfl))

theorem v304_read (e : Fin 500000) : val_main_v304 (F := Ideal) x2 (ix2 e 0) = Spec.wd2 x2 3 e := by
  rw [val_main_v304_apply, ← v293_read x2 e]
  exact congrArg _ (funext fun a => Fin.ext (by match a with | ⟨0, _⟩ => rfl))

theorem v319_read (e : Fin 500000) : val_main_v319 (F := Ideal) x2 (ix2 e 0) = Spec.wd2 x2 3 e := by
  rw [val_main_v319_apply, ← v293_read x2 e]
  exact congrArg _ (funext fun a => Fin.ext (by match a with | ⟨0, _⟩ => rfl))

theorem v316_read (hs : ∀ (r : Fin 4) (e : Fin 500000), Spec.IsNode (Spec.wd2 x1 r e)) (e : Fin 500000) :
    val_main_v316 (F := Ideal) x1 (ix2 e 0) = Spec.wd2 x1 3 e := by
  have hi : idx_main_v316 (ix2 e 0) = ix1 e := funext fun a => Fin.ext (by match a with | ⟨0, _⟩ => rfl)
  rw [val_main_v316_apply, hi, val_main_v315_apply, val_main_v312_apply, val_main_v314_apply, val_main_v311_apply,
    val_main_v313_apply, val_main_c_63_apply, val_main_c_64_apply, v291_read]
  exact L2.wrap_node _ (hs 3 e)

theorem v307_read (n : Fin 100000) : val_main_v307 (F := Ideal) x1 (ix1 n) = Spec.deg (Spec.wd2 x1 3) n := by
  rw [val_main_v307_apply, val_main_v302_apply, Ideal.hostUnary_rsqrt_def, Ideal.maximumf_def]
  unfold val_main_v301
  exact L2.deg_read Facts₀.scatter_S100000_S500000x1_S500000_n_0_0_1_wf _ _ _ _ (Spec.wd2 x1 3)
    (fun n => by rw [val_main_v299_apply, val_main_cst_59_apply, Ideal.ofBits_def, Ideal.ofBits_zero_f32])
    (v300_read x1)
    (fun e => by rw [val_main_v298_apply, val_main_cst_58_apply, Ideal.ofBits_def]; rfl)
    (by rw [val_main_call14_v1_apply, val_main_call14_v0_apply, val_main_cst_60_apply, Ideal.ofBits_def]; rfl) n

theorem v321_read (n : Fin 100000) : val_main_v321 (F := Ideal) x2 (ix1 n) = Spec.deg (Spec.wd2 x2 3) n := by
  rw [val_main_v321_apply, val_main_v306_apply, Ideal.hostUnary_rsqrt_def, Ideal.maximumf_def]
  unfold val_main_v305
  exact L2.deg_read Facts₀.scatter_S100000_S500000x1_S500000_n_0_0_1_wf _ _ _ _ (Spec.wd2 x2 3)
    (fun n => by rw [val_main_v303_apply, val_main_cst_61_apply, Ideal.ofBits_def, Ideal.ofBits_zero_f32])
    (v304_read x2)
    (fun e => by rw [val_main_v298_apply, val_main_cst_58_apply, Ideal.ofBits_def]; rfl)
    (by rw [val_main_call15_v1_apply, val_main_call15_v0_apply, val_main_cst_62_apply, Ideal.ofBits_def]; rfl) n

theorem v310_read (n : Fin 100000) (k : Fin 128) :
    val_main_v310 (F := Ideal) x0 x1 x2 x3 x4 x5 (ix2 n k) =
      Spec.rd2 (val_main_v168 (F := Ideal) x0 x1 x2 x3 x4 x5) n k * Spec.deg (Spec.wd2 x1 3) n := by
  have hi : idx_main_v308 (idx_main_v309 (ix2 n k)) = ix1 n := funext fun a => Fin.ext (by match a with | ⟨0, _⟩ => rfl)
  rw [val_main_v310_apply, val_main_v309_apply, val_main_v308_apply, hi, v307_read, Ideal.mulf_def]

theorem v320_read (hs : ∀ (r : Fin 4) (e : Fin 500000), Spec.IsNode (Spec.wd2 x1 r e)) (n : Fin 100000) (k : Fin 128) :
    val_main_v320 (F := Ideal) x0 x1 x2 x3 x4 x5 (ix2 n k) =
      ∑ e : Fin 500000, if Spec.Hits (Spec.wd2 x2 3) e n then
        Spec.rd2 (val_main_v168 (F := Ideal) x0 x1 x2 x3 x4 x5) (Spec.node (Spec.wd2 x1 3 e)) k *
          Spec.deg (Spec.wd2 x1 3) (Spec.node (Spec.wd2 x1 3 e)) else 0 := by
  unfold val_main_v320 val_main_v317
  exact L2.agg_read Facts₀.gather_S100000x128_S500000x1_S500000x128_1_0_n_n_0_1_1128_wf
    Facts₀.scatter_S100000x128_S500000x1_S500000x128_1_0_0_1_wf
    (Spec.rd2 (val_main_v168 (F := Ideal) x0 x1 x2 x3 x4 x5)) (Spec.deg (Spec.wd2 x1 3)) (Spec.wd2 x1 3) (Spec.wd2 x2 3)
    _ _ _ _ (v310_read x0 x1 x2 x3 x4 x5) (v316_read x1 hs) (v319_read x2)
    (fun n k => by rw [val_main_v318_apply, val_main_cst_65_apply, Ideal.ofBits_def, Ideal.ofBits_zero_f32])
    (hs 3) n k

theorem v324_read (hs : ∀ (r : Fin 4) (e : Fin 500000), Spec.IsNode (Spec.wd2 x1 r e)) (n : Fin 100000) (k : Fin 128) :
    val_main_v324 (F := Ideal) x0 x1 x2 x3 x4 x5 (ix2 n k) =
      Spec.agg (Spec.rd2 (val_main_v168 (F := Ideal) x0 x1 x2 x3 x4 x5)) (Spec.wd2 x1 3) (Spec.wd2 x2 3) n k := by
  have hi : idx_main_v322 (idx_main_v323 (ix2 n k)) = ix1 n := funext fun a => Fin.ext (by match a with | ⟨0, _⟩ => rfl)
  rw [val_main_v324_apply, val_main_v323_apply, val_main_v322_apply, hi, v321_read, v320_read x0 x1 x2 x3 x4 x5 hs,
    Ideal.mulf_def]
  rfl

theorem v295_read (k j : Fin 128) : val_main_v295 (F := Ideal) x6 (ix2 k j) = Spec.rd3 x6 3 k j := by
  rw [val_main_v295_apply, val_main_v294_apply]
  have hk := k.isLt
  have hj := j.isLt
  exact congrArg x6 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem v327_read (n : Fin 100000) (j : Fin 128) : val_main_v327 (F := Ideal) x7 (ix2 n j) = Spec.rd2 x7 3 j := by
  rw [val_main_v327_apply, val_main_v326_apply, val_main_v297_apply, val_main_v296_apply]
  exact congrArg x7 (funext fun a => Fin.ext (by
    match a with
    | ⟨0, _⟩ => rfl
    | ⟨1, _⟩ => exact Nat.mod_eq_of_lt j.isLt))

/-- Relation 3's term of the second layer at (n, j): the aggregate against the relation's weight, plus its bias. -/
theorem v328_read (hs : ∀ (r : Fin 4) (e : Fin 500000), Spec.IsNode (Spec.wd2 x1 r e)) (n : Fin 100000) (j : Fin 128) :
    val_main_v328 (F := Ideal) x0 x1 x2 x3 x4 x5 x6 x7 (ix2 n j) =
      (∑ k : Fin 128, Spec.agg (Spec.rd2 (val_main_v168 (F := Ideal) x0 x1 x2 x3 x4 x5)) (Spec.wd2 x1 3) (Spec.wd2 x2 3) n k *
        Spec.rd3 x6 3 k j) + Spec.rd2 x7 3 j := by
  have hl : ∀ k : Fin 128, lidx_main_v325 (ix2 n j) k = ix2 n k := fun k =>
    funext fun a => Fin.ext (by match a with | ⟨0, _⟩ => rfl | ⟨1, _⟩ => rfl)
  have hr : ∀ k : Fin 128, ridx_main_v325 (ix2 n j) k = ix2 k j := fun k =>
    funext fun a => Fin.ext (by match a with | ⟨0, _⟩ => rfl | ⟨1, _⟩ => rfl)
  rw [val_main_v328_apply, val_main_v325_apply, v327_read, Ideal.addf_def]
  simp only [hl, hr, v324_read x0 x1 x2 x3 x4 x5 hs, v295_read]

end L2

/-- The reference's result is the aggregate-first layer of its hidden features. -/
theorem out_R (hs : ∀ (r : Fin 4) (e : Fin 500000), Spec.IsNode (Spec.wd2 x1 r e)) (n : Fin 100000) (j : Fin 128) :
    Spec.rd2 (val_main_v329 (F := Ideal) x0 x1 x2 x3 x4 x5 x6 x7) n j =
      Spec.layerR (Spec.rd2 (val_main_v168 (F := Ideal) x0 x1 x2 x3 x4 x5)) (Spec.rd3 x6) (Spec.rd2 x7) (Spec.wd2 x1) (Spec.wd2 x2) n j := by
  show val_main_v329 (F := Ideal) x0 x1 x2 x3 x4 x5 x6 x7 (ix2 n j) = _
  rw [val_main_v329_apply, val_main_v289_apply, val_main_v249_apply, val_main_v209_apply, val_main_v208_apply,
    val_main_cst_41_apply, L2.v207_read x0 x1 x2 x3 x4 x5 x6 x7 hs, L2.v248_read x0 x1 x2 x3 x4 x5 x6 x7 hs,
    L2.v288_read x0 x1 x2 x3 x4 x5 x6 x7 hs, L2.v328_read x0 x1 x2 x3 x4 x5 x6 x7 hs]
  simp only [Ideal.addf_def, Ideal.ofBits_def, Ideal.ofBits_zero_f32, zero_add]
  unfold Spec.layerR
  rw [Fin.sum_univ_four]

end Cert.ReferenceIdeal.RV

end
-- ==== Proof.RValue.lean ====
/-
  The reference's last stage, element by element, as the aggregate-first network of the inputs: the last stage is the
  second layer of the hidden-feature stage; the hidden-feature stage is tanh of the first layer of the looked-up features.
-/
import proofs.«420714_j25331717112057_2_alg».proof.Proof.RLayer1
import proofs.«420714_j25331717112057_2_alg».proof.Proof.RLayer2

noncomputable section

open scoped BigOperators

namespace Cert.ReferenceIdeal.RV

open Idealize.ShloMosaic Idealize.ShloMosaic.TcCoe Idealize.ShloMosaic.ValueIdx Idealize.SL.Sem
open Cert.ReferenceIdeal Cert.ReferenceIdeal.Read

variable (m : (ℓ : Loc nD τ sig) → Buf (Elt Ideal) ℓ)

/-- The inputs, read off the launch memory of core c. -/
def inputs (c : Dev nD) : Spec.Inputs :=
  Spec.Inputs.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The last stage holds the aggregate-first network of the inputs. -/
theorem result (c : Dev nD) (hg : (inputs m c).Good) (n : Fin 100000) (j : Fin 128) :
    Spec.rd2 (val_main_v329 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) n j = Spec.outR (inputs m c) n j := by
  rw [out_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) hg.src n j]
  have hh : Spec.rd2 (val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = Spec.hidR (inputs m c) := by
    funext i k
    rw [hid_R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hg.inp hg.src i k]
    rfl
  rw [hh]
  rfl

end Cert.ReferenceIdeal.RV

end
-- ==== Proof.Algebra.lean ====
/-
  The two arrangements of the graph convolution agree on real inputs.

  For one relation, at node n and column j, the weight-first arrangement is
      (sum over the edges e into n of (sum over k of x(src e, k) w(k, j)) go(src e)) gi(n)
  and the aggregate-first arrangement is
      sum over k of ((sum over the edges e into n of x(src e, k) go(src e)) gi(n)) w(k, j).
  Over the reals both are the double sum of x(src e, k) go(src e) gi(n) w(k, j): a finite sum commutes with a product
  by a constant and two finite sums may be exchanged. Every quantity is a real number — features, weights and biases by
  hypothesis, a degree factor because it is the reciprocal square root of a count that is at least 1, the hidden features
  because tanh of a real is real — so the computation may be carried out in the reals and read back in the extended reals.
-/
import proofs.«420714_j25331717112057_2_alg».proof.Proof.Spec
import Mathlib.Algebra.BigOperators.Ring.Finset
import Mathlib.Analysis.Real.Sqrt

noncomputable section

open scoped BigOperators

namespace Cert.Spec

open Idealize.ShloMosaic

/-- The float 1.0 is the real number 1. -/
private theorem one_eq : one = ((1 : ℝ) : EReal) := by
  simp [one, Ideal.ofBits, Ideal.ieee]
  rw [← EReal.coe_mul, ← EReal.coe_one, EReal.coe_eq_coe_iff]
  norm_num

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a real and zero, coerced. -/
private theorem coe_ite (c : Prop) [Decidable c] (a : ℝ) :
    ((if c then a else 0 : ℝ) : EReal) = if c then (a : EReal) else 0 := by
  split <;> simp

/-- The larger of two reals, coerced. -/
private theorem coe_max (a b : ℝ) : ((max a b : ℝ) : EReal) = max (a : EReal) (b : EReal) :=
  EReal.coe_strictMono.monotone.map_max

/-- A degree factor is a real number. -/
private theorem deg_real (ids : Fin 500000 → BitVec 32) (n : Fin 100000) : ∃ g : ℝ, deg ids n = (g : EReal) := by
  refine ⟨(Real.sqrt (max 1 (∑ e : Fin 500000, if Hits ids e n then (1 : ℝ) else 0)))⁻¹, ?_⟩
  have hpos : (0 : ℝ) < max 1 (∑ e : Fin 500000, if Hits ids e n then (1 : ℝ) else 0) :=
    lt_of_lt_of_le one_pos (le_max_left _ _)
  unfold deg
  rw [one_eq]
  simp only [← coe_ite, ← coe_sum, ← coe_max]
  rw [Ideal.rsqrt_coe, if_neg (not_lt.mpr hpos.le), if_neg hpos.ne']

/-- For one relation over the reals: weighting at the source and summing over the edges into a node is summing over
    the edges first and weighting afterwards. -/
private theorem sum_swap {E K : Type*} [Fintype E] [Fintype K] (H : E → Prop) [DecidablePred H] (X : E → K → ℝ)
    (Wt : K → ℝ) (G : E → ℝ) (D : ℝ) :
    (∑ e : E, if H e then (∑ k : K, X e k * Wt k) * G e else 0) * D
      = ∑ k : K, ((∑ e : E, if H e then X e k * G e else 0) * D) * Wt k := by
  simp only [Finset.sum_mul]
  rw [Finset.sum_comm]
  refine Finset.sum_congr rfl fun e _ => ?_
  by_cases hh : H e
  · simp only [if_pos hh, Finset.sum_mul]
    exact Finset.sum_congr rfl fun k _ => by ring
  · simp only [if_neg hh, zero_mul, Finset.sum_const_zero]

/-- One layer over real data: the two arrangements agree, and the common value is a real number. -/
private theorem layer_real (x : Fin 100000 → Fin 128 → EReal) (W : Fin 4 → Fin 128 → Fin 128 → EReal)
    (b : Fin 4 → Fin 128 → EReal) (s d : Fin 4 → Fin 500000 → BitVec 32)
    (hx : ∀ i k, ∃ r : ℝ, x i k = (r : EReal)) (hW : ∀ r k j, ∃ y : ℝ, W r k j = (y : EReal))
    (hb : ∀ r j, ∃ y : ℝ, b r j = (y : EReal)) (n : Fin 100000) (j : Fin 128) :
    layerK x W b s d n j = layerR x W b s d n j ∧ ∃ y : ℝ, layerR x W b s d n j = (y : EReal) := by
  choose x' hx using hx
  choose W' hW using hW
  choose b' hb using hb
  choose gs hgs using fun r i => deg_real (s r) i
  choose gd hgd using fun r i => deg_real (d r) i
  have hK : layerK x W b s d n j =
      (((∑ r : Fin 4, (∑ e : Fin 500000, if Hits (d r) e n then
          (∑ k : Fin 128, x' (node (s r e)) k * W' r k j) * gs r (node (s r e)) else 0) * gd r n)
        + ∑ r : Fin 4, b' r j : ℝ) : EReal) := by
    simp only [layerK, agg, aggG, xw, hx, hW, hb, hgs, hgd, coe_sum, EReal.coe_add, EReal.coe_mul, coe_ite]
  have hR : layerR x W b s d n j =
      ((∑ r : Fin 4, ((∑ k : Fin 128, ((∑ e : Fin 500000, if Hits (d r) e n then
          x' (node (s r e)) k * gs r (node (s r e)) else 0) * gd r n) * W' r k j) + b' r j) : ℝ) : EReal) := by
    simp only [layerR, agg, aggG, hx, hW, hb, hgs, hgd, coe_sum, EReal.coe_add, EReal.coe_mul, coe_ite]
  refine ⟨?_, _, hR⟩
  have key : ∀ r : Fin 4,
      (∑ e : Fin 500000, if Hits (d r) e n then
          (∑ k : Fin 128, x' (node (s r e)) k * W' r k j) * gs r (node (s r e)) else 0) * gd r n
        = ∑ k : Fin 128, ((∑ e : Fin 500000, if Hits (d r) e n then
          x' (node (s r e)) k * gs r (node (s r e)) else 0) * gd r n) * W' r k j := fun r =>
    sum_swap (fun e => Hits (d r) e n) (fun e k => x' (node (s r e)) k) (fun k => W' r k j)
      (fun e => gs r (node (s r e))) (gd r n)
  rw [hK, hR, Finset.sum_add_distrib]
  simp only [key]

/-- On good inputs the weight-first and the aggregate-first network have the same result, element by element. -/
theorem outK_eq_outR (I : Inputs) (h : I.Good) (n : Fin 100000) (j : Fin 128) : outK I n j = outR I n j := by
  have hfeat : ∀ i k, ∃ r : ℝ, feat I i k = (r : EReal) := fun i k => h.emb _ k
  have hhid : ∀ i k, hidK I i k = hidR I i k := fun i k => by
    unfold hidK hidR
    rw [(layer_real (feat I) I.W1 I.b1 I.src I.dst hfeat h.W1 h.b1 i k).1]
  have hhidR : ∀ i k, ∃ r : ℝ, hidR I i k = (r : EReal) := fun i k => by
    obtain ⟨y, hy⟩ := (layer_real (feat I) I.W1 I.b1 I.src I.dst hfeat h.W1 h.b1 i k).2
    exact ⟨Real.tanh y, by unfold hidR; rw [hy, Ideal.tanh_coe]⟩
  have hfun : hidK I = hidR I := funext fun i => funext fun k => hhid i k
  unfold outK outR
  rw [hfun]
  exact (layer_real (hidR I) I.W2 I.b2 I.src I.dst hhidR h.W2 h.b2 n j).1

end Cert.Spec

end
-- ==== Proof.PreDecode.lean ====
/-
  What the precondition says of the inputs: every float entry is a real number (its absolute value is below +inf), and
  every entry of the node-index input and of the edge sources is a node id (at least 0 and below 100000, read signed).
-/
import proofs.«420714_j25331717112057_2_alg».proof.Pre_finite_inputs
import proofs.«420714_j25331717112057_2_alg».proof.Proof.Gen.Pre_finite_inputs
import proofs.«420714_j25331717112057_2_alg».proof.Proof.Spec
import Idealize.ShloMosaic.Lib.ReduceAll
import Idealize.ShloMosaic.Lib.StableHlo.Predicate
import Idealize.ShloMosaic.PureOps.Ideal.Laws

noncomputable section

namespace Cert.PreDecode

open Idealize.ShloMosaic Idealize.ShloMosaic.ValueIdx Cert.Spec

/-- The scalar shape has one index. -/
private instance : Subsingleton (⟨0, ![]⟩ : Shape).Idx := ⟨fun _ _ => funext fun d => d.elim0⟩

/-- An extended real whose absolute value tests below +inf is a real number. -/
private theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  have h' : BitVec.ofBool (decide (max x (-x) < Ideal.ofBits .f32 0x7F800000#32)) = 1#1 := h
  rw [htop, StableHlo.Predicate.ofBool_eq_one_iff, decide_eq_true_eq] at h'
  induction x using EReal.rec with
  | bot => simp at h'
  | coe r => exact ⟨r, rfl⟩
  | top => simp at h'

/-- "All of |x| < +inf" being 1: every entry of x is a real number. -/
private theorem real_of_all {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (x : FVec Ideal s .f32)
    (h : Host.reduce IntOp.andi (cmpf .olt (Host.absf x) (broadcastInDim s ![] hb (constant ⟨0, ![]⟩ .f32 0x7F800000#32)))
      (constantI ⟨0, ![]⟩ 1 1#1) hr h0 ix0 = 1#1) (i : s.Idx) : ∃ r : ℝ, x i = (r : EReal) :=
  real_of_abs_lt (x i) (Host.reduce_andi_all _ _ hr h0 ix0 h i)

/-- "All of x ≥ 0" being 1: every entry of x, read signed, is at least 0. -/
private theorem nonneg_of_all {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (x : IVec s 32)
    (h : Host.reduce IntOp.andi (cmpi .sge x (broadcastInDim s ![] hb (constantI ⟨0, ![]⟩ 32 0#32)))
      (constantI ⟨0, ![]⟩ 1 1#1) hr h0 ix0 = 1#1) (i : s.Idx) : 0 ≤ (x i).toInt := by
  have e : IntOp.cmpi .sge (x i) 0#32 = 1#1 := Host.reduce_andi_all _ _ hr h0 ix0 h i
  have := IntOp.cmpi_sge.1 e
  rwa [show (0#32 : BitVec 32).toInt = 0 from by decide] at this

/-- "All of x < 100000" being 1: every entry of x, read signed, is below 100000. -/
private theorem lt_of_all {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (x : IVec s 32)
    (h : Host.reduce IntOp.andi (cmpi .slt x (broadcastInDim s ![] hb (constantI ⟨0, ![]⟩ 32 100000#32)))
      (constantI ⟨0, ![]⟩ 1 1#1) hr h0 ix0 = 1#1) (i : s.Idx) : (x i).toInt < 100000 := by
  have e : IntOp.cmpi .slt (x i) 100000#32 = 1#1 := Host.reduce_andi_all _ _ hr h0 ix0 h i
  have := IntOp.cmpi_slt.1 e
  rwa [show (100000#32 : BitVec 32).toInt = 100000 from by decide] at this

/-- From the printed precondition, all ones, to the inputs being good. -/
theorem good_of_pre (a0 : IVec ⟨1, ![100000]⟩ 32) (a1 a2 : IVec ⟨2, ![4, 500000]⟩ 32)
    (a3 : FVec Ideal ⟨2, ![100000, 128]⟩ .f32) (a4 : FVec Ideal ⟨3, ![4, 128, 128]⟩ .f32) (a5 : FVec Ideal ⟨2, ![4, 128]⟩ .f32)
    (a6 : FVec Ideal ⟨3, ![4, 128, 128]⟩ .f32) (a7 : FVec Ideal ⟨2, ![4, 128]⟩ .f32)
    (h : Cert.Pre_finite_inputs.fn (F := Ideal) a0 a1 a2 a3 a4 a5 a6 a7 = fun _ => 1#1) :
    (Inputs.of a0 a1 a2 a3 a4 a5 a6 a7).Good := by
  have h39 := congrFun h ix0
  dsimp only [Cert.Pre_finite_inputs.fn, Cert.Pre_finite_inputs.fn_part1, Cert.Pre_finite_inputs.fn_part2] at h39
  obtain ⟨h35, h38⟩ := IntOp.andi_eq_one.1 h39
  obtain ⟨h31, h34⟩ := IntOp.andi_eq_one.1 h35
  obtain ⟨h27, h30⟩ := IntOp.andi_eq_one.1 h31
  obtain ⟨h23, h26⟩ := IntOp.andi_eq_one.1 h27
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact
    { inp := fun n => ⟨nonneg_of_all _ _ _ a0 h26 (ix1 n), lt_of_all _ _ _ a0 h30 (ix1 n)⟩
      src := fun r e => ⟨nonneg_of_all _ _ _ a1 h34 (ix2 r e), lt_of_all _ _ _ a1 h38 (ix2 r e)⟩
      emb := fun n k => real_of_all _ _ _ a3 h3 (ix2 n k)
      W1 := fun r k j => real_of_all _ _ _ a4 h7 (ix3 r k j)
      b1 := fun r j => real_of_all _ _ _ a5 h12 (ix2 r j)
      W2 := fun r k j => real_of_all _ _ _ a6 h17 (ix3 r k j)
      b2 := fun r j => real_of_all _ _ _ a7 h22 (ix2 r j) }

end Cert.PreDecode

end
-- ==== Proof.Bridge.lean ====
/-
  The two results agree. Under the precondition the kernel's inputs are good (every index a node id, every float a
  real); from memories agreeing on the arguments the reference reads the same inputs; the kernel's result buffer holds
  the weight-first network of them, the reference's last stage the aggregate-first network, and on good inputs the two
  networks are equal element by element.
-/
import proofs.«420714_j25331717112057_2_alg».proof.Defs
import proofs.«420714_j25331717112057_2_alg».proof.Proof.KValue
import proofs.«420714_j25331717112057_2_alg».proof.Proof.RValue
import proofs.«420714_j25331717112057_2_alg».proof.Proof.Algebra
import proofs.«420714_j25331717112057_2_alg».proof.Proof.PreDecode

noncomputable section

namespace Cert.Bridge

open Idealize.ShloMosaic Idealize.ShloMosaic.ValueIdx Idealize.SL.Sem

/-- The kernel's inputs are good under the precondition. -/
theorem good_K (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.KV.inputs m c).Good :=
  Cert.PreDecode.good_of_pre _ _ _ _ _ _ _ _ (hpre c)

/-- The reference's last stage, of a memory agreeing with the kernel's on the arguments, is the kernel's result buffer. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Read.val_main_v329 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = Cert.KernelIdeal.Gen.W48 m ρ c (Proc.devRef .tc Cert.KernelIdeal.main_v201) := by
  have hg : (Cert.KernelIdeal.KV.inputs m c).Good := good_K m hpre c
  have hin : Cert.ReferenceIdeal.RV.inputs m' c = Cert.KernelIdeal.KV.inputs m c := by
    unfold Cert.ReferenceIdeal.RV.inputs Cert.KernelIdeal.KV.inputs
    rw [h0, h1, h2, h3, h4, h5, h6, h7]
  funext i
  obtain ⟨n, j, rfl⟩ : ∃ (n : Fin 100000) (j : Fin 128), i = ix2 n j := ⟨i 0, i 1, eq_ix2 i⟩
  have hR := Cert.ReferenceIdeal.RV.result m' c (hin ▸ hg) n j
  have hK := Cert.KernelIdeal.KV.result m ρ c hg n j
  rw [hin] at hR
  exact hR.trans ((Cert.Spec.outK_eq_outR _ hg n j).symm.trans hK.symm)

end Cert.Bridge

end
-- ==== Proof.lean ====
/-
  A two-layer relational graph convolution (100000 nodes, 4 relations of 500000 edges, 128 features): the kernel applies
  each relation's weight to the node features first (a matrix product per row tile), gathers the weighted rows by edge
  source, scales them by the source's out-degree factor, sums them by edge destination, scales by the destination's
  in-degree factor, and adds the four relations and the summed biases in a second pass (with tanh after the first
  layer); the reference aggregates the scaled features first and applies the weight and the bias afterwards.

  Under the precondition every feature, weight and bias is a real number and every node index and edge source is a
  node id. On node ids the kernel's fill-mode lookups and the reference's clamping lookups both read the addressed
  row. Over the reals a finite sum commutes with a product by a constant, so the weight may be applied before or after
  the aggregation; the degree factors are reals because each is the reciprocal square root of a count of at least 1,
  and the hidden features are reals because tanh of a real is real. Hence the two results agree element by element.

  The three frames: the kernel's two are its generated frame certificates; the reference's is its run with the
  result dropped. The idealization rewrote nothing, so it is preserved trivially.
-/
import proofs.«420714_j25331717112057_2_alg».proof.Defs
import proofs.«420714_j25331717112057_2_alg».proof.Proof.Gen.Kernel.Frame
import proofs.«420714_j25331717112057_2_alg».proof.Proof.Gen.KernelIdeal.Frame
import proofs.«420714_j25331717112057_2_alg».proof.Proof.Gen.Pre_finite_inputs
import proofs.«420714_j25331717112057_2_alg».proof.Proof.KRun
import proofs.«420714_j25331717112057_2_alg».proof.Proof.Bridge
import proofs.«420714_j25331717112057_2_alg».proof.Proof.RunP
import proofs.«420714_j25331717112057_2_alg».proof.Proof.ReadEqP
import Idealize.ShloMosaic.Adequacy
import Idealize.ShloMosaic.Init

noncomputable section

namespace Cert.Proof

open Idealize.ShloMosaic Idealize.ShloMosaic.ValueIdx Idealize.SL.Sem

/-- From memories agreeing on the arguments, both programs end with the same result: the kernel's run ends with its result
    buffer at the last segment boundary's contents, the reference's run with its result at its last stage, and under the
    precondition the two are the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W48 m ρ c (Proc.devRef .tc Cert.KernelIdeal.main_v201), Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v329_eq (F := Ideal) m' c]
  exact Cert.Bridge.result_eq m ρ m' hpre c (hagree c).1 (hagree c).2.1 (hagree c).2.2.1 (hagree c).2.2.2.1 (hagree c).2.2.2.2.1
    (hagree c).2.2.2.2.2.1 (hagree c).2.2.2.2.2.2.1 (hagree c).2.2.2.2.2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
